-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "eps_sq" .f32 0x179ABE15#32 ((5316911940649 / 5316911983139663491615228241121378304 : ℝ) : EReal)
  ∧ IdealRules.named_const.Statement Cert.KernelIdeal.κ "eps_sq" .f32 0x179ABE15#32 ((5316911940649 / 5316911983139663491615228241121378304 : ℝ) : EReal)
  ∧ IdealRules.named_const.Statement Cert.KernelIdeal.κ "neg_fill" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S2048 : Shape := ⟨1, ![2048]⟩
abbrev S50000x512 : Shape := ⟨2, ![50000, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S50000x512 : S_.BroadcastsInDim S50000x512 (![] : Fin 0 → Fin S50000x512.rank)
  reducesTo_S50000x512_S_d0_1 : S50000x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2048x512 .f32) (main_arg1 : IVec S2048 32) (main_arg2 : FVec F S50000x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S50000x512 .f32 := Host.absf main_arg2
  let main_cst_0 : FVec F S_ .f32 := constant S_ .f32 0x7F800000#32
  let main_v5 : FVec F S50000x512 .f32 := broadcastInDim S50000x512 ![] bcast_S_S50000x512 main_cst_0
  let main_v6 : IVec S50000x512 1 := cmpf .olt main_v4 main_v5
  let main_c_1 : IVec S_ 1 := constantI S_ 1 1#1
  let main_v7 : IVec S_ 1 := (fun x v => Host.reduce IntOp.andi x v reducesTo_S50000x512_S_d0_1 h_S_) main_v6 main_c_1
  let main_v8 : IVec S_ 1 := andi main_v3 main_v7
  let main_c_2 : IVec S_ 32 := constantI S_ 32 0#32
  let main_v9 : IVec S2048 32 := broadcastInDim S2048 ![] bcast_S_S2048 main_c_2
  let main_v10 : IVec S2048 1 := cmpi .sge main_arg1 main_v9
  let main_c_3 : IVec S_ 1 := constantI S_ 1 1#1
  let main_v11 : IVec S_ 1 := (fun x v => Host.reduce IntOp.andi x v reducesTo_S2048_S_d0 h_S_) main_v10 main_c_3
  let main_v12 : IVec S_ 1 := andi main_v8 main_v11
  let main_c_4 : IVec S_ 32 := constantI S_ 32 50000#32
  let main_v13 : IVec S2048 32 := broadcastInDim S2048 ![] bcast_S_S2048 main_c_4
  let main_v14 : IVec S2048 1 := cmpi .slt main_arg1 main_v13
  let main_c_5 : IVec S_ 1 := constantI S_ 1 1#1
  let main_v15 : IVec S_ 1 := (fun x v => Host.reduce IntOp.andi x v reducesTo_S2048_S_d0 h_S_) main_v14 main_c_5
  fn_part1 (F := F) main_v12 main_v15
-- ==== Kernel.lean ====
abbrev S2048x512 : Shape := ⟨2, ![2048, 512]⟩
abbrev S2048 : Shape := ⟨1, ![2048]⟩
abbrev S50000x512 : Shape := ⟨2, ![50000, 512]⟩
abbrev S2048x1 : Shape := ⟨2, ![2048, 1]⟩
abbrev S2048x50000 : Shape := ⟨2, ![2048, 50000]⟩
abbrev S2x1x2048 : Shape := ⟨3, ![2, 1, 2048]⟩
abbrev S1792x512 : Shape := ⟨2, ![1792, 512]⟩
abbrev S2048x1792 : Shape := ⟨2, ![2048, 1792]⟩
abbrev S1x1x2048 : Shape := ⟨3, ![1, 1, 2048]⟩
abbrev S1792 : Shape := ⟨1, ![1792]⟩
abbrev S1792x1 : Shape := ⟨2, ![1792, 1]⟩
abbrev S512x1792 : Shape := ⟨2, ![512, 1792]⟩
abbrev S2x2048 : Shape := ⟨2, ![2, 2048]⟩
abbrev S_ : Shape := ⟨0, ![]⟩
abbrev S1x2048 : Shape := ⟨2, ![1, 2048]⟩

abbrev nBuf : Space → Nat
  | .hbm => 30
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S50000x512, .f32⟩
  | .hbm, ⟨3, _⟩ => ⟨S2048x1, .i32⟩
  | .hbm, ⟨4, _⟩ => ⟨S2048x50000, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x2048, .f32⟩
  | .hbm, ⟨9, _⟩ => ⟨S2x2048, .f32⟩
  | .hbm, ⟨10, _⟩ => ⟨S2x2048, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S2x2048, .f32⟩
  | .hbm, ⟨15, _⟩ => ⟨S2x2048, .f32⟩
  | .hbm, ⟨16, _⟩ => ⟨S2x2048, .f32⟩
  | .hbm, ⟨17, _⟩ => ⟨S2x2048, .f32⟩
  | .hbm, ⟨18, _⟩ => ⟨S_, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S2048x1, .i32⟩
  | .local _ .vmem, ⟨1, _⟩ => ⟨S2048x512, .f32⟩
  | .local _ .vmem, ⟨2, _⟩ => ⟨S1792x512, .f32⟩
  | .local _ .vmem, ⟨3, _⟩ => ⟨S1792x512, .f32⟩
  | .local _ .vmem, ⟨4, _⟩ => ⟨S2048x1792, .f32⟩
  | .local _ .vmem, ⟨5, _⟩ => ⟨S2048x1792, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S2048x512, .bf16⟩
  | .local _ .vmem, ⟨13, _⟩ => ⟨S2048x1, .f32⟩
  | .local _ .vmem, ⟨14, _⟩ => ⟨S2048x1, .f32⟩
  | .local _ .vmem, ⟨15, _⟩ => ⟨S2048x1, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 14], ![false, false]⟩

def k0_cond2 (i : grid0.Coords) : BitVec 1 :=
  let arg1 : BitVec 32 := BitVec.ofNat 32 (i 1).val
  let c13_i32 : BitVec 32 := 13#32
  let v90 : BitVec 1 := Scalar.cmpi .eq arg1 c13_i32
  let v91 : BitVec 32 := Scalar.extui v90
  let c0_i32_40 : BitVec 32 := 0#32
  let v92 : BitVec 1 := Scalar.cmpi .ne v91 c0_i32_40
  v92

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.muli arg0 c14_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1792x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S2048_S2048x1 : S2048.ShapeCasts S2048x1
  inb_S2048x512_S2048x512_0_0 : ∀ a, (![0, 0] : Fin 2 → Nat) a + S2048x512.size a ≤ S2048x512.size a
  h_S2048x512 : 0 < S2048x512.numel
  reduces_S2048x512_S2048 : S2048x512.Reduces [1] S2048
  broadcasts_S2048x1_S2048x512 : S2048x1.Broadcasts S2048x512
  bitsLt_bf16_f32 : FTy.bits .bf16 < FTy.bits .f32
  shapeCasts_S2048x512_S2048x512 : S2048x512.ShapeCasts S2048x512
  packedbf16_S2048x512_S2048x512_0_0 : (Rect.unit (s := S2048x512) ![0, 0] S2048x512.size inb_S2048x512_S2048x512_0_0).PackedRows (EltTy.packing .bf16)
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1792x512_S1792x512_0_0 : ∀ a, (![0, 0] : Fin 2 → Nat) a + S1792x512.size a ≤ S1792x512.size a
  h_S1792x512 : 0 < S1792x512.numel
  reduces_S1792x512_S1792 : S1792x512.Reduces [1] S1792
  shapeCasts_S1792_S1792x1 : S1792.ShapeCasts S1792x1
  broadcasts_S1792x1_S1792x512 : S1792x1.Broadcasts S1792x512
  transposes_S1792x512_p1_0_S512x1792 : S1792x512.Transposes [1, 0] S512x1792
  iota_S2048x1792_d1_w32 : S2048x1792.Iotas .tc 32 [1]
  broadcasts_S2048x1_S2048x1792 : S2048x1.Broadcasts S2048x1792
  reduces_S2048x1792_S2048 : S2048x1792.Reduces [1] S2048
  inb_S2048x1792_S2048x1792_0_0 : ∀ a, (![0, 0] : Fin 2 → Nat) a + S2048x1792.size a ≤ S2048x1792.size a
  h_S2048x1792 : 0 < S2048x1792.numel
  shapeCasts_S2048x1_S1x1x2048 : S2048x1.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S2x1x2048_S2x2048 : S2x1x2048.ShapeCasts S2x2048
  reducesTo_S2x2048_S2048_d0 : S2x2048.ReducesTo [0] S2048
  h_S_ : 0 < S_.numel
  bcast_S2048_S1x2048_1 : S2048.BroadcastsInDim S1x2048 (![1] : Fin 1 → Fin S1x2048.rank)
  bcast_S1x2048_S2x2048_0_1 : S1x2048.BroadcastsInDim S2x2048 (![0, 1] : Fin 2 → Fin S2x2048.rank)
  reducesTo_S2048_S_d0 : S2048.ReducesTo [0] S_
  dot_S2048x512_S512x1792_S2048x1792_1_0_0_1_n_n_wf : DotDims.WF S2048x512 S512x1792 S2048x1792 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S2048x1.size a
  hwx0_0 : ∀ i : grid0.Coords, EltTy.bits .i32 = 32 ∨ (Rect.block (s := S2048x1) S2048x1.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .f32 = 32 ∨ (Rect.block (s := S2048x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1792x512.size a < S50000x512.size a
  hwx0_2 : ∀ i : grid0.Coords, EltTy.bits .f32 = 32 ∨ (Rect.unit (s := S50000x512) (fun a => cc0_transform_2 i a * S1792x512.size a) (fun a => (Pipeline.Clip.of (cc0_transform_2 i a) (S1792x512.size a) (S50000x512.size a)).extent (S1792x512.size a)) fun a => Pipeline.Clip.inb (Pipeline.Clip.ok_of (hstart0_2 i a))).WholeWords (EltTy.packing .f32)
  hwxs0_2 : ∀ i : grid0.Coords, EltTy.bits .f32 = 32 ∨ (Rect.unit (s := S1792x512) (fun _ => 0) (fun a => (Pipeline.Clip.of (cc0_transform_2 i a) (S1792x512.size a) (S50000x512.size a)).extent (S1792x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S2048x1792.size a < S2048x50000.size a
  hwx0_3 : ∀ i : grid0.Coords, EltTy.bits .f32 = 32 ∨ (Rect.unit (s := S2048x50000) (fun a => cc0_transform_3 i a * S2048x1792.size a) (fun a => (Pipeline.Clip.of (cc0_transform_3 i a) (S2048x1792.size a) (S2048x50000.size a)).extent (S2048x1792.size a)) fun a => Pipeline.Clip.inb (Pipeline.Clip.ok_of (hstart0_3 i a))).WholeWords (EltTy.packing .f32)
  hwxs0_3 : ∀ i : grid0.Coords, EltTy.bits .f32 = 32 ∨ (Rect.unit (s := S2048x1792) (fun _ => 0) (fun a => (Pipeline.Clip.of (cc0_transform_3 i a) (S2048x1792.size a) (S2048x50000.size a)).extent (S2048x1792.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S2x1x2048.size a
  hwx0_4 : ∀ i : grid0.Coords, EltTy.bits .f32 = 32 ∨ (Rect.block (s := S2x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S2x1x2048.size a
  hwx0_5 : ∀ i : grid0.Coords, EltTy.bits .f32 = 32 ∨ (Rect.block (s := S2x1x2048) S1x1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x2048.size a ≤ S2x1x2048.size a
  hwx0_6 : ∀ i : grid0.Coords, EltTy.bits .f32 = 32 ∨ (Rect.block (s := S2x1x2048) S1x1x2048.size (cc0_transform_6 i) (hinb0_6 i)).WholeWords (EltTy.packing .f32)

variable [Facts₀]

def dot_S2048x512_S512x1792_S2048x1792_1_0_0_1_n_n : DotDims S2048x512 S512x1792 S2048x1792 where
  lhsContracting := [1]
  rhsContracting := [0]
  lhsNonContracting := [0]
  rhsNonContracting := [1]
  lhsBatch := []
  rhsBatch := []
  wf := dot_S2048x512_S512x1792_S2048x1792_1_0_0_1_n_n_wf

abbrev win0_0 : Pipeline.Window sig grid0 :=
  Pipeline.Window.ofSpec (Memref.whole main_v0) S2048x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_arg2) S1792x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v1_0) S2048x1792.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpec (Memref.whole main_v1_1) S1x1x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_2) S1x1x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1_3) S1x1x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S2048x512 : Shape := ⟨2, ![2048, 512]⟩
abbrev S2048 : Shape := ⟨1, ![2048]⟩
abbrev S50000x512 : Shape := ⟨2, ![50000, 512]⟩
abbrev S_ : Shape := ⟨0, ![]⟩
abbrev S2048x1 : Shape := ⟨2, ![2048, 1]⟩
abbrev S50000 : Shape := ⟨1, ![50000]⟩
abbrev S50000x1 : Shape := ⟨2, ![50000, 1]⟩
abbrev S512x50000 : Shape := ⟨2, ![512, 50000]⟩
abbrev S2048x50000 : Shape := ⟨2, ![2048, 50000]⟩
abbrev S2048x2 : Shape := ⟨2, ![2048, 2]⟩

abbrev nBuf : Space → Nat
  | .hbm => 133
  | .vmem => 0
  | .smem => 0
  | _ => 0

abbrev hbmTy0_0 (i : Nat) : BufTy := match i % 128 with
  | 0 => ⟨S2048x512, .f32⟩
  | 1 => ⟨S2048, .i32⟩
  | 2 => ⟨S50000x512, .f32⟩
  | 3 => ⟨S2048x512, .f32⟩
  | 4 => ⟨S_, .f32⟩
  | 5 => ⟨S2048, .f32⟩
  | 6 => ⟨S2048x1, .f32⟩
  | 7 => ⟨S2048x1, .f32⟩
  | 8 => ⟨S_, .f32⟩
  | 9 => ⟨S2048x1, .f32⟩
  | 10 => ⟨S2048x1, .f32⟩
  | 11 => ⟨S2048x512, .f32⟩
  | 12 => ⟨S2048x512, .f32⟩
  | 13 => ⟨S50000x512, .f32⟩
  | 14 => ⟨S_, .f32⟩
  | 15 => ⟨S50000, .f32⟩
  | 16 => ⟨S50000x1, .f32⟩
  | 17 => ⟨S50000x1, .f32⟩
  | 18 => ⟨S_, .f32⟩
  | 19 => ⟨S50000x1, .f32⟩
  | 20 => ⟨S50000x1, .f32⟩
  | 21 => ⟨S50000x512, .f32⟩
  | 22 => ⟨S50000x512, .f32⟩
  | 23 => ⟨S512x50000, .f32⟩
  | 24 => ⟨S2048x50000, .f32⟩
  | 25 => ⟨S2048, .i32⟩
  | 26 => ⟨S_, .i32⟩
  | 27 => ⟨S2048, .i32⟩
  | 28 => ⟨S2048, .i1⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S_, .i32⟩
  | 37 => ⟨S2048, .i32⟩
  | 38 => ⟨S2048, .i32⟩
  | 39 => ⟨S2048, .i32⟩
  | 40 => ⟨S2048x1, .i32⟩
  | 41 => ⟨S2048x1, .i32⟩
  | 42 => ⟨S2048x2, .i32⟩
  | 43 => ⟨S2048, .f32⟩
  | 44 => ⟨S2048, .f32⟩
  | 45 => ⟨S_, .f32⟩
  | 46 => ⟨S2048, .f32⟩
  | 47 => ⟨S2048, .f32⟩
  | 48 => ⟨S_, .f32⟩
  | 49 => ⟨S_, .f32⟩
  | 50 => ⟨S_, .f32⟩
  | 51 => ⟨S2048, .f32⟩
  | 52 => ⟨S2048, .f32⟩
  | 53 => ⟨S_, .f32⟩
  | 54 => ⟨S2048, .f32⟩
  | 55 => ⟨S2048, .f32⟩
  | 56 => ⟨S2048, .f32⟩
  | 57 => ⟨S_, .f32⟩
  | 58 => ⟨S2048, .f32⟩
  | 59 => ⟨S2048, .f32⟩
  | 60 => ⟨S_, .f32⟩
  | 61 => ⟨S2048, .f32⟩
  | 62 => ⟨S2048, .f32⟩
  | 63 => ⟨S2048, .f32⟩
  | 64 => ⟨S_, .f32⟩
  | 65 => ⟨S2048, .f32⟩
  | 66 => ⟨S2048, .f32⟩
  | 67 => ⟨S_, .f32⟩
  | 68 => ⟨S2048, .f32⟩
  | 69 => ⟨S2048, .i1⟩
  | 70 => ⟨S_, .f32⟩
  | 71 => ⟨S2048, .f32⟩
  | 72 => ⟨S2048, .f32⟩
  | 73 => ⟨S2048, .f32⟩
  | 74 => ⟨S_, .i32⟩
  | 75 => ⟨S2048, .i32⟩
  | 76 => ⟨S2048, .i1⟩
  | 77 => ⟨S_, .i32⟩
  | 78 => ⟨S2048, .i32⟩
  | 79 => ⟨S2048, .i32⟩
  | 80 => ⟨S2048, .i32⟩
  | 81 => ⟨S_, .i32⟩
  | 82 => ⟨S2048, .i32⟩
  | 83 => ⟨S2048, .i1⟩
  | 84 => ⟨S_, .i32⟩
  | 85 => ⟨S2048, .i32⟩
  | 86 => ⟨S2048, .i32⟩
  | 87 => ⟨S2048, .i32⟩
  | 88 => ⟨S2048x1, .i32⟩
  | 89 => ⟨S2048x1, .i32⟩
  | 90 => ⟨S2048x2, .i32⟩
  | 91 => ⟨S2048x50000, .f32⟩
  | 92 => ⟨S_, .f32⟩
  | 93 => ⟨S2048x50000, .f32⟩
  | 94 => ⟨S2048x50000, .f32⟩
  | 95 => ⟨S_, .f32⟩
  | 96 => ⟨S2048, .f32⟩
  | 97 => ⟨S_, .f32⟩
  | 98 => ⟨S2048, .f32⟩
  | 99 => ⟨S2048, .f32⟩
  | 100 => ⟨S2048x1, .f32⟩
  | 101 => ⟨S2048x50000, .f32⟩
  | 102 => ⟨S2048x50000, .f32⟩
  | 103 => ⟨S2048x50000, .f32⟩
  | 104 => ⟨S_, .f32⟩
  | 105 => ⟨S2048, .f32⟩
  | 106 => ⟨S2048x1, .f32⟩
  | 107 => ⟨S2048x1, .f32⟩
  | 108 => ⟨S2048x50000, .f32⟩
  | 109 => ⟨S2048x50000, .f32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S_, .i32⟩
  | 118 => ⟨S2048, .i32⟩
  | 119 => ⟨S2048, .i1⟩
  | 120 => ⟨S_, .i32⟩
  | 121 => ⟨S2048, .i32⟩
  | 122 => ⟨S2048, .i32⟩
  | 123 => ⟨S2048, .i32⟩
  | 124 => ⟨S2048x1, .i32⟩
  | 125 => ⟨S2048x1, .i32⟩
  | 126 => ⟨S2048x2, .i32⟩
  | 127 => ⟨S2048, .f32⟩
  | _ => ⟨S2048x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_cst_6 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_v33 : Ref sig .tc := ⟨.hbm, 59, rfl⟩
abbrev main_cst_8 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_9 : Ref sig .tc := ⟨.hbm, 64, rfl⟩
abbrev main_v37 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩
abbrev main_cst_11 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_12 : Ref sig .tc := ⟨.hbm, 74, rfl⟩
abbrev main_v44 : Ref sig .tc := ⟨.hbm, 75, rfl⟩
abbrev main_v45 : Ref sig .tc := ⟨.hbm, 76, rfl⟩
abbrev main_c_13 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_14 : Ref sig .tc := ⟨.hbm, 81, rfl⟩
abbrev main_v49 : Ref sig .tc := ⟨.hbm, 82, rfl⟩
abbrev main_v50 : Ref sig .tc := ⟨.hbm, 83, rfl⟩
abbrev main_c_15 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_cst_16 : Ref sig .tc := ⟨.hbm, 92, rfl⟩
abbrev main_v58 : Ref sig .tc := ⟨.hbm, 93, rfl⟩
abbrev main_v59 : Ref sig .tc := ⟨.hbm, 94, rfl⟩
abbrev main_call4_cst : Ref sig .tc := ⟨.hbm, 95, rfl⟩
abbrev main_call4_v0 : Ref sig .tc := ⟨.hbm, 96, rfl⟩
abbrev main_call4_cst_0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_v5 : Ref sig .tc := ⟨.hbm, 102, rfl⟩
abbrev main_call4_v6 : Ref sig .tc := ⟨.hbm, 103, rfl⟩
abbrev main_call4_cst_1 : Ref sig .tc := ⟨.hbm, 104, rfl⟩
abbrev main_call4_v7 : Ref sig .tc := ⟨.hbm, 105, rfl⟩
abbrev main_call4_v8 : Ref sig .tc := ⟨.hbm, 106, rfl⟩
abbrev main_call4_v9 : Ref sig .tc := ⟨.hbm, 107, rfl⟩
abbrev main_call4_v10 : Ref sig .tc := ⟨.hbm, 108, rfl⟩
abbrev main_v60 : Ref sig .tc := ⟨.hbm, 109, rfl⟩
abbrev main_c_17 : Ref sig .tc := ⟨.hbm, 110, rfl⟩
abbrev main_v61 : Ref sig .tc := ⟨.hbm, 111, rfl⟩
abbrev main_v62 : Ref sig .tc := ⟨.hbm, 112, rfl⟩
abbrev main_c_18 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_c_19 : Ref sig .tc := ⟨.hbm, 117, rfl⟩
abbrev main_v66 : Ref sig .tc := ⟨.hbm, 118, rfl⟩
abbrev main_v67 : Ref sig .tc := ⟨.hbm, 119, rfl⟩
abbrev main_c_20 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_21 : Ref sig .tc := ⟨.hbm, 128, rfl⟩
abbrev main_v75 : Ref sig .tc := ⟨.hbm, 129, rfl⟩
abbrev main_cst_22 : Ref sig .tc := ⟨.hbm, 130, rfl⟩
abbrev main_v76 : Ref sig .tc := ⟨.hbm, 131, rfl⟩
abbrev main_v77 : Ref sig .tc := ⟨.hbm, 132, rfl⟩

abbrev nD : Nat := 1
abbrev τ : Topo := Topo.v7x

variable {F : FTy → Type} [FloatOps F]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x512_0_1 : S2048x1.BroadcastsInDim S2048x512 (![0, 1] : Fin 2 → Fin S2048x512.rank)
  reducesTo_S50000x512_S50000_d1 : S50000x512.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x512_0_1 : S50000x1.BroadcastsInDim S50000x512 (![0, 1] : Fin 2 → Fin S50000x512.rank)
  transposes_S50000x512_S512x50000_1_0 : S50000x512.Transposes [1, 0] S512x50000
  bcast_S_S2048 : S_.BroadcastsInDim S2048 (![] : Fin 0 → Fin S2048.rank)
  concatenates_S2048x1_S2048x1_S2048x2_d1 : Shape.Concatenates [S2048x1, S2048x1] S2048x2 1
  bcast_S_S2048x50000 : S_.BroadcastsInDim S2048x50000 (![] : Fin 0 → Fin S2048x50000.rank)
  reducesTo_S2048x50000_S2048_d1 : S2048x50000.ReducesTo [1] S2048
  bcast_S2048x1_S2048x50000_0_1 : S2048x1.BroadcastsInDim S2048x50000 (![0, 1] : Fin 2 → Fin S2048x50000.rank)
  reducesTo_S2048_S_d0 : S2048.ReducesTo [0] S_
  dot_S2048x512_S512x50000_S2048x50000_1_0_0_1_n_n_wf : DotDims.WF S2048x512 S512x50000 S2048x50000 [1] [0] [0] [1] [] []
  gather_S2048x50000_S2048x2_S2048_n_01_n_n_01_1_11_wf : GatherDims.WF S2048x50000 S2048x2 S2048 [] [0, 1] [] [0, 1] [] 1 ![1, 1]
  scatter_S2048x50000_S2048x2_S2048_n_01_01_1_wf : ScatterDims.WF S2048x50000 S2048x2 S2048 [] [0, 1] [0, 1] 1

variable [Facts₀]

def dot_S2048x512_S512x50000_S2048x50000_1_0_0_1_n_n : DotDims S2048x512 S512x50000 S2048x50000 where
  lhsContracting := [1]
  rhsContracting := [0]
  lhsNonContracting := [0]
  rhsNonContracting := [1]
  lhsBatch := []
  rhsBatch := []
  wf := dot_S2048x512_S512x50000_S2048x50000_1_0_0_1_n_n_wf
def gather_S2048x50000_S2048x2_S2048_n_01_n_n_01_1_11 : GatherDims S2048x50000 S2048x2 S2048 where
  offsetDims := []
  collapsedSliceDims := [0, 1]
  operandBatchingDims := []
  startIndicesBatchingDims := []
  startIndexMap := [0, 1]
  indexVectorDim := 1
  sliceSizes := ![1, 1]
  wf := gather_S2048x50000_S2048x2_S2048_n_01_n_n_01_1_11_wf
def scatter_S2048x50000_S2048x2_S2048_n_01_01_1 : ScatterDims S2048x50000 S2048x2 S2048 where
  updateWindowDims := []
  insertedWindowDims := [0, 1]
  scatterDimsToOperandDims := [0, 1]
  indexVectorDim := 1
  wf := scatter_S2048x50000_S2048x2_S2048_n_01_01_1_wf

class Facts : Prop extends Facts₀ where

variable [Facts]
-- ==== Proof.KRuns.lean ====
/-
  What the three whole-body runs of the kernel share: the two branch conditions of the body as propositions of the
  grid coordinates, decided over the 28 points (the first holds where the point is the first of its group of
  fourteen, the second where it is the last); where the three statistics windows are idle and where they are written
  back; the staging memrefs of a point and the four scratch buffers as whole memrefs; and the region invariant opened
  into the four scratch buffers, each at some contents, and the generator register.
-/
import proofs.«416711_j88845693485822_2_alg».proof.Proof.Gen.Kernel.Frame
import proofs.«416711_j88845693485822_2_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The first branch's condition: the point's second coordinate is zero. -/
abbrev cond0_0 (i : grid0.Coords) : Prop := (Scalar.cmpi .ne (Scalar.extui (Scalar.cmpi .eq (BitVec.ofNat 32 (i 1).val) 0#32)) 0#32) = 1#1
/-- It holds at the first point of each group of fourteen. -/
theorem hcond0_0 : ∀ t : Fin cfg0.N, cond0_0 (grid0.coords t) ↔ t.val % 14 = 0 :=
  (by decide +kernel : ∀ t : Fin grid0.N, cond0_0 (grid0.coords t) ↔ t.val % 14 = 0)
/-- The second branch's condition: the point's second coordinate is thirteen. -/
abbrev cond0_1 (i : grid0.Coords) : Prop := k0_cond2 i = 1#1
/-- It holds at the last point of each group of fourteen. -/
theorem hcond0_1 : ∀ t : Fin cfg0.N, cond0_1 (grid0.coords t) ↔ t.val % 14 = 13 :=
  (by decide +kernel : ∀ t : Fin grid0.N, cond0_1 (grid0.coords t) ↔ t.val % 14 = 13)

/-- The tile of a point is the point: 14 · (first coordinate) + (second coordinate). -/
theorem tile_of_point : ∀ t : Fin cfg0.N, ((grid0.coords t) 0).val * 14 + ((grid0.coords t) 1).val = t.val :=
  (by decide +kernel : ∀ t : Fin grid0.N, ((grid0.coords t) 0).val * 14 + ((grid0.coords t) 1).val = t.val)

/-- The four windows the body touches at every point are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The statistics windows are idle, and not written back, except at the last point of a group. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-- Each window's current staging memref at point `t`, as the pipeline passes it, and its wholeness. -/
abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1792 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
/-- The scratch operands: whole scoped buffers of the kernel's own. -/
abbrev scM0_0 : Memref sig .tc .vmem S2048x512 .bf16 := Memref.whole cc0_scratch0
abbrev scM0_1 : Memref sig .tc .vmem S2048x1 .f32 := Memref.whole cc0_scratch1
abbrev scM0_2 : Memref sig .tc .vmem S2048x1 .f32 := Memref.whole cc0_scratch2
abbrev scM0_3 : Memref sig .tc .vmem S2048x1 .f32 := Memref.whole cc0_scratch3

/-- The region invariant as the four scratch buffers, each at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.Kernel.Body

end
-- ==== Proof.KRunA.lean ====
/-
  The kernel body run whole at the first point of a group (the first branch taken, the second not): the scratch buffers arrive at anything; the unit rows of `x` are stored, the three statistics reset, then the point's block is computed and the statistics advanced. On whole memrefs, the inputs at their contents, the body runs to a
  continuation that holds the inputs as they were and every buffer it stored into with its pieces written; the
  pieces (last first) are the witness the run finds.
-/
import proofs.«416711_j88845693485822_2_alg».proof.Proof.KRuns

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces each stored buffer ends with, and the body's triple. -/
noncomputable def kernelRun0_A (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i)
    (x0 : Vec F S2048x1 .i32) (x1 : Vec F S2048x512 .f32) (x2 : Vec F S1792x512 .f32) :
    Σ' (L3 : List (View.Piece (Elt F) S2048x1792 .f32)) (LS0 : List (View.Piece (Elt F) S2048x512 .bf16)) (LS1 : List (View.Piece (Elt F) S2048x1 .f32)) (LS2 : List (View.Piece (Elt F) S2048x1 .f32)), { LS3 : List (View.Piece (Elt F) S2048x1 .f32) //
      ∀ (xi4 xi5 xi6 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun xi4 xi5 xi6 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%dS0, %fS0, -, HS0⟩, ⟨%dS1, %fS1, -, HS1⟩, ⟨%dS2, %fS2, -, HS2⟩, ⟨%dS3, %fS3, -, HS3⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.Kernel.Body

end
-- ==== Proof.KRunB.lean ====
/-
  The kernel body run whole at a point inside a group (neither branch taken): the scratch buffers arrive at what the point before left; the point's block is computed and the statistics advanced. On whole memrefs, the inputs at their contents, the body runs to a
  continuation that holds the inputs as they were and every buffer it stored into with its pieces written; the
  pieces (last first) are the witness the run finds.
-/
import proofs.«416711_j88845693485822_2_alg».proof.Proof.KRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces each stored buffer ends with, and the body's triple. -/
noncomputable def kernelRun0_B (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i)
    (x0 : Vec F S2048x1 .i32) (x1 : Vec F S2048x512 .f32) (x2 : Vec F S1792x512 .f32) (xs0 : Vec F S2048x512 .bf16) (xs1 xs2 xs3 : Vec F S2048x1 .f32) :
    Σ' (L3 : List (View.Piece (Elt F) S2048x1792 .f32)) (LS1 : List (View.Piece (Elt F) S2048x1 .f32)) (LS2 : List (View.Piece (Elt F) S2048x1 .f32)), { LS3 : List (View.Piece (Elt F) S2048x1 .f32) //
      ∀ (xi4 xi5 xi6 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ owns (c : Thread nD τ) arg8 fullShare xi6 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%fS0, %hfS0, HS0⟩, ⟨%fS1, %hfS1, HS1⟩, ⟨%fS2, %hfS2, HS2⟩, ⟨%fS3, %hfS3, HS3⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hf6; obtain rfl := harg9.eq_unread hfS0; obtain rfl := harg10.eq_unread hfS1; obtain rfl := harg11.eq_unread hfS2; obtain rfl := harg12.eq_unread hfS3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    isplitl [HS2]; · iexists _; iexact HS2
    iexists _; iexact HS3

end Cert.Kernel.Body

end
-- ==== Proof.KRunC.lean ====
/-
  The kernel body run whole at the last point of a group (the second branch taken): as inside a group, and the three statistics are written out to their windows' buffers. On whole memrefs, the inputs at their contents, the body runs to a
  continuation that holds the inputs as they were and every buffer it stored into with its pieces written; the
  pieces (last first) are the witness the run finds.
-/
import proofs.«416711_j88845693485822_2_alg».proof.Proof.KRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

set_option maxHeartbeats 4000000 in
/-- The pieces each stored buffer ends with, and the body's triple. -/
noncomputable def kernelRun0_C (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i)
    (x0 : Vec F S2048x1 .i32) (x1 : Vec F S2048x512 .f32) (x2 : Vec F S1792x512 .f32) (xs0 : Vec F S2048x512 .bf16) (xs1 xs2 xs3 : Vec F S2048x1 .f32) :
    Σ' (L3 : List (View.Piece (Elt F) S2048x1792 .f32)) (L4 : List (View.Piece (Elt F) S1x1x2048 .f32)) (L5 : List (View.Piece (Elt F) S1x1x2048 .f32)) (L6 : List (View.Piece (Elt F) S1x1x2048 .f32)) (LS1 : List (View.Piece (Elt F) S2048x1 .f32)) (LS2 : List (View.Piece (Elt F) S2048x1 .f32)), { LS3 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fS0, %hfS0, HS0⟩, ⟨%fS1, %hfS1, HS1⟩, ⟨%fS2, %hfS2, HS2⟩, ⟨%fS3, %hfS3, HS3⟩, Hk⟩
    obtain rfl := harg2.eq_unread hf0; obtain rfl := harg3.eq_unread hf1; obtain rfl := harg4.eq_unread hf2; obtain rfl := harg9.eq_unread hfS0; obtain rfl := harg10.eq_unread hfS1; obtain rfl := harg11.eq_unread hfS2; obtain rfl := harg12.eq_unread hfS3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [HS0]
    · iexists _; isplitr; · ipureintro; exact harg9.read_unread _
      iexact HS0
    isplitl [HS1]; · iexists _; iexact HS1
    isplitl [HS2]; · iexists _; iexact HS2
    iexists _; iexact HS3

end Cert.Kernel.Body

end
-- ==== Proof.KSound.lean ====
/-
  What one point of the grid does, as pure functions of what the body loads — the point's block of entries, and
  the three statistics advanced over it — and the body's triple in each of its three control cases with these in
  its post: every buffer the body stores into is stored whole, so what it holds afterwards is the stored value.
-/
import proofs.«416711_j88845693485822_2_alg».proof.Proof.KRunC
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The point's block of entries from the labels' block, the weight block and the unit rows of `x`. -/
def blkOut (i : grid0.Coords) (lb : Vec F S2048x1 .i32) (wb : Vec F S1792x512 .f32) (xn : Vec F S2048x512 .bf16) : FVec F S2048x1792 .f32 :=
  k0_pay17 (k0_pay10 wb xn) (k0_pay12 i) (k0_pay13 i lb) (k0_pay14 i wb xn lb) (k0_pay15 i wb xn lb) k0_pay16
/-- The running maximum after the point, from the one before it. -/
def mNew (i : grid0.Coords) (lb : Vec F S2048x1 .i32) (wb : Vec F S1792x512 .f32) (xn : Vec F S2048x512 .bf16) (m : Vec F S2048x1 .f32) : FVec F S2048x1 .f32 :=
  k0_pay20 (k0_pay10 wb xn) (k0_pay12 i) (k0_pay13 i lb) (k0_pay14 i wb xn lb) (k0_pay15 i wb xn lb) k0_pay16 m
/-- The running sum after the point. -/
def lNew (i : grid0.Coords) (lb : Vec F S2048x1 .i32) (wb : Vec F S1792x512 .f32) (xn : Vec F S2048x512 .bf16) (m l : Vec F S2048x1 .f32) : FVec F S2048x1 .f32 :=
  k0_pay1 (k0_pay19 (k0_pay10 wb xn) (k0_pay12 i) (k0_pay13 i lb) (k0_pay14 i wb xn lb) (k0_pay15 i wb xn lb) k0_pay16 m m l)
/-- The target sum after the point. -/
def tNew (i : grid0.Coords) (lb : Vec F S2048x1 .i32) (wb : Vec F S1792x512 .f32) (xn : Vec F S2048x512 .bf16) (t : Vec F S2048x1 .f32) : FVec F S2048x1 .f32 :=
  k0_pay2 (k0_pay13 i lb) (blkOut i lb wb xn) t

/-- The zero offsets of a rank-2 and of a rank-3 window, however spelt, are the zero function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The first point of a group: each buffer reads back the value of its last whole store (the statistics are reset, then advanced from the reset values; the unit rows are stored, then read). -/

section A
variable (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i)
    (x0 : Vec F S2048x1 .i32) (x1 : Vec F S2048x512 .f32) (x2 : Vec F S1792x512 .f32)

theorem outA_3 (f : arg5.view.ty.Contents (Elt F)) :
    arg5.view.read (Elt F) (arg5.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2).1) = blkOut i x0 x2 (k0_pay6 x1) := by
  rw [View.read_writes_eq_canon _ _ _ (View.cover_of_tiledL _ S2048x1792.size (by sl_kernel_rfl))]
  unfold kernelRun0_A; dsimp only; sl_unfold_words
  rw [View.canon_unit_zero (S := S2048x1792) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outA_S0 (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2).2.1) = k0_pay6 x1 := by
  rw [View.read_writes_eq_canon _ _ _ (View.cover_of_tiledL _ S2048x512.size (by sl_kernel_rfl))]
  unfold kernelRun0_A; dsimp only; sl_unfold_words
  rw [View.canon_unit_zero (S := S2048x512) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outA_S1 (f : arg10.view.ty.Contents (Elt F)) :
    arg10.view.read (Elt F) (arg10.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2).2.2.1) = mNew i x0 x2 (k0_pay6 x1) k0_pay7 := by
  rw [View.read_writes_eq_canon _ _ _ (View.cover_of_tiledL _ S2048x1.size (by sl_kernel_rfl))]
  unfold kernelRun0_A; dsimp only; sl_unfold_words
  rw [View.canon_cons_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outA_S2 (f : arg11.view.ty.Contents (Elt F)) :
    arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2).2.2.2.1) = lNew i x0 x2 (k0_pay6 x1) k0_pay7 k0_pay8 := by
  rw [View.read_writes_eq_canon _ _ _ (View.cover_of_tiledL _ S2048x1.size (by sl_kernel_rfl))]
  unfold kernelRun0_A; dsimp only; sl_unfold_words
  rw [View.canon_cons_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outA_S3 (f : arg12.view.ty.Contents (Elt F)) :
    arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2).2.2.2.2.1) = tNew i x0 x2 (k0_pay6 x1) k0_pay9 := by
  rw [View.read_writes_eq_canon _ _ _ (View.cover_of_tiledL _ S2048x1.size (by sl_kernel_rfl))]
  unfold kernelRun0_A; dsimp only; sl_unfold_words
  rw [View.canon_cons_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl
end A

/-! ## A point inside a group: each buffer reads back the value of its one whole store. -/

section B
variable (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i)
    (x0 : Vec F S2048x1 .i32) (x1 : Vec F S2048x512 .f32) (x2 : Vec F S1792x512 .f32) (xs0 : Vec F S2048x512 .bf16) (xs1 xs2 xs3 : Vec F S2048x1 .f32)

theorem outB_3 (f : arg5.view.ty.Contents (Elt F)) :
    arg5.view.read (Elt F) (arg5.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 xs0 xs1 xs2 xs3).1) = blkOut i x0 x2 xs0 := by
  rw [View.read_writes_eq_canon _ _ _ (View.cover_of_tiledL _ S2048x1792.size (by sl_kernel_rfl))]
  unfold kernelRun0_B; dsimp only; sl_unfold_words
  rw [View.canon_unit_zero (S := S2048x1792) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outB_S1 (f : arg10.view.ty.Contents (Elt F)) :
    arg10.view.read (Elt F) (arg10.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.1) = mNew i x0 x2 xs0 xs1 := by
  rw [View.read_writes_eq_canon _ _ _ (View.cover_of_tiledL _ S2048x1.size (by sl_kernel_rfl))]
  unfold kernelRun0_B; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outB_S2 (f : arg11.view.ty.Contents (Elt F)) :
    arg11.view.read (Elt F) (arg11.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.1) = lNew i x0 x2 xs0 xs1 xs2 := by
  rw [View.read_writes_eq_canon _ _ _ (View.cover_of_tiledL _ S2048x1.size (by sl_kernel_rfl))]
  unfold kernelRun0_B; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outB_S3 (f : arg12.view.ty.Contents (Elt F)) :
    arg12.view.read (Elt F) (arg12.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.1) = tNew i x0 x2 xs0 xs3 := by
  rw [View.read_writes_eq_canon _ _ _ (View.cover_of_tiledL _ S2048x1.size (by sl_kernel_rfl))]
  unfold kernelRun0_B; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl
end B

/-! ## The last point of a group: as inside a group, and each statistics window reads back the advanced statistic, re-laid as one row. -/

section C
variable (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i)
    (x0 : Vec F S2048x1 .i32) (x1 : Vec F S2048x512 .f32) (x2 : Vec F S1792x512 .f32) (xs0 : Vec F S2048x512 .bf16) (xs1 xs2 xs3 : Vec F S2048x1 .f32)

theorem outC_3 (f : arg5.view.ty.Contents (Elt F)) :
    arg5.view.read (Elt F) (arg5.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).1) = blkOut i x0 x2 xs0 := by
  rw [View.read_writes_eq_canon _ _ _ (View.cover_of_tiledL _ S2048x1792.size (by sl_kernel_rfl))]
  unfold kernelRun0_C; dsimp only; sl_unfold_words
  rw [View.canon_unit_zero (S := S2048x1792) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_4 (f : arg6.view.ty.Contents (Elt F)) :
    arg6.view.read (Elt F) (arg6.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.1) = k0_pay3 (mNew i x0 x2 xs0 xs1) := by
  rw [View.read_writes_eq_canon _ _ _ (View.cover_of_tiledL _ S1x1x2048.size (by sl_kernel_rfl))]
  unfold kernelRun0_C; dsimp only; sl_unfold_words
  rw [View.canon_unit_zero (S := S1x1x2048) hz3]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_5 (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.1) = k0_pay4 (lNew i x0 x2 xs0 xs1 xs2) := by
  rw [View.read_writes_eq_canon _ _ _ (View.cover_of_tiledL _ S1x1x2048.size (by sl_kernel_rfl))]
  unfold kernelRun0_C; dsimp only; sl_unfold_words
  rw [View.canon_unit_zero (S := S1x1x2048) hz3]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_6 (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.1) = k0_pay5 (tNew i x0 x2 xs0 xs3) := by
  rw [View.read_writes_eq_canon _ _ _ (View.cover_of_tiledL _ S1x1x2048.size (by sl_kernel_rfl))]
  unfold kernelRun0_C; dsimp only; sl_unfold_words
  rw [View.canon_unit_zero (S := S1x1x2048) hz3]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_S1 (f : arg10.view.ty.Contents (Elt F)) :
    arg10.view.read (Elt F) (arg10.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.2.1) = mNew i x0 x2 xs0 xs1 := by
  rw [View.read_writes_eq_canon _ _ _ (View.cover_of_tiledL _ S2048x1.size (by sl_kernel_rfl))]
  unfold kernelRun0_C; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_S2 (f : arg11.view.ty.Contents (Elt F)) :
    arg11.view.read (Elt F) (arg11.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.2.2.1) = lNew i x0 x2 xs0 xs1 xs2 := by
  rw [View.read_writes_eq_canon _ _ _ (View.cover_of_tiledL _ S2048x1.size (by sl_kernel_rfl))]
  unfold kernelRun0_C; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_S3 (f : arg12.view.ty.Contents (Elt F)) :
    arg12.view.read (Elt F) (arg12.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.2.2.2.1) = tNew i x0 x2 xs0 xs3 := by
  rw [View.read_writes_eq_canon _ _ _ (View.cover_of_tiledL _ S2048x1.size (by sl_kernel_rfl))]
  unfold kernelRun0_C; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl
end C

/-- The body's triple at the first point of a group, its post naming what every buffer holds. -/
theorem sound_A (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i)
    (x0 : Vec F S2048x1 .i32) (x1 : Vec F S2048x512 .f32) (x2 : Vec F S1792x512 .f32) (xi4 xi5 xi6 : Vec F S1x1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0
              ∗ owns (c : Thread nD τ) arg3 fullShare x1
              ∗ owns (c : Thread nD τ) arg4 fullShare x2
              ∗ owns (c : Thread nD τ) arg5 fullShare (blkOut i x0 x2 (k0_pay6 x1))
              ∗ owns (c : Thread nD τ) arg6 fullShare xi4
              ∗ owns (c : Thread nD τ) arg7 fullShare xi5
              ∗ owns (c : Thread nD τ) arg8 fullShare xi6
              ∗ owns (c : Thread nD τ) arg9 fullShare (k0_pay6 x1)
              ∗ owns (c : Thread nD τ) arg10 fullShare (mNew i x0 x2 (k0_pay6 x1) k0_pay7)
              ∗ owns (c : Thread nD τ) arg11 fullShare (lNew i x0 x2 (k0_pay6 x1) k0_pay7 k0_pay8)
              ∗ owns (c : Thread nD τ) arg12 fullShare (tNew i x0 x2 (k0_pay6 x1) k0_pay9)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  iintro ⟨H0, H1, H2, H3, H4, H5, H6, HS0, HS1, HS2, HS3, Hk⟩
  iapply ((kernelRun0_A c i arg2 harg2 arg3 harg3 arg4 harg4 arg5 harg5 arg6 harg6 arg7 harg7 arg8 harg8 arg9 harg9 arg10 harg10 arg11 harg11 arg12 harg12 hc0 hc1 x0 x1 x2).2.2.2.2.2 xi4 xi5 xi6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, ⟨%f3, H3⟩, H4, H5, H6, ⟨%fS0, HS0⟩, ⟨%fS1, HS1⟩, ⟨%fS2, HS2⟩, ⟨%fS3, HS3⟩⟩
  iapply Hk
  isplitl [H0]; · iexact H0
  isplitl [H1]; · iexact H1
  isplitl [H2]; · iexact H2
  isplitl [H3]
  · unfold owns; iexists _; isplitr
    swap; · iexact H3
    ipureintro; exact outA_3 c i arg2 harg2 arg3 harg3 arg4 harg4 arg5 harg5 arg6 harg6 arg7 harg7 arg8 harg8 arg9 harg9 arg10 harg10 arg11 harg11 arg12 harg12 hc0 hc1 x0 x1 x2 f3
  isplitl [H4]; · iexact H4
  isplitl [H5]; · iexact H5
  isplitl [H6]; · iexact H6
  isplitl [HS0]
  · unfold owns; iexists _; isplitr
    swap; · iexact HS0
    ipureintro; exact outA_S0 c i arg2 harg2 arg3 harg3 arg4 harg4 arg5 harg5 arg6 harg6 arg7 harg7 arg8 harg8 arg9 harg9 arg10 harg10 arg11 harg11 arg12 harg12 hc0 hc1 x0 x1 x2 fS0
  isplitl [HS1]
  · unfold owns; iexists _; isplitr
    swap; · iexact HS1
    ipureintro; exact outA_S1 c i arg2 harg2 arg3 harg3 arg4 harg4 arg5 harg5 arg6 harg6 arg7 harg7 arg8 harg8 arg9 harg9 arg10 harg10 arg11 harg11 arg12 harg12 hc0 hc1 x0 x1 x2 fS1
  isplitl [HS2]
  · unfold owns; iexists _; isplitr
    swap; · iexact HS2
    ipureintro; exact outA_S2 c i arg2 harg2 arg3 harg3 arg4 harg4 arg5 harg5 arg6 harg6 arg7 harg7 arg8 harg8 arg9 harg9 arg10 harg10 arg11 harg11 arg12 harg12 hc0 hc1 x0 x1 x2 fS2
  unfold owns; iexists _; isplitr
  swap; · iexact HS3
  ipureintro; exact outA_S3 c i arg2 harg2 arg3 harg3 arg4 harg4 arg5 harg5 arg6 harg6 arg7 harg7 arg8 harg8 arg9 harg9 arg10 harg10 arg11 harg11 arg12 harg12 hc0 hc1 x0 x1 x2 fS3

/-- The body's triple at a point inside a group, its post naming what every buffer holds. -/
theorem sound_B (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i)
    (x0 : Vec F S2048x1 .i32) (x1 : Vec F S2048x512 .f32) (x2 : Vec F S1792x512 .f32) (xs0 : Vec F S2048x512 .bf16) (xs1 xs2 xs3 : Vec F S2048x1 .f32) (xi4 xi5 xi6 : Vec F S1x1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
        ∗ (iprop(owns (c : Thread nD τ) arg2 fullShare x0
              ∗ owns (c : Thread nD τ) arg3 fullShare x1
              ∗ owns (c : Thread nD τ) arg4 fullShare x2
              ∗ owns (c : Thread nD τ) arg5 fullShare (blkOut i x0 x2 xs0)
              ∗ owns (c : Thread nD τ) arg6 fullShare xi4
              ∗ owns (c : Thread nD τ) arg7 fullShare xi5
              ∗ owns (c : Thread nD τ) arg8 fullShare xi6
              ∗ owns (c : Thread nD τ) arg9 fullShare xs0
              ∗ owns (c : Thread nD τ) arg10 fullShare (mNew i x0 x2 xs0 xs1)
              ∗ owns (c : Thread nD τ) arg11 fullShare (lNew i x0 x2 xs0 xs1 xs2)
              ∗ owns (c : Thread nD τ) arg12 fullShare (tNew i x0 x2 xs0 xs3)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  iintro ⟨H0, H1, H2, H3, H4, H5, H6, HS0, HS1, HS2, HS3, Hk⟩
  iapply ((kernelRun0_B c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.2 xi4 xi5 xi6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, ⟨%f3, H3⟩, H4, H5, H6, HS0, ⟨%fS1, HS1⟩, ⟨%fS2, HS2⟩, ⟨%fS3, HS3⟩⟩
  iapply Hk
  isplitl [H0]; · iexact H0
  isplitl [H1]; · iexact H1
  isplitl [H2]; · iexact H2
  isplitl [H3]
  · unfold owns; iexists _; isplitr
    swap; · iexact H3
    ipureintro; exact outB_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 f3
  isplitl [H4]; · iexact H4
  isplitl [H5]; · iexact H5
  isplitl [H6]; · iexact H6
  isplitl [HS0]; · iexact HS0
  isplitl [HS1]
  · unfold owns; iexists _; isplitr
    swap; · iexact HS1
    ipureintro; exact outB_S1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS1
  isplitl [HS2]
  · unfold owns; iexists _; isplitr
    swap; · iexact HS2
    ipureintro; exact outB_S2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS2
  unfold owns; iexists _; isplitr
  swap; · iexact HS3
  ipureintro; exact outB_S3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS3

/-- The body's triple at the last point of a group, its post naming what every buffer holds. -/
theorem sound_C (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i)
    (x0 : Vec F S2048x1 .i32) (x1 : Vec F S2048x512 .f32) (x2 : Vec F S1792x512 .f32) (xs0 : Vec F S2048x512 .bf16) (xs1 xs2 xs3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
        ∗ (iprop(owns (c : Thread nD τ) arg2 fullShare x0
              ∗ owns (c : Thread nD τ) arg3 fullShare x1
              ∗ owns (c : Thread nD τ) arg4 fullShare x2
              ∗ owns (c : Thread nD τ) arg5 fullShare (blkOut i x0 x2 xs0)
              ∗ owns (c : Thread nD τ) arg6 fullShare (k0_pay3 (mNew i x0 x2 xs0 xs1))
              ∗ owns (c : Thread nD τ) arg7 fullShare (k0_pay4 (lNew i x0 x2 xs0 xs1 xs2))
              ∗ owns (c : Thread nD τ) arg8 fullShare (k0_pay5 (tNew i x0 x2 xs0 xs3))
              ∗ owns (c : Thread nD τ) arg9 fullShare xs0
              ∗ owns (c : Thread nD τ) arg10 fullShare (mNew i x0 x2 xs0 xs1)
              ∗ owns (c : Thread nD τ) arg11 fullShare (lNew i x0 x2 xs0 xs1 xs2)
              ∗ owns (c : Thread nD τ) arg12 fullShare (tNew i x0 x2 xs0 xs3)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  iintro ⟨H0, H1, H2, H3, H4, H5, H6, HS0, HS1, HS2, HS3, Hk⟩
  iapply ((kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, ⟨%f3, H3⟩, ⟨%f4, H4⟩, ⟨%f5, H5⟩, ⟨%f6, H6⟩, HS0, ⟨%fS1, HS1⟩, ⟨%fS2, HS2⟩, ⟨%fS3, HS3⟩⟩
  iapply Hk
  isplitl [H0]; · iexact H0
  isplitl [H1]; · iexact H1
  isplitl [H2]; · iexact H2
  isplitl [H3]
  · unfold owns; iexists _; isplitr
    swap; · iexact H3
    ipureintro; exact outC_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 f3
  isplitl [H4]
  · unfold owns; iexists _; isplitr
    swap; · iexact H4
    ipureintro; exact outC_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3 f4
  isplitl [H5]
  · unfold owns; iexists _; isplitr
    swap; · iexact H5
    ipureintro; exact outC_5 c i arg2 harg2 arg3 harg3 arg4 harg4 arg5 harg5 arg6 harg6 arg7 harg7 arg8 harg8 arg9 harg9 arg10 harg10 arg11 harg11 arg12 harg12 hc0 hc1 x0 x1 x2 xs0 xs1 xs2 xs3 f5
  isplitl [H6]
  · unfold owns; iexists _; isplitr
    swap; · iexact H6
    ipureintro; exact outC_6 c i arg2 harg2 arg3 harg3 arg4 harg4 arg5 harg5 arg6 harg6 arg7 harg7 arg8 harg8 arg9 harg9 arg10 harg10 arg11 harg11 arg12 harg12 hc0 hc1 x0 x1 x2 xs0 xs1 xs2 xs3 f6
  isplitl [HS0]; · iexact HS0
  isplitl [HS1]
  · unfold owns; iexists _; isplitr
    swap; · iexact HS1
    ipureintro; exact outC_S1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS1
  isplitl [HS2]
  · unfold owns; iexists _; isplitr
    swap; · iexact HS2
    ipureintro; exact outC_S2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS2
  unfold owns; iexists _; isplitr
  swap; · iexact HS3
  ipureintro; exact outC_S3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS3

end Cert.Kernel.Body

end
-- ==== Proof.KFrame.lean ====
/-
  The frame of the word-level program: whatever the values, every weakly fair run of the program ends, and it ends
  with the three argument arrays holding what they held at the start.

  Nothing here speaks of values. Two of the kernel's windows are cut short at the edge of their arrays (the last
  weight tile and the last tile of entries run past class 49999), so the staging buffers hold words no function of
  the point names. The proof therefore hands every staging buffer to the body at SOME contents and takes it back at
  SOME contents: all seven windows are read with their contents forgotten. What is left to show of the body is that,
  in each of its three control cases (first point of a group of fourteen, inside a group, last point of a group),
  it runs from any contents of the buffers it is given to some contents of the same buffers, which the three
  whole-body triples state. The input arrays are never written back, so they end as the region found them; the
  labels' array is staged only through its reshaped copy and no later host line writes it.
-/
import proofs.«416711_j88845693485822_2_alg».proof.Proof.KSound

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data: every window forgotten -/

/-- Every window's staging contents are left unnamed. -/
def forgetAll : Fin cfg0.W → Bool := fun _ => true

/-- The proof data on core `c`: the arrays as the region finds them; nothing named of any staging buffer; the
    invariant is the four scratch buffers at some contents and the generator register; nothing owed; full shares. -/
def fdats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- The arrays of the proof data are the region-entry contents. -/
theorem fA_eq (c : Dev nD) (w : Fin cfg0.W) : (fdats m 0 c).A w = V m c (Pipeline.arrRef spec0 w) := by
  dsimp only [fdats]

/-! ## The body at a generic point -/

/-- What the body is called with at point `t`: the invariant, the core's dues, and each of the seven current
    staging buffers at some contents. -/
def framePre (c : Dev nD) (t : Fin cfg0.N) : sProp 𝕄 :=
  iprop(Pipeline.ΦA spec0 c ∗ (fdats m 0 c).owesAt () t.castSucc
      ∗ (∃ X, owns (c : Thread nD τ) (ms0_0 t) fullShare X)
      ∗ (∃ X, owns (c : Thread nD τ) (ms0_1 t) fullShare X)
      ∗ (∃ X, owns (c : Thread nD τ) (ms0_2 t) fullShare X)
      ∗ (∃ X, owns (c : Thread nD τ) (ms0_3 t) fullShare X)
      ∗ (∃ X, owns (c : Thread nD τ) (ms0_4 t) fullShare X)
      ∗ (∃ X, owns (c : Thread nD τ) (ms0_5 t) fullShare X)
      ∗ (∃ X, owns (c : Thread nD τ) (ms0_6 t) fullShare X))

/-- The body at any point runs from some contents of its buffers to some contents of the same buffers. The point is
    the first of its group, inside it, or the last (never first and last: a group has fourteen points); in each
    case the whole-body triple applies at the contents the existentials give, and everything it returns is handed
    back with its contents forgotten. -/
theorem frame_body (c : Dev nD) (t : Fin cfg0.N) :
    framePre m c t ⊢ wp frame (wpE (defs₀ (F := F)) Variants.none c none) Set.univ (bodyAt0 t) (fun _ => framePre m c t) := by
  unfold framePre bodyAt0
  rw [PhiA0_eq]
  have hN : t.val < 28 := lt_of_lt_of_eq t.isLt (show cfg0.N = 28 from N_0)
  by_cases h0 : t.val % 14 = 0
  · by_cases h1 : t.val % 14 = 13
    · exfalso; omega
    · iintro ⟨⟨⟨HS0, HS1, HS2, HS3⟩, Hg⟩, Ho, ⟨%x0, H0⟩, ⟨%x1, H1⟩, ⟨%x2, H2⟩, H3, ⟨%x4, H4⟩, ⟨%x5, H5⟩, ⟨%x6, H6⟩⟩
      iapply (sound_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
        ((hcond0_0 t).mpr h0) (fun h => h1 ((hcond0_1 t).mp h)) x0 x1 x2 x4 x5 x6 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexists _; iexact HS0
          isplitl [HS1]; · iexists _; iexact HS1
          isplitl [HS2]; · iexists _; iexact HS2
          iexists _; iexact HS3
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
  · by_cases h1 : t.val % 14 = 13
    · iintro ⟨⟨⟨⟨%s0, HS0⟩, ⟨%s1, HS1⟩, ⟨%s2, HS2⟩, ⟨%s3, HS3⟩⟩, Hg⟩, Ho, ⟨%x0, H0⟩, ⟨%x1, H1⟩, ⟨%x2, H2⟩, H3, H4, H5, H6⟩
      iapply (sound_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
        (fun h => h0 ((hcond0_0 t).mp h)) ((hcond0_1 t).mpr h1) x0 x1 x2 s0 s1 s2 s3 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexists _; iexact HS0
          isplitl [HS1]; · iexists _; iexact HS1
          isplitl [HS2]; · iexists _; iexact HS2
          iexists _; iexact HS3
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6
    · iintro ⟨⟨⟨⟨%s0, HS0⟩, ⟨%s1, HS1⟩, ⟨%s2, HS2⟩, ⟨%s3, HS3⟩⟩, Hg⟩, Ho, ⟨%x0, H0⟩, ⟨%x1, H1⟩, ⟨%x2, H2⟩, H3, ⟨%x4, H4⟩, ⟨%x5, H5⟩, ⟨%x6, H6⟩⟩
      iapply (sound_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
        (fun h => h0 ((hcond0_0 t).mp h)) (fun h => h1 ((hcond0_1 t).mp h)) x0 x1 x2 s0 s1 s2 s3 x4 x5 x6 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexists _; iexact HS0
          isplitl [HS1]; · iexists _; iexact HS1
          isplitl [HS2]; · iexists _; iexact HS2
          iexists _; iexact HS3
        iexact Hg
      isplitl [Ho]; · iexact Ho
      isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      iexists _; iexact H6

/-- The library's body obligation with every window forgotten, at every point. -/
theorem frame_obligation (c : Dev nD) :
    BodyObligation (fdats (F := F) m 0 c) (defs₀ (F := F)) Variants.none () Set.univ forgetAll := fun t => by
  rw [bigSep_W0, bigSep_W0]
  exact frame_body m c t

/-! ## The host lines after the region -/

/-- The buffers the host lines after the region write: each line's own result buffer. -/
def hostWritten : Finset (Ref sig .tc) := {main_v2, main_v3, main_v4, main_cst, main_v5, main_v6, main_v7, main_v8, main_v9, main_v10, main_cst_0, main_v11, main_v12, main_v13, main_cst_1, main_v14, main_v15, main_cst_2, main_v16, main_cst_3, main_v17, main_v18}

/-- Every buffer a host line after the region writes is one of them. -/
theorem sfx_writes : ∀ ops ∈ ([hostOps1] : List (List (HloOp τ sig (Elt F)))), ∀ op ∈ ops,
    ∀ b : Ref sig .tc, Proc.devRef .tc b ∈ op.writes → b ∈ hostWritten := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-! ## The run and the frame -/

set_option backward.isDefEq.respectTransparency.types false in
/-- From any memory with zero counters, every weakly fair run of the program on the TensorCores ends, each input
    array of the pipeline at its region-entry contents (an input is never written back), and every buffer that
    bypasses the region and that no later host line writes at its region-entry contents. -/
theorem frame_run : θ_run defs (onTc (τ := τ) (main (F := F))) (s₀ m ρ)
    (Pipeline.RDat.FramePostR (cfgs 0) (fun c => (fdats m 0 c).toRForget forgetAll) hostWritten (V m)) :=
  Pipeline.RDat.θ_run_frame_around_T cfgs (0 : Fin 1) launch0 defs₀ Variants.none (fun c => (fdats m 0 c).toRForget forgetAll) hostWritten m ρ main
    (hbody := fun c => (frame_obligation m c).toRForget) (hshare := fun c => ((fdats m 0 c).toRForget forgetAll).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := fA_eq m) (hΦ := fun _ _ => rfl)

/-- The frame: the three argument arrays end as they began. The first and the third are the arrays of input windows
    (never written back, and no host line before the region writes them); the second is no window's array, no host
    line writes it, and it bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h.arr_in c 1 rfl).trans ((fA_eq m c 1).trans (V_main_arg0 m c)),
      ((h c).2 main_arg1 (Finset.mem_sdiff.mpr ⟨Pipeline.mem_restRefs_of main_arg1 (by decide) (by decide), by decide⟩)).trans (V_main_arg1 m c),
      (h.arr_in c 2 rfl).trans ((fA_eq m c 2).trans (V_main_arg2 m c))⟩) (frame_run m ρ)

end Cert.Kernel.Body

end
-- ==== Proof.KIRuns.lean ====
/-
  What the three whole-body runs of the kernel share: the two branch conditions of the body as propositions of the
  grid coordinates, decided over the 28 points (the first holds where the point is the first of its group of
  fourteen, the second where it is the last); where the three statistics windows are idle and where they are written
  back; the staging memrefs of a point and the four scratch buffers as whole memrefs; and the region invariant opened
  into the four scratch buffers, each at some contents, and the generator register.
-/
import proofs.«416711_j88845693485822_2_alg».proof.Proof.Gen.KernelIdeal.Frame
import proofs.«416711_j88845693485822_2_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The first branch's condition: the point's second coordinate is zero. -/
abbrev cond0_0 (i : grid0.Coords) : Prop := (Scalar.cmpi .ne (Scalar.extui (Scalar.cmpi .eq (BitVec.ofNat 32 (i 1).val) 0#32)) 0#32) = 1#1
/-- It holds at the first point of each group of fourteen. -/
theorem hcond0_0 : ∀ t : Fin cfg0.N, cond0_0 (grid0.coords t) ↔ t.val % 14 = 0 :=
  (by decide +kernel : ∀ t : Fin grid0.N, cond0_0 (grid0.coords t) ↔ t.val % 14 = 0)
/-- The second branch's condition: the point's second coordinate is thirteen. -/
abbrev cond0_1 (i : grid0.Coords) : Prop := k0_cond2 i = 1#1
/-- It holds at the last point of each group of fourteen. -/
theorem hcond0_1 : ∀ t : Fin cfg0.N, cond0_1 (grid0.coords t) ↔ t.val % 14 = 13 :=
  (by decide +kernel : ∀ t : Fin grid0.N, cond0_1 (grid0.coords t) ↔ t.val % 14 = 13)

/-- The tile of a point is the point: 14 · (first coordinate) + (second coordinate). -/
theorem tile_of_point : ∀ t : Fin cfg0.N, ((grid0.coords t) 0).val * 14 + ((grid0.coords t) 1).val = t.val :=
  (by decide +kernel : ∀ t : Fin grid0.N, ((grid0.coords t) 0).val * 14 + ((grid0.coords t) 1).val = t.val)

/-- The four windows the body touches at every point are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The statistics windows are idle, and not written back, except at the last point of a group. -/
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem idleAt0_6 : ∀ t : Fin cfg0.N, ¬cond0_1 (grid0.coords t) → cfg0.idle 6 (grid0.coords t) = true := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem noFlush0_6 : ∀ t : Fin cfg0.N, ¬cond0_1 (grid0.coords t) → (cfg0.win 6).flush t = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel
theorem liveAt0_6 : ∀ t : Fin cfg0.N, cond0_1 (grid0.coords t) → cfg0.idle 6 (grid0.coords t) = false := by decide +kernel

/-- Each window's current staging memref at point `t`, as the pipeline passes it, and its wholeness. -/
abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x1792 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
/-- The scratch operands: whole scoped buffers of the kernel's own. -/
abbrev scM0_0 : Memref sig .tc .vmem S2048x512 .bf16 := Memref.whole cc0_scratch0
abbrev scM0_1 : Memref sig .tc .vmem S2048x1 .f32 := Memref.whole cc0_scratch1
abbrev scM0_2 : Memref sig .tc .vmem S2048x1 .f32 := Memref.whole cc0_scratch2
abbrev scM0_3 : Memref sig .tc .vmem S2048x1 .f32 := Memref.whole cc0_scratch3

/-- The region invariant as the four scratch buffers, each at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

end Cert.KernelIdeal.Body

end
-- ==== Proof.KIRunA.lean ====
/-
  The kernel body run whole at the first point of a group (the first branch taken, the second not): the scratch buffers arrive at anything; the unit rows of `x` are stored, the three statistics reset, then the point's block is computed and the statistics advanced. On whole memrefs, the inputs at their contents, the body runs to a
  continuation that holds the inputs as they were and every buffer it stored into with its pieces written; the
  pieces (last first) are the witness the run finds.
-/
import proofs.«416711_j88845693485822_2_alg».proof.Proof.KIRuns

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The pieces each stored buffer ends with, and the body's triple. -/
noncomputable def kernelRun0_A (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i)
    (x0 : Vec F S2048x1 .i32) (x1 : Vec F S2048x512 .f32) (x2 : Vec F S1792x512 .f32) :
    Σ' (L3 : List (View.Piece (Elt F) S2048x1792 .f32)) (LS0 : List (View.Piece (Elt F) S2048x512 .bf16)) (LS1 : List (View.Piece (Elt F) S2048x1 .f32)) (LS2 : List (View.Piece (Elt F) S2048x1 .f32)), { LS3 : List (View.Piece (Elt F) S2048x1 .f32) //
      ∀ (xi4 xi5 xi6 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, fun xi4 xi5 xi6 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%dS0, %fS0, -, HS0⟩, ⟨%dS1, %fS1, -, HS1⟩, ⟨%dS2, %fS2, -, HS2⟩, ⟨%dS3, %fS3, -, HS3⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

end Cert.KernelIdeal.Body

end
-- ==== Proof.KIRunB.lean ====
/-
  The kernel body run whole at a point inside a group (neither branch taken): the scratch buffers arrive at what the point before left; the point's block is computed and the statistics advanced. On whole memrefs, the inputs at their contents, the body runs to a
  continuation that holds the inputs as they were and every buffer it stored into with its pieces written; the
  pieces (last first) are the witness the run finds.
-/
import proofs.«416711_j88845693485822_2_alg».proof.Proof.KIRunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The pieces each stored buffer ends with, and the body's triple. -/
noncomputable def kernelRun0_B (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i)
    (x0 : Vec F S2048x1 .i32) (x1 : Vec F S2048x512 .f32) (x2 : Vec F S1792x512 .f32) (xs0 : Vec F S2048x512 .bf16) (xs1 xs2 xs3 : Vec F S2048x1 .f32) :
    Σ' (L3 : List (View.Piece (Elt F) S2048x1792 .f32)) (LS1 : List (View.Piece (Elt F) S2048x1 .f32)) (LS2 : List (View.Piece (Elt F) S2048x1 .f32)), { LS3 : List (View.Piece (Elt F) S2048x1 .f32) //
      ∀ (xi4 xi5 xi6 : Vec F S1x1x2048 .f32) (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xi4 ∗ owns (c : Thread nD τ) arg7 fullShare xi5 ∗ owns (c : Thread nD τ) arg8 fullShare xi6 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%f6, %hf6, H6⟩, ⟨%fS0, %hfS0, HS0⟩, ⟨%fS1, %hfS1, HS1⟩, ⟨%fS2, %hfS2, HS2⟩, ⟨%fS3, %hfS3, HS3⟩, Hk⟩
    obtain rfl := harg2.eq_unread hf0; obtain rfl := harg3.eq_unread hf1; obtain rfl := harg4.eq_unread hf2; obtain rfl := harg6.eq_unread hf4; obtain rfl := harg7.eq_unread hf5; obtain rfl := harg8.eq_unread hf6; obtain rfl := harg9.eq_unread hfS0; obtain rfl := harg10.eq_unread hfS1; obtain rfl := harg11.eq_unread hfS2; obtain rfl := harg12.eq_unread hfS3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    isplitl [HS2]; · iexists _; iexact HS2
    iexists _; iexact HS3

end Cert.KernelIdeal.Body

end
-- ==== Proof.KIRunC.lean ====
/-
  The kernel body run whole at the last point of a group (the second branch taken): as inside a group, and the three statistics are written out to their windows' buffers. On whole memrefs, the inputs at their contents, the body runs to a
  continuation that holds the inputs as they were and every buffer it stored into with its pieces written; the
  pieces (last first) are the witness the run finds.
-/
import proofs.«416711_j88845693485822_2_alg».proof.Proof.KIRunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

set_option maxHeartbeats 4000000 in
/-- The pieces each stored buffer ends with, and the body's triple. -/
noncomputable def kernelRun0_C (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i)
    (x0 : Vec F S2048x1 .i32) (x1 : Vec F S2048x512 .f32) (x2 : Vec F S1792x512 .f32) (xs0 : Vec F S2048x512 .bf16) (xs1 xs2 xs3 : Vec F S2048x1 .f32) :
    Σ' (L3 : List (View.Piece (Elt F) S2048x1792 .f32)) (L4 : List (View.Piece (Elt F) S1x1x2048 .f32)) (L5 : List (View.Piece (Elt F) S1x1x2048 .f32)) (L6 : List (View.Piece (Elt F) S1x1x2048 .f32)) (LS1 : List (View.Piece (Elt F) S2048x1 .f32)) (LS2 : List (View.Piece (Elt F) S2048x1 .f32)), { LS3 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, ?_, fun E K => ?run⟩
  case run =>
    simp only [cc0__kernel_eq_skeleton]; unfold cc0__kernel_skel
    simp only [k0_part1_eq_skeleton, k0_part2_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fS0, %hfS0, HS0⟩, ⟨%fS1, %hfS1, HS1⟩, ⟨%fS2, %hfS2, HS2⟩, ⟨%fS3, %hfS3, HS3⟩, Hk⟩
    obtain rfl := harg2.eq_unread hf0; obtain rfl := harg3.eq_unread hf1; obtain rfl := harg4.eq_unread hf2; obtain rfl := harg9.eq_unread hfS0; obtain rfl := harg10.eq_unread hfS1; obtain rfl := harg11.eq_unread hfS2; obtain rfl := harg12.eq_unread hfS3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [HS0]
    · iexists _; isplitr; · ipureintro; exact harg9.read_unread _
      iexact HS0
    isplitl [HS1]; · iexists _; iexact HS1
    isplitl [HS2]; · iexists _; iexact HS2
    iexists _; iexact HS3

end Cert.KernelIdeal.Body

end
-- ==== Proof.KISound.lean ====
/-
  What one point of the grid does, as pure functions of what the body loads — the point's block of entries, and
  the three statistics advanced over it — and the body's triple in each of its three control cases with these in
  its post: every buffer the body stores into is stored whole, so what it holds afterwards is the stored value.
-/
import proofs.«416711_j88845693485822_2_alg».proof.Proof.KIRunC
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

/-- The point's block of entries from the labels' block, the weight block and the unit rows of `x`. -/
def blkOut (i : grid0.Coords) (lb : Vec F S2048x1 .i32) (wb : Vec F S1792x512 .f32) (xn : Vec F S2048x512 .bf16) : FVec F S2048x1792 .f32 :=
  k0_pay17 (k0_pay10 wb xn) (k0_pay12 i) (k0_pay13 i lb) (k0_pay14 i wb xn lb) (k0_pay15 i wb xn lb) k0_pay16
/-- The running maximum after the point, from the one before it. -/
def mNew (i : grid0.Coords) (lb : Vec F S2048x1 .i32) (wb : Vec F S1792x512 .f32) (xn : Vec F S2048x512 .bf16) (m : Vec F S2048x1 .f32) : FVec F S2048x1 .f32 :=
  k0_pay20 (k0_pay10 wb xn) (k0_pay12 i) (k0_pay13 i lb) (k0_pay14 i wb xn lb) (k0_pay15 i wb xn lb) k0_pay16 m
/-- The running sum after the point. -/
def lNew (i : grid0.Coords) (lb : Vec F S2048x1 .i32) (wb : Vec F S1792x512 .f32) (xn : Vec F S2048x512 .bf16) (m l : Vec F S2048x1 .f32) : FVec F S2048x1 .f32 :=
  k0_pay1 (k0_pay19 (k0_pay10 wb xn) (k0_pay12 i) (k0_pay13 i lb) (k0_pay14 i wb xn lb) (k0_pay15 i wb xn lb) k0_pay16 m m l)
/-- The target sum after the point. -/
def tNew (i : grid0.Coords) (lb : Vec F S2048x1 .i32) (wb : Vec F S1792x512 .f32) (xn : Vec F S2048x512 .bf16) (t : Vec F S2048x1 .f32) : FVec F S2048x1 .f32 :=
  k0_pay2 (k0_pay13 i lb) (blkOut i lb wb xn) t

/-- The zero offsets of a rank-2 and of a rank-3 window, however spelt, are the zero function. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## The first point of a group: each buffer reads back the value of its last whole store (the statistics are reset, then advanced from the reset values; the unit rows are stored, then read). -/

section A
variable (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i)
    (x0 : Vec F S2048x1 .i32) (x1 : Vec F S2048x512 .f32) (x2 : Vec F S1792x512 .f32)

theorem outA_3 (f : arg5.view.ty.Contents (Elt F)) :
    arg5.view.read (Elt F) (arg5.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2).1) = blkOut i x0 x2 (k0_pay6 x1) := by
  rw [View.read_writes_eq_canon _ _ _ (View.cover_of_tiledL _ S2048x1792.size (by sl_kernel_rfl))]
  unfold kernelRun0_A; dsimp only; sl_unfold_words
  rw [View.canon_unit_zero (S := S2048x1792) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outA_S0 (f : arg9.view.ty.Contents (Elt F)) :
    arg9.view.read (Elt F) (arg9.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2).2.1) = k0_pay6 x1 := by
  rw [View.read_writes_eq_canon _ _ _ (View.cover_of_tiledL _ S2048x512.size (by sl_kernel_rfl))]
  unfold kernelRun0_A; dsimp only; sl_unfold_words
  rw [View.canon_unit_zero (S := S2048x512) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outA_S1 (f : arg10.view.ty.Contents (Elt F)) :
    arg10.view.read (Elt F) (arg10.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2).2.2.1) = mNew i x0 x2 (k0_pay6 x1) k0_pay7 := by
  rw [View.read_writes_eq_canon _ _ _ (View.cover_of_tiledL _ S2048x1.size (by sl_kernel_rfl))]
  unfold kernelRun0_A; dsimp only; sl_unfold_words
  rw [View.canon_cons_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outA_S2 (f : arg11.view.ty.Contents (Elt F)) :
    arg11.view.read (Elt F) (arg11.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2).2.2.2.1) = lNew i x0 x2 (k0_pay6 x1) k0_pay7 k0_pay8 := by
  rw [View.read_writes_eq_canon _ _ _ (View.cover_of_tiledL _ S2048x1.size (by sl_kernel_rfl))]
  unfold kernelRun0_A; dsimp only; sl_unfold_words
  rw [View.canon_cons_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outA_S3 (f : arg12.view.ty.Contents (Elt F)) :
    arg12.view.read (Elt F) (arg12.view.writes (Elt F) f (kernelRun0_A c i arg2 harg2 arg3 harg3 arg4 harg4 arg5 harg5 arg6 harg6 arg7 harg7 arg8 harg8 arg9 harg9 arg10 harg10 arg11 harg11 arg12 harg12 hc0 hc1 x0 x1 x2).2.2.2.2.1) = tNew i x0 x2 (k0_pay6 x1) k0_pay9 := by
  rw [View.read_writes_eq_canon _ _ _ (View.cover_of_tiledL _ S2048x1.size (by sl_kernel_rfl))]
  unfold kernelRun0_A; dsimp only; sl_unfold_words
  rw [View.canon_cons_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl
end A

/-! ## A point inside a group: each buffer reads back the value of its one whole store. -/

section B
variable (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i)
    (x0 : Vec F S2048x1 .i32) (x1 : Vec F S2048x512 .f32) (x2 : Vec F S1792x512 .f32) (xs0 : Vec F S2048x512 .bf16) (xs1 xs2 xs3 : Vec F S2048x1 .f32)

theorem outB_3 (f : arg5.view.ty.Contents (Elt F)) :
    arg5.view.read (Elt F) (arg5.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 xs0 xs1 xs2 xs3).1) = blkOut i x0 x2 xs0 := by
  rw [View.read_writes_eq_canon _ _ _ (View.cover_of_tiledL _ S2048x1792.size (by sl_kernel_rfl))]
  unfold kernelRun0_B; dsimp only; sl_unfold_words
  rw [View.canon_unit_zero (S := S2048x1792) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outB_S1 (f : arg10.view.ty.Contents (Elt F)) :
    arg10.view.read (Elt F) (arg10.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.1) = mNew i x0 x2 xs0 xs1 := by
  rw [View.read_writes_eq_canon _ _ _ (View.cover_of_tiledL _ S2048x1.size (by sl_kernel_rfl))]
  unfold kernelRun0_B; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outB_S2 (f : arg11.view.ty.Contents (Elt F)) :
    arg11.view.read (Elt F) (arg11.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.1) = lNew i x0 x2 xs0 xs1 xs2 := by
  rw [View.read_writes_eq_canon _ _ _ (View.cover_of_tiledL _ S2048x1.size (by sl_kernel_rfl))]
  unfold kernelRun0_B; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outB_S3 (f : arg12.view.ty.Contents (Elt F)) :
    arg12.view.read (Elt F) (arg12.view.writes (Elt F) f (kernelRun0_B c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.1) = tNew i x0 x2 xs0 xs3 := by
  rw [View.read_writes_eq_canon _ _ _ (View.cover_of_tiledL _ S2048x1.size (by sl_kernel_rfl))]
  unfold kernelRun0_B; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl
end B

/-! ## The last point of a group: as inside a group, and each statistics window reads back the advanced statistic, re-laid as one row. -/

section C
variable (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i)
    (x0 : Vec F S2048x1 .i32) (x1 : Vec F S2048x512 .f32) (x2 : Vec F S1792x512 .f32) (xs0 : Vec F S2048x512 .bf16) (xs1 xs2 xs3 : Vec F S2048x1 .f32)

theorem outC_3 (f : arg5.view.ty.Contents (Elt F)) :
    arg5.view.read (Elt F) (arg5.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).1) = blkOut i x0 x2 xs0 := by
  rw [View.read_writes_eq_canon _ _ _ (View.cover_of_tiledL _ S2048x1792.size (by sl_kernel_rfl))]
  unfold kernelRun0_C; dsimp only; sl_unfold_words
  rw [View.canon_unit_zero (S := S2048x1792) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_4 (f : arg6.view.ty.Contents (Elt F)) :
    arg6.view.read (Elt F) (arg6.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.1) = k0_pay3 (mNew i x0 x2 xs0 xs1) := by
  rw [View.read_writes_eq_canon _ _ _ (View.cover_of_tiledL _ S1x1x2048.size (by sl_kernel_rfl))]
  unfold kernelRun0_C; dsimp only; sl_unfold_words
  rw [View.canon_unit_zero (S := S1x1x2048) hz3]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_5 (f : arg7.view.ty.Contents (Elt F)) :
    arg7.view.read (Elt F) (arg7.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.1) = k0_pay4 (lNew i x0 x2 xs0 xs1 xs2) := by
  rw [View.read_writes_eq_canon _ _ _ (View.cover_of_tiledL _ S1x1x2048.size (by sl_kernel_rfl))]
  unfold kernelRun0_C; dsimp only; sl_unfold_words
  rw [View.canon_unit_zero (S := S1x1x2048) hz3]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_6 (f : arg8.view.ty.Contents (Elt F)) :
    arg8.view.read (Elt F) (arg8.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.1) = k0_pay5 (tNew i x0 x2 xs0 xs3) := by
  rw [View.read_writes_eq_canon _ _ _ (View.cover_of_tiledL _ S1x1x2048.size (by sl_kernel_rfl))]
  unfold kernelRun0_C; dsimp only; sl_unfold_words
  rw [View.canon_unit_zero (S := S1x1x2048) hz3]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_S1 (f : arg10.view.ty.Contents (Elt F)) :
    arg10.view.read (Elt F) (arg10.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.2.1) = mNew i x0 x2 xs0 xs1 := by
  rw [View.read_writes_eq_canon _ _ _ (View.cover_of_tiledL _ S2048x1.size (by sl_kernel_rfl))]
  unfold kernelRun0_C; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_S2 (f : arg11.view.ty.Contents (Elt F)) :
    arg11.view.read (Elt F) (arg11.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.2.2.1) = lNew i x0 x2 xs0 xs1 xs2 := by
  rw [View.read_writes_eq_canon _ _ _ (View.cover_of_tiledL _ S2048x1.size (by sl_kernel_rfl))]
  unfold kernelRun0_C; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl

theorem outC_S3 (f : arg12.view.ty.Contents (Elt F)) :
    arg12.view.read (Elt F) (arg12.view.writes (Elt F) f (kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.2.2.2.1) = tNew i x0 x2 xs0 xs3 := by
  rw [View.read_writes_eq_canon _ _ _ (View.cover_of_tiledL _ S2048x1.size (by sl_kernel_rfl))]
  unfold kernelRun0_C; dsimp only; sl_unfold_words
  rw [View.canon_unit_zero (S := S2048x1) hz2]
  simp only [View.readAt_eq_ld, harg2.read_unread, harg3.read_unread, harg4.read_unread, harg9.read_unread, harg10.read_unread, harg11.read_unread, harg12.read_unread,
    View.ld_unit_zero (S := S2048x1) hz2, View.ld_unit_zero (S := S1792x512) hz2, View.ld_unit_zero (S := S2048x512) hz2, View.ld_unit_zero (S := S2048x1792) hz2,
    View.readCov_unit_zero (S := S2048x512) _ hz2, View.readCov_unit_zero (S := S2048x1) _ hz2] <;> rfl
end C

/-- The body's triple at the first point of a group, its post naming what every buffer holds. -/
theorem sound_A (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : cond0_0 i) (hc1 : ¬cond0_1 i)
    (x0 : Vec F S2048x1 .i32) (x1 : Vec F S2048x512 .f32) (x2 : Vec F S1792x512 .f32) (xi4 xi5 xi6 : Vec F S1x1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg2 fullShare x0
              ∗ owns (c : Thread nD τ) arg3 fullShare x1
              ∗ owns (c : Thread nD τ) arg4 fullShare x2
              ∗ owns (c : Thread nD τ) arg5 fullShare (blkOut i x0 x2 (k0_pay6 x1))
              ∗ owns (c : Thread nD τ) arg6 fullShare xi4
              ∗ owns (c : Thread nD τ) arg7 fullShare xi5
              ∗ owns (c : Thread nD τ) arg8 fullShare xi6
              ∗ owns (c : Thread nD τ) arg9 fullShare (k0_pay6 x1)
              ∗ owns (c : Thread nD τ) arg10 fullShare (mNew i x0 x2 (k0_pay6 x1) k0_pay7)
              ∗ owns (c : Thread nD τ) arg11 fullShare (lNew i x0 x2 (k0_pay6 x1) k0_pay7 k0_pay8)
              ∗ owns (c : Thread nD τ) arg12 fullShare (tNew i x0 x2 (k0_pay6 x1) k0_pay9)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  iintro ⟨H0, H1, H2, H3, H4, H5, H6, HS0, HS1, HS2, HS3, Hk⟩
  iapply ((kernelRun0_A c i arg2 harg2 arg3 harg3 arg4 harg4 arg5 harg5 arg6 harg6 arg7 harg7 arg8 harg8 arg9 harg9 arg10 harg10 arg11 harg11 arg12 harg12 hc0 hc1 x0 x1 x2).2.2.2.2.2 xi4 xi5 xi6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, ⟨%f3, H3⟩, H4, H5, H6, ⟨%fS0, HS0⟩, ⟨%fS1, HS1⟩, ⟨%fS2, HS2⟩, ⟨%fS3, HS3⟩⟩
  iapply Hk
  isplitl [H0]; · iexact H0
  isplitl [H1]; · iexact H1
  isplitl [H2]; · iexact H2
  isplitl [H3]
  · unfold owns; iexists _; isplitr
    swap; · iexact H3
    ipureintro; exact outA_3 c i arg2 harg2 arg3 harg3 arg4 harg4 arg5 harg5 arg6 harg6 arg7 harg7 arg8 harg8 arg9 harg9 arg10 harg10 arg11 harg11 arg12 harg12 hc0 hc1 x0 x1 x2 f3
  isplitl [H4]; · iexact H4
  isplitl [H5]; · iexact H5
  isplitl [H6]; · iexact H6
  isplitl [HS0]
  · unfold owns; iexists _; isplitr
    swap; · iexact HS0
    ipureintro; exact outA_S0 c i arg2 harg2 arg3 harg3 arg4 harg4 arg5 harg5 arg6 harg6 arg7 harg7 arg8 harg8 arg9 harg9 arg10 harg10 arg11 harg11 arg12 harg12 hc0 hc1 x0 x1 x2 fS0
  isplitl [HS1]
  · unfold owns; iexists _; isplitr
    swap; · iexact HS1
    ipureintro; exact outA_S1 c i arg2 harg2 arg3 harg3 arg4 harg4 arg5 harg5 arg6 harg6 arg7 harg7 arg8 harg8 arg9 harg9 arg10 harg10 arg11 harg11 arg12 harg12 hc0 hc1 x0 x1 x2 fS1
  isplitl [HS2]
  · unfold owns; iexists _; isplitr
    swap; · iexact HS2
    ipureintro; exact outA_S2 c i arg2 harg2 arg3 harg3 arg4 harg4 arg5 harg5 arg6 harg6 arg7 harg7 arg8 harg8 arg9 harg9 arg10 harg10 arg11 harg11 arg12 harg12 hc0 hc1 x0 x1 x2 fS2
  unfold owns; iexists _; isplitr
  swap; · iexact HS3
  ipureintro; exact outA_S3 c i arg2 harg2 arg3 harg3 arg4 harg4 arg5 harg5 arg6 harg6 arg7 harg7 arg8 harg8 arg9 harg9 arg10 harg10 arg11 harg11 arg12 harg12 hc0 hc1 x0 x1 x2 fS3

/-- The body's triple at a point inside a group, its post naming what every buffer holds. -/
theorem sound_B (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : ¬cond0_1 i)
    (x0 : Vec F S2048x1 .i32) (x1 : Vec F S2048x512 .f32) (x2 : Vec F S1792x512 .f32) (xs0 : Vec F S2048x512 .bf16) (xs1 xs2 xs3 : Vec F S2048x1 .f32) (xi4 xi5 xi6 : Vec F S1x1x2048 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
        ∗ (iprop(owns (c : Thread nD τ) arg2 fullShare x0
              ∗ owns (c : Thread nD τ) arg3 fullShare x1
              ∗ owns (c : Thread nD τ) arg4 fullShare x2
              ∗ owns (c : Thread nD τ) arg5 fullShare (blkOut i x0 x2 xs0)
              ∗ owns (c : Thread nD τ) arg6 fullShare xi4
              ∗ owns (c : Thread nD τ) arg7 fullShare xi5
              ∗ owns (c : Thread nD τ) arg8 fullShare xi6
              ∗ owns (c : Thread nD τ) arg9 fullShare xs0
              ∗ owns (c : Thread nD τ) arg10 fullShare (mNew i x0 x2 xs0 xs1)
              ∗ owns (c : Thread nD τ) arg11 fullShare (lNew i x0 x2 xs0 xs1 xs2)
              ∗ owns (c : Thread nD τ) arg12 fullShare (tNew i x0 x2 xs0 xs3)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  iintro ⟨H0, H1, H2, H3, H4, H5, H6, HS0, HS1, HS2, HS3, Hk⟩
  iapply ((kernelRun0_B c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.2 xi4 xi5 xi6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, ⟨%f3, H3⟩, H4, H5, H6, HS0, ⟨%fS1, HS1⟩, ⟨%fS2, HS2⟩, ⟨%fS3, HS3⟩⟩
  iapply Hk
  isplitl [H0]; · iexact H0
  isplitl [H1]; · iexact H1
  isplitl [H2]; · iexact H2
  isplitl [H3]
  · unfold owns; iexists _; isplitr
    swap; · iexact H3
    ipureintro; exact outB_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 f3
  isplitl [H4]; · iexact H4
  isplitl [H5]; · iexact H5
  isplitl [H6]; · iexact H6
  isplitl [HS0]; · iexact HS0
  isplitl [HS1]
  · unfold owns; iexists _; isplitr
    swap; · iexact HS1
    ipureintro; exact outB_S1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS1
  isplitl [HS2]
  · unfold owns; iexists _; isplitr
    swap; · iexact HS2
    ipureintro; exact outB_S2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS2
  unfold owns; iexists _; isplitr
  swap; · iexact HS3
  ipureintro; exact outB_S3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS3

/-- The body's triple at the last point of a group, its post naming what every buffer holds. -/
theorem sound_C (c : Dev nD) (i : grid0.Coords) (arg2 : Memref sig .tc .vmem S2048x1 .i32) (harg2 : arg2.IsWhole) (arg3 : Memref sig .tc .vmem S2048x512 .f32) (harg3 : arg3.IsWhole) (arg4 : Memref sig .tc .vmem S1792x512 .f32) (harg4 : arg4.IsWhole) (arg5 : Memref sig .tc .vmem S2048x1792 .f32) (harg5 : arg5.IsWhole) (arg6 : Memref sig .tc .vmem S1x1x2048 .f32) (harg6 : arg6.IsWhole) (arg7 : Memref sig .tc .vmem S1x1x2048 .f32) (harg7 : arg7.IsWhole) (arg8 : Memref sig .tc .vmem S1x1x2048 .f32) (harg8 : arg8.IsWhole) (arg9 : Memref sig .tc .vmem S2048x512 .bf16) (harg9 : arg9.IsWhole) (arg10 : Memref sig .tc .vmem S2048x1 .f32) (harg10 : arg10.IsWhole) (arg11 : Memref sig .tc .vmem S2048x1 .f32) (harg11 : arg11.IsWhole) (arg12 : Memref sig .tc .vmem S2048x1 .f32) (harg12 : arg12.IsWhole) (hc0 : ¬cond0_0 i) (hc1 : cond0_1 i)
    (x0 : Vec F S2048x1 .i32) (x1 : Vec F S2048x512 .f32) (x2 : Vec F S1792x512 .f32) (xs0 : Vec F S2048x512 .bf16) (xs1 xs2 xs3 : Vec F S2048x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
        ∗ (iprop(owns (c : Thread nD τ) arg2 fullShare x0
              ∗ owns (c : Thread nD τ) arg3 fullShare x1
              ∗ owns (c : Thread nD τ) arg4 fullShare x2
              ∗ owns (c : Thread nD τ) arg5 fullShare (blkOut i x0 x2 xs0)
              ∗ owns (c : Thread nD τ) arg6 fullShare (k0_pay3 (mNew i x0 x2 xs0 xs1))
              ∗ owns (c : Thread nD τ) arg7 fullShare (k0_pay4 (lNew i x0 x2 xs0 xs1 xs2))
              ∗ owns (c : Thread nD τ) arg8 fullShare (k0_pay5 (tNew i x0 x2 xs0 xs3))
              ∗ owns (c : Thread nD τ) arg9 fullShare xs0
              ∗ owns (c : Thread nD τ) arg10 fullShare (mNew i x0 x2 xs0 xs1)
              ∗ owns (c : Thread nD τ) arg11 fullShare (lNew i x0 x2 xs0 xs1 xs2)
              ∗ owns (c : Thread nD τ) arg12 fullShare (tNew i x0 x2 xs0 xs3)) -∗ K ⟨⟩))
      ⊢ wp frame (wpE (defs₀ (F := F)) Variants.none c none) E (cc0__kernel i arg2 harg2 arg3 harg3 arg4 harg4 arg5 harg5 arg6 harg6 arg7 harg7 arg8 harg8 arg9 harg9 arg10 harg10 arg11 harg11 arg12 harg12) K := by
  iintro ⟨H0, H1, H2, H3, H4, H5, H6, HS0, HS1, HS2, HS3, Hk⟩
  iapply ((kernelRun0_C c i arg2 harg2 arg3 harg3 arg4 harg4 arg5 harg5 arg6 harg6 arg7 harg7 arg8 harg8 arg9 harg9 arg10 harg10 arg11 harg11 arg12 harg12 hc0 hc1 x0 x1 x2 xs0 xs1 xs2 xs3).2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  isplitl [HS3]; · iexact HS3
  iintro ⟨H0, H1, H2, ⟨%f3, H3⟩, ⟨%f4, H4⟩, ⟨%f5, H5⟩, ⟨%f6, H6⟩, HS0, ⟨%fS1, HS1⟩, ⟨%fS2, HS2⟩, ⟨%fS3, HS3⟩⟩
  iapply Hk
  isplitl [H0]; · iexact H0
  isplitl [H1]; · iexact H1
  isplitl [H2]; · iexact H2
  isplitl [H3]
  · unfold owns; iexists _; isplitr
    swap; · iexact H3
    ipureintro; exact outC_3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 f3
  isplitl [H4]
  · unfold owns; iexists _; isplitr
    swap; · iexact H4
    ipureintro; exact outC_4 c i arg2 harg2 arg3 harg3 arg4 harg4 arg5 harg5 arg6 harg6 arg7 harg7 arg8 harg8 arg9 harg9 arg10 harg10 arg11 harg11 arg12 harg12 hc0 hc1 x0 x1 x2 xs0 xs1 xs2 xs3 f4
  isplitl [H5]
  · unfold owns; iexists _; isplitr
    swap; · iexact H5
    ipureintro; exact outC_5 c i arg2 harg2 arg3 harg3 arg4 harg4 arg5 harg5 arg6 harg6 arg7 harg7 arg8 harg8 arg9 harg9 arg10 harg10 arg11 harg11 arg12 harg12 hc0 hc1 x0 x1 x2 xs0 xs1 xs2 xs3 f5
  isplitl [H6]
  · unfold owns; iexists _; isplitr
    swap; · iexact H6
    ipureintro; exact outC_6 c i arg2 harg2 arg3 harg3 arg4 harg4 arg5 harg5 arg6 harg6 arg7 harg7 arg8 harg8 arg9 harg9 arg10 harg10 arg11 harg11 arg12 harg12 hc0 hc1 x0 x1 x2 xs0 xs1 xs2 xs3 f6
  isplitl [HS0]; · iexact HS0
  isplitl [HS1]
  · unfold owns; iexists _; isplitr
    swap; · iexact HS1
    ipureintro; exact outC_S1 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS1
  isplitl [HS2]
  · unfold owns; iexists _; isplitr
    swap; · iexact HS2
    ipureintro; exact outC_S2 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS2
  unfold owns; iexists _; isplitr
  swap; · iexact HS3
  ipureintro; exact outC_S3 c i arg2 harg2 arg3 harg3 arg4 harg4 arg5 harg5 arg6 harg6 arg7 harg7 arg8 harg8 arg9 harg9 arg10 harg10 arg11 harg11 arg12 harg12 hc0 hc1 x0 x1 x2 xs0 xs1 xs2 xs3 fS3

end Cert.KernelIdeal.Body

end
-- ==== Proof.Spec.lean ====
/-
  The mathematics both programs compute, stated once over the extended reals, index by index.

  Rows of `x` (2048 of them) and of `w` (50000) are scaled to unit length, the squared length clamped below by
  `epsSq` before the reciprocal root; `cosv i j` is the inner product of row `i` of `x` and row `j` of `w` so scaled.
  At the label's column the cosine `ct` is replaced by the margin value `phi ct` (cos (θ + π/6) where the angle
  allows it, a linear fallback elsewhere, all constants the binary values both programs carry), and every entry is
  scaled by 15: `logit`. The loss is minus the mean over the rows of the log-softmax of the row read at its label.

  The streaming form: the 50000 columns are cut in 28 tiles of 1792 (the last one runs past the end: its missing
  columns read `⊥`). Over the tiles of a group a row keeps a running maximum `m`, a running sum `l` of
  `exp (o - m)` rescaled whenever `m` grows, and the sum `t` of the entries at the label's column: `statOf`; the two groups' statistics
  joined give a row's term of the loss: `joined`, `lossStreamed`.
-/
import Idealize.ShloMosaic.PureOps.Ideal
import Idealize.ShloMosaic.Lib.ValueIdx

noncomputable section

namespace Cert.Spec

open Idealize.ShloMosaic

/-- The clamp under the reciprocal root: the square of the binary fraction 2305843 · 2⁻⁶¹. -/
def epsSq : EReal := ((5316911940649 / 5316911983139663491615228241121378304 : ℝ) : EReal)

/-- The sum of the squares of row `r`. -/
def ssq {n : ℕ} (v : Fin n → Fin 512 → EReal) (r : Fin n) : EReal := ∑ k : Fin 512, v r k * v r k

/-- Row `r` scaled by the reciprocal root of its clamped squared length. -/
def unitRow {n : ℕ} (v : Fin n → Fin 512 → EReal) (r : Fin n) (k : Fin 512) : EReal :=
  v r k * Ideal.rsqrt (max (ssq v r) epsSq)

/-- The cosine of row `i` of `x` and row `j` of `w`. -/
def cosv (x : Fin 2048 → Fin 512 → EReal) (w : Fin 50000 → Fin 512 → EReal) (i : Fin 2048) (j : Fin 50000) : EReal :=
  ∑ k : Fin 512, unitRow x i k * unitRow w j k

/-- The margin: with `st = √(clip (1 - ct²) 0 1)`, the value `ct · c - st · s` where `ct - th > 0`, else `ct - mm`;
    `c`, `s`, `th`, `mm` the binary values of cos (π/6), sin (π/6), cos (5π/6), (π/6) sin (5π/6) in single precision. -/
def phi (ct : EReal) : EReal :=
  Scalar.select (Ideal.cmp .ogt (ct - Ideal.ofBits .f32 0xBF5DB3D7#32) (Ideal.ofBits .f32 0x00000000#32))
    (ct * Ideal.ofBits .f32 0x3F5DB3D7#32
      - Ideal.sqrt (min (Ideal.ofBits .f32 0x3F800000#32) (max (Ideal.ofBits .f32 0x00000000#32) (Ideal.ofBits .f32 0x3F800000#32 - ct * ct)))
        * Ideal.ofBits .f32 0x3F000000#32)
    (ct - Ideal.ofBits .f32 0x3E860A92#32)

/-- Entry (i, j) of the result: 15 times the cosine, the margin value in its place at the label's column. -/
def logit (x : Fin 2048 → Fin 512 → EReal) (w : Fin 50000 → Fin 512 → EReal) (lab : Fin 2048 → ℕ) (i : Fin 2048) (j : Fin 50000) : EReal :=
  Ideal.ofBits .f32 0x41700000#32 * (if (j : ℕ) = lab i then phi (cosv x w i j) else cosv x w i j)

/-- A row read at the label's column (zero when the label names no column). -/
def atLabel (l : ℕ) (f : Fin 50000 → EReal) : EReal := if h : l < 50000 then f ⟨l, h⟩ else 0

/-- The log-softmax of a row `o` at column `j`: shifted by the row's maximum, less the log of the shifted exponentials' sum. -/
def logSoftmax (o : Fin 50000 → EReal) (j : Fin 50000) : EReal :=
  (o j - Finset.univ.sup o) - Ideal.log (∑ j' : Fin 50000, Ideal.exp (o j' - Finset.univ.sup o))

/-- The loss: minus the mean over the 2048 rows of the row's log-softmax at its label. -/
def loss (x : Fin 2048 → Fin 512 → EReal) (w : Fin 50000 → Fin 512 → EReal) (lab : Fin 2048 → ℕ) : EReal :=
  -(Ideal.div (∑ i : Fin 2048, atLabel (lab i) (logSoftmax (logit x w lab i))) (Ideal.ofBits .f32 0x45000000#32))

/-! ## The streaming form -/

/-- Tile `T` of a row `o`: its 1792 columns, `⊥` past the last column. -/
def tileOf (o : Fin 50000 → EReal) (T : ℕ) (q : Fin 1792) : EReal :=
  if h : T * 1792 + q.val < 50000 then o ⟨T * 1792 + q.val, h⟩ else ⊥

/-- Whether column `q` of tile `T` is column `l`. -/
def tileHit (l : ℕ) (T : ℕ) (q : Fin 1792) : Prop := T * 1792 + q.val = l

/-- A row's running statistics: the maximum, the rescaled sum of exponentials, the sum at the label. -/
structure Stat where
  m : EReal
  l : EReal
  t : EReal

/-- Before any tile. -/
def Stat.init : Stat := ⟨⊥, 0, 0⟩

open Classical in
/-- One more tile `o`, its column `q` the label's where `hit q`. -/
def Stat.step (s : Stat) (o : Fin 1792 → EReal) (hit : Fin 1792 → Prop) : Stat :=
  ⟨max s.m (Finset.univ.sup o),
   Ideal.exp (s.m - max s.m (Finset.univ.sup o)) * s.l + ∑ q : Fin 1792, Ideal.exp (o q - max s.m (Finset.univ.sup o)),
   s.t + ∑ q : Fin 1792, if hit q then o q else 0⟩

/-- The statistics of row `o` with label `l` after the first `k` tiles of the group starting at tile `T0`. -/
def statOf (o : Fin 50000 → EReal) (l : ℕ) (T0 : ℕ) : ℕ → Stat
  | 0 => Stat.init
  | k + 1 => (statOf o l T0 k).step (tileOf o (T0 + k)) (tileHit l (T0 + k))

/-- The two groups' statistics joined as the loss's row term: the label's entry less the log of the whole row's
    exponentials' sum, the maxima merged and each group's sum rescaled to the merged maximum. -/
def joined (a b : Stat) : EReal :=
  (a.t + b.t) - (max a.m b.m + Ideal.log (Ideal.exp (a.m - max a.m b.m) * a.l + Ideal.exp (b.m - max a.m b.m) * b.l))

/-- The loss in its streaming form: the joined statistics of the two groups of fourteen tiles, row by row. -/
def lossStreamed (x : Fin 2048 → Fin 512 → EReal) (w : Fin 50000 → Fin 512 → EReal) (lab : Fin 2048 → ℕ) : EReal :=
  -(Ideal.div (∑ i : Fin 2048, joined (statOf (logit x w lab i) (lab i) 0 14) (statOf (logit x w lab i) (lab i) 14 14))
      (Ideal.ofBits .f32 0x45000000#32))

/-- Inputs a real at every entry. -/
def IsReal {ι κ : Type} (v : ι → κ → EReal) : Prop := ∀ a b, ∃ r : ℝ, v a b = (r : EReal)

/-! ## The argument arrays and the result arrays -/

/-- The array `x` as rows. -/
def xOf (a : FVec Ideal (⟨2, ![2048, 512]⟩ : Shape) .f32) : Fin 2048 → Fin 512 → EReal := fun i k => a (ValueIdx.ix2 i k)
/-- The array `w` as rows. -/
def wOf (a : FVec Ideal (⟨2, ![50000, 512]⟩ : Shape) .f32) : Fin 50000 → Fin 512 → EReal := fun j k => a (ValueIdx.ix2 j k)
/-- The labels as numbers. -/
def labOf (a : IVec (⟨1, ![2048]⟩ : Shape) 32) : Fin 2048 → ℕ := fun i => (a (ValueIdx.ix1 i)).toNat

/-- The first result: the scaled cosines with the margin at the labels. -/
def outArr (x : Fin 2048 → Fin 512 → EReal) (w : Fin 50000 → Fin 512 → EReal) (lab : Fin 2048 → ℕ) :
    FVec Ideal (⟨2, ![2048, 50000]⟩ : Shape) .f32 := fun idx => logit x w lab (idx 0) (idx 1)
/-- The second result: the loss, a scalar. -/
def lossArr (x : Fin 2048 → Fin 512 → EReal) (w : Fin 50000 → Fin 512 → EReal) (lab : Fin 2048 → ℕ) :
    FVec Ideal (⟨0, ![]⟩ : Shape) .f32 := fun _ => loss x w lab

end Cert.Spec

end
-- ==== Proof.Tile.lean ====
/-
  One tile's block of 1792 columns, read off a block `cb` of cosines: the label's cosine as the masked sum over the
  block's columns, and the block's entries with the margin at the label's column, `⊥` past the last class.
-/
import proofs.«416711_j88845693485822_2_alg».proof.Proof.Spec

noncomputable section

namespace Cert.Spec

open Idealize.ShloMosaic

/-- The label's cosine among tile `T`'s columns of row `r`: the sum of the block's entries at the columns that are the
    label's (at most one), zero when none is. -/
def ctRow (cb : Fin 2048 → Fin 1792 → EReal) (T : ℕ) (lab : Fin 2048 → ℕ) (r : Fin 2048) : EReal :=
  ∑ q : Fin 1792, if T * 1792 + q.val = lab r then cb r q else 0

/-- Entry (r, q) of tile `T`: 15 times the cosine, the margin of the label's cosine at the label's column; `⊥` at a
    column past the last class. -/
def tileLogit (cb : Fin 2048 → Fin 1792 → EReal) (T : ℕ) (lab : Fin 2048 → ℕ) (r : Fin 2048) (q : Fin 1792) : EReal :=
  if T * 1792 + q.val < 50000 then
    Ideal.ofBits .f32 0x41700000#32 * (if T * 1792 + q.val = lab r then phi (ctRow cb T lab r) else cb r q)
  else ⊥

/-- A block of weight rows scaled to unit length. -/
def unitBlk (wb : Fin 1792 → Fin 512 → EReal) (q : Fin 1792) (k : Fin 512) : EReal := unitRow wb q k

/-- The block of cosines of unit rows `xn` against a block of weight rows. -/
def cosBlk (xn : Fin 2048 → Fin 512 → EReal) (wb : Fin 1792 → Fin 512 → EReal) (r : Fin 2048) (q : Fin 1792) : EReal :=
  ∑ k : Fin 512, xn r k * unitRow wb q k

/-- A unit row depends only on the row it scales: two families with the same entries along a row give the same unit row. -/
theorem unitRow_congr {n n' : ℕ} (v : Fin n → Fin 512 → EReal) (v' : Fin n' → Fin 512 → EReal) (r : Fin n) (r' : Fin n')
    (h : ∀ k, v r k = v' r' k) (k : Fin 512) : unitRow v r k = unitRow v' r' k := by
  have hs : ssq v r = ssq v' r' := by
    unfold ssq
    exact Finset.sum_congr rfl (fun k _ => by rw [h k])
  unfold unitRow
  rw [h k, hs]

/-- At a column of tile `T` that is a class, the block's cosine is the cosine against that class's weight row. -/
theorem cosBlk_eq (x : Fin 2048 → Fin 512 → EReal) (w : Fin 50000 → Fin 512 → EReal) (T : ℕ) (wb : Fin 1792 → Fin 512 → EReal)
    (hwb : ∀ (q : Fin 1792) (h : T * 1792 + q.val < 50000) (k : Fin 512), wb q k = w ⟨T * 1792 + q.val, h⟩ k)
    (r : Fin 2048) (q : Fin 1792) (h : T * 1792 + q.val < 50000) :
    cosBlk (unitRow x) wb r q = cosv x w r ⟨T * 1792 + q.val, h⟩ := by
  unfold cosBlk cosv
  refine Finset.sum_congr rfl (fun k _ => ?_)
  rw [unitRow_congr wb w q ⟨T * 1792 + q.val, h⟩ (fun k' => hwb q h k') k]

/-- Where column `q` of the tile is the label's, the masked sum is the block's entry at `q`: no other column of the
    tile is the label's. -/
theorem ctRow_eq_of_hit (cb : Fin 2048 → Fin 1792 → EReal) (T : ℕ) (lab : Fin 2048 → ℕ) (r : Fin 2048) (q : Fin 1792)
    (hq : T * 1792 + q.val = lab r) : ctRow cb T lab r = cb r q := by
  unfold ctRow
  rw [Finset.sum_eq_single q]
  · rw [if_pos hq]
  · intro q' _ hne
    rw [if_neg]
    intro h'
    apply hne
    apply Fin.ext
    omega
  · intro hn
    exact absurd (Finset.mem_univ q) hn

/-- With the labels in range and the block's rows the weight rows of tile `T` wherever the tile's column is a class,
    the tile's entries are the result's row cut at the tile. -/
theorem tileLogit_eq (x : Fin 2048 → Fin 512 → EReal) (w : Fin 50000 → Fin 512 → EReal) (lab : Fin 2048 → ℕ) (hl : ∀ i, lab i < 50000)
    (T : ℕ) (wb : Fin 1792 → Fin 512 → EReal)
    (hwb : ∀ (q : Fin 1792) (h : T * 1792 + q.val < 50000) (k : Fin 512), wb q k = w ⟨T * 1792 + q.val, h⟩ k)
    (r : Fin 2048) (q : Fin 1792) :
    tileLogit (cosBlk (unitRow x) wb) T lab r q = tileOf (logit x w lab r) T q := by
  unfold tileLogit tileOf
  by_cases h : T * 1792 + q.val < 50000
  · rw [if_pos h, dif_pos h]
    unfold logit
    have hc := cosBlk_eq x w T wb hwb r q h
    by_cases hq : T * 1792 + q.val = lab r
    · have hq' : ((⟨T * 1792 + q.val, h⟩ : Fin 50000) : ℕ) = lab r := hq
      rw [if_pos hq, if_pos hq', ctRow_eq_of_hit _ T lab r q hq, hc]
    · have hq' : ¬ ((⟨T * 1792 + q.val, h⟩ : Fin 50000) : ℕ) = lab r := hq
      rw [if_neg hq, if_neg hq', hc]
  · rw [if_neg h, dif_neg h]

end Cert.Spec

end
-- ==== Proof.KIData.lean ====
/-
  The proof data of the idealized kernel's pipeline, stated from the specification. With `x`, `w` the argument
  arrays as rows and `lab` the labels: after the body at point `n` (the tile `n`) the result's staging buffer holds
  tile `n` of every row of the result (`⊥` past the last class), the first scratch buffer the unit rows of `x`, and
  the other three the rows' running statistics after the tiles of the point's group up to `n`; at the last point of a
  group the three statistics windows hold those statistics laid along their last axis. The inputs' buffers hold their
  blocks; the weight block's is filled out past the array's end by words nothing names.
-/
import proofs.«416711_j88845693485822_2_alg».proof.Proof.KISound
import proofs.«416711_j88845693485822_2_alg».proof.Proof.Tile

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The argument arrays as rows, and the labels as numbers. -/
def xRows (c : Dev nD) : Fin 2048 → Fin 512 → EReal := Cert.Spec.xOf (m ((c : Thread nD τ).loc main_arg0))
def wRows (c : Dev nD) : Fin 50000 → Fin 512 → EReal := Cert.Spec.wOf (m ((c : Thread nD τ).loc main_arg2))
def labs (c : Dev nD) : Fin 2048 → ℕ := Cert.Spec.labOf (m ((c : Thread nD τ).loc main_arg1))

/-- What the precondition gives: real entries, labels in range. -/
def Hyp : Prop := ∀ c : Dev nD, Cert.Spec.IsReal (xRows m c) ∧ Cert.Spec.IsReal (wRows m c) ∧ ∀ i, labs m c i < 50000

/-- Row `r` of the result. -/
def rowLogit (c : Dev nD) (r : Fin 2048) : Fin 50000 → EReal := Cert.Spec.logit (xRows m c) (wRows m c) (labs m c) r

/-- Row `r`'s statistics after point `n`: over the tiles of the point's group up to `n`. -/
def stS (c : Dev nD) (n : ℕ) (r : Fin 2048) : Cert.Spec.Stat :=
  Cert.Spec.statOf (rowLogit m c r) (labs m c r) (14 * (n / 14)) (n % 14 + 1)

/-- The unit rows of `x`, as the first scratch buffer holds them. -/
def xnS (c : Dev nD) : Vec Ideal S2048x512 .bf16 := fun idx => Cert.Spec.unitRow (xRows m c) (idx 0) (idx 1)
/-- The three statistics as the other scratch buffers hold them after point `n`. -/
def mS (c : Dev nD) (n : ℕ) : Vec Ideal S2048x1 .f32 := fun idx => (stS m c n (idx 0)).m
def lS (c : Dev nD) (n : ℕ) : Vec Ideal S2048x1 .f32 := fun idx => (stS m c n (idx 0)).l
def tS (c : Dev nD) (n : ℕ) : Vec Ideal S2048x1 .f32 := fun idx => (stS m c n (idx 0)).t
/-- Tile `n` of the result, as the result's staging buffer holds it after point `n`. -/
def outBlk (c : Dev nD) (n : ℕ) : Vec Ideal S2048x1792 .f32 := fun idx => Cert.Spec.tileOf (rowLogit m c (idx 0)) n (idx 1)
/-- The statistics laid along the last axis, as the statistics windows' buffers hold them after a group's last point. -/
def mO (c : Dev nD) (n : ℕ) : Vec Ideal S1x1x2048 .f32 := fun idx => (stS m c n (idx 2)).m
def lO (c : Dev nD) (n : ℕ) : Vec Ideal S1x1x2048 .f32 := fun idx => (stS m c n (idx 2)).l
def tO (c : Dev nD) (n : ℕ) : Vec Ideal S1x1x2048 .f32 := fun idx => (stS m c n (idx 2)).t

/-- The region invariant before position `n`: before the first point every scratch buffer at anything; afterwards the
    four scratch buffers at what point `n - 1` left, and the generator register at some state. -/
def PhiE (c : Dev nD) : (n : ℕ) → n ≤ cfg0.N → sProp 𝕄
  | 0, _ => Pipeline.ΦA spec0 c
  | n + 1, _ => iprop(iprop(owns (c : Thread nD τ) scM0_0 fullShare (xnS m c) ∗ owns (c : Thread nD τ) scM0_1 fullShare (mS m c n)
      ∗ owns (c : Thread nD τ) scM0_2 fullShare (lS m c n) ∗ owns (c : Thread nD τ) scM0_3 fullShare (tS m c n)) ∗ (∃ r, prngReg c r))

theorem PhiE_zero (c : Dev nD) (n : ℕ) (h : n ≤ cfg0.N) (hz : n = 0) : PhiE m c n h = Pipeline.ΦA spec0 c := by
  subst hz; rfl
theorem PhiE_succ (c : Dev nD) (n : ℕ) (hn : n + 1 ≤ cfg0.N) :
    PhiE m c (n + 1) hn = iprop(iprop(owns (c : Thread nD τ) scM0_0 fullShare (xnS m c) ∗ owns (c : Thread nD τ) scM0_1 fullShare (mS m c n)
      ∗ owns (c : Thread nD τ) scM0_2 fullShare (lS m c n) ∗ owns (c : Thread nD τ) scM0_3 fullShare (tS m c n)) ∗ (∃ r, prngReg c r)) := rfl
theorem PhiE_pos (c : Dev nD) (n : ℕ) (h : n ≤ cfg0.N) (hz : n ≠ 0) :
    PhiE m c n h = iprop(iprop(owns (c : Thread nD τ) scM0_0 fullShare (xnS m c) ∗ owns (c : Thread nD τ) scM0_1 fullShare (mS m c (n - 1))
      ∗ owns (c : Thread nD τ) scM0_2 fullShare (lS m c (n - 1)) ∗ owns (c : Thread nD τ) scM0_3 fullShare (tS m c (n - 1))) ∗ (∃ r, prngReg c r)) := by
  cases n with
  | zero => exact absurd rfl hz
  | succ n => rfl

/-- The proof data of the one pipeline on core `c`. -/
def datsE (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => win0_2.fill (grid0.coords t) (fun _ => (0 : EReal)) (iblk m c 2 t)
    | ⟨3, _⟩ => outBlk m c t.val
    | ⟨4, _⟩ => mO m c t.val
    | ⟨5, _⟩ => lO m c t.val
    | ⟨6, _⟩ => tO m c t.val
  Φ t := PhiE m c t.val (Nat.le_of_lt_succ t.isLt)
  q _ := fullShare
  owed _ := 0

theorem A_eq (c : Dev nD) (w : Fin cfg0.W) : (datsE m 0 c).A w = V m c (Pipeline.arrRef spec0 w) := by
  dsimp only [datsE]
theorem PhiE_castSucc (c : Dev nD) (t : Fin cfg0.N) :
    (datsE m 0 c).Φ t.castSucc = PhiE m c t.val (Nat.le_of_lt t.isLt) := by
  dsimp only [datsE]; simp only [Fin.coe_castSucc]
theorem after0_0 (c : Dev nD) (t : Fin cfg0.N) : (datsE m 0 c).after 0 t = iblk m c 0 t := by dsimp only [datsE]
theorem after0_1 (c : Dev nD) (t : Fin cfg0.N) : (datsE m 0 c).after 1 t = iblk m c 1 t := by dsimp only [datsE]
theorem after0_2 (c : Dev nD) (t : Fin cfg0.N) : (datsE m 0 c).after 2 t = win0_2.fill (grid0.coords t) (fun _ => (0 : EReal)) (iblk m c 2 t) := by dsimp only [datsE]
theorem after0_3 (c : Dev nD) (t : Fin cfg0.N) : (datsE m 0 c).after 3 t = outBlk m c t.val := by dsimp only [datsE]
theorem after0_4 (c : Dev nD) (t : Fin cfg0.N) : (datsE m 0 c).after 4 t = mO m c t.val := by dsimp only [datsE]
theorem after0_5 (c : Dev nD) (t : Fin cfg0.N) : (datsE m 0 c).after 5 t = lO m c t.val := by dsimp only [datsE]
theorem after0_6 (c : Dev nD) (t : Fin cfg0.N) : (datsE m 0 c).after 6 t = tO m c t.val := by dsimp only [datsE]

end Cert.KernelIdeal.Body

end
-- ==== Proof.KStat.lean ====
/-
  The kernel's per-row statistics after a point, read at a row at the ideal instance: the new maximum is the old
  one joined with the block's row maximum; the new sum is the old one rescaled plus the row's exponentials shifted by the
  new maximum; the target sum adds the block's entries under the label mask. And the three outputs of a group's last
  point are the statistics laid along the last axis.
-/
import proofs.«416711_j88845693485822_2_alg».proof.Proof.Gen.KernelIdeal.Skeleton
import Idealize.ShloMosaic.Lib.ValueIdx
import Idealize.ShloMosaic.Lib.Pipeline.Value
import Idealize.ShloMosaic.PureOps.Ideal.Laws
import Idealize.ShloMosaic.PureOps.IdealRules

noncomputable section

namespace Cert.KVal

open Cert.KernelIdeal Cert.KernelIdeal.Gen Idealize.ShloMosaic Idealize.ShloMosaic.ValueIdx

/-! ## Layout readings -/

/-- A vector of 2048 entries cast to a column: entry (r, 0) of the column is entry r of the vector. -/
theorem col_apply {α : Type} (x : S2048.Idx → α) (h : S2048.ShapeCasts S2048x1) (r : Fin 2048) :
    shapeCast S2048x1 x h (ix2 r 0) = x (ix1 r) :=
  shapeCast_apply x h (ix2 r 0) (ix1 r) (by
    rw [Shape.rowMajor_val_one, Shape.rowMajor_val_two]
    show r.val = r.val * 1 + 0
    omega)

/-- A column of 2048 entries laid along the last of three axes: entry (0, 0, r) is entry (r, 0) of the column. -/
theorem lay_apply {α : Type} (x : S2048x1.Idx → α) (h : S2048x1.ShapeCasts S1x1x2048) (r : Fin 2048) :
    shapeCast S1x1x2048 x h (ix3 0 0 r) = x (ix2 r 0) :=
  shapeCast_apply x h (ix3 0 0 r) (ix2 r 0) (by
    rw [Shape.rowMajor_val_two, Shape.rowMajor_val_three]
    show r.val * 1 + 0 = (0 * 1 + 0) * 2048 + r.val
    omega)

/-- The index a reduction over the columns reads: the row's index with the column inserted. -/
theorem stat_lift_row (h : S2048x1792.Reduces [1] S2048) (r : Fin 2048) (q : Fin 1792) :
    h.lift (ix1 r) q = ix2 r q := by
  funext c
  match c with
  | ⟨0, _⟩ => rfl
  | ⟨1, _⟩ => rfl

/-- The bit pattern of minus infinity reads as the least extended real. -/
theorem ofBits_ninf : Ideal.ofBits .f32 0xFF800000#32 = (⊥ : EReal) := by simp [Ideal.ofBits, Ideal.ieee]

/-- A column broadcast along the rows: entry (r, q) is the column's entry (r, 0). -/
theorem bcast_apply {α : Type} (x : S2048x1.Idx → α) (h : S2048x1.Broadcasts S2048x1792) (r : Fin 2048) (q : Fin 1792) :
    broadcastTo S2048x1792 x h (ix2 r q) = x (ix2 r 0) :=
  broadcastTo_apply x h (ix2 r q) (ix2 r 0) (fun a => match a with
    | ⟨0, _⟩ => rfl
    | ⟨1, _⟩ => rfl)

/-! ## A row's reductions -/

/-- The maximum-reduction over the columns from minus infinity, at row `r`: the supremum of the row's entries. -/
theorem rowMax_apply (src : FVec Ideal S2048x1792 .f32) (h : S2048x1792.Reduces [1] S2048) (hφ : FKind.Formats .f32)
    (hacc : (0xFF800000#32 : BitVec 32) = FKind.maximumf.neutral .f32 hφ) (r : Fin 2048) :
    multiReduction .maximumf [1] S2048 src 0xFF800000#32 h hφ hacc (ix1 r)
      = Finset.univ.sup fun q : Fin 1792 => src (ix2 r q) := by
  rw [Ideal.multiReduction_maximumf_single]
  show (Finset.univ : Finset (Fin 1792)).fold max (Ideal.ofBits .f32 0xFF800000#32) (fun q : Fin 1792 => src (h.lift (ix1 r) q)) = _
  simp only [stat_lift_row, ofBits_ninf]
  rfl

/-- The add-reduction over the columns from zero, at row `r`: the sum of the row's entries. -/
theorem stat_rowSum_apply (src : FVec Ideal S2048x1792 .f32) (h : S2048x1792.Reduces [1] S2048) (hφ : FKind.Formats .f32)
    (hacc : (0x00000000#32 : BitVec 32) = FKind.add.neutral .f32 hφ) (r : Fin 2048) :
    multiReduction .add [1] S2048 src 0x00000000#32 h hφ hacc (ix1 r) = ∑ q : Fin 1792, src (ix2 r q) := by
  rw [Ideal.multiReduction_add_single]
  show ∑ q : Fin 1792, src (h.lift (ix1 r) q) = _
  simp only [stat_lift_row]

variable (v15 : FVec Ideal S2048x1792 .f32) (v23 v27 : IVec S2048x1792 1) (v31 v36 v37 : FVec Ideal S2048x1 .f32)

/-- The new running maximum of row `r`. -/
theorem m_val (mOld : Vec Ideal S2048x1 .f32) (r : Fin 2048) :
    k0_pay20 (F := Ideal) v15 v23 v27 v31 v36 v37 mOld (ix2 r 0)
      = max (mOld (ix2 r 0)) (Finset.univ.sup fun q : Fin 1792 => k0_pay17 (F := Ideal) v15 v23 v27 v31 v36 v37 (ix2 r q)) := by
  unfold k0_pay20 k0_pay18
  dsimp only
  rw [shapeCast_self, maximumf_apply, col_apply]
  exact congrArg (max (mOld (ix2 r 0))) (rowMax_apply _ _ _ _ r)

/-- The maximum carried to the next point is the maximum the sum was shifted by. -/
theorem pay20_eq (mOld : Vec Ideal S2048x1 .f32) :
    k0_pay20 (F := Ideal) v15 v23 v27 v31 v36 v37 mOld = k0_pay18 (F := Ideal) v15 v23 v27 v31 v36 v37 mOld := by
  unfold k0_pay20
  exact shapeCast_self _ _

/-- The new running sum of row `r`. -/
theorem l_val (mOld lOld : Vec Ideal S2048x1 .f32) (r : Fin 2048) :
    k0_pay1 (F := Ideal) (k0_pay19 v15 v23 v27 v31 v36 v37 mOld mOld lOld) (ix2 r 0)
      = Ideal.exp (mOld (ix2 r 0) - k0_pay20 (F := Ideal) v15 v23 v27 v31 v36 v37 mOld (ix2 r 0)) * lOld (ix2 r 0)
        + ∑ q : Fin 1792, Ideal.exp (k0_pay17 (F := Ideal) v15 v23 v27 v31 v36 v37 (ix2 r q) - k0_pay20 (F := Ideal) v15 v23 v27 v31 v36 v37 mOld (ix2 r 0)) := by
  rw [pay20_eq]
  unfold k0_pay1 k0_pay19
  dsimp only
  rw [shapeCast_self, addf_apply, mulf_apply, col_apply]
  refine congrArg₂ (· + ·) rfl ?_
  refine (stat_rowSum_apply _ _ _ _ r).trans ?_
  refine Finset.sum_congr rfl fun q _ => ?_
  show Ideal.exp (k0_pay17 (F := Ideal) v15 v23 v27 v31 v36 v37 (ix2 r q) - broadcastTo S2048x1792 (k0_pay18 (F := Ideal) v15 v23 v27 v31 v36 v37 mOld) _ (ix2 r q)) = _
  rw [bcast_apply]

/-- The new target sum of row `r`. -/
theorem t_val (hit : IVec S2048x1792 1) (lg : FVec Ideal S2048x1792 .f32) (tOld : Vec Ideal S2048x1 .f32) (r : Fin 2048) :
    k0_pay2 (F := Ideal) hit lg tOld (ix2 r 0) = tOld (ix2 r 0) + ∑ q : Fin 1792, if hit (ix2 r q) = 1#1 then lg (ix2 r q) else 0 := by
  unfold k0_pay2
  dsimp only
  rw [shapeCast_self, addf_apply, col_apply]
  refine congrArg (tOld (ix2 r 0) + ·) ?_
  refine (stat_rowSum_apply _ _ _ _ r).trans ?_
  refine Finset.sum_congr rfl fun q _ => ?_
  show Scalar.select (hit (ix2 r q)) (lg (ix2 r q)) (Ideal.ofBits .f32 0x00000000#32) = _
  rw [Ideal.ofBits_zero_f32]
  rfl

/-- The reset values: the maximum starts at `⊥`, the two sums at zero. -/
theorem reset_m (r : Fin 2048) : k0_pay7 (F := Ideal) (ix2 r 0) = (⊥ : EReal) := by
  unfold k0_pay7
  rw [shapeCast_self]
  exact ofBits_ninf
theorem reset_l (r : Fin 2048) : k0_pay8 (F := Ideal) (ix2 r 0) = (0 : EReal) := by
  unfold k0_pay8
  rw [shapeCast_self]
  exact Ideal.ofBits_zero_f32
theorem reset_t (r : Fin 2048) : k0_pay9 (F := Ideal) (ix2 r 0) = (0 : EReal) := by
  unfold k0_pay9
  rw [shapeCast_self]
  exact Ideal.ofBits_zero_f32

/-- The statistics written out along the last axis. -/
theorem out_m (s : Vec Ideal S2048x1 .f32) (r : Fin 2048) : k0_pay3 (F := Ideal) s (ix3 0 0 r) = s (ix2 r 0) := by
  unfold k0_pay3; exact lay_apply _ _ r
theorem out_l (s : Vec Ideal S2048x1 .f32) (r : Fin 2048) : k0_pay4 (F := Ideal) s (ix3 0 0 r) = s (ix2 r 0) := by
  unfold k0_pay4; exact lay_apply _ _ r
theorem out_t (s : Vec Ideal S2048x1 .f32) (r : Fin 2048) : k0_pay5 (F := Ideal) s (ix3 0 0 r) = s (ix2 r 0) := by
  unfold k0_pay5; exact lay_apply _ _ r

end Cert.KVal

end
-- ==== Proof.KNorm.lean ====
/-
  The kernel's two normalizations and its matrix product, read at an index at the ideal instance: the rows of the
  staged block times the reciprocal root of their clamped squared lengths; the product against the transposed block a
  sum over the 512 shared coordinates. The clamp is the named constant, the square of 2305843 · 2⁻⁶¹.
-/
import proofs.«416711_j88845693485822_2_alg».proof.Proof.Gen.KernelIdeal.Skeleton
import proofs.«416711_j88845693485822_2_alg».proof.Proof.Tile
import Idealize.ShloMosaic.Lib.ValueIdx
import Idealize.ShloMosaic.Lib.ValueLayout
import Idealize.ShloMosaic.PureOps.Ideal.Laws
import Idealize.ShloMosaic.PureOps.IdealRules

noncomputable section

namespace Cert.KVal

open Cert.KernelIdeal Cert.KernelIdeal.Gen Idealize.ShloMosaic Idealize.ShloMosaic.ValueIdx

/-- The named clamp denotes the specification's. -/
theorem named_eps : Named.named (F := Ideal) Cert.KernelIdeal.κ "eps_sq" (φ := .f32) 0x179ABE15#32 = Cert.Spec.epsSq :=
  IdealRules.named_const.ideal_named_scalar _ _ _ _ rfl

/-- The named fill denotes `⊥`. -/
theorem named_fill : Named.named (F := Ideal) Cert.KernelIdeal.κ "neg_fill" (φ := .f32) 0xFF333332#32 = (⊥ : EReal) :=
  IdealRules.named_const.ideal_named_scalar _ _ _ _ rfl

/-! ## A column of row values: [a] → [a, 1] → [a, b] -/

/-- A vector of `a` entries viewed as a column reads, at row `i`, entry `i`: both have row-major position `i`. -/
theorem colCast_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread along `b` lanes reads, at `(i, k)`, the column's row `i`. -/
theorem colBroadcast_apply {α : Type} {a b : ℕ} (v : (⟨2, ![a, 1]⟩ : Shape).Idx → α)
    (h : (⟨2, ![a, 1]⟩ : Shape).Broadcasts ⟨2, ![a, b]⟩) (i : Fin a) (k : Fin b) :
    broadcastTo ⟨2, ![a, b]⟩ v h (ix2 i k) = v (ix2 i (0 : Fin 1)) := by
  refine broadcastTo_apply v h (ix2 i k) (ix2 i (0 : Fin 1)) fun ax => ?_
  match ax with
  | ⟨0, _⟩ =>
    show i.val = if a = 1 then 0 else i.val
    split
    · have := i.isLt; omega
    · rfl
  | ⟨1, _⟩ => rfl

/-- The sum along the lanes of a matrix, at row `i`: the sum over `k` of the entries `(i, k)`. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (i : Fin a) :
    multiReduction (F := Ideal) .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext ax
  refine Fin.ext ?_
  match ax with
  | ⟨0, _⟩ => rfl
  | ⟨1, _⟩ => rfl

/-! ## A block's rows scaled to unit length -/

/-- A block of `n` rows of 512 entries, each row times the reciprocal root of the larger of its squared length and a
    clamp `c`, at entry `(i, k)`: the entry times the reciprocal root of `max (∑ k', v i k' · v i k') c`. -/
theorem unit_apply {n : ℕ} (v : FVec Ideal ⟨2, ![n, 512]⟩ .f32) (c : EReal)
    (hr : (⟨2, ![n, 512]⟩ : Shape).Reduces [1] ⟨1, ![n]⟩) (hφ : FKind.Formats .f32)
    (hacc : (0x00000000#32 : BitVec 32) = FKind.add.neutral .f32 hφ)
    (hs : (⟨1, ![n]⟩ : Shape).ShapeCasts ⟨2, ![n, 1]⟩) (hb : (⟨2, ![n, 1]⟩ : Shape).Broadcasts ⟨2, ![n, 512]⟩)
    (i : Fin n) (k : Fin 512) :
    mulf v (broadcastTo ⟨2, ![n, 512]⟩ (rsqrt (maximumf (shapeCast ⟨2, ![n, 1]⟩
      (multiReduction (F := Ideal) .add [1] ⟨1, ![n]⟩ (mulf v v) 0x00000000#32 hr hφ hacc) hs) (broadcast ⟨2, ![n, 1]⟩ c))) hb) (ix2 i k)
    = v (ix2 i k) * Ideal.rsqrt (max (∑ k' : Fin 512, v (ix2 i k') * v (ix2 i k')) c) := by
  show v (ix2 i k) * broadcastTo ⟨2, ![n, 512]⟩ _ hb (ix2 i k) = _
  refine congrArg (v (ix2 i k) * ·) ?_
  refine (colBroadcast_apply _ hb i k).trans ?_
  show Ideal.rsqrt (max (shapeCast ⟨2, ![n, 1]⟩ _ hs (ix2 i (0 : Fin 1))) c) = _
  rw [colCast_apply, rowSum_apply]
  rfl

/-- The rows of `x` as the first point of a group leaves them: scaled to unit length. -/
theorem xn_val (xb : Vec Ideal S2048x512 .f32) (i : Fin 2048) (k : Fin 512) :
    k0_pay6 (F := Ideal) xb (ix2 i k) = Cert.Spec.unitRow (fun a b => xb (ix2 a b)) i k := by
  unfold k0_pay6
  refine (congrFun (shapeCast_self _ _) (ix2 i k)).trans ?_
  refine (unit_apply (n := 2048) xb _ _ _ _ _ _ i k).trans ?_
  rw [named_eps]
  rfl

/-! ## The product: rows of the left operand against columns of the right, over the one shared axis -/

/-- The left operand's row is the result's row. -/
theorem mm_lhs_0 (i : S2048x1792.Idx) (q : dot_S2048x512_S512x1792_S2048x1792_1_0_0_1_n_n.contr.Idx) :
    (dot_S2048x512_S512x1792_S2048x1792_1_0_0_1_n_n.lhsIdx i q 0).val = (i 0).val := by
  unfold DotDims.lhsIdx
  rw [dif_neg (show ¬(0 : Fin S2048x512.rank) ∈ dot_S2048x512_S512x1792_S2048x1792_1_0_0_1_n_n.lhsBatch by decide), dif_pos (show (0 : Fin S2048x512.rank) ∈ dot_S2048x512_S512x1792_S2048x1792_1_0_0_1_n_n.lhsNonContracting by decide)]
  rfl
/-- The left operand's column is the shared coordinate. -/
theorem mm_lhs_1 (i : S2048x1792.Idx) (q : dot_S2048x512_S512x1792_S2048x1792_1_0_0_1_n_n.contr.Idx) :
    (dot_S2048x512_S512x1792_S2048x1792_1_0_0_1_n_n.lhsIdx i q 1).val = (q ⟨0, by decide⟩).val :=
  dot_S2048x512_S512x1792_S2048x1792_1_0_0_1_n_n.lhsIdx_val_of_single rfl i q
/-- The right operand's row is the shared coordinate. -/
theorem mm_rhs_0 (i : S2048x1792.Idx) (q : dot_S2048x512_S512x1792_S2048x1792_1_0_0_1_n_n.contr.Idx) :
    (dot_S2048x512_S512x1792_S2048x1792_1_0_0_1_n_n.rhsIdx i q 0).val = (q ⟨0, by decide⟩).val :=
  dot_S2048x512_S512x1792_S2048x1792_1_0_0_1_n_n.rhsIdx_val_of_single rfl i q
/-- The right operand's column is the result's column. -/
theorem mm_rhs_1 (i : S2048x1792.Idx) (q : dot_S2048x512_S512x1792_S2048x1792_1_0_0_1_n_n.contr.Idx) :
    (dot_S2048x512_S512x1792_S2048x1792_1_0_0_1_n_n.rhsIdx i q 1).val = (i 1).val := by
  unfold DotDims.rhsIdx
  rw [dif_neg (show ¬(1 : Fin S512x1792.rank) ∈ dot_S2048x512_S512x1792_S2048x1792_1_0_0_1_n_n.rhsBatch by decide), dif_pos (show (1 : Fin S512x1792.rank) ∈ dot_S2048x512_S512x1792_S2048x1792_1_0_0_1_n_n.rhsNonContracting by decide)]
  rfl

/-- The product into a zero accumulator, at entry `(r, q)`: the sum over the 512 shared coordinates `k` of the left
    operand at `(r, k)` times the right at `(k, q)`. -/
theorem mm_apply (l : FVec Ideal S2048x512 .bf16) (rt : FVec Ideal S512x1792 .bf16) (r : Fin 2048) (q : Fin 1792) :
    matmul dot_S2048x512_S512x1792_S2048x1792_1_0_0_1_n_n none l rt (constant (F := Ideal) S2048x1792 .f32 0x00000000#32) (ix2 r q)
      = ∑ k : Fin 512, l (ix2 r k) * rt (ix2 k q) := by
  simp only [matmul]
  rw [Ideal.matmul_constant_zero_apply, ← Equiv.sum_comp (contrEquiv1 dot_S2048x512_S512x1792_S2048x1792_1_0_0_1_n_n 512 rfl rfl).symm]
  refine Finset.sum_congr rfl fun k _ => ?_
  have hk := contrEquiv1_symm_val dot_S2048x512_S512x1792_S2048x1792_1_0_0_1_n_n 512 rfl rfl k
  have el : dot_S2048x512_S512x1792_S2048x1792_1_0_0_1_n_n.lhsIdx (ix2 r q) ((contrEquiv1 dot_S2048x512_S512x1792_S2048x1792_1_0_0_1_n_n 512 rfl rfl).symm k) = ix2 r k := funext fun a => Fin.ext (by
    match a with
    | ⟨0, _⟩ => exact mm_lhs_0 _ _
    | ⟨1, _⟩ => exact (mm_lhs_1 _ _).trans hk)
  have er : dot_S2048x512_S512x1792_S2048x1792_1_0_0_1_n_n.rhsIdx (ix2 r q) ((contrEquiv1 dot_S2048x512_S512x1792_S2048x1792_1_0_0_1_n_n 512 rfl rfl).symm k) = ix2 k q := funext fun a => Fin.ext (by
    match a with
    | ⟨0, _⟩ => exact (mm_rhs_0 _ _).trans hk
    | ⟨1, _⟩ => exact mm_rhs_1 _ _)
  rw [el, er]

/-- The block of cosines: unit rows `xn` against the staged block of weight rows, each scaled to unit length. -/
theorem cos_val (wb : Vec Ideal S1792x512 .f32) (xn : Vec Ideal S2048x512 .bf16) (r : Fin 2048) (q : Fin 1792) :
    k0_pay10 (F := Ideal) wb xn (ix2 r q) = Cert.Spec.cosBlk (fun a b => xn (ix2 a b)) (fun a b => wb (ix2 a b)) r q := by
  unfold k0_pay10
  refine (mm_apply xn _ r q).trans ?_
  unfold Cert.Spec.cosBlk
  refine Finset.sum_congr rfl fun k _ => congrArg (xn (ix2 r k) * ·) ?_
  refine (transpose_ix2_apply _ _ k q).trans ?_
  refine (unit_apply (n := 1792) wb _ _ _ _ _ _ q k).trans ?_
  rw [named_eps]
  rfl

end Cert.KVal

end
-- ==== Proof.KLogit.lean ====
/-
  The kernel's block of entries at a grid point, read at an index at the ideal instance: the tile number is
  14·p + t for the point (p, t); column q of the block is class 1792·(14·p + t) + q; past the last class the entry is the
  named fill `⊥`; at the label's column it is the margin of the masked sum of the block's cosines; all times 15.
-/
import proofs.«416711_j88845693485822_2_alg».proof.Proof.Gen.KernelIdeal.Skeleton
import proofs.«416711_j88845693485822_2_alg».proof.Proof.Tile
import Idealize.ShloMosaic.Lib.ValueIdx
import Idealize.ShloMosaic.Lib.Pipeline.Value
import Idealize.ShloMosaic.Lib.StableHlo.Predicate
import Idealize.ShloMosaic.PureOps.Ideal.Laws
import Idealize.ShloMosaic.PureOps.IdealRules
import proofs.«416711_j88845693485822_2_alg».proof.Proof.KNorm

noncomputable section

namespace Cert.KVal

open Cert.KernelIdeal Cert.KernelIdeal.Gen Idealize.ShloMosaic Idealize.ShloMosaic.ValueIdx
open Idealize.ShloMosaic.StableHlo.Predicate (slt_iff_toNat cmpi_eq_iff)

/-- The tile of a grid point. -/
def tileNo (i : grid0.Coords) : ℕ := (i 0).val * 14 + (i 1).val

/-! ## The column numbers -/

/-- The class number of entry (r, q) of a point's block, as the word the kernel computes: the tile number, 14·p + t,
    times 1792, plus the column's place along the block. -/
theorem col_eq (i : grid0.Coords) (r : Fin 2048) (q : Fin 1792) :
    k0_pay11 i (ix2 r q)
      = (BitVec.ofNat 32 (i 0).val * 14#32 + BitVec.ofNat 32 (i 1).val) * 1792#32 + BitVec.ofNat 32 q.val := by
  have hi := iota_single_apply .tc S2048x1792 32 1 iota_S2048x1792_d1_w32 (ix2 r q)
  unfold k0_pay11
  simp only [addi, broadcast_apply]
  rw [hi]
  rfl

/-- No product or sum of that word wraps: p < 2 and t < 14, so the class number is below 28 · 1792 = 50176. -/
theorem col_toNat (i : grid0.Coords) (r : Fin 2048) (q : Fin 1792) :
    (k0_pay11 i (ix2 r q)).toNat = tileNo i * 1792 + q.val := by
  have h0 : (i 0).val < 2 := (i 0).isLt
  have h1 : (i 1).val < 14 := (i 1).isLt
  have hq := q.isLt
  rw [col_eq]
  unfold tileNo
  simp only [BitVec.toNat_add, BitVec.toNat_mul, BitVec.toNat_ofNat]
  omega

/-- A column of 2048 entries repeated along the 1792 columns of a block reads, at (r, q), its entry r. -/
theorem bcast_col {α : Type} (v : S2048x1.Idx → α) (r : Fin 2048) (q : Fin 1792) :
    broadcastTo S2048x1792 (shapeCast S2048x1 v shapeCasts_S2048x1_S2048x1) broadcasts_S2048x1_S2048x1792 (ix2 r q)
      = v (ix2 r 0) := by
  rw [shapeCast_self]
  exact broadcastTo_apply v _ (ix2 r q) (ix2 r 0) (fun a => by
    match a with
    | ⟨0, _⟩ => rfl
    | ⟨1, _⟩ => rfl)

/-- The label mask of a point's block: set exactly at the label's column. -/
theorem hit_val (i : grid0.Coords) (lb : Vec Ideal S2048x1 .i32) (hl : ∀ r : Fin 2048, (lb (ix2 r 0)).toNat < 50000)
    (r : Fin 2048) (q : Fin 1792) :
    k0_pay13 (F := Ideal) i lb (ix2 r q) = 1#1 ↔ tileNo i * 1792 + q.val = (lb (ix2 r 0)).toNat := by
  show IntOp.cmpi .eq (k0_pay11 i (ix2 r q))
      (broadcastTo S2048x1792 (shapeCast S2048x1 lb shapeCasts_S2048x1_S2048x1) broadcasts_S2048x1_S2048x1792 (ix2 r q)) = 1#1 ↔ _
  rw [bcast_col, cmpi_eq_iff, ← BitVec.toNat_inj, col_toNat]

/-- The class mask of a point's block: set exactly at the columns that are classes. -/
theorem inb_val (i : grid0.Coords) (r : Fin 2048) (q : Fin 1792) :
    k0_pay12 i (ix2 r q) = 1#1 ↔ tileNo i * 1792 + q.val < 50000 := by
  show IntOp.cmpi .slt (k0_pay11 i (ix2 r q)) 50000#32 = 1#1 ↔ _
  have hc := col_toNat i r q
  have h0 : (i 0).val < 2 := (i 0).isLt
  have h1 : (i 1).val < 14 := (i 1).isLt
  have hq := q.isLt
  have hb : (50000#32 : BitVec 32).toNat = 50000 := rfl
  rw [slt_iff_toNat (by rw [hc]; unfold tileNo; omega) (by rw [hb]; omega), hc, hb]

/-! ## The label's cosine -/

/-- The index of the block over row r with column k put back. -/
theorem lift_row (r : Fin 2048) (k : Fin 1792) :
    reduces_S2048x1792_S2048.lift (ix1 r) k = ix2 r k := by
  funext c
  match c with
  | ⟨0, _⟩ => exact Fin.ext rfl
  | ⟨1, _⟩ => exact Fin.ext rfl

/-- The masked sum along a row of the block is the label's cosine among the tile's columns. -/
theorem ct_val (i : grid0.Coords) (lb : Vec Ideal S2048x1 .i32) (hl : ∀ r : Fin 2048, (lb (ix2 r 0)).toNat < 50000)
    (wb : Vec Ideal S1792x512 .f32) (xn : Vec Ideal S2048x512 .bf16) (r : Fin 2048) :
    k0_pay14 (F := Ideal) i wb xn lb (ix2 r 0)
      = Cert.Spec.ctRow (fun a b => k0_pay10 (F := Ideal) wb xn (ix2 a b)) (tileNo i) (fun a => (lb (ix2 a 0)).toNat) r := by
  simp only [k0_pay14]
  rw [shapeCast_apply _ shapeCasts_S2048_S2048x1 (ix2 r 0) (ix1 r)
    (by rw [Shape.rowMajor_val_one, Shape.rowMajor_val_two]; show r.val = r.val * 1 + 0; omega)]
  refine (Ideal.multiReduction_add_single (φ := .f32) _ _ reduces_S2048x1792_S2048 _ _ (ix1 r)).trans ?_
  unfold Cert.Spec.ctRow
  refine Finset.sum_congr rfl (fun (k : Fin 1792) _ => ?_)
  have hk := lift_row r k
  rw [select_apply, hk]
  show (if k0_pay13 (F := Ideal) i lb (ix2 r k) = 1#1 then k0_pay10 (F := Ideal) wb xn (ix2 r k)
      else Ideal.ofBits .f32 0x00000000#32) = _
  rw [Ideal.ofBits_zero_f32]
  exact if_congr (hit_val i lb hl r k) rfl rfl

/-! ## The block's entries -/

/-- The block's last payload read at (r, q), over any operands: the fill past the classes; else 15 times the margin of
    the row's value at the label's column, the block's own entry elsewhere. -/
theorem pay17_apply (v15 : FVec Ideal S2048x1792 .f32) (v23 v27 : IVec S2048x1792 1) (v31 v36 v37 : FVec Ideal S2048x1 .f32)
    (r : Fin 2048) (q : Fin 1792) :
    k0_pay17 (F := Ideal) v15 v23 v27 v31 v36 v37 (ix2 r q)
      = Scalar.select (v23 (ix2 r q))
          (Ideal.ofBits .f32 0x41700000#32 * Scalar.select (v27 (ix2 r q))
            (Scalar.select (Ideal.cmp .ogt (v31 (ix2 r 0) - Ideal.ofBits .f32 0xBF5DB3D7#32) (Ideal.ofBits .f32 0x00000000#32))
              (v31 (ix2 r 0) * Ideal.ofBits .f32 0x3F5DB3D7#32
                - Ideal.sqrt (min (v37 (ix2 r 0)) (v36 (ix2 r 0))) * Ideal.ofBits .f32 0x3F000000#32)
              (v31 (ix2 r 0) - Ideal.ofBits .f32 0x3E860A92#32))
            (v15 (ix2 r q)))
          (Named.named (F := Ideal) κ "neg_fill" (φ := .f32) 0xFF333332#32) := by
  simp only [k0_pay17, select_apply, mulf_apply, broadcast_apply, bcast_col]
  rfl

/-- The block of entries at an index. -/
theorem logit_val (i : grid0.Coords) (lb : Vec Ideal S2048x1 .i32) (hl : ∀ r : Fin 2048, (lb (ix2 r 0)).toNat < 50000)
    (wb : Vec Ideal S1792x512 .f32) (xn : Vec Ideal S2048x512 .bf16) (r : Fin 2048) (q : Fin 1792) :
    k0_pay17 (F := Ideal) (k0_pay10 wb xn) (k0_pay12 i) (k0_pay13 i lb) (k0_pay14 i wb xn lb) (k0_pay15 i wb xn lb) k0_pay16 (ix2 r q)
      = Cert.Spec.tileLogit (fun a b => k0_pay10 (F := Ideal) wb xn (ix2 a b)) (tileNo i) (fun a => (lb (ix2 a 0)).toNat) r q := by
  have h15 : k0_pay15 (F := Ideal) i wb xn lb (ix2 r 0)
      = max (Ideal.ofBits .f32 0x00000000#32)
          (Ideal.ofBits .f32 0x3F800000#32 - k0_pay14 (F := Ideal) i wb xn lb (ix2 r 0) * k0_pay14 (F := Ideal) i wb xn lb (ix2 r 0)) := rfl
  have h16 : k0_pay16 (F := Ideal) (ix2 r 0) = Ideal.ofBits .f32 0x3F800000#32 := rfl
  rw [pay17_apply, h15, h16, ct_val i lb hl wb xn r, named_fill]
  unfold Cert.Spec.tileLogit
  by_cases hin : tileNo i * 1792 + q.val < 50000
  · rw [(inb_val i r q).mpr hin, select_one, if_pos hin]
    by_cases hh : tileNo i * 1792 + q.val = (lb (ix2 r 0)).toNat
    · rw [(hit_val i lb hl r q).mpr hh, select_one, if_pos hh]
      rfl
    · rw [eq_zero_of_ne_one (mt (hit_val i lb hl r q).mp hh), select_zero, if_neg hh]
  · rw [eq_zero_of_ne_one (mt (inb_val i r q).mp hin), select_zero, if_neg hin]

end Cert.KVal

end
-- ==== Proof.KIStep.lean ====
/-
  A point's block and statistics from the specification: with the labels' block, the weight block and the unit rows
  read as the specification's rows, the block of entries a point leaves is the tile of every row of the result, and
  the three statistics advance by one step of the streaming form over that tile. And the arithmetic of the groups:
  point n is tile n, the n mod 14-th of the group that starts at tile 14 · (n / 14).
-/
import proofs.«416711_j88845693485822_2_alg».proof.Proof.KISound
import proofs.«416711_j88845693485822_2_alg».proof.Proof.KNorm
import proofs.«416711_j88845693485822_2_alg».proof.Proof.KLogit
import proofs.«416711_j88845693485822_2_alg».proof.Proof.KStat

set_option maxRecDepth 16384

noncomputable section

namespace Cert.Spec

/-- The statistics after point n of its group: one step over tile n from those before it. -/
theorem statOf_at (o : Fin 50000 → EReal) (l n : ℕ) :
    statOf o l (14 * (n / 14)) (n % 14 + 1)
      = (statOf o l (14 * (n / 14)) (n % 14)).step (tileOf o n) (tileHit l n) := by
  show (statOf o l (14 * (n / 14)) (n % 14)).step (tileOf o (14 * (n / 14) + n % 14)) (tileHit l (14 * (n / 14) + n % 14)) = _
  rw [Nat.div_add_mod]

/-- Before the first point of a group: nothing yet. -/
theorem statOf_first (o : Fin 50000 → EReal) (l n : ℕ) (h : n % 14 = 0) :
    statOf o l (14 * (n / 14)) (n % 14) = Stat.init := by
  rw [h]; rfl

/-- Before a later point of a group: what the point before left. -/
theorem statOf_prev (o : Fin 50000 → EReal) (l n : ℕ) (h : n % 14 ≠ 0) :
    statOf o l (14 * (n / 14)) (n % 14) = statOf o l (14 * ((n - 1) / 14)) ((n - 1) % 14 + 1) := by
  have e1 : (n - 1) / 14 = n / 14 := by omega
  have e2 : (n - 1) % 14 + 1 = n % 14 := by omega
  rw [e1, e2]

end Cert.Spec

namespace Cert.KernelIdeal.Body

open Cert.KernelIdeal Cert.KernelIdeal.Gen Idealize.ShloMosaic Idealize.ShloMosaic.ValueIdx Cert.KVal

/-- A point's operands read as the specification's data: the point (p, j) is tile T = 14 p + j; the labels' block holds
    the labels, all in range; the weight block's row q is row 1792 T + q of the weights wherever that row exists (nothing
    is said of the others); the unit rows are those of x. -/
structure Reads (i : grid0.Coords) (T : ℕ) (x : Fin 2048 → Fin 512 → EReal) (w : Fin 50000 → Fin 512 → EReal) (lab : Fin 2048 → ℕ)
    (lb : Vec Ideal S2048x1 .i32) (wb : Vec Ideal S1792x512 .f32) (xn : Vec Ideal S2048x512 .bf16) : Prop where
  tile : tileNo i = T
  lab_lt : ∀ r, lab r < 50000
  lab_eq : ∀ r : Fin 2048, (lb (ix2 r 0)).toNat = lab r
  w_eq : ∀ (q : Fin 1792) (h : T * 1792 + q.val < 50000) (k : Fin 512), wb (ix2 q k) = w ⟨T * 1792 + q.val, h⟩ k
  xn_eq : ∀ (r : Fin 2048) (k : Fin 512), xn (ix2 r k) = Cert.Spec.unitRow x r k

section
variable {i : grid0.Coords} {T : ℕ} {x : Fin 2048 → Fin 512 → EReal} {w : Fin 50000 → Fin 512 → EReal} {lab : Fin 2048 → ℕ}
  {lb : Vec Ideal S2048x1 .i32} {wb : Vec Ideal S1792x512 .f32} {xn : Vec Ideal S2048x512 .bf16}

/-- The point's block at (r, q) is entry q of tile T of row r of the result: a column past the last class reads ⊥ whatever
    the weight block holds there, and the label's column, a class, is never one of them. -/
theorem blk_val (R : Reads i T x w lab lb wb xn) (r : Fin 2048) (q : Fin 1792) :
    blkOut (F := Ideal) i lb wb xn (ix2 r q) = Cert.Spec.tileOf (Cert.Spec.logit x w lab r) T q := by
  have hl : ∀ r : Fin 2048, (lb (ix2 r 0)).toNat < 50000 := fun r => by rw [R.lab_eq]; exact R.lab_lt r
  have e0 : (fun (a : Fin 2048) (b : Fin 512) => xn (ix2 a b)) = Cert.Spec.unitRow x :=
    funext fun a => funext fun b => R.xn_eq a b
  have e1 : (fun (a : Fin 2048) (b : Fin 1792) => k0_pay10 (F := Ideal) wb xn (ix2 a b))
      = Cert.Spec.cosBlk (Cert.Spec.unitRow x) (fun a b => wb (ix2 a b)) := by
    funext a b
    rw [cos_val, e0]
  have e2 : (fun a : Fin 2048 => (lb (ix2 a 0)).toNat) = lab := funext R.lab_eq
  show k0_pay17 (F := Ideal) (k0_pay10 wb xn) (k0_pay12 i) (k0_pay13 i lb) (k0_pay14 i wb xn lb) (k0_pay15 i wb xn lb) k0_pay16 (ix2 r q) = _
  rw [logit_val i lb hl wb xn r q, R.tile, e1, e2]
  exact Cert.Spec.tileLogit_eq x w lab R.lab_lt T (fun a b => wb (ix2 a b)) R.w_eq r q

/-- The point's block is the tile of every row. -/
theorem blk_eq (R : Reads i T x w lab lb wb xn) :
    blkOut (F := Ideal) i lb wb xn = fun idx => Cert.Spec.tileOf (Cert.Spec.logit x w lab (idx 0)) T (idx 1) := by
  funext idx
  obtain ⟨r, q, rfl⟩ : ∃ (r : Fin 2048) (q : Fin 1792), idx = ix2 r q := ⟨idx 0, idx 1, eq_ix2 idx⟩
  exact blk_val R r q

/-- The running maximum after the point: the one before joined with the tile's maximum. -/
theorem m_step (R : Reads i T x w lab lb wb xn) (mOld : Vec Ideal S2048x1 .f32) (r : Fin 2048) :
    mNew (F := Ideal) i lb wb xn mOld (ix2 r 0)
      = max (mOld (ix2 r 0)) (Finset.univ.sup (Cert.Spec.tileOf (Cert.Spec.logit x w lab r) T)) := by
  show k0_pay20 (F := Ideal) (k0_pay10 wb xn) (k0_pay12 i) (k0_pay13 i lb) (k0_pay14 i wb xn lb) (k0_pay15 i wb xn lb) k0_pay16 mOld (ix2 r 0) = _
  rw [m_val]
  refine congrArg (max (mOld (ix2 r 0))) ?_
  exact congrArg (Finset.sup Finset.univ) (funext fun q => blk_val R r q)

/-- The running sum after the point: the one before rescaled to the new maximum, plus the tile's exponentials shifted by it. -/
theorem l_step (R : Reads i T x w lab lb wb xn) (mOld lOld : Vec Ideal S2048x1 .f32) (r : Fin 2048) :
    lNew (F := Ideal) i lb wb xn mOld lOld (ix2 r 0)
      = Ideal.exp (mOld (ix2 r 0) - max (mOld (ix2 r 0)) (Finset.univ.sup (Cert.Spec.tileOf (Cert.Spec.logit x w lab r) T))) * lOld (ix2 r 0)
        + ∑ q : Fin 1792, Ideal.exp (Cert.Spec.tileOf (Cert.Spec.logit x w lab r) T q
            - max (mOld (ix2 r 0)) (Finset.univ.sup (Cert.Spec.tileOf (Cert.Spec.logit x w lab r) T))) := by
  have hm : k0_pay20 (F := Ideal) (k0_pay10 wb xn) (k0_pay12 i) (k0_pay13 i lb) (k0_pay14 i wb xn lb) (k0_pay15 i wb xn lb) k0_pay16 mOld (ix2 r 0)
      = max (mOld (ix2 r 0)) (Finset.univ.sup (Cert.Spec.tileOf (Cert.Spec.logit x w lab r) T)) := m_step R mOld r
  show k0_pay1 (F := Ideal) (k0_pay19 (k0_pay10 wb xn) (k0_pay12 i) (k0_pay13 i lb) (k0_pay14 i wb xn lb) (k0_pay15 i wb xn lb) k0_pay16 mOld mOld lOld) (ix2 r 0) = _
  rw [l_val, hm]
  refine congrArg₂ (· + ·) rfl (Finset.sum_congr rfl fun q _ => ?_)
  exact congrArg (fun z => Ideal.exp (z - max (mOld (ix2 r 0)) (Finset.univ.sup (Cert.Spec.tileOf (Cert.Spec.logit x w lab r) T)))) (blk_val R r q)

open Classical in
/-- The target sum after the point: the one before plus the tile's entry at the label's column, if the tile has it. -/
theorem t_step (R : Reads i T x w lab lb wb xn) (tOld : Vec Ideal S2048x1 .f32) (r : Fin 2048) :
    tNew (F := Ideal) i lb wb xn tOld (ix2 r 0)
      = tOld (ix2 r 0) + ∑ q : Fin 1792, if Cert.Spec.tileHit (lab r) T q then Cert.Spec.tileOf (Cert.Spec.logit x w lab r) T q else 0 := by
  have hl : ∀ r : Fin 2048, (lb (ix2 r 0)).toNat < 50000 := fun r => by rw [R.lab_eq]; exact R.lab_lt r
  show k0_pay2 (F := Ideal) (k0_pay13 i lb) (blkOut i lb wb xn) tOld (ix2 r 0) = _
  rw [t_val]
  refine congrArg (tOld (ix2 r 0) + ·) (Finset.sum_congr rfl fun q _ => ?_)
  rw [blk_val R r q]
  refine if_congr ?_ rfl rfl
  rw [hit_val i lb hl r q, R.tile, R.lab_eq]
  rfl

/-- One point is one step of the streaming statistics over its tile. -/
theorem stat_step (R : Reads i T x w lab lb wb xn) (s : Cert.Spec.Stat) (mOld lOld tOld : Vec Ideal S2048x1 .f32) (r : Fin 2048)
    (hm : mOld (ix2 r 0) = s.m) (hl : lOld (ix2 r 0) = s.l) (ht : tOld (ix2 r 0) = s.t) :
    mNew (F := Ideal) i lb wb xn mOld (ix2 r 0) = (s.step (Cert.Spec.tileOf (Cert.Spec.logit x w lab r) T) (Cert.Spec.tileHit (lab r) T)).m
    ∧ lNew (F := Ideal) i lb wb xn mOld lOld (ix2 r 0) = (s.step (Cert.Spec.tileOf (Cert.Spec.logit x w lab r) T) (Cert.Spec.tileHit (lab r) T)).l
    ∧ tNew (F := Ideal) i lb wb xn tOld (ix2 r 0) = (s.step (Cert.Spec.tileOf (Cert.Spec.logit x w lab r) T) (Cert.Spec.tileHit (lab r) T)).t := by
  refine ⟨?_, ?_, ?_⟩
  · rw [m_step R, hm]; rfl
  · rw [l_step R, hm, hl]; rfl
  · rw [t_step R, ht]; rfl

end

/-- The rows of x as a group's first point leaves them in the first scratch buffer. -/
theorem xn_eq (xb : Vec Ideal S2048x512 .f32) (x : Fin 2048 → Fin 512 → EReal) (hx : ∀ (a : Fin 2048) (b : Fin 512), xb (ix2 a b) = x a b) :
    k0_pay6 (F := Ideal) xb = fun idx => Cert.Spec.unitRow x (idx 0) (idx 1) := by
  funext idx
  obtain ⟨r, k, rfl⟩ : ∃ (r : Fin 2048) (k : Fin 512), idx = ix2 r k := ⟨idx 0, idx 1, eq_ix2 idx⟩
  rw [xn_val]
  have e : (fun (a : Fin 2048) (b : Fin 512) => xb (ix2 a b)) = x := funext fun a => funext fun b => hx a b
  rw [e]

end Cert.KernelIdeal.Body

end
-- ==== Proof.KIWin.lean ====
/-
  What the body finds in the inputs' buffers, read at an index; what it must leave in every window's buffer; and a
  point's operands and results from the specification.
  The labels' block at row r is label r (the column the host laid the labels in); the block of x at (i, k) is entry
  (i, k) of x; the weight block filled out past the array's end reads, at a row q whose class 1792·n + q exists, row
  1792·n + q of the weights, whatever fills the rest. The inputs' buffers are left as found; the result's buffer is
  stated on the columns inside the array; a statistics window is left as found at a point that does not write it.
  With the blocks so read, a point's block of entries is the point's tile of every row of the result, and its statistics
  one step of the streaming form from the reset values (a group's first point) or from the point before.
-/
import proofs.«416711_j88845693485822_2_alg».proof.Proof.KIData
import proofs.«416711_j88845693485822_2_alg».proof.Proof.KStat
import proofs.«416711_j88845693485822_2_alg».proof.Proof.KIStep
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

open Cert.KVal

/-! ## The inputs' blocks at an index -/

/-- The labels' column as the region finds it: the host's reshape of the labels. -/
theorem V_v0 (c : Dev nD) : (V m c main_v0 : S2048x1.Idx → BitVec 32)
    = shapeCast S2048x1 (m ((c : Thread nD τ).loc main_arg1)) shapeCasts_S2048_S2048x1 := by
  show StableHlo.after hostOps0 (fun b => m (c, b)) (Proc.devRef .tc main_v0) = _
  after_results
  rfl

/-- The block indices of the three inputs, decided over the 28 points: the labels' and x's blocks are the whole
    arrays; the weight block at point n starts at row 1792 · n. -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- How many rows and lanes of the weight block lie inside the array: all 512 lanes, and the rows up to row 50000. -/
theorem xsize_facts : ∀ t : Fin cfg0.N, win0_2.xsize (grid0.coords t) (0 : Fin 2) = min 1792 (50000 - t.val * 1792)
    ∧ win0_2.xsize (grid0.coords t) (1 : Fin 2) = 512 :=
  (by decide +kernel : ∀ t : Fin grid0.N, _)

/-- The labels' block at row r is label r. -/
theorem lblk_val (c : Dev nD) (t : Fin cfg0.N) (r : Fin 2048) :
    (iblk m c 0 t : S2048x1.Idx → BitVec 32) (ix2 r 0) = m ((c : Thread nD τ).loc main_arg1) (ix1 r) := by
  obtain ⟨e0, e1, -, -, -, -⟩ := idx_facts t
  show V m c main_v0 (((cfg0.win 0).blk t).view.emb (ix2 r 0 : S2048x1.Idx)) = _
  have he : ((cfg0.win 0).blk t).view.emb (ix2 r 0 : S2048x1.Idx) = (ix2 r 0 : S2048x1.Idx) := by
    funext a; apply Fin.ext
    match a with
    | ⟨0, _⟩ => show win0_0.index t (0 : Fin 2) * 2048 + 1 * r.val = r.val; omega
    | ⟨1, _⟩ => show win0_0.index t (1 : Fin 2) * 1 + 1 * 0 = 0; omega
  rw [he, V_v0]
  exact Cert.KVal.col_apply _ _ r

/-- The block of x at (i, k) is entry (i, k) of x. -/
theorem xblk_val (c : Dev nD) (t : Fin cfg0.N) (i : Fin 2048) (k : Fin 512) :
    (iblk m c 1 t : S2048x512.Idx → EReal) (ix2 i k) = m ((c : Thread nD τ).loc main_arg0) (ix2 i k) := by
  obtain ⟨-, -, e2, e3, -, -⟩ := idx_facts t
  show V m c main_arg0 (((cfg0.win 1).blk t).view.emb (ix2 i k : S2048x512.Idx)) = _
  rw [V_main_arg0]
  refine congrArg _ ?_
  funext a; apply Fin.ext
  match a with
  | ⟨0, _⟩ => show win0_1.index t (0 : Fin 2) * 2048 + 1 * i.val = i.val; omega
  | ⟨1, _⟩ => show win0_1.index t (1 : Fin 2) * 512 + 1 * k.val = k.val; omega

/-- The weight block of point n, filled out by anything: at a row q with class 1792 · n + q inside the array, that row
    of the weights. -/
theorem wblk_val (c : Dev nD) (t : Fin cfg0.N) (d : S1792x512.Idx → EReal) (q : Fin 1792) (k : Fin 512)
    (h : t.val * 1792 + q.val < 50000) :
    win0_2.fill (grid0.coords t) d (iblk m c 2 t) (ix2 q k : S1792x512.Idx)
      = m ((c : Thread nD τ).loc main_arg2) (ix2 (⟨t.val * 1792 + q.val, h⟩ : Fin 50000) k) := by
  obtain ⟨-, -, -, -, e4, e5⟩ := idx_facts t
  obtain ⟨s0, s1⟩ := xsize_facts t
  have hmv : win0_2.moved (grid0.coords t) (ix2 q k : S1792x512.Idx) = true := by
    rw [Window.moved_iff]
    intro a
    match a with
    | ⟨0, _⟩ => show q.val < win0_2.xsize (grid0.coords t) (0 : Fin 2); rw [s0]; omega
    | ⟨1, _⟩ => show k.val < win0_2.xsize (grid0.coords t) (1 : Fin 2); rw [s1]; exact k.isLt
  unfold Window.fill
  rw [dif_pos hmv]
  show V m c main_arg2 (((cfg0.win 2).blk t).view.emb _) = _
  rw [V_main_arg2]
  refine congrArg _ ?_
  funext a; apply Fin.ext
  match a with
  | ⟨0, _⟩ => show win0_2.index t (0 : Fin 2) * 1792 + 1 * q.val = t.val * 1792 + q.val; rw [e4]; omega
  | ⟨1, _⟩ => show win0_2.index t (1 : Fin 2) * 512 + 1 * k.val = k.val; rw [e5]; omega

/-! ## What the body finds in each input's buffer -/

/-- The labels' and x's buffers hold their blocks at every point. -/
theorem before0_0 (c : Dev nD) (t : Fin cfg0.N) (d) : (datsE m 0 c).before 0 t d = iblk m c 0 t :=
  before0_0_of m (datsE m 0 c) (A_eq m c 0) (after0_0 m c) t d
theorem before0_1 (c : Dev nD) (t : Fin cfg0.N) (d) : (datsE m 0 c).before 1 t d = iblk m c 1 t :=
  before0_1_of m (datsE m 0 c) (A_eq m c 1) (after0_1 m c) t d
/-- The weight block's buffer, fetched at every point: the block on the rows inside the array, anything elsewhere. -/
theorem before0_2 (c : Dev nD) (t : Fin cfg0.N) (d) :
    (datsE m 0 c).before 2 t d = win0_2.fill (grid0.coords t) d (iblk m c 2 t) := by
  unfold Dat.before; rw [if_pos (fetch0_2 t)]; rfl

/-! ## What the body must leave in each window's buffer -/

theorem loose0_0 : cfg0.loose 0 = false := rfl
theorem loose0_1 : cfg0.loose 1 = false := rfl
theorem loose0_2 : cfg0.loose 2 = true := rfl
theorem loose0_3 : cfg0.loose 3 = true := rfl
theorem loose0_4 : cfg0.loose 4 = false := rfl
theorem loose0_5 : cfg0.loose 5 = false := rfl
theorem loose0_6 : cfg0.loose 6 = false := rfl

/-- The labels' and x's buffers: their blocks, as found. -/
theorem leaves0_0 (c : Dev nD) (t : Fin cfg0.N) :
    ((datsE m 0 c).leaves 0 t : sProp 𝕄) = owns (c : Thread nD τ) (ms0_0 t) fullShare (iblk m c 0 t) := by
  unfold Dat.leaves; rw [liveAt0_0 t, loose0_0, after0_0]
theorem leaves0_1 (c : Dev nD) (t : Fin cfg0.N) :
    ((datsE m 0 c).leaves 1 t : sProp 𝕄) = owns (c : Thread nD τ) (ms0_1 t) fullShare (iblk m c 1 t) := by
  unfold Dat.leaves; rw [liveAt0_1 t, loose0_1, after0_1]
/-- The weight block's buffer: the block on the rows inside the array. -/
theorem leaves0_2 (c : Dev nD) (t : Fin cfg0.N) :
    ((datsE m 0 c).leaves 2 t : sProp 𝕄)
      = iprop(∃ d, owns (c : Thread nD τ) (ms0_2 t) fullShare (win0_2.fill (grid0.coords t) d (iblk m c 2 t))) := by
  unfold Dat.leaves; rw [liveAt0_2 t, loose0_2, after0_2, Window.cut_fill]; rfl
/-- The result's buffer: the point's tile of every row on the columns inside the array. -/
theorem leaves0_3 (c : Dev nD) (t : Fin cfg0.N) :
    ((datsE m 0 c).leaves 3 t : sProp 𝕄)
      = iprop(∃ d, owns (c : Thread nD τ) (ms0_3 t) fullShare (win0_3.fill (grid0.coords t) d (win0_3.cut (grid0.coords t) (outBlk m c t.val)))) := by
  unfold Dat.leaves; rw [liveAt0_3 t, loose0_3, after0_3]; rfl
/-- A statistics window away from a group's last point: as found. -/
theorem leaves0_4_idle (c : Dev nD) (t : Fin cfg0.N) (h : ¬cond0_1 (grid0.coords t)) :
    ((datsE m 0 c).leaves 4 t : sProp 𝕄) = iprop(∃ d, owns (c : Thread nD τ) (ms0_4 t) fullShare ((datsE m 0 c).before 4 t d)) :=
  Dat.leaves_idle (datsE m 0 c) 4 t (idleAt0_4 t h) (noFlush0_4 t h)
theorem leaves0_5_idle (c : Dev nD) (t : Fin cfg0.N) (h : ¬cond0_1 (grid0.coords t)) :
    ((datsE m 0 c).leaves 5 t : sProp 𝕄) = iprop(∃ d, owns (c : Thread nD τ) (ms0_5 t) fullShare ((datsE m 0 c).before 5 t d)) :=
  Dat.leaves_idle (datsE m 0 c) 5 t (idleAt0_5 t h) (noFlush0_5 t h)
theorem leaves0_6_idle (c : Dev nD) (t : Fin cfg0.N) (h : ¬cond0_1 (grid0.coords t)) :
    ((datsE m 0 c).leaves 6 t : sProp 𝕄) = iprop(∃ d, owns (c : Thread nD τ) (ms0_6 t) fullShare ((datsE m 0 c).before 6 t d)) :=
  Dat.leaves_idle (datsE m 0 c) 6 t (idleAt0_6 t h) (noFlush0_6 t h)
/-- A statistics window at a group's last point: the group's statistics laid along the last axis. -/
theorem leaves0_4_live (c : Dev nD) (t : Fin cfg0.N) (h : cond0_1 (grid0.coords t)) :
    ((datsE m 0 c).leaves 4 t : sProp 𝕄) = owns (c : Thread nD τ) (ms0_4 t) fullShare (mO m c t.val) := by
  unfold Dat.leaves; rw [liveAt0_4 t h, loose0_4, after0_4]
theorem leaves0_5_live (c : Dev nD) (t : Fin cfg0.N) (h : cond0_1 (grid0.coords t)) :
    ((datsE m 0 c).leaves 5 t : sProp 𝕄) = owns (c : Thread nD τ) (ms0_5 t) fullShare (lO m c t.val) := by
  unfold Dat.leaves; rw [liveAt0_5 t h, loose0_5, after0_5]
theorem leaves0_6_live (c : Dev nD) (t : Fin cfg0.N) (h : cond0_1 (grid0.coords t)) :
    ((datsE m 0 c).leaves 6 t : sProp 𝕄) = owns (c : Thread nD τ) (ms0_6 t) fullShare (tO m c t.val) := by
  unfold Dat.leaves; rw [liveAt0_6 t h, loose0_6, after0_6]

/-! ## A point's operands and results, from the specification -/

/-- The point's operands read as the specification's data, whatever fills the weight block past the array's end. -/
theorem readsE (hH : Hyp m) (c : Dev nD) (t : Fin cfg0.N) (d : S1792x512.Idx → EReal) :
    Reads (grid0.coords t) t.val (xRows m c) (wRows m c) (labs m c)
      (iblk m c 0 t) (win0_2.fill (grid0.coords t) d (iblk m c 2 t)) (xnS m c) where
  tile := tile_of_point t
  lab_lt := (hH c).2.2
  lab_eq := fun r => congrArg BitVec.toNat (lblk_val m c t r)
  w_eq := fun q h k => wblk_val m c t d q k h
  xn_eq := fun r k => rfl

/-- The unit rows a group's first point computes from x's block are the unit rows of x. -/
theorem xn_E (c : Dev nD) (t : Fin cfg0.N) : k0_pay6 (F := Ideal) (iblk m c 1 t) = xnS m c :=
  xn_eq (iblk m c 1 t) (xRows m c) (fun a b => xblk_val m c t a b)

/-- The block of entries the point leaves is the point's tile of every row of the result. -/
theorem blk_E (hH : Hyp m) (c : Dev nD) (t : Fin cfg0.N) (d : S1792x512.Idx → EReal) :
    blkOut (F := Ideal) (grid0.coords t) (iblk m c 0 t) (win0_2.fill (grid0.coords t) d (iblk m c 2 t)) (xnS m c) = outBlk m c t.val :=
  blk_eq (readsE m hH c t d)

/-- A row's statistics after a point: one step over the point's tile from those before it in the group. -/
theorem stS_step (c : Dev nD) (n : ℕ) (r : Fin 2048) :
    stS m c n r = (Cert.Spec.statOf (rowLogit m c r) (labs m c r) (14 * (n / 14)) (n % 14)).step
      (Cert.Spec.tileOf (rowLogit m c r) n) (Cert.Spec.tileHit (labs m c r) n) :=
  Cert.Spec.statOf_at (rowLogit m c r) (labs m c r) n

/-- At a group's first point the statistics start from the reset values. -/
theorem statA_E (hH : Hyp m) (c : Dev nD) (t : Fin cfg0.N) (d : S1792x512.Idx → EReal) (h0 : t.val % 14 = 0) :
    mNew (F := Ideal) (grid0.coords t) (iblk m c 0 t) (win0_2.fill (grid0.coords t) d (iblk m c 2 t)) (xnS m c) (k0_pay7 (F := Ideal)) = mS m c t.val
    ∧ lNew (F := Ideal) (grid0.coords t) (iblk m c 0 t) (win0_2.fill (grid0.coords t) d (iblk m c 2 t)) (xnS m c) (k0_pay7 (F := Ideal)) (k0_pay8 (F := Ideal)) = lS m c t.val
    ∧ tNew (F := Ideal) (grid0.coords t) (iblk m c 0 t) (win0_2.fill (grid0.coords t) d (iblk m c 2 t)) (xnS m c) (k0_pay9 (F := Ideal)) = tS m c t.val := by
  have R := readsE m hH c t d
  have key := fun r : Fin 2048 => stat_step R Cert.Spec.Stat.init (k0_pay7 (F := Ideal)) (k0_pay8 (F := Ideal)) (k0_pay9 (F := Ideal)) r (reset_m r) (reset_l r) (reset_t r)
  have hs : ∀ r : Fin 2048, stS m c t.val r = Cert.Spec.Stat.init.step
      (Cert.Spec.tileOf (rowLogit m c r) t.val) (Cert.Spec.tileHit (labs m c r) t.val) := fun r => by
    rw [stS_step, Cert.Spec.statOf_first _ _ _ h0]
  refine ⟨?_, ?_, ?_⟩
  · funext idx
    obtain ⟨r, u, rfl⟩ : ∃ (r : Fin 2048) (u : Fin 1), idx = ix2 r u := ⟨idx 0, idx 1, eq_ix2 idx⟩
    obtain rfl : u = 0 := Subsingleton.elim u 0
    show _ = (stS m c t.val r).m
    rw [hs r]; exact (key r).1
  · funext idx
    obtain ⟨r, u, rfl⟩ : ∃ (r : Fin 2048) (u : Fin 1), idx = ix2 r u := ⟨idx 0, idx 1, eq_ix2 idx⟩
    obtain rfl : u = 0 := Subsingleton.elim u 0
    show _ = (stS m c t.val r).l
    rw [hs r]; exact (key r).2.1
  · funext idx
    obtain ⟨r, u, rfl⟩ : ∃ (r : Fin 2048) (u : Fin 1), idx = ix2 r u := ⟨idx 0, idx 1, eq_ix2 idx⟩
    obtain rfl : u = 0 := Subsingleton.elim u 0
    show _ = (stS m c t.val r).t
    rw [hs r]; exact (key r).2.2

/-- At a later point of a group the statistics advance from what the point before left. -/
theorem statB_E (hH : Hyp m) (c : Dev nD) (t : Fin cfg0.N) (d : S1792x512.Idx → EReal) (h0 : t.val % 14 ≠ 0) :
    mNew (F := Ideal) (grid0.coords t) (iblk m c 0 t) (win0_2.fill (grid0.coords t) d (iblk m c 2 t)) (xnS m c) (mS m c (t.val - 1)) = mS m c t.val
    ∧ lNew (F := Ideal) (grid0.coords t) (iblk m c 0 t) (win0_2.fill (grid0.coords t) d (iblk m c 2 t)) (xnS m c) (mS m c (t.val - 1)) (lS m c (t.val - 1)) = lS m c t.val
    ∧ tNew (F := Ideal) (grid0.coords t) (iblk m c 0 t) (win0_2.fill (grid0.coords t) d (iblk m c 2 t)) (xnS m c) (tS m c (t.val - 1)) = tS m c t.val := by
  have R := readsE m hH c t d
  have key := fun r : Fin 2048 => stat_step R (stS m c (t.val - 1) r) (mS m c (t.val - 1)) (lS m c (t.val - 1)) (tS m c (t.val - 1)) r rfl rfl rfl
  have hs : ∀ r : Fin 2048, stS m c t.val r = (stS m c (t.val - 1) r).step
      (Cert.Spec.tileOf (rowLogit m c r) t.val) (Cert.Spec.tileHit (labs m c r) t.val) := fun r => by
    rw [stS_step m c t.val r, Cert.Spec.statOf_prev _ _ _ h0]; rfl
  refine ⟨?_, ?_, ?_⟩
  · funext idx
    obtain ⟨r, u, rfl⟩ : ∃ (r : Fin 2048) (u : Fin 1), idx = ix2 r u := ⟨idx 0, idx 1, eq_ix2 idx⟩
    obtain rfl : u = 0 := Subsingleton.elim u 0
    show _ = (stS m c t.val r).m
    rw [hs r]; exact (key r).1
  · funext idx
    obtain ⟨r, u, rfl⟩ : ∃ (r : Fin 2048) (u : Fin 1), idx = ix2 r u := ⟨idx 0, idx 1, eq_ix2 idx⟩
    obtain rfl : u = 0 := Subsingleton.elim u 0
    show _ = (stS m c t.val r).l
    rw [hs r]; exact (key r).2.1
  · funext idx
    obtain ⟨r, u, rfl⟩ : ∃ (r : Fin 2048) (u : Fin 1), idx = ix2 r u := ⟨idx 0, idx 1, eq_ix2 idx⟩
    obtain rfl : u = 0 := Subsingleton.elim u 0
    show _ = (stS m c t.val r).t
    rw [hs r]; exact (key r).2.2

/-- The statistics laid along the last axis. -/
theorem mO_E (c : Dev nD) (n : ℕ) : k0_pay3 (F := Ideal) (mS m c n) = mO m c n := by
  funext idx
  obtain ⟨a, b, r, rfl⟩ : ∃ (a : Fin 1) (b : Fin 1) (r : Fin 2048), idx = ix3 a b r := ⟨idx 0, idx 1, idx 2, eq_ix3 idx⟩
  obtain rfl : a = 0 := Subsingleton.elim a 0
  obtain rfl : b = 0 := Subsingleton.elim b 0
  exact out_m _ r
theorem lO_E (c : Dev nD) (n : ℕ) : k0_pay4 (F := Ideal) (lS m c n) = lO m c n := by
  funext idx
  obtain ⟨a, b, r, rfl⟩ : ∃ (a : Fin 1) (b : Fin 1) (r : Fin 2048), idx = ix3 a b r := ⟨idx 0, idx 1, idx 2, eq_ix3 idx⟩
  obtain rfl : a = 0 := Subsingleton.elim a 0
  obtain rfl : b = 0 := Subsingleton.elim b 0
  exact out_l _ r
theorem tO_E (c : Dev nD) (n : ℕ) : k0_pay5 (F := Ideal) (tS m c n) = tO m c n := by
  funext idx
  obtain ⟨a, b, r, rfl⟩ : ∃ (a : Fin 1) (b : Fin 1) (r : Fin 2048), idx = ix3 a b r := ⟨idx 0, idx 1, idx 2, eq_ix3 idx⟩
  obtain rfl : a = 0 := Subsingleton.elim a 0
  obtain rfl : b = 0 := Subsingleton.elim b 0
  exact out_t _ r

end Cert.KernelIdeal.Body

end
-- ==== Proof.KIOblig.lean ====
/-
  The body obligation of the idealized kernel's pipeline over the proof data stated from the specification, and the
  frame run it gives: at every point the body, handed the inputs' blocks (the weight block filled out past the array's
  end by anything), the scratch buffers at what the point before left and the outputs' buffers at anything, leaves the
  point's tile in the result's buffer and the statistics advanced over it. What the unnamed words of the weight block
  contribute is masked away: a column past the last class reads `⊥` whatever its cosine, and no label names it.
-/
import proofs.«416711_j88845693485822_2_alg».proof.Proof.KIWin

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The body's triple at a point, over the exact data -/

/-- At a group's first point: the scratch buffers at anything before, the statistics windows left as found. -/
theorem sound_AE (hH : Hyp m) (c : Dev nD) (t : Fin cfg0.N) (h0 : t.val % 14 = 0)
    (d2 : S1792x512.Idx → EReal) (x4 x5 x6 : Vec Ideal S1x1x2048 .f32) (K : PUnit → sProp 𝕄) :
    iprop(owns (c : Thread nD τ) (ms0_0 t) fullShare (iblk m c 0 t) ∗ owns (c : Thread nD τ) (ms0_1 t) fullShare (iblk m c 1 t)
        ∗ owns (c : Thread nD τ) (ms0_2 t) fullShare (win0_2.fill (grid0.coords t) d2 (iblk m c 2 t))
        ∗ (∃ d, owns (c : Thread nD τ) (ms0_3 t) fullShare d)
        ∗ owns (c : Thread nD τ) (ms0_4 t) fullShare x4 ∗ owns (c : Thread nD τ) (ms0_5 t) fullShare x5 ∗ owns (c : Thread nD τ) (ms0_6 t) fullShare x6
        ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)
        ∗ (iprop(owns (c : Thread nD τ) (ms0_0 t) fullShare (iblk m c 0 t) ∗ owns (c : Thread nD τ) (ms0_1 t) fullShare (iblk m c 1 t)
        ∗ owns (c : Thread nD τ) (ms0_2 t) fullShare (win0_2.fill (grid0.coords t) d2 (iblk m c 2 t))
              ∗ owns (c : Thread nD τ) (ms0_3 t) fullShare (outBlk m c t.val)
              ∗ owns (c : Thread nD τ) (ms0_4 t) fullShare x4 ∗ owns (c : Thread nD τ) (ms0_5 t) fullShare x5 ∗ owns (c : Thread nD τ) (ms0_6 t) fullShare x6
              ∗ owns (c : Thread nD τ) scM0_0 fullShare (xnS m c) ∗ owns (c : Thread nD τ) scM0_1 fullShare (mS m c t.val) ∗ owns (c : Thread nD τ) scM0_2 fullShare (lS m c t.val) ∗ owns (c : Thread nD τ) scM0_3 fullShare (tS m c t.val)) -∗ K ⟨⟩))
      ⊢ wp frame (wpE (defs₀ (F := Ideal)) Variants.none c none) Set.univ (bodyAt0 t) K := by
  have hA := sound_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
    ((hcond0_0 t).mpr h0) (fun h => by have := (hcond0_1 t).mp h; omega)
    (iblk m c 0 t) (iblk m c 1 t) (win0_2.fill (grid0.coords t) d2 (iblk m c 2 t)) x4 x5 x6 Set.univ K
  obtain ⟨em, el, et⟩ := statA_E m hH c t d2 h0
  rw [xn_E m c t, blk_E m hH c t d2, em, el, et] at hA
  exact hA

/-- At a point inside a group: the scratch buffers at what the point before left, the statistics windows left as found. -/
theorem sound_BE (hH : Hyp m) (c : Dev nD) (t : Fin cfg0.N) (h0 : t.val % 14 ≠ 0) (h1 : t.val % 14 ≠ 13)
    (d2 : S1792x512.Idx → EReal) (x4 x5 x6 : Vec Ideal S1x1x2048 .f32) (K : PUnit → sProp 𝕄) :
    iprop(owns (c : Thread nD τ) (ms0_0 t) fullShare (iblk m c 0 t) ∗ owns (c : Thread nD τ) (ms0_1 t) fullShare (iblk m c 1 t)
        ∗ owns (c : Thread nD τ) (ms0_2 t) fullShare (win0_2.fill (grid0.coords t) d2 (iblk m c 2 t))
        ∗ (∃ d, owns (c : Thread nD τ) (ms0_3 t) fullShare d)
        ∗ owns (c : Thread nD τ) (ms0_4 t) fullShare x4 ∗ owns (c : Thread nD τ) (ms0_5 t) fullShare x5 ∗ owns (c : Thread nD τ) (ms0_6 t) fullShare x6
        ∗ owns (c : Thread nD τ) scM0_0 fullShare (xnS m c) ∗ owns (c : Thread nD τ) scM0_1 fullShare (mS m c (t.val - 1)) ∗ owns (c : Thread nD τ) scM0_2 fullShare (lS m c (t.val - 1)) ∗ owns (c : Thread nD τ) scM0_3 fullShare (tS m c (t.val - 1))
        ∗ (iprop(owns (c : Thread nD τ) (ms0_0 t) fullShare (iblk m c 0 t) ∗ owns (c : Thread nD τ) (ms0_1 t) fullShare (iblk m c 1 t)
        ∗ owns (c : Thread nD τ) (ms0_2 t) fullShare (win0_2.fill (grid0.coords t) d2 (iblk m c 2 t))
              ∗ owns (c : Thread nD τ) (ms0_3 t) fullShare (outBlk m c t.val)
              ∗ owns (c : Thread nD τ) (ms0_4 t) fullShare x4 ∗ owns (c : Thread nD τ) (ms0_5 t) fullShare x5 ∗ owns (c : Thread nD τ) (ms0_6 t) fullShare x6
              ∗ owns (c : Thread nD τ) scM0_0 fullShare (xnS m c) ∗ owns (c : Thread nD τ) scM0_1 fullShare (mS m c t.val) ∗ owns (c : Thread nD τ) scM0_2 fullShare (lS m c t.val) ∗ owns (c : Thread nD τ) scM0_3 fullShare (tS m c t.val)) -∗ K ⟨⟩))
      ⊢ wp frame (wpE (defs₀ (F := Ideal)) Variants.none c none) Set.univ (bodyAt0 t) K := by
  have hB := sound_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
    (fun h => h0 ((hcond0_0 t).mp h)) (fun h => h1 ((hcond0_1 t).mp h))
    (iblk m c 0 t) (iblk m c 1 t) (win0_2.fill (grid0.coords t) d2 (iblk m c 2 t)) (xnS m c) (mS m c (t.val - 1)) (lS m c (t.val - 1)) (tS m c (t.val - 1)) x4 x5 x6 Set.univ K
  obtain ⟨em, el, et⟩ := statB_E m hH c t d2 h0
  rw [blk_E m hH c t d2, em, el, et] at hB
  exact hB

/-- At a group's last point: the statistics windows written with the group's statistics. -/
theorem sound_CE (hH : Hyp m) (c : Dev nD) (t : Fin cfg0.N) (h1 : t.val % 14 = 13)
    (d2 : S1792x512.Idx → EReal) (K : PUnit → sProp 𝕄) :
    iprop(owns (c : Thread nD τ) (ms0_0 t) fullShare (iblk m c 0 t) ∗ owns (c : Thread nD τ) (ms0_1 t) fullShare (iblk m c 1 t)
        ∗ owns (c : Thread nD τ) (ms0_2 t) fullShare (win0_2.fill (grid0.coords t) d2 (iblk m c 2 t))
        ∗ (∃ d, owns (c : Thread nD τ) (ms0_3 t) fullShare d)
        ∗ (∃ d, owns (c : Thread nD τ) (ms0_4 t) fullShare d) ∗ (∃ d, owns (c : Thread nD τ) (ms0_5 t) fullShare d) ∗ (∃ d, owns (c : Thread nD τ) (ms0_6 t) fullShare d)
        ∗ owns (c : Thread nD τ) scM0_0 fullShare (xnS m c) ∗ owns (c : Thread nD τ) scM0_1 fullShare (mS m c (t.val - 1)) ∗ owns (c : Thread nD τ) scM0_2 fullShare (lS m c (t.val - 1)) ∗ owns (c : Thread nD τ) scM0_3 fullShare (tS m c (t.val - 1))
        ∗ (iprop(owns (c : Thread nD τ) (ms0_0 t) fullShare (iblk m c 0 t) ∗ owns (c : Thread nD τ) (ms0_1 t) fullShare (iblk m c 1 t)
        ∗ owns (c : Thread nD τ) (ms0_2 t) fullShare (win0_2.fill (grid0.coords t) d2 (iblk m c 2 t))
              ∗ owns (c : Thread nD τ) (ms0_3 t) fullShare (outBlk m c t.val)
              ∗ owns (c : Thread nD τ) (ms0_4 t) fullShare (mO m c t.val) ∗ owns (c : Thread nD τ) (ms0_5 t) fullShare (lO m c t.val) ∗ owns (c : Thread nD τ) (ms0_6 t) fullShare (tO m c t.val)
              ∗ owns (c : Thread nD τ) scM0_0 fullShare (xnS m c) ∗ owns (c : Thread nD τ) scM0_1 fullShare (mS m c t.val) ∗ owns (c : Thread nD τ) scM0_2 fullShare (lS m c t.val) ∗ owns (c : Thread nD τ) scM0_3 fullShare (tS m c t.val)) -∗ K ⟨⟩))
      ⊢ wp frame (wpE (defs₀ (F := Ideal)) Variants.none c none) Set.univ (bodyAt0 t) K := by
  have h0 : t.val % 14 ≠ 0 := by omega
  have hC := sound_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _)
    (fun h => h0 ((hcond0_0 t).mp h)) ((hcond0_1 t).mpr h1)
    (iblk m c 0 t) (iblk m c 1 t) (win0_2.fill (grid0.coords t) d2 (iblk m c 2 t)) (xnS m c) (mS m c (t.val - 1)) (lS m c (t.val - 1)) (tS m c (t.val - 1)) Set.univ K
  obtain ⟨em, el, et⟩ := statB_E m hH c t d2 h0
  rw [blk_E m hH c t d2, em, el, et, mO_E, lO_E, tO_E] at hC
  exact hC

/-! ## The body obligation -/

/-- What the body is called with at point t: the invariant, what the core owes, and every window's buffer at what it then holds; -/
def bodyPreE (c : Dev nD) (t : Fin cfg0.N) : sProp 𝕄 :=
  iprop((datsE m 0 c).Φ t.castSucc ∗ (datsE m 0 c).owesAt () t.castSucc
    ∗ (∃ d, owns (c : Thread nD τ) (ms0_0 t) fullShare ((datsE m 0 c).before 0 t d))
    ∗ (∃ d, owns (c : Thread nD τ) (ms0_1 t) fullShare ((datsE m 0 c).before 1 t d))
    ∗ (∃ d, owns (c : Thread nD τ) (ms0_2 t) fullShare ((datsE m 0 c).before 2 t d))
    ∗ (∃ d, owns (c : Thread nD τ) (ms0_3 t) fullShare ((datsE m 0 c).before 3 t d))
    ∗ (∃ d, owns (c : Thread nD τ) (ms0_4 t) fullShare ((datsE m 0 c).before 4 t d))
    ∗ (∃ d, owns (c : Thread nD τ) (ms0_5 t) fullShare ((datsE m 0 c).before 5 t d))
    ∗ (∃ d, owns (c : Thread nD τ) (ms0_6 t) fullShare ((datsE m 0 c).before 6 t d)))

/-- and what it returns. -/
def bodyPostE (c : Dev nD) (t : Fin cfg0.N) : sProp 𝕄 :=
  iprop((datsE m 0 c).Φ t.succ ∗ (datsE m 0 c).owesAt () t.succ
    ∗ (datsE m 0 c).leaves 0 t ∗ (datsE m 0 c).leaves 1 t ∗ (datsE m 0 c).leaves 2 t ∗ (datsE m 0 c).leaves 3 t ∗ (datsE m 0 c).leaves 4 t ∗ (datsE m 0 c).leaves 5 t ∗ (datsE m 0 c).leaves 6 t)

set_option maxHeartbeats 4800000 in
/-- The body at any point. The inputs' buffers hold their blocks, the weight block's filled out by anything; by the point's
    place in its group of fourteen the body resets or carries the statistics, and writes them out at the last; the scratch
    buffers come from the invariant at what the point before left (at anything before the first point) and go back at this
    point's; the result's buffer is stated on the columns inside the array; the core owes nothing throughout. -/
theorem sound_bodyE (hH : Hyp m) (c : Dev nD) (t : Fin cfg0.N) :
    bodyPreE m c t ⊢ wp frame (wpE (defs₀ (F := Ideal)) Variants.none c none) Set.univ (bodyAt0 t) (fun _ => bodyPostE m c t) := by
  unfold bodyPreE bodyPostE
  simp only [before0_0, before0_1, before0_2]
  rw [show (datsE m 0 c).owesAt () t.succ = (datsE m 0 c).owesAt () t.castSucc from rfl]
  rw [show (datsE m 0 c).Φ t.succ = PhiE m c (t.val + 1) t.isLt from rfl, PhiE_succ]
  rw [leaves0_0, leaves0_1, leaves0_2, leaves0_3]
  have hN : t.val < 28 := lt_of_lt_of_eq t.isLt (show cfg0.N = 28 from N_0)
  by_cases h0 : t.val % 14 = 0
  · have hc1 : ¬cond0_1 (grid0.coords t) := fun h => by have := (hcond0_1 t).mp h; omega
    rw [leaves0_4_idle m c t hc1, leaves0_5_idle m c t hc1, leaves0_6_idle m c t hc1]
    by_cases hz : t.val = 0
    · rw [PhiE_castSucc m c t, PhiE_zero m c _ _ hz, PhiA0_eq]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (sound_AE m hH c t h0 d2 _ _ _ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexists d2; iexact H2
      isplitl [H3]; · iexists (outBlk m c t.val); rw [Window.fill_cut]; iexact H3
      isplitl [H4]; · iexists d4; iexact H4
      isplitl [H5]; · iexists d5; iexact H5
      iexists d6; iexact H6
    · rw [PhiE_castSucc m c t, PhiE_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (sound_AE m hH c t h0 d2 _ _ _ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexists d2; iexact H2
      isplitl [H3]; · iexists (outBlk m c t.val); rw [Window.fill_cut]; iexact H3
      isplitl [H4]; · iexists d4; iexact H4
      isplitl [H5]; · iexists d5; iexact H5
      iexists d6; iexact H6
  · have hz : t.val ≠ 0 := fun h => h0 (by rw [h])
    by_cases h1 : t.val % 14 = 13
    · have hc1 : cond0_1 (grid0.coords t) := (hcond0_1 t).mpr h1
      rw [leaves0_4_live m c t hc1, leaves0_5_live m c t hc1, leaves0_6_live m c t hc1]
      rw [PhiE_castSucc m c t, PhiE_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (sound_CE m hH c t h1 d2 _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexists d2; iexact H2
      isplitl [H3]; · iexists (outBlk m c t.val); rw [Window.fill_cut]; iexact H3
      isplitl [H4]; · iexact H4
      isplitl [H5]; · iexact H5
      iexact H6
    · have hc1 : ¬cond0_1 (grid0.coords t) := fun h => h1 ((hcond0_1 t).mp h)
      rw [leaves0_4_idle m c t hc1, leaves0_5_idle m c t hc1, leaves0_6_idle m c t hc1]
      rw [PhiE_castSucc m c t, PhiE_pos m c _ _ hz]
      iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
      iapply (sound_BE m hH c t h0 h1 d2 _ _ _ _)
      isplitl [H0]; · iexact H0
      isplitl [H1]; · iexact H1
      isplitl [H2]; · iexact H2
      isplitl [H3]; · iexists _; iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, HS1, HS2, HS3⟩
      isplitl [HS0 HS1 HS2 HS3 Hg]
      · isplitl [HS0 HS1 HS2 HS3]
        · isplitl [HS0]; · iexact HS0
          isplitl [HS1]; · iexact HS1
          isplitl [HS2]; · iexact HS2
          iexact HS3
        iexact Hg
      isplitl [Ho]; · iexact Ho
      isplitl [H0]; · iexact H0
      isplitl [H1]; · iexact H1
      isplitl [H2]; · iexists d2; iexact H2
      isplitl [H3]; · iexists (outBlk m c t.val); rw [Window.fill_cut]; iexact H3
      isplitl [H4]; · iexists d4; iexact H4
      isplitl [H5]; · iexists d5; iexact H5
      iexists d6; iexact H6

/-- The library's body obligation, at every point, under the precondition's facts. -/
theorem body_obligationE (hH : Hyp m) (c : Dev nD) :
    BodyObligationLoose (datsE m 0 c) (defs₀ (F := Ideal)) Variants.none () Set.univ := fun t => by
  rw [bigSep_W0, bigSep_W0]
  exact sound_bodyE m hH c t

/-- What the launch hands the region is the invariant before the first point. -/
theorem hinE (c : Dev nD) : Pipeline.ΦA spec0 c ⊢ (datsE m 0 c).Φ 0 := by
  rw [show (datsE m 0 c).Φ 0 = PhiE m c 0 (Nat.zero_le _) from rfl, PhiE_zero m c 0 _ rfl]
  try exact Idealize.SL.BI.Entails.refl _

/-- After the last point the invariant gives the class's back: the scratch buffers' named contents are forgotten. -/
theorem houtE (c : Dev nD) : (datsE m 0 c).Φ (Fin.last cfg0.N) ⊢ Pipeline.ΦA spec0 c := by
  have hN : (Fin.last cfg0.N).val ≠ 0 := by rw [Fin.val_last]; have : cfg0.N = 28 := N_0; omega
  rw [show (datsE m 0 c).Φ (Fin.last cfg0.N) = PhiE m c (Fin.last cfg0.N).val (Nat.le_of_lt_succ (Fin.last cfg0.N).isLt) from rfl,
    PhiE_pos m c _ _ hN, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

set_option backward.isDefEq.respectTransparency.types false in
/-- The frame run over the exact data. -/
theorem run_mainE (hH : Hyp m) :
    θ_run defs (onTc (τ := τ) (main (F := Ideal))) (s₀ m ρ)
      (Pipeline.FramePost cfgs (datsE m) 0 (Pipeline.afterTail₀ cfgs (datsE m) 0 (V0 m) [hostOps1])) :=
  Pipeline.θ_run_frame_around_track cfgs (datsE m) (0 : Fin 1) launch0 defs₀ Variants.none m ρ main
    (hbody := fun c => body_obligationE m hH c) (hshare := fun c => (datsE m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hinE m) (hout := houtE m)

end Cert.KernelIdeal.Body

end
-- ==== Proof.Stream.lean ====
/-
  The streaming statistics of a row are its log-softmax at the label.

  A row of reals is read as a function g of the column number n < 50000. For a set J of columns write
  E J c = ∑ n ∈ J, exp (g n - c) and A J = ∑ n ∈ J, (g n if n is the label's column, else 0). Statistics (m, l, t)
  are "those of J" when m is the largest g n over J and one of them, l = E J m and t = A J. One tile more joins the
  tile's columns D to J: the maximum becomes max m m_D, and exp (m - m') · E J m = E J m' rescales the old sum to the
  new maximum. The two groups join in the same way, and the columns of both are all the columns.
-/
import proofs.«416711_j88845693485822_2_alg».proof.Proof.Spec

noncomputable section

namespace Cert.Spec

open Idealize.ShloMosaic

/-! ## Sums and suprema of extended reals that are reals -/

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals. -/
theorem coe_max_real (a b : ℝ) : ((max a b : ℝ) : EReal) = max (a : EReal) (b : EReal) := by
  rcases le_total a b with h | h
  · rw [max_eq_right h, max_eq_right (EReal.coe_le_coe_iff.mpr h)]
  · rw [max_eq_left h, max_eq_left (EReal.coe_le_coe_iff.mpr h)]

/-- A bound that is attained is the supremum. -/
theorem sup_eq_of_max {ι : Type} [Fintype ι] (f : ι → EReal) (M : EReal) (hle : ∀ i, f i ≤ M)
    (hex : ∃ i, f i = M) : Finset.univ.sup f = M := by
  obtain ⟨i, hi⟩ := hex
  exact le_antisymm (Finset.sup_le fun j _ => hle j) (hi ▸ Finset.le_sup (Finset.mem_univ i))

/-! ## Sets of columns -/

/-- The columns n with a ≤ n < b that the row has. -/
def cols (a b : ℕ) : Finset ℕ := (Finset.Ico a b).filter (· < 50000)

theorem mem_cols {a b n : ℕ} : n ∈ cols a b ↔ (a ≤ n ∧ n < b) ∧ n < 50000 := by
  rw [cols, Finset.mem_filter, Finset.mem_Ico]

theorem cols_union {a b c : ℕ} (hab : a ≤ b) (hbc : b ≤ c) : cols a b ∪ cols b c = cols a c := by
  rw [cols, cols, ← Finset.filter_union, Finset.Ico_union_Ico_eq_Ico hab hbc, cols]

theorem cols_disjoint (a b c : ℕ) : Disjoint (cols a b) (cols b c) :=
  Finset.disjoint_filter_filter (Finset.Ico_disjoint_Ico_consecutive a b c)

/-! ## Statistics of a set of columns -/

/-- M is the largest of the g n, n ∈ J, and one of them. -/
def IsMaxOn (g : ℕ → ℝ) (J : Finset ℕ) (M : ℝ) : Prop := (∀ n ∈ J, g n ≤ M) ∧ ∃ n ∈ J, g n = M

/-- The sum over J of exp (g n - c). -/
def sumExp (g : ℕ → ℝ) (J : Finset ℕ) (c : ℝ) : ℝ := ∑ n ∈ J, Real.exp (g n - c)

/-- The sum over J of g n at n = l. -/
def sumAt (g : ℕ → ℝ) (l : ℕ) (J : Finset ℕ) : ℝ := ∑ n ∈ J, if n = l then g n else 0

/-- The statistics s are those of the columns J. -/
def Good (g : ℕ → ℝ) (l : ℕ) (s : Stat) (J : Finset ℕ) : Prop :=
  ∃ M : ℝ, s.m = (M : EReal) ∧ IsMaxOn g J M ∧ s.l = (sumExp g J M : EReal) ∧ s.t = (sumAt g l J : EReal)

section
variable (g : ℕ → ℝ) (l : ℕ)

theorem sumExp_rescale (J : Finset ℕ) (M M' : ℝ) : Real.exp (M - M') * sumExp g J M = sumExp g J M' := by
  rw [sumExp, sumExp, Finset.mul_sum]
  refine Finset.sum_congr rfl fun n _ => ?_
  rw [← Real.exp_add]
  congr 1
  ring

theorem sumExp_union {J D : Finset ℕ} (h : Disjoint J D) (c : ℝ) :
    sumExp g (J ∪ D) c = sumExp g J c + sumExp g D c := Finset.sum_union h

theorem sumAt_union {J D : Finset ℕ} (h : Disjoint J D) : sumAt g l (J ∪ D) = sumAt g l J + sumAt g l D :=
  Finset.sum_union h

theorem IsMaxOn.union {J D : Finset ℕ} {M MD : ℝ} (hJ : IsMaxOn g J M) (hD : IsMaxOn g D MD) :
    IsMaxOn g (J ∪ D) (max M MD) := by
  obtain ⟨hJle, nJ, hnJ, hnJe⟩ := hJ
  obtain ⟨hDle, nD, hnD, hnDe⟩ := hD
  refine ⟨fun n hn => ?_, ?_⟩
  · rcases Finset.mem_union.mp hn with h | h
    · exact le_trans (hJle n h) (le_max_left _ _)
    · exact le_trans (hDle n h) (le_max_right _ _)
  · rcases le_total M MD with h | h
    · exact ⟨nD, Finset.mem_union_right _ hnD, by rw [hnDe, max_eq_right h]⟩
    · exact ⟨nJ, Finset.mem_union_left _ hnJ, by rw [hnJe, max_eq_left h]⟩

/-! ## One tile more -/

theorem step_m (s : Stat) (tile : Fin 1792 → EReal) (hit : Fin 1792 → Prop) :
    (s.step tile hit).m = max s.m (Finset.univ.sup tile) := rfl

theorem step_l (s : Stat) (tile : Fin 1792 → EReal) (hit : Fin 1792 → Prop) :
    (s.step tile hit).l = Ideal.exp (s.m - max s.m (Finset.univ.sup tile)) * s.l
      + ∑ q : Fin 1792, Ideal.exp (tile q - max s.m (Finset.univ.sup tile)) := rfl

open Classical in
theorem step_t (s : Stat) (tile : Fin 1792 → EReal) (hit : Fin 1792 → Prop) :
    (s.step tile hit).t = s.t + ∑ q : Fin 1792, if hit q then tile q else 0 := rfl

open Classical in
/-- The tile carries the columns D: its supremum, its sums of exponentials and its sum at the label are theirs. -/
structure TileIs (tile : Fin 1792 → EReal) (hit : Fin 1792 → Prop) (D : Finset ℕ) (MD : ℝ) : Prop where
  sup : Finset.univ.sup tile = (MD : EReal)
  isMax : IsMaxOn g D MD
  expSum : ∀ c : ℝ, ∑ q : Fin 1792, Ideal.exp (tile q - (c : EReal)) = (sumExp g D c : EReal)
  hitSum : (∑ q : Fin 1792, if hit q then tile q else 0) = (sumAt g l D : EReal)

/-- The first tile: from (⊥, 0, 0) the statistics become the tile's. -/
theorem good_step_init {tile : Fin 1792 → EReal} {hit : Fin 1792 → Prop} {D : Finset ℕ} {MD : ℝ}
    (h : TileIs g l tile hit D MD) : Good g l (Stat.init.step tile hit) D := by
  have hm : max (Stat.init).m (Finset.univ.sup tile) = (MD : EReal) := by
    rw [h.sup]
    exact max_eq_right bot_le
  refine ⟨MD, ?_, h.isMax, ?_, ?_⟩
  · rw [step_m, hm]
  · rw [step_l, hm, h.expSum]
    show Ideal.exp (⊥ - (MD : EReal)) * 0 + _ = _
    rw [mul_zero, zero_add]
  · rw [step_t, h.hitSum]
    show (0 : EReal) + _ = _
    rw [zero_add]

/-- A further tile: the statistics of J become those of J and the tile's columns. -/
theorem good_step {s : Stat} {J : Finset ℕ} {tile : Fin 1792 → EReal} {hit : Fin 1792 → Prop} {D : Finset ℕ} {MD : ℝ}
    (hs : Good g l s J) (h : TileIs g l tile hit D MD) (hd : Disjoint J D) :
    Good g l (s.step tile hit) (J ∪ D) := by
  obtain ⟨M, hm, hmax, hl, ht⟩ := hs
  have hm' : max s.m (Finset.univ.sup tile) = ((max M MD : ℝ) : EReal) := by
    rw [hm, h.sup, coe_max_real]
  refine ⟨max M MD, ?_, hmax.union g h.isMax, ?_, ?_⟩
  · rw [step_m, hm']
  · rw [step_l, hm', h.expSum, hm, hl, ← EReal.coe_sub, Ideal.exp_coe, ← EReal.coe_mul, ← EReal.coe_add,
      sumExp_rescale, sumExp_union g hd]
  · rw [step_t, h.hitSum, ht, ← EReal.coe_add, sumAt_union g l hd]

/-! ## The tiles of a row -/

/-- The row as a function of the column number: ⊥ past the last column. -/
def rowExt (n : ℕ) : EReal := if n < 50000 then (g n : EReal) else ⊥

variable (o : Fin 50000 → EReal) (hg : ∀ j : Fin 50000, o j = (g j.val : EReal))
include hg

theorem tileOf_eq (T : ℕ) (q : Fin 1792) : tileOf o T q = rowExt g (T * 1792 + q.val) := by
  unfold tileOf rowExt
  split_ifs with h
  · exact hg ⟨_, h⟩
  · rfl

omit hg in
/-- A sum over a tile's 1792 places is a sum over its column numbers. -/
theorem sum_tile (T : ℕ) (F : ℕ → EReal) :
    ∑ q : Fin 1792, F (T * 1792 + q.val) = ∑ n ∈ Finset.Ico (T * 1792) ((T + 1) * 1792), F n := by
  rw [Fin.sum_univ_eq_sum_range (fun i => F (T * 1792 + i)) 1792, Finset.sum_Ico_eq_sum_range]
  have h : (T + 1) * 1792 - T * 1792 = 1792 := by omega
  rw [h]

omit hg in
/-- The same, the places past the last column contributing nothing. -/
theorem sum_tile_cols (T : ℕ) (e : ℕ → ℝ) :
    ∑ q : Fin 1792, (if T * 1792 + q.val < 50000 then (e (T * 1792 + q.val) : EReal) else 0)
      = ((∑ n ∈ cols (T * 1792) ((T + 1) * 1792), e n : ℝ) : EReal) := by
  rw [sum_tile T (fun n => if n < 50000 then (e n : EReal) else 0), coe_finset_sum, cols, Finset.sum_filter]

/-- Each of the 28 tiles carries its columns. -/
theorem tileIs (hl : l < 50000) (T : ℕ) (hT : T ≤ 27) :
    ∃ MD : ℝ, TileIs g l (tileOf o T) (tileHit l T) (cols (T * 1792) ((T + 1) * 1792)) MD := by
  have hne : (cols (T * 1792) ((T + 1) * 1792)).Nonempty :=
    ⟨T * 1792, mem_cols.mpr ⟨⟨le_rfl, by omega⟩, by omega⟩⟩
  obtain ⟨n0, hn0, hmax⟩ := Finset.exists_max_image _ g hne
  refine ⟨g n0, ?_, ⟨hmax, n0, hn0, rfl⟩, ?_, ?_⟩
  · apply sup_eq_of_max
    · intro q
      rw [tileOf_eq g o hg, rowExt]
      split_ifs with h
      · have hq := q.isLt
        exact EReal.coe_le_coe_iff.mpr (hmax _ (mem_cols.mpr ⟨⟨by omega, by omega⟩, h⟩))
      · exact bot_le
    · obtain ⟨⟨h1, h2⟩, h3⟩ := mem_cols.mp hn0
      refine ⟨⟨n0 - T * 1792, by omega⟩, ?_⟩
      rw [tileOf_eq g o hg, rowExt]
      have h4 : T * 1792 + (n0 - T * 1792) = n0 := by omega
      show (if T * 1792 + (n0 - T * 1792) < 50000 then ((g (T * 1792 + (n0 - T * 1792)) : ℝ) : EReal) else ⊥) = _
      rw [h4, if_pos h3]
  · intro c
    rw [sumExp, ← sum_tile_cols T (fun n => Real.exp (g n - c))]
    refine Finset.sum_congr rfl fun q _ => ?_
    rw [tileOf_eq g o hg, rowExt]
    split_ifs with h
    · rw [← EReal.coe_sub, Ideal.exp_coe]
    · rw [EReal.bot_sub, Ideal.exp_bot]
  · rw [sumAt, ← sum_tile_cols T (fun n => if n = l then g n else 0)]
    refine Finset.sum_congr rfl fun q _ => ?_
    rw [tileOf_eq g o hg, rowExt]
    by_cases hh : tileHit l T q
    · have hh' : T * 1792 + q.val = l := hh
      rw [if_pos hh, if_pos (by omega), if_pos (by omega), if_pos hh']
    · have hh' : ¬ (T * 1792 + q.val = l) := hh
      rw [if_neg hh, if_neg hh']
      split_ifs
      · rfl
      · rfl

omit hg in
theorem statOf_succ (T0 k : ℕ) :
    statOf o l T0 (k + 1) = (statOf o l T0 k).step (tileOf o (T0 + k)) (tileHit l (T0 + k)) := rfl

/-- After k + 1 tiles of the group starting at tile T0 the statistics are those of the tiles' columns. -/
theorem good_statOf (hl : l < 50000) (T0 : ℕ) :
    ∀ k : ℕ, T0 + k + 1 ≤ 28 → Good g l (statOf o l T0 (k + 1)) (cols (T0 * 1792) ((T0 + k + 1) * 1792))
  | 0, h => by
      obtain ⟨MD, hT⟩ := tileIs g l o hg hl T0 (by omega)
      exact good_step_init g l hT
  | k + 1, h => by
      obtain ⟨MD, hT⟩ := tileIs g l o hg hl (T0 + k + 1) (by omega)
      have ih := good_statOf hl T0 k (by omega)
      have hs := good_step g l ih hT (cols_disjoint _ _ _)
      rw [cols_union (by omega) (by omega)] at hs
      have e : T0 + (k + 1) = T0 + k + 1 := (Nat.add_assoc T0 k 1).symm
      rw [statOf_succ, e]
      exact hs

end

/-! ## The two groups joined -/

theorem joined_good (g : ℕ → ℝ) (l : ℕ) {a b : Stat} {JA JB : Finset ℕ} (ha : Good g l a JA) (hb : Good g l b JB)
    (hd : Disjoint JA JB) :
    ∃ M : ℝ, IsMaxOn g (JA ∪ JB) M ∧ 0 < sumExp g (JA ∪ JB) M ∧
      joined a b = (sumAt g l (JA ∪ JB) : EReal) - ((M : EReal) + (Real.log (sumExp g (JA ∪ JB) M) : EReal)) := by
  obtain ⟨Ma, hma, hmaxa, hla, hta⟩ := ha
  obtain ⟨Mb, hmb, hmaxb, hlb, htb⟩ := hb
  have hpos : 0 < sumExp g (JA ∪ JB) (max Ma Mb) := by
    obtain ⟨_, n, hn, _⟩ := hmaxa
    exact Finset.sum_pos (fun i _ => Real.exp_pos _) ⟨n, Finset.mem_union_left _ hn⟩
  refine ⟨max Ma Mb, hmaxa.union g hmaxb, hpos, ?_⟩
  have e1 : Ideal.exp ((Ma : EReal) - ((max Ma Mb : ℝ) : EReal)) * (sumExp g JA Ma : EReal)
      = (sumExp g JA (max Ma Mb) : EReal) := by
    rw [← EReal.coe_sub, Ideal.exp_coe, ← EReal.coe_mul, sumExp_rescale]
  have e2 : Ideal.exp ((Mb : EReal) - ((max Ma Mb : ℝ) : EReal)) * (sumExp g JB Mb : EReal)
      = (sumExp g JB (max Ma Mb) : EReal) := by
    rw [← EReal.coe_sub, Ideal.exp_coe, ← EReal.coe_mul, sumExp_rescale]
  unfold joined
  rw [hma, hmb, hla, hlb, hta, htb, ← coe_max_real, e1, e2, ← EReal.coe_add, ← EReal.coe_add, ← sumExp_union g hd,
    ← sumAt_union g l hd, Ideal.log_coe, if_neg (not_le.mpr hpos)]

/-- A real row with its label in range: the two groups' statistics after fourteen tiles each, joined, are the row's
    log-softmax read at the label. -/
theorem joined_statOf (o : Fin 50000 → EReal) (ho : ∀ j, ∃ r : ℝ, o j = (r : EReal)) (l : ℕ) (hl : l < 50000) :
    joined (statOf o l 0 14) (statOf o l 14 14) = atLabel l (logSoftmax o) := by
  choose r hr using ho
  let g : ℕ → ℝ := fun n => if h : n < 50000 then r ⟨n, h⟩ else 0
  have hg : ∀ j : Fin 50000, o j = (g j.val : EReal) := fun j => by
    rw [hr j]
    show (r j : EReal) = ((if h : j.val < 50000 then r ⟨j.val, h⟩ else 0 : ℝ) : EReal)
    rw [dif_pos j.isLt]
  have hA : Good g l (statOf o l 0 14) (cols 0 25088) := good_statOf g l o hg hl 0 13 (by norm_num)
  have hB : Good g l (statOf o l 14 14) (cols 25088 50176) := good_statOf g l o hg hl 14 13 (by norm_num)
  obtain ⟨M, hM, hpos, hj⟩ := joined_good g l hA hB (cols_disjoint _ _ _)
  have hU : cols 0 25088 ∪ cols 25088 50176 = Finset.range 50000 := by
    rw [cols_union (by norm_num) (by norm_num)]
    ext n
    rw [mem_cols, Finset.mem_range]
    omega
  rw [hU] at hM hpos hj
  have hsup : Finset.univ.sup o = (M : EReal) := by
    apply sup_eq_of_max
    · intro j
      rw [hg j]
      exact EReal.coe_le_coe_iff.mpr (hM.1 j.val (Finset.mem_range.mpr j.isLt))
    · obtain ⟨n, hn, hne⟩ := hM.2
      exact ⟨⟨n, Finset.mem_range.mp hn⟩, by rw [hg, hne]⟩
  have hsum : ∑ j' : Fin 50000, Ideal.exp (o j' - (M : EReal)) = (sumExp g (Finset.range 50000) M : EReal) := by
    rw [sumExp, coe_finset_sum, ← Fin.sum_univ_eq_sum_range (fun n => ((Real.exp (g n - M) : ℝ) : EReal)) 50000]
    refine Finset.sum_congr rfl fun j _ => ?_
    rw [hg j, ← EReal.coe_sub, Ideal.exp_coe]
  have hat : sumAt g l (Finset.range 50000) = g l := by
    rw [sumAt, Finset.sum_ite_eq', if_pos (Finset.mem_range.mpr hl)]
  rw [hj, hat, atLabel, dif_pos hl, logSoftmax, hsup, hsum, hg ⟨l, hl⟩, Ideal.log_coe, if_neg (not_le.mpr hpos)]
  simp only [← EReal.coe_add, ← EReal.coe_sub]
  rw [sub_add_eq_sub_sub]

end Cert.Spec

end
-- ==== Proof.Reals.lean ====
/-
  On real inputs every entry of the result is a real, and the streamed loss is the loss.

  A row of reals has a real squared length; clamped below by the positive real `epsSq` it is a positive real, so its
  reciprocal root is a real and the scaled row is real. A cosine is then a finite sum of products of reals. The
  margin of a real is a real: its constants are binary fractions, and the root is taken of a real clipped to [0, 1].
  So every entry is a real, which is what the streaming statistics of a row need to be its log-softmax at the label.
-/
import proofs.«416711_j88845693485822_2_alg».proof.Proof.Stream

noncomputable section

namespace Cert.Spec

open Idealize.ShloMosaic

namespace RealAux

/-- An f32 pattern whose exponent field is not all ones denotes a real. -/
theorem ofBits_f32_real (b : BitVec 32) (h : (b.extractLsb' 23 8).toNat ≠ 255) :
    ∃ r : ℝ, Ideal.ofBits .f32 b = (r : EReal) := by
  show ∃ r : ℝ, Ideal.ieee 8 23 b = (r : EReal)
  unfold Ideal.ieee
  simp only
  rw [if_neg (by simpa using h)]
  split_ifs <;> exact ⟨_, rfl⟩

/-- The inclusion of the reals keeps the larger and the smaller of two. -/
theorem coe_max' (a b : ℝ) : ((max a b : ℝ) : EReal) = max (a : EReal) (b : EReal) :=
  EReal.coe_strictMono.monotone.map_max
theorem coe_min' (a b : ℝ) : ((min a b : ℝ) : EReal) = min (a : EReal) (b : EReal) :=
  EReal.coe_strictMono.monotone.map_min

/-- The pattern of all zeros is zero. -/
theorem zero_f32 : Ideal.ofBits .f32 0x00000000#32 = ((0 : ℝ) : EReal) := by
  simp [Ideal.ofBits, Ideal.ieee]

/-- A finite sum of reals is a real. -/
theorem sum_real {ι : Type} (s : Finset ι) (f : ι → EReal) (h : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨q, hq⟩ := h a
    exact ⟨q + r, by rw [Finset.sum_insert ha, hr, hq, EReal.coe_add]⟩

/-- The clamp is a positive real. -/
theorem epsSq_pos : ∃ e : ℝ, 0 < e ∧ epsSq = (e : EReal) := ⟨_, by norm_num, rfl⟩

/-- The pattern 0x3F800000 is one. -/
theorem one_f32 : Ideal.ofBits .f32 0x3F800000#32 = ((1 : ℝ) : EReal) := by
  simp [Ideal.ofBits, Ideal.ieee, -EReal.coe_mul]; norm_num

end RealAux

/-- The squared length of a real row is a real. -/
theorem ssq_real {n : ℕ} (v : Fin n → Fin 512 → EReal) (hv : IsReal v) (r : Fin n) : ∃ s : ℝ, ssq v r = (s : EReal) := by
  unfold ssq
  refine RealAux.sum_real _ _ fun k => ?_
  obtain ⟨a, ha⟩ := hv r k
  exact ⟨a * a, by rw [ha, EReal.coe_mul]⟩

/-- The reciprocal root of the clamped squared length of a real row is a real: the clamp keeps it off zero. -/
theorem rsqrt_clamp_real {n : ℕ} (v : Fin n → Fin 512 → EReal) (hv : IsReal v) (r : Fin n) :
    ∃ s : ℝ, Ideal.rsqrt (max (ssq v r) epsSq) = (s : EReal) := by
  obtain ⟨s, hs⟩ := ssq_real v hv r
  obtain ⟨e, he, hee⟩ := RealAux.epsSq_pos
  have hm : max (ssq v r) epsSq = ((max s e : ℝ) : EReal) := by rw [hs, hee, RealAux.coe_max']
  have hpos : 0 < max s e := lt_of_lt_of_le he (le_max_right _ _)
  rw [hm, Ideal.rsqrt_coe, if_neg (not_lt.mpr hpos.le), if_neg hpos.ne']
  exact ⟨_, rfl⟩

/-- A real row scaled to unit length is real. -/
theorem unitRow_real {n : ℕ} (v : Fin n → Fin 512 → EReal) (hv : IsReal v) (r : Fin n) (k : Fin 512) :
    ∃ s : ℝ, unitRow v r k = (s : EReal) := by
  obtain ⟨a, ha⟩ := hv r k
  obtain ⟨s, hs⟩ := rsqrt_clamp_real v hv r
  exact ⟨a * s, by unfold unitRow; rw [ha, hs, EReal.coe_mul]⟩

/-- The cosine of two real rows is a real. -/
theorem cosv_real (x : Fin 2048 → Fin 512 → EReal) (w : Fin 50000 → Fin 512 → EReal) (hx : IsReal x) (hw : IsReal w)
    (i : Fin 2048) (j : Fin 50000) : ∃ r : ℝ, cosv x w i j = (r : EReal) := by
  unfold cosv
  refine RealAux.sum_real _ _ fun k => ?_
  obtain ⟨a, ha⟩ := unitRow_real x hx i k
  obtain ⟨b, hb⟩ := unitRow_real w hw j k
  exact ⟨a * b, by rw [ha, hb, EReal.coe_mul]⟩

/-- The margin of a real is a real: both branches are real, the root's argument lying in [0, 1]. -/
theorem phi_real (c : ℝ) : ∃ r : ℝ, phi (c : EReal) = (r : EReal) := by
  obtain ⟨th, hth⟩ := RealAux.ofBits_f32_real 0xBF5DB3D7#32 (by decide)
  obtain ⟨cc, hcc⟩ := RealAux.ofBits_f32_real 0x3F5DB3D7#32 (by decide)
  obtain ⟨sn, hsn⟩ := RealAux.ofBits_f32_real 0x3F000000#32 (by decide)
  obtain ⟨mm, hmm⟩ := RealAux.ofBits_f32_real 0x3E860A92#32 (by decide)
  unfold phi Scalar.select
  rw [hth, hcc, hsn, hmm, RealAux.one_f32, RealAux.zero_f32]
  split_ifs
  · rw [← EReal.coe_mul c c, ← EReal.coe_sub, ← RealAux.coe_max', ← RealAux.coe_min', Ideal.sqrt_coe,
      if_neg (not_lt.mpr (le_min zero_le_one (le_max_left _ _))), ← EReal.coe_mul, ← EReal.coe_mul, ← EReal.coe_sub]
    exact ⟨_, rfl⟩
  · exact ⟨c - mm, by rw [EReal.coe_sub]⟩

/-- Real inputs give real entries. -/
theorem logit_real (x : Fin 2048 → Fin 512 → EReal) (w : Fin 50000 → Fin 512 → EReal) (lab : Fin 2048 → ℕ)
    (hx : IsReal x) (hw : IsReal w) (i : Fin 2048) (j : Fin 50000) : ∃ r : ℝ, logit x w lab i j = (r : EReal) := by
  obtain ⟨c, hc⟩ := cosv_real x w hx hw i j
  obtain ⟨f, hf⟩ := RealAux.ofBits_f32_real 0x41700000#32 (by decide)
  obtain ⟨p, hp⟩ := phi_real c
  unfold logit
  rw [hc, hf]
  split_ifs
  · exact ⟨f * p, by rw [hp, EReal.coe_mul]⟩
  · exact ⟨f * c, by rw [EReal.coe_mul]⟩

/-- On real inputs with the labels in range the streamed loss is the loss. -/
theorem lossStreamed_eq (x : Fin 2048 → Fin 512 → EReal) (w : Fin 50000 → Fin 512 → EReal) (lab : Fin 2048 → ℕ)
    (hx : IsReal x) (hw : IsReal w) (hl : ∀ i, lab i < 50000) : lossStreamed x w lab = loss x w lab := by
  unfold lossStreamed loss
  rw [Finset.sum_congr rfl fun i _ => joined_statOf (logit x w lab i) (logit_real x w lab hx hw i) (lab i) (hl i)]

end Cert.Spec

end
-- ==== Proof.KITail.lean ====
/-
  The host lines after the region, as one function of the three statistics arrays, and its value. Each array
  holds, for group p and row r at index (p, 0, r), one field of the row's statistics after the group's fourteen
  tiles. The lines flatten the arrays to [2, 2048], take per row the larger of the two groups' maxima, rescale each
  group's exponential sum to it and add, take the logarithm, add the maximum back, subtract from the sum of the two
  groups' label entries, sum over the rows, divide by 2048 and negate: minus the mean of the rows' joined statistics.
-/
import proofs.«416711_j88845693485822_2_alg».proof.Proof.Gen.KernelIdeal.Launch
import proofs.«416711_j88845693485822_2_alg».proof.Proof.Spec
import Idealize.ShloMosaic.Lib.IdealHost
import Idealize.ShloMosaic.Lib.ValueIdxRank1
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.ValueIdx

/-- A statistics array [2, 1, 2048] flattened to [2, 2048]. -/
def flat2 (a : FVec Ideal S2x1x2048 .f32) : FVec Ideal S2x2048 .f32 :=
  shapeCast S2x2048 a Gen.shapeCasts_S2x1x2048_S2x2048

/-- Per row, the maximum over the two groups of the maxima, from minus infinity. -/
def rowMax (am : FVec Ideal S2x1x2048 .f32) : FVec Ideal S2048 .f32 :=
  Host.reduce FloatOps.maximumf (flat2 am) (constant (F := Ideal) S_ .f32 0xFF800000#32) Gen.reducesTo_S2x2048_S2048_d0 Gen.h_S_

/-- The row maxima laid over both groups. -/
def rowMaxB (am : FVec Ideal S2x1x2048 .f32) : FVec Ideal S2x2048 .f32 :=
  broadcastInDim S2x2048 ![0, 1] Gen.bcast_S1x2048_S2x2048_0_1 (broadcastInDim S1x2048 ![1] Gen.bcast_S2048_S1x2048_1 (rowMax am))

/-- Per row, the two groups' exponential sums rescaled to the common maximum and added, from zero. -/
def rowSum (am al : FVec Ideal S2x1x2048 .f32) : FVec Ideal S2048 .f32 :=
  Host.reduceAdd (F := Ideal) (mulf (Host.exp (F := Ideal) (subf (flat2 am) (rowMaxB am))) (flat2 al))
    (constant (F := Ideal) S_ .f32 0x00000000#32) Gen.reducesTo_S2x2048_S2048_d0 Gen.h_S_

/-- Per row, the two groups' label entries added, from zero. -/
def rowLab (at_ : FVec Ideal S2x1x2048 .f32) : FVec Ideal S2048 .f32 :=
  Host.reduceAdd (F := Ideal) (flat2 at_) (constant (F := Ideal) S_ .f32 0x00000000#32) Gen.reducesTo_S2x2048_S2048_d0 Gen.h_S_

/-- Per row, the label entries less the logarithm of the whole row's exponential sum. -/
def rowTerm (am al at_ : FVec Ideal S2x1x2048 .f32) : FVec Ideal S2048 .f32 :=
  subf (rowLab at_) (addf (rowMax am) (Host.log (F := Ideal) (rowSum am al)))

/-- The host lines after the region: the loss from the three statistics arrays. -/
def tailOf (am al at_ : FVec Ideal S2x1x2048 .f32) : FVec Ideal S_ .f32 :=
  Host.negf (F := Ideal) (Host.divf (F := Ideal)
    (Host.reduceAdd (F := Ideal) (rowTerm am al at_) (constant (F := Ideal) S_ .f32 0x00000000#32) Gen.reducesTo_S2048_S_d0 Gen.h_S_)
    (constant (F := Ideal) S_ .f32 0x45000000#32))

/-! ## The pieces at an index -/

/-- The word of minus infinity is the bottom of the extended reals. -/
theorem tail_negInf : Ideal.ofBits .f32 0xFF800000#32 = (⊥ : EReal) := by simp [Ideal.ofBits, Ideal.ieee]

/-- The flattened array at (p, r) is the array at (p, 0, r): the two have the same row-major position. -/
theorem flat2_apply (a : FVec Ideal S2x1x2048 .f32) (p : Fin 2) (r : Fin 2048) :
    flat2 a (ix2 p r) = a (ix3 p (0 : Fin 1) r) := by
  unfold flat2
  refine shapeCast_apply a _ (ix2 p r) (ix3 p (0 : Fin 1) r) ?_
  rw [Shape.rowMajor_val_three, Shape.rowMajor_val_two]
  show (p.val * 1 + 0) * 2048 + r.val = p.val * 2048 + r.val
  omega

/-- Row r's index with group k put back on the dropped axis is (k, r). -/
theorem lift_groups (h : S2x2048.Reduces [0] S2048) (r : Fin 2048) (k : Fin 2) :
    h.lift (ix1 r) k = ix2 k r := by
  funext c; apply Fin.ext
  fin_cases c <;> rfl

/-- A fold of the maximum over the two groups from the bottom is the larger of the two. -/
theorem fold_max_two (f : Fin 2 → EReal) : (Finset.univ : Finset (Fin 2)).fold max ⊥ f = max (f 0) (f 1) := by
  rw [show (Finset.univ : Finset (Fin 2)) = insert 0 {1} from by decide, Finset.fold_insert (by decide), Finset.fold_singleton]
  rw [max_eq_left (bot_le : (⊥ : EReal) ≤ f 1)]

theorem rowMax_apply (am : FVec Ideal S2x1x2048 .f32) (r : Fin 2048) :
    rowMax am (ix1 r) = max (am (ix3 (0 : Fin 2) (0 : Fin 1) r)) (am (ix3 (1 : Fin 2) (0 : Fin 1) r)) := by
  have hR : S2x2048.Reduces [0] S2048 := by decide
  unfold rowMax
  rw [Host.reduce_eq_fold_single FloatOps.maximumf (flat2 am) _ Gen.reducesTo_S2x2048_S2048_d0 hR Gen.h_S_]
  have hf : (flat2 am ∘ hR.lift (ix1 r)) = fun k : Fin 2 => am (ix3 k (0 : Fin 1) r) := funext fun k => by
    show flat2 am (hR.lift (ix1 r) k) = _
    rw [lift_groups hR r k]; exact flat2_apply am k r
  rw [hf]
  show (Finset.univ : Finset (Fin 2)).fold max (Ideal.ofBits .f32 0xFF800000#32) _ = _
  rw [tail_negInf, fold_max_two]

theorem rowMaxB_apply (am : FVec Ideal S2x1x2048 .f32) (p : Fin 2) (r : Fin 2048) :
    rowMaxB am (ix2 p r) = rowMax am (ix1 r) := by
  unfold rowMaxB
  generalize rowMax am = y
  refine (broadcastInDim_apply _ Gen.bcast_S1x2048_S2x2048_0_1 _ (ix2 p r) (ix2 (0 : Fin 1) r) (fun a => match a with
    | ⟨0, _⟩ => by show 0 = if (1 : Nat) = 1 then 0 else p.val; rw [if_pos rfl]
    | ⟨1, _⟩ => by show r.val = if (2048 : Nat) = 1 then 0 else r.val; rw [if_neg (by decide)])).trans ?_
  exact broadcastInDim_apply _ Gen.bcast_S2048_S1x2048_1 y (ix2 (0 : Fin 1) r) (ix1 r) (fun a => match a with
    | ⟨0, _⟩ => by show r.val = if (2048 : Nat) = 1 then 0 else r.val; rw [if_neg (by decide)])

/-- A host sum over the two groups from zero is the sum of the two. -/
theorem groupSum_apply (v : FVec Ideal S2x2048 .f32) (r : Fin 2048) :
    Host.reduceAdd (F := Ideal) v (constant (F := Ideal) S_ .f32 0x00000000#32) Gen.reducesTo_S2x2048_S2048_d0 Gen.h_S_ (ix1 r)
      = v (ix2 (0 : Fin 2) r) + v (ix2 (1 : Fin 2) r) := by
  have hR : S2x2048.Reduces [0] S2048 := by decide
  rw [hostReduceAdd_apply, Ideal.hostReduceAdd_single Gen.reducesTo_S2x2048_S2048_d0 hR]
  show Ideal.ofBits .f32 0x00000000#32 + ∑ k : Fin 2, v (hR.lift (ix1 r) k) = _
  rw [Ideal.ofBits_zero_f32, zero_add, Fin.sum_univ_two, lift_groups hR r 0, lift_groups hR r 1]

/-! ## The value -/

section Value

variable (am al at_ : FVec Ideal S2x1x2048 .f32) (st : Fin 2 → Fin 2048 → Cert.Spec.Stat)
  (hm : ∀ p r, am (ix3 p (0 : Fin 1) r) = (st p r).m) (hl : ∀ p r, al (ix3 p (0 : Fin 1) r) = (st p r).l)
  (ht : ∀ p r, at_ (ix3 p (0 : Fin 1) r) = (st p r).t)

include hm hl ht in
/-- Row r's term is the two groups' statistics joined. -/
theorem rowTerm_apply (r : Fin 2048) :
    rowTerm am al at_ (ix1 r) = Cert.Spec.joined (st 0 r) (st 1 r) := by
  have eM : rowMax am (ix1 r) = max (st 0 r).m (st 1 r).m := by rw [rowMax_apply, hm, hm]
  have eB : ∀ p : Fin 2, rowMaxB am (ix2 p r) = max (st 0 r).m (st 1 r).m := fun p => (rowMaxB_apply am p r).trans eM
  have eS : rowSum am al (ix1 r)
      = Ideal.exp ((st 0 r).m - max (st 0 r).m (st 1 r).m) * (st 0 r).l + Ideal.exp ((st 1 r).m - max (st 0 r).m (st 1 r).m) * (st 1 r).l := by
    unfold rowSum
    rw [groupSum_apply]
    show Ideal.exp (flat2 am (ix2 (0 : Fin 2) r) - rowMaxB am (ix2 (0 : Fin 2) r)) * flat2 al (ix2 (0 : Fin 2) r)
      + Ideal.exp (flat2 am (ix2 (1 : Fin 2) r) - rowMaxB am (ix2 (1 : Fin 2) r)) * flat2 al (ix2 (1 : Fin 2) r) = _
    simp only [eB, flat2_apply, hm, hl]
  have eT : rowLab at_ (ix1 r) = (st 0 r).t + (st 1 r).t := by
    unfold rowLab
    rw [groupSum_apply]
    simp only [flat2_apply, ht]
  show rowLab at_ (ix1 r) - (rowMax am (ix1 r) + Ideal.log (rowSum am al (ix1 r))) = _
  rw [eT, eM, eS]
  rfl

include hm hl ht in
/-- The host lines give minus the mean over the rows of the joined statistics. -/
theorem tailOf_eq :
    tailOf am al at_
      = fun _ => -(Ideal.div (∑ r : Fin 2048, Cert.Spec.joined (st 0 r) (st 1 r)) (Ideal.ofBits .f32 0x45000000#32)) := by
  funext i
  unfold tailOf
  show -(Ideal.div (Host.reduceAdd (F := Ideal) (rowTerm am al at_) (constant (F := Ideal) S_ .f32 0x00000000#32) Gen.reducesTo_S2048_S_d0 Gen.h_S_ i)
    (Ideal.ofBits .f32 0x45000000#32)) = _
  rw [hostReduceAdd_apply, Ideal.hostReduceAdd_total Gen.reducesTo_S2048_S_d0 (fun b => b.elim0)]
  show -(Ideal.div (Ideal.ofBits .f32 0x00000000#32 + ∑ k : S2048.Idx, rowTerm am al at_ k) (Ideal.ofBits .f32 0x45000000#32)) = _
  rw [Ideal.ofBits_zero_f32, zero_add, ← Equiv.sum_comp (idxEquiv1 (n := 2048)).symm]
  refine congrArg (fun s => -(Ideal.div s (Ideal.ofBits .f32 0x45000000#32))) (Finset.sum_congr rfl fun r _ => ?_)
  exact rowTerm_apply am al at_ st hm hl ht r

end Value

/-! ## The lines as run -/

/-- Run from any contents of the buffers, the host lines after the region leave in the loss's buffer the function
    above of the three statistics arrays as those contents hold them. -/
theorem tail_v18 (Vv : Valuation τ sig (Elt Ideal)) :
    StableHlo.after (hostOps1 (F := Ideal)) Vv (Proc.devRef .tc main_v18)
      = tailOf (Vv (Proc.devRef .tc main_v1_1)) (Vv (Proc.devRef .tc main_v1_2)) (Vv (Proc.devRef .tc main_v1_3)) := by
  after_results
  rfl

end Cert.KernelIdeal.Body

end
-- ==== Proof.KIFinalOut.lean ====
/-
  The result array after the run. Point t of the grid writes back tile t of every row: columns t·1792 up to
  t·1792 + 1791, the last tile cut at column 50000. A column j of the array lies in tile j / 1792 and in no other,
  and inside the array a tile's entry is the row's entry, so the 28 write-backs leave the whole array of scaled
  cosines with the margin at the labels.
-/
import proofs.«416711_j88845693485822_2_alg».proof.Proof.KIData
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- A tile's entry whose column lies inside the row is the row's entry there. -/
theorem tile_at (o : Fin 50000 → EReal) (T : ℕ) (q : Fin 1792) (j : Fin 50000) (h : j.val = T * 1792 + q.val) :
    Cert.Spec.tileOf o T q = o j := by
  unfold Cert.Spec.tileOf
  rw [dif_pos (by have := j.isLt; omega)]
  exact congrArg o (Fin.ext h.symm)

/-- The same for a row of the result, the row named twice. -/
theorem outBlk_at (c : Dev nD) (T : ℕ) (r r' : Fin 2048) (q : Fin 1792) (j : Fin 50000) (hr : r = r')
    (hj : j.val = T * 1792 + q.val) :
    Cert.Spec.tileOf (rowLogit m c r) T q = Cert.Spec.logit (xRows m c) (wRows m c) (labs m c) r' j := by
  subst hr
  exact tile_at (rowLogit m c r) T q j hj

/-- The result window's index map over the grid: every point's block starts at row 0 and at column block t, spans
    all rows, and spans 1792 columns except the last point's, which is cut to the 1616 left. -/
theorem out_idx : ∀ t : Fin cfg0.N, win0_3.index t (0 : Fin 2) = 0 ∧ win0_3.index t (1 : Fin 2) = t.val
    ∧ win0_3.xsize (grid0.coords t) (0 : Fin 2) = 2048
    ∧ win0_3.xsize (grid0.coords t) (1 : Fin 2) = (if t.val = 27 then 1616 else 1792) :=
  (by decide +kernel : ∀ t : Fin grid0.N, _)

/-- What point t writes back is block t of the result array. -/
theorem out_flushed (c : Dev nD) (t : Fin cfg0.N) :
    (datsE m 0 c).flushed 3 t
      = ((cfg0.win 3).blk t).view.read (Elt Ideal) (Cert.Spec.outArr (xRows m c) (wRows m c) (labs m c)) := by
  show (cfg0.win 3).cut (grid0.coords t) ((datsE m 0 c).after 3 t) = _
  rw [after0_3]
  obtain ⟨e0, e1, -, -⟩ := out_idx t
  funext j
  have h0 : ((((cfg0.win 3).blk t).view.emb j) 0).val = (j 0).val := by
    show win0_3.index t (0 : Fin 2) * 2048 + 1 * (j 0).val = (j 0).val
    rw [e0]; omega
  have h1 : ((((cfg0.win 3).blk t).view.emb j) 1).val = t.val * 1792 + (j 1).val := by
    show win0_3.index t (1 : Fin 2) * 1792 + 1 * (j 1).val = _
    rw [e1]; omega
  exact outBlk_at m c t.val (win0_3.xinj (grid0.coords t) j 0) ((((cfg0.win 3).blk t).view.emb j) 0)
    (win0_3.xinj (grid0.coords t) j 1) ((((cfg0.win 3).blk t).view.emb j) 1) (Fin.ext h0.symm) h1

/-- An index of the array is in point t's block iff each coordinate is in the block's cut range on its axis. -/
theorem out_mem_blk (t : Fin cfg0.N) (i : S2048x50000.Idx) :
    i ∈ ((cfg0.win 3).blk t).view.set ↔ ∀ a : Fin 2, win0_3.index t a * S2048x1792.size a ≤ (i a).val
      ∧ (i a).val < win0_3.index t a * S2048x1792.size a + win0_3.xsize (grid0.coords t) a := by
  show i ∈ ((View.whole main_v1_0).slice (win0_3.rect t)).set ↔ _
  rw [View.set_slice_whole, Rect.mem_set_unit]
  exact Iff.rfl

/-- Column j is covered by point j / 1792. -/
theorem out_cover (i : S2048x50000.Idx) :
    ∃ t : Fin cfg0.N, (cfg0.win 3).flush t = true ∧ i ∈ ((cfg0.win 3).blk t).view.set := by
  have hi0 : (i 0).val < 2048 := (i 0).isLt
  have hi1 : (i 1).val < 50000 := (i 1).isLt
  have hN : cfg0.N = 28 := N_0
  obtain ⟨t, ht⟩ : ∃ t : Fin cfg0.N, t.val = (i 1).val / 1792 := ⟨⟨(i 1).val / 1792, by rw [hN]; omega⟩, rfl⟩
  refine ⟨t, flush0_3 t, ?_⟩
  rw [out_mem_blk]
  obtain ⟨e0, e1, e2, e3⟩ := out_idx t
  intro a
  match a with
  | ⟨0, _⟩ =>
    show win0_3.index t (0 : Fin 2) * 2048 ≤ (i 0).val ∧ (i 0).val < win0_3.index t (0 : Fin 2) * 2048 + win0_3.xsize (grid0.coords t) (0 : Fin 2)
    rw [e0, e2]; omega
  | ⟨1, _⟩ =>
    show win0_3.index t (1 : Fin 2) * 1792 ≤ (i 1).val ∧ (i 1).val < win0_3.index t (1 : Fin 2) * 1792 + win0_3.xsize (grid0.coords t) (1 : Fin 2)
    rw [e1, e3]
    split <;> omega

/-- The result array after the run is the specification's. -/
theorem out_final (c : Dev nD) :
    (datsE m 0 c).arrAt 3 cfg0.N = Cert.Spec.outArr (xRows m c) (wRows m c) (labs m c) :=
  (datsE m 0 c).arrAt_eq_of_cover 3 (Cert.Spec.outArr (xRows m c) (wRows m c) (labs m c)) (fun t _ => out_flushed m c t) out_cover

end Cert.KernelIdeal.Body

end
-- ==== Proof.KIFinalStat.lean ====
/-
  The three statistics arrays after the run. Each is [2, 1, 2048]: at (p, 0, r) one field of row r's statistics
  for group p. A window's block is [1, 1, 2048] at block index (p, 0, 0) with p the point's group, and it is written
  back only at a group's last point, 14 p + 13, when the staging buffer holds the statistics after the group's
  fourteen tiles. The two write-backs cover the array.
-/
import proofs.«416711_j88845693485822_2_alg».proof.Proof.KIData
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ)

/-- A row's statistics, the point and the row named twice. -/
theorem stS_at (c : Dev nD) (n n' : ℕ) (r r' : Fin 2048) (hn : n = n') (hr : r = r') : stS m c n r = stS m c n' r' := by
  subst hn; subst hr; rfl

/-! ## The arithmetic of the blocks, over plain numbers -/

/-- A group's last point from the group: with block index I = T / 14 on the group axis, a block coordinate J < 1 and
    T the group's last point, the array's group coordinate I·1 + 1·J gives the point back. -/
theorem group_point (I J T : ℕ) (e : I = T / 14) (hJ : J < 1) (h13 : T % 14 = 13) : 14 * (I * 1 + 1 * J) + 13 = T := by
  omega
/-- On the row axis the block starts at 0: the array's coordinate is the block's. -/
theorem row_coord (I J : ℕ) (e : I = 0) : I * 2048 + 1 * J = J := by omega
/-- Group p's coordinate lies in the one-group block of point 14 p + 13. -/
theorem cover_group (I p T : ℕ) (e : I = T / 14) (hT : T = 14 * p + 13) : I * 1 ≤ p ∧ p < I * 1 + 1 := by omega
/-- The middle axis has one coordinate. -/
theorem cover_unit (I q : ℕ) (e : I = 0) (hq : q < 1) : I * 1 ≤ q ∧ q < I * 1 + 1 := by omega
/-- Every row lies in the block's 2048 rows. -/
theorem cover_rows (I r : ℕ) (e : I = 0) (hr : r < 2048) : I * 2048 ≤ r ∧ r < I * 2048 + 2048 := by omega

/-! ## The maxima -/

/-- The maxima the run leaves: at (p, 0, r), row r's after the fourteen tiles of group p. -/
def statM (c : Dev nD) : FVec Ideal S2x1x2048 .f32 := fun idx => (stS m c (14 * (idx 0).val + 13) (idx 2)).m

/-- The window's index map over the grid: the block of point t is group t / 14's. -/
theorem statM_idx : ∀ t : Fin cfg0.N, win0_4.index t (0 : Fin 3) = t.val / 14 ∧ win0_4.index t (1 : Fin 3) = 0
    ∧ win0_4.index t (2 : Fin 3) = 0 :=
  (by decide +kernel : ∀ t : Fin grid0.N, _)

/-- What a group's last point writes back is the group's block of the array. -/
theorem statM_flushed (c : Dev nD) (t : Fin cfg0.N) (hf : (cfg0.win 4).flush t = true) :
    (datsE m 0 c).flushed 4 t = ((cfg0.win 4).blk t).view.read (Elt Ideal) (statM m c) := by
  have h13 : t.val % 14 = 13 := (flush0_4 t).mp hf
  show (cfg0.win 4).cut (grid0.coords t) ((datsE m 0 c).after 4 t) = _
  rw [after0_4]
  obtain ⟨e0, e1, e2⟩ := statM_idx t
  funext j
  have h0 : 14 * ((((cfg0.win 4).blk t).view.emb j) 0).val + 13 = t.val :=
    group_point (win0_4.index t (0 : Fin 3)) (j 0).val t.val e0 (j 0).isLt h13
  have h2 : ((((cfg0.win 4).blk t).view.emb j) 2).val = (j 2).val :=
    row_coord (win0_4.index t (2 : Fin 3)) (j 2).val e2
  exact congrArg Cert.Spec.Stat.m (stS_at m c t.val (14 * ((((cfg0.win 4).blk t).view.emb j) 0).val + 13)
    (win0_4.xinj (grid0.coords t) j 2) ((((cfg0.win 4).blk t).view.emb j) 2) h0.symm (Fin.ext h2.symm))

/-- An index of the array is in point t's block iff each coordinate is in the block's range on its axis. -/
theorem statM_mem_blk (t : Fin cfg0.N) (i : S2x1x2048.Idx) :
    i ∈ ((cfg0.win 4).blk t).view.set ↔ ∀ a : Fin 3, win0_4.index t a * S1x1x2048.size a ≤ (i a).val
      ∧ (i a).val < win0_4.index t a * S1x1x2048.size a + S1x1x2048.size a := by
  show i ∈ ((View.whole main_v1_1).slice (win0_4.rect t)).set ↔ _
  rw [View.set_slice_whole, Rect.mem_set_unit]
  exact Iff.rfl

/-- Group p's entries are covered by the group's last point, 14 p + 13. -/
theorem statM_cover (i : S2x1x2048.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 2048 := (i 2).isLt
  have hN : cfg0.N = 28 := N_0
  obtain ⟨t, ht⟩ : ∃ t : Fin cfg0.N, t.val = 14 * (i 0).val + 13 := ⟨⟨14 * (i 0).val + 13, by rw [hN]; omega⟩, rfl⟩
  refine ⟨t, (flush0_4 t).mpr (by omega), ?_⟩
  rw [statM_mem_blk]
  obtain ⟨e0, e1, e2⟩ := statM_idx t
  intro a
  match a with
  | ⟨0, _⟩ => exact cover_group (win0_4.index t (0 : Fin 3)) (i 0).val t.val e0 ht
  | ⟨1, _⟩ => exact cover_unit (win0_4.index t (1 : Fin 3)) (i 1).val e1 hi1
  | ⟨2, _⟩ => exact cover_rows (win0_4.index t (2 : Fin 3)) (i 2).val e2 hi2

/-- The array after the run. -/
theorem statM_final (c : Dev nD) : (datsE m 0 c).arrAt 4 cfg0.N = statM m c :=
  (datsE m 0 c).arrAt_eq_of_cover 4 (statM m c) (fun t hf => statM_flushed m c t hf) statM_cover

/-! ## The exponential sums -/

/-- The exponential sums the run leaves: at (p, 0, r), row r's after the fourteen tiles of group p. -/
def statL (c : Dev nD) : FVec Ideal S2x1x2048 .f32 := fun idx => (stS m c (14 * (idx 0).val + 13) (idx 2)).l

/-- The window's index map over the grid: the block of point t is group t / 14's. -/
theorem statL_idx : ∀ t : Fin cfg0.N, win0_5.index t (0 : Fin 3) = t.val / 14 ∧ win0_5.index t (1 : Fin 3) = 0
    ∧ win0_5.index t (2 : Fin 3) = 0 :=
  (by decide +kernel : ∀ t : Fin grid0.N, _)

/-- What a group's last point writes back is the group's block of the array. -/
theorem statL_flushed (c : Dev nD) (t : Fin cfg0.N) (hf : (cfg0.win 5).flush t = true) :
    (datsE m 0 c).flushed 5 t = ((cfg0.win 5).blk t).view.read (Elt Ideal) (statL m c) := by
  have h13 : t.val % 14 = 13 := (flush0_5 t).mp hf
  show (cfg0.win 5).cut (grid0.coords t) ((datsE m 0 c).after 5 t) = _
  rw [after0_5]
  obtain ⟨e0, e1, e2⟩ := statL_idx t
  funext j
  have h0 : 14 * ((((cfg0.win 5).blk t).view.emb j) 0).val + 13 = t.val :=
    group_point (win0_5.index t (0 : Fin 3)) (j 0).val t.val e0 (j 0).isLt h13
  have h2 : ((((cfg0.win 5).blk t).view.emb j) 2).val = (j 2).val :=
    row_coord (win0_5.index t (2 : Fin 3)) (j 2).val e2
  exact congrArg Cert.Spec.Stat.l (stS_at m c t.val (14 * ((((cfg0.win 5).blk t).view.emb j) 0).val + 13)
    (win0_5.xinj (grid0.coords t) j 2) ((((cfg0.win 5).blk t).view.emb j) 2) h0.symm (Fin.ext h2.symm))

/-- An index of the array is in point t's block iff each coordinate is in the block's range on its axis. -/
theorem statL_mem_blk (t : Fin cfg0.N) (i : S2x1x2048.Idx) :
    i ∈ ((cfg0.win 5).blk t).view.set ↔ ∀ a : Fin 3, win0_5.index t a * S1x1x2048.size a ≤ (i a).val
      ∧ (i a).val < win0_5.index t a * S1x1x2048.size a + S1x1x2048.size a := by
  show i ∈ ((View.whole main_v1_2).slice (win0_5.rect t)).set ↔ _
  rw [View.set_slice_whole, Rect.mem_set_unit]
  exact Iff.rfl

/-- Group p's entries are covered by the group's last point, 14 p + 13. -/
theorem statL_cover (i : S2x1x2048.Idx) :
    ∃ t : Fin cfg0.N, (cfg0.win 5).flush t = true ∧ i ∈ ((cfg0.win 5).blk t).view.set := by
  have hi0 : (i 0).val < 2 := (i 0).isLt
  have hi1 : (i 1).val < 1 := (i 1).isLt
  have hi2 : (i 2).val < 2048 := (i 2).isLt
  have hN : cfg0.N = 28 := N_0
  obtain ⟨t, ht⟩ : ∃ t : Fin cfg0.N, t.val = 14 * (i 0).val + 13 := ⟨⟨14 * (i 0).val + 13, by rw [hN]; omega⟩, rfl⟩
  refine ⟨t, (flush0_5 t).mpr (by omega), ?_⟩
  rw [statL_mem_blk]
  obtain ⟨e0, e1, e2⟩ := statL_idx t
  intro a
  match a with
  | ⟨0, _⟩ => exact cover_group (win0_5.index t (0 : Fin 3)) (i 0).val t.val e0 ht
  | ⟨1, _⟩ => exact cover_unit (win0_5.index t (1 : Fin 3)) (i 1).val e1 hi1
  | ⟨2, _⟩ => exact cover_rows (win0_5.index t (2 : Fin 3)) (i 2).val e2 hi2

/-- The array after the run. -/
theorem statL_final (c : Dev nD) : (datsE m 0 c).arrAt 5 cfg0.N = statL m c :=
  (datsE m 0 c).arrAt_eq_of_cover 5 (statL m c) (fun t hf => statL_flushed m c t hf) statL_cover

/-! ## The label entries -/

/-- The label entries the run leaves: at (p, 0, r), row r's after the fourteen tiles of group p. -/
def statT (c : Dev nD) : FVec Ideal S2x1x2048 .f32 := fun idx => (stS m c (14 * (idx 0).val + 13) (idx 2)).t

/-- The window's index map over the grid: the block of point t is group t / 14's. -/
theorem statT_idx : ∀ t : Fin cfg0.N, win0_6.index t (0 : Fin 3) = t.val / 14 ∧ win0_6.index t (1 : Fin 3) = 0
    ∧ win0_6.index t (2 : Fin 3) = 0 :=
  (by decide +kernel : ∀ t : Fin grid0.N, _)

/-- What a group's last point writes back is the group's block of the array. -/
theorem statT_flushed (c : Dev nD) (t : Fin cfg0.N) (hf : (cfg0.win 6).flush t = true) :
    (datsE m 0 c).flushed 6 t = ((cfg0.win 6).blk t).view.read (Elt Ideal) (statT m c) := by
  have h13 : t.val % 14 = 13 := (flush0_6 t).mp hf
  show (cfg0.win 6).cut (grid0.coords t) ((datsE m 0 c).after 6 t) = _
  rw [after0_6]
  obtain ⟨e0, e1, e2⟩ := statT_idx t
  funext j
  have h0 : 14 * ((((cfg0.win 6).blk t).view.emb j) 0).val + 13 = t.val :=
    group_point (win0_6.index t (0 : Fin 3)) (j 0).val t.val e0 (j 0).isLt h13
  have h2 : ((((cfg0.win 6).blk t).view.emb j) 2).val = (j 2).val :=
    row_coord (win0_6.index t (2 : Fin 3)) (j 2).val e2
  exact congrArg Cert.Spec.Stat.t (stS_at m c t.val (14 * ((((cfg0.win 6).blk t).view.emb j) 0).val + 13)
    (win0_6.xinj (grid0.coords t) j 2) ((((cfg0.win 6).blk t).view.emb j) 2) h0.symm (Fin.ext h2.symm))

/-- An index of the array is in point t's block iff each coordinate is in the block's range on its axis. -/
theorem statT_mem_blk (t : Fin cfg0.N) (i : S2x1x2048.Idx) :
    i ∈ ((cfg0.win 6).blk t).view.set ↔ ∀ a : Fin 3, win0_6.index t a * S1x1x2048.size a ≤ (i a).val
      ∧ (i a).val < win0_6.index t a * S1x1x2048.size a + S1x1x2048.size a := by
  show i ∈ ((View.whole main_v1_3).slice (win0_6.rect t)).set ↔ _
  rw [View.set_slice_whole, Rect.mem_set_unit]
  exact Iff.rfl

/-- Group p's entries are covered by the group's last point, 14 p + 13. -/
theorem statT_cover (i : S2x1x2048.Idx) :
    ∃ t : Fin cfg0.N, (cfg0.win 6).flush t = true ∧ i ∈ ((cfg0.win 6).blk t).view.set := by
  have hi0 : (i 0).val < 2 := (i 0).isLt
  have hi1 : (i 1).val < 1 := (i 1).isLt
  have hi2 : (i 2).val < 2048 := (i 2).isLt
  have hN : cfg0.N = 28 := N_0
  obtain ⟨t, ht⟩ : ∃ t : Fin cfg0.N, t.val = 14 * (i 0).val + 13 := ⟨⟨14 * (i 0).val + 13, by rw [hN]; omega⟩, rfl⟩
  refine ⟨t, (flush0_6 t).mpr (by omega), ?_⟩
  rw [statT_mem_blk]
  obtain ⟨e0, e1, e2⟩ := statT_idx t
  intro a
  match a with
  | ⟨0, _⟩ => exact cover_group (win0_6.index t (0 : Fin 3)) (i 0).val t.val e0 ht
  | ⟨1, _⟩ => exact cover_unit (win0_6.index t (1 : Fin 3)) (i 1).val e1 hi1
  | ⟨2, _⟩ => exact cover_rows (win0_6.index t (2 : Fin 3)) (i 2).val e2 hi2

/-- The array after the run. -/
theorem statT_final (c : Dev nD) : (datsE m 0 c).arrAt 6 cfg0.N = statT m c :=
  (datsE m 0 c).arrAt_eq_of_cover 6 (statT m c) (fun t hf => statT_flushed m c t hf) statT_cover

end Cert.KernelIdeal.Body

end
-- ==== Proof.KIFinal.lean ====
/-
  What the idealized kernel's program ends with, in the specification's terms: the result array is pieced together
  from the 28 tiles the points wrote back (the last one cut at the array's end); the three statistics arrays hold, per
  group, the rows' statistics after the group's fourteen tiles; the host lines after the region join the two groups'
  statistics row by row, sum, divide by 2048 and negate: the streamed loss, which on real inputs with the labels in
  range is the loss.
-/
import proofs.«416711_j88845693485822_2_alg».proof.Proof.KIOblig
import proofs.«416711_j88845693485822_2_alg».proof.Proof.Reals
import proofs.«416711_j88845693485822_2_alg».proof.Proof.KITail
import proofs.«416711_j88845693485822_2_alg».proof.Proof.KIFinalOut
import proofs.«416711_j88845693485822_2_alg».proof.Proof.KIFinalStat

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The host lines' function respects equal arrays. -/
theorem tailOf_congr {a a' b b' d d' : FVec Ideal S2x1x2048 .f32} (ha : a = a') (hb : b = b') (hd : d = d') :
    tailOf a b d = tailOf a' b' d' := by
  subst ha; subst hb; subst hd; rfl

/-- After a group's last point a row's statistics are those of the group's fourteen tiles: the first group's … -/
theorem stS_first (c : Dev nD) (r : Fin 2048) :
    stS m c 13 r = Cert.Spec.statOf (Cert.Spec.logit (xRows m c) (wRows m c) (labs m c) r) (labs m c r) 0 14 := by
  unfold stS rowLogit
  simp only [Nat.reduceDiv, Nat.reduceMod, Nat.reduceMul, Nat.reduceAdd]
/-- … and the second group's. -/
theorem stS_second (c : Dev nD) (r : Fin 2048) :
    stS m c 27 r = Cert.Spec.statOf (Cert.Spec.logit (xRows m c) (wRows m c) (labs m c) r) (labs m c r) 14 14 := by
  unfold stS rowLogit
  simp only [Nat.reduceDiv, Nat.reduceMod, Nat.reduceMul, Nat.reduceAdd]

/-- The loss's buffer after the host lines: the loss, on real inputs with the labels in range. -/
theorem loss_final (c : Dev nD)
    (hc : Cert.Spec.IsReal (xRows m c) ∧ Cert.Spec.IsReal (wRows m c) ∧ ∀ i, labs m c i < 50000) :
    Pipeline.afterTail₀ cfgs (datsE m) 0 (V0 m) [hostOps1] c main_v18
      = Cert.Spec.lossArr (xRows m c) (wRows m c) (labs m c) := by
  obtain ⟨hx, hw, hl⟩ := hc
  unfold Pipeline.afterTail₀
  show StableHlo.after hostOps1 _ (Proc.devRef .tc main_v18) = _
  rw [tail_v18]
  refine (tailOf_congr
    ((Pipeline.withArrays_arr spec0 launch0.win.arr_inj c (V0 m c) (fun w => (datsE m 0 c).arrAt w cfg0.N) 4).trans (statM_final m c))
    ((Pipeline.withArrays_arr spec0 launch0.win.arr_inj c (V0 m c) (fun w => (datsE m 0 c).arrAt w cfg0.N) 5).trans (statL_final m c))
    ((Pipeline.withArrays_arr spec0 launch0.win.arr_inj c (V0 m c) (fun w => (datsE m 0 c).arrAt w cfg0.N) 6).trans (statT_final m c))).trans ?_
  rw [tailOf_eq (statM m c) (statL m c) (statT m c) (fun p r => stS m c (14 * p.val + 13) r)
    (fun _ _ => rfl) (fun _ _ => rfl) (fun _ _ => rfl)]
  funext i
  show -(Ideal.div (∑ r : Fin 2048, Cert.Spec.joined (stS m c 13 r) (stS m c 27 r)) (Ideal.ofBits .f32 0x45000000#32))
    = Cert.Spec.loss (xRows m c) (wRows m c) (labs m c)
  rw [← Cert.Spec.lossStreamed_eq (xRows m c) (wRows m c) (labs m c) hx hw hl]
  unfold Cert.Spec.lossStreamed
  simp only [stS_first, stS_second]

/-- The idealized kernel's run: both results as the specification states them, the arguments unchanged. -/
theorem kernel_run (hH : Hyp m) :
    θ_run defs (onTc (τ := τ) (main (F := Ideal))) ⟨m, fun _ => 0, ρ⟩ (fun r => ∀ c : Dev nD,
      r.2.mem ((c.tc : Thread nD τ).loc main_v1_0) = Cert.Spec.outArr (xRows m c) (wRows m c) (labs m c)
      ∧ r.2.mem ((c.tc : Thread nD τ).loc main_v18) = Cert.Spec.lossArr (xRows m c) (wRows m c) (labs m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).1 3).trans (out_final m c),
     ((h c).2 main_v18 (Pipeline.mem_restRefs_of main_v18 (by decide) (by decide))).trans (loss_final m c (hH c)),
     ((h c).1 1).trans (((datsE m 0 c).arrAt_in 1 rfl _).trans ((A_eq m c 1).trans (V_main_arg0 m c))),
     ((h c).2 main_arg1 (Pipeline.mem_restRefs_of main_arg1 (by decide) (by decide))).trans (W_main_arg1 m (datsE m) c),
     ((h c).1 2).trans (((datsE m 0 c).arrAt_in 2 rfl _).trans ((A_eq m c 2).trans (V_main_arg2 m c)))⟩)
    (run_mainE m ρ hH)

end Cert.KernelIdeal.Body

end
-- ==== Proof.RefStages.lean ====
/-
  The reference's run, stage by stage: every weakly fair execution of its @main terminates with each result buffer
  at its stage's value — the operations' composition with every shared stage named once — of the arguments' launch
  contents, the arguments unchanged.

  The operations are cut into consecutive stretches. For each stretch: if the buffers it reads hold their stages'
  values, then after it the buffers it writes hold theirs, and every other buffer still needed keeps its value. The
  stretches compose along the fold of the operations' results, so no composed term of the whole program is formed.
  In the stretches after the row maximum the operations are first restated at their buffers' own types: a transport
  along a type equation around that stage would make the comparison open the maximum's fold over all 2048 x 50000
  positions.
-/
import proofs.«416711_j88845693485822_2_alg».proof.Proof.RefRead

noncomputable section

namespace Cert.RefSide

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Operations 1 to 5 of @main. -/
abbrev ops1 : List (HloOp τ sig (Elt F)) :=
  [ TRef.binary (TRef.of (T := ⟨S2048x512, .f32⟩) main_arg0) (TRef.of (T := ⟨S2048x512, .f32⟩) main_arg0) (TRef.of (T := ⟨S2048x512, .f32⟩) main_call0_v0) mulf,
    TRef.nullary (TRef.of (T := ⟨S_, .f32⟩) main_call0_cst) (constant S_ .f32 0x00000000#32),
    TRef.binary (TRef.of (T := ⟨S2048x512, .f32⟩) main_call0_v0) (TRef.of (T := ⟨S_, .f32⟩) main_call0_cst) (TRef.of (T := ⟨S2048, .f32⟩) main_call0_v1) (fun x v => Host.reduceAdd x v reducesTo_S2048x512_S2048_d1 h_S_),
    TRef.unary (TRef.of (T := ⟨S2048, .f32⟩) main_call0_v1) (TRef.of (T := ⟨S2048x1, .f32⟩) main_call0_v2) (broadcastInDim S2048x1 ![0] bcast_S2048_S2048x1_0),
    TRef.unary (TRef.of (T := ⟨S2048x1, .f32⟩) main_call0_v2) (TRef.of (T := ⟨S2048x1, .f32⟩) main_v0) Host.sqrt ]

/-- Operations 6 to 10 of @main. -/
abbrev ops2 : List (HloOp τ sig (Elt F)) :=
  [ nullary main_cst (constant S_ .f32 0x2B8CBCCC#32),
    unary main_cst main_v1 (broadcastInDim S2048x1 ![] bcast_S_S2048x1 : (⟨S_, .f32⟩ : BufTy).Contents (Elt F) → (⟨S2048x1, .f32⟩ : BufTy).Contents (Elt F)),
    binary main_v0 main_v1 main_v2 (maximumf : (⟨S2048x1, .f32⟩ : BufTy).Contents (Elt F) → (⟨S2048x1, .f32⟩ : BufTy).Contents (Elt F) → (⟨S2048x1, .f32⟩ : BufTy).Contents (Elt F)),
    unary main_v2 main_v3 (broadcastInDim S2048x512 ![0, 1] bcast_S2048x1_S2048x512_0_1 : (⟨S2048x1, .f32⟩ : BufTy).Contents (Elt F) → (⟨S2048x512, .f32⟩ : BufTy).Contents (Elt F)),
    binary main_arg0 main_v3 main_v4 (Host.divf : (⟨S2048x512, .f32⟩ : BufTy).Contents (Elt F) → (⟨S2048x512, .f32⟩ : BufTy).Contents (Elt F) → (⟨S2048x512, .f32⟩ : BufTy).Contents (Elt F)) ]

/-- Operations 11 to 15 of @main. -/
abbrev ops3 : List (HloOp τ sig (Elt F)) :=
  [ TRef.binary (TRef.of (T := ⟨S50000x512, .f32⟩) main_arg2) (TRef.of (T := ⟨S50000x512, .f32⟩) main_arg2) (TRef.of (T := ⟨S50000x512, .f32⟩) main_call1_v0) mulf,
    TRef.nullary (TRef.of (T := ⟨S_, .f32⟩) main_call1_cst) (constant S_ .f32 0x00000000#32),
    TRef.binary (TRef.of (T := ⟨S50000x512, .f32⟩) main_call1_v0) (TRef.of (T := ⟨S_, .f32⟩) main_call1_cst) (TRef.of (T := ⟨S50000, .f32⟩) main_call1_v1) (fun x v => Host.reduceAdd x v reducesTo_S50000x512_S50000_d1 h_S_),
    TRef.unary (TRef.of (T := ⟨S50000, .f32⟩) main_call1_v1) (TRef.of (T := ⟨S50000x1, .f32⟩) main_call1_v2) (broadcastInDim S50000x1 ![0] bcast_S50000_S50000x1_0),
    TRef.unary (TRef.of (T := ⟨S50000x1, .f32⟩) main_call1_v2) (TRef.of (T := ⟨S50000x1, .f32⟩) main_v5) Host.sqrt ]

/-- Operations 16 to 21 of @main. -/
abbrev ops4 : List (HloOp τ sig (Elt F)) :=
  [ nullary main_cst_0 (constant S_ .f32 0x2B8CBCCC#32),
    unary main_cst_0 main_v6 (broadcastInDim S50000x1 ![] bcast_S_S50000x1 : (⟨S_, .f32⟩ : BufTy).Contents (Elt F) → (⟨S50000x1, .f32⟩ : BufTy).Contents (Elt F)),
    binary main_v5 main_v6 main_v7 (maximumf : (⟨S50000x1, .f32⟩ : BufTy).Contents (Elt F) → (⟨S50000x1, .f32⟩ : BufTy).Contents (Elt F) → (⟨S50000x1, .f32⟩ : BufTy).Contents (Elt F)),
    unary main_v7 main_v8 (broadcastInDim S50000x512 ![0, 1] bcast_S50000x1_S50000x512_0_1 : (⟨S50000x1, .f32⟩ : BufTy).Contents (Elt F) → (⟨S50000x512, .f32⟩ : BufTy).Contents (Elt F)),
    binary main_arg2 main_v8 main_v9 (Host.divf : (⟨S50000x512, .f32⟩ : BufTy).Contents (Elt F) → (⟨S50000x512, .f32⟩ : BufTy).Contents (Elt F) → (⟨S50000x512, .f32⟩ : BufTy).Contents (Elt F)),
    unary main_v9 main_v10 ((transpose S512x50000 [1, 0] · transposes_S50000x512_S512x50000_1_0) : (⟨S50000x512, .f32⟩ : BufTy).Contents (Elt F) → (⟨S512x50000, .f32⟩ : BufTy).Contents (Elt F)) ]

/-- Operations 22 to 22 of @main. -/
abbrev ops5 : List (HloOp τ sig (Elt F)) :=
  [ binary main_v4 main_v10 main_v11 ((fun l r => Host.dotGeneral dot_S2048x512_S512x50000_S2048x50000_1_0_0_1_n_n none l r) : (⟨S2048x512, .f32⟩ : BufTy).Contents (Elt F) → (⟨S512x50000, .f32⟩ : BufTy).Contents (Elt F) → (⟨S2048x50000, .f32⟩ : BufTy).Contents (Elt F)) ]

/-- Operations 23 to 30 of @main. -/
abbrev ops6 : List (HloOp τ sig (Elt F)) :=
  [ nullary main_v12 (iotaInDim S2048 32 0),
    nullary main_c (constantI S_ 32 0#32),
    unary main_c main_v13 (broadcastInDim S2048 ![] bcast_S_S2048 : (⟨S_, .i32⟩ : BufTy).Contents (Elt F) → (⟨S2048, .i32⟩ : BufTy).Contents (Elt F)),
    binary main_v12 main_v13 main_v14 (cmpi .slt : (⟨S2048, .i32⟩ : BufTy).Contents (Elt F) → (⟨S2048, .i32⟩ : BufTy).Contents (Elt F) → (⟨S2048, .i1⟩ : BufTy).Contents (Elt F)),
    nullary main_c_1 (constantI S_ 32 2048#32),
    unary main_c_1 main_v15 (broadcastInDim S2048 ![] bcast_S_S2048 : (⟨S_, .i32⟩ : BufTy).Contents (Elt F) → (⟨S2048, .i32⟩ : BufTy).Contents (Elt F)),
    binary main_v12 main_v15 main_v16 (addi : (⟨S2048, .i32⟩ : BufTy).Contents (Elt F) → (⟨S2048, .i32⟩ : BufTy).Contents (Elt F) → (⟨S2048, .i32⟩ : BufTy).Contents (Elt F)),
    ternary main_v14 main_v16 main_v12 main_v17 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) ]

/-- Operations 31 to 39 of @main. -/
abbrev ops7 : List (HloOp τ sig (Elt F)) :=
  [ nullary main_c_2 (constantI S_ 32 0#32),
    unary main_c_2 main_v18 (broadcastInDim S2048 ![] bcast_S_S2048 : (⟨S_, .i32⟩ : BufTy).Contents (Elt F) → (⟨S2048, .i32⟩ : BufTy).Contents (Elt F)),
    binary main_arg1 main_v18 main_v19 (cmpi .slt : (⟨S2048, .i32⟩ : BufTy).Contents (Elt F) → (⟨S2048, .i32⟩ : BufTy).Contents (Elt F) → (⟨S2048, .i1⟩ : BufTy).Contents (Elt F)),
    nullary main_c_3 (constantI S_ 32 50000#32),
    unary main_c_3 main_v20 (broadcastInDim S2048 ![] bcast_S_S2048 : (⟨S_, .i32⟩ : BufTy).Contents (Elt F) → (⟨S2048, .i32⟩ : BufTy).Contents (Elt F)),
    binary main_arg1 main_v20 main_v21 (addi : (⟨S2048, .i32⟩ : BufTy).Contents (Elt F) → (⟨S2048, .i32⟩ : BufTy).Contents (Elt F) → (⟨S2048, .i32⟩ : BufTy).Contents (Elt F)),
    ternary main_v19 main_v21 main_arg1 main_v22 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v17 main_v23 (broadcastInDim S2048x1 ![0] bcast_S2048_S2048x1_0 : (⟨S2048, .i32⟩ : BufTy).Contents (Elt F) → (⟨S2048x1, .i32⟩ : BufTy).Contents (Elt F)),
    unary main_v22 main_v24 (broadcastInDim S2048x1 ![0] bcast_S2048_S2048x1_0 : (⟨S2048, .i32⟩ : BufTy).Contents (Elt F) → (⟨S2048x1, .i32⟩ : BufTy).Contents (Elt F)) ]

/-- Operations 40 to 41 of @main. -/
abbrev ops8 : List (HloOp τ sig (Elt F)) :=
  [ binary main_v23 main_v24 main_v25 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    binary main_v11 main_v25 main_v26 ((fun x i => Host.gather gather_S2048x50000_S2048x2_S2048_n_01_n_n_01_1_11 x i) : (⟨S2048x50000, .f32⟩ : BufTy).Contents (Elt F) → (⟨S2048x2, .i32⟩ : BufTy).Contents (Elt F) → (⟨S2048, .f32⟩ : BufTy).Contents (Elt F)) ]

/-- Operations 42 to 45 of @main. -/
abbrev ops9 : List (HloOp τ sig (Elt F)) :=
  [ binary main_v26 main_v26 main_v27 (mulf : (⟨S2048, .f32⟩ : BufTy).Contents (Elt F) → (⟨S2048, .f32⟩ : BufTy).Contents (Elt F) → (⟨S2048, .f32⟩ : BufTy).Contents (Elt F)),
    nullary main_cst_4 (constant S_ .f32 0x3F800000#32),
    unary main_cst_4 main_v28 (broadcastInDim S2048 ![] bcast_S_S2048 : (⟨S_, .f32⟩ : BufTy).Contents (Elt F) → (⟨S2048, .f32⟩ : BufTy).Contents (Elt F)),
    binary main_v28 main_v27 main_v29 (subf : (⟨S2048, .f32⟩ : BufTy).Contents (Elt F) → (⟨S2048, .f32⟩ : BufTy).Contents (Elt F) → (⟨S2048, .f32⟩ : BufTy).Contents (Elt F)) ]

/-- Operations 46 to 53 of @main. -/
abbrev ops10 : List (HloOp τ sig (Elt F)) :=
  [ nullary main_cst_5 (constant S_ .f32 0x00000000#32),
    nullary main_cst_6 (constant S_ .f32 0x3F800000#32),
    TRef.unary (TRef.of (T := ⟨S_, .f32⟩) main_cst_5) (TRef.of (T := ⟨S_, .f32⟩) main_call2_v0) id,
    TRef.unary (TRef.of (T := ⟨S_, .f32⟩) main_call2_v0) (TRef.of (T := ⟨S2048, .f32⟩) main_call2_v1) (broadcastInDim S2048 ![] bcast_S_S2048),
    TRef.binary (TRef.of (T := ⟨S2048, .f32⟩) main_call2_v1) (TRef.of (T := ⟨S2048, .f32⟩) main_v29) (TRef.of (T := ⟨S2048, .f32⟩) main_call2_v2) maximumf,
    TRef.unary (TRef.of (T := ⟨S_, .f32⟩) main_cst_6) (TRef.of (T := ⟨S_, .f32⟩) main_call2_v3) id,
    TRef.unary (TRef.of (T := ⟨S_, .f32⟩) main_call2_v3) (TRef.of (T := ⟨S2048, .f32⟩) main_call2_v4) (broadcastInDim S2048 ![] bcast_S_S2048),
    TRef.binary (TRef.of (T := ⟨S2048, .f32⟩) main_call2_v4) (TRef.of (T := ⟨S2048, .f32⟩) main_call2_v2) (TRef.of (T := ⟨S2048, .f32⟩) main_v30) minimumf ]

/-- Operations 54 to 61 of @main. -/
abbrev ops11 : List (HloOp τ sig (Elt F)) :=
  [ unary main_v30 main_v31 (Host.sqrt : (⟨S2048, .f32⟩ : BufTy).Contents (Elt F) → (⟨S2048, .f32⟩ : BufTy).Contents (Elt F)),
    nullary main_cst_7 (constant S_ .f32 0x3F5DB3D7#32),
    unary main_cst_7 main_v32 (broadcastInDim S2048 ![] bcast_S_S2048 : (⟨S_, .f32⟩ : BufTy).Contents (Elt F) → (⟨S2048, .f32⟩ : BufTy).Contents (Elt F)),
    binary main_v26 main_v32 main_v33 (mulf : (⟨S2048, .f32⟩ : BufTy).Contents (Elt F) → (⟨S2048, .f32⟩ : BufTy).Contents (Elt F) → (⟨S2048, .f32⟩ : BufTy).Contents (Elt F)),
    nullary main_cst_8 (constant S_ .f32 0x3F000000#32),
    unary main_cst_8 main_v34 (broadcastInDim S2048 ![] bcast_S_S2048 : (⟨S_, .f32⟩ : BufTy).Contents (Elt F) → (⟨S2048, .f32⟩ : BufTy).Contents (Elt F)),
    binary main_v31 main_v34 main_v35 (mulf : (⟨S2048, .f32⟩ : BufTy).Contents (Elt F) → (⟨S2048, .f32⟩ : BufTy).Contents (Elt F) → (⟨S2048, .f32⟩ : BufTy).Contents (Elt F)),
    binary main_v33 main_v35 main_v36 (subf : (⟨S2048, .f32⟩ : BufTy).Contents (Elt F) → (⟨S2048, .f32⟩ : BufTy).Contents (Elt F) → (⟨S2048, .f32⟩ : BufTy).Contents (Elt F)) ]

/-- Operations 62 to 67 of @main. -/
abbrev ops12 : List (HloOp τ sig (Elt F)) :=
  [ nullary main_cst_9 (constant S_ .f32 0xBF5DB3D7#32),
    unary main_cst_9 main_v37 (broadcastInDim S2048 ![] bcast_S_S2048 : (⟨S_, .f32⟩ : BufTy).Contents (Elt F) → (⟨S2048, .f32⟩ : BufTy).Contents (Elt F)),
    binary main_v26 main_v37 main_v38 (subf : (⟨S2048, .f32⟩ : BufTy).Contents (Elt F) → (⟨S2048, .f32⟩ : BufTy).Contents (Elt F) → (⟨S2048, .f32⟩ : BufTy).Contents (Elt F)),
    nullary main_cst_10 (constant S_ .f32 0x00000000#32),
    unary main_cst_10 main_v39 (broadcastInDim S2048 ![] bcast_S_S2048 : (⟨S_, .f32⟩ : BufTy).Contents (Elt F) → (⟨S2048, .f32⟩ : BufTy).Contents (Elt F)),
    binary main_v38 main_v39 main_v40 (cmpf .ogt : (⟨S2048, .f32⟩ : BufTy).Contents (Elt F) → (⟨S2048, .f32⟩ : BufTy).Contents (Elt F) → (⟨S2048, .i1⟩ : BufTy).Contents (Elt F)) ]

/-- Operations 68 to 71 of @main. -/
abbrev ops13 : List (HloOp τ sig (Elt F)) :=
  [ nullary main_cst_11 (constant S_ .f32 0x3E860A92#32),
    unary main_cst_11 main_v41 (broadcastInDim S2048 ![] bcast_S_S2048 : (⟨S_, .f32⟩ : BufTy).Contents (Elt F) → (⟨S2048, .f32⟩ : BufTy).Contents (Elt F)),
    binary main_v26 main_v41 main_v42 (subf : (⟨S2048, .f32⟩ : BufTy).Contents (Elt F) → (⟨S2048, .f32⟩ : BufTy).Contents (Elt F) → (⟨S2048, .f32⟩ : BufTy).Contents (Elt F)),
    TRef.ternary (TRef.of (T := ⟨S2048, .i1⟩) main_v40) (TRef.of (T := ⟨S2048, .f32⟩) main_v36) (TRef.of (T := ⟨S2048, .f32⟩) main_v42) (TRef.of (T := ⟨S2048, .f32⟩) main_v43) select ]

/-- Operations 72 to 78 of @main. -/
abbrev ops14 : List (HloOp τ sig (Elt F)) :=
  [ nullary main_c_12 (constantI S_ 32 0#32),
    unary main_c_12 main_v44 (broadcastInDim S2048 ![] bcast_S_S2048 : (⟨S_, .i32⟩ : BufTy).Contents (Elt F) → (⟨S2048, .i32⟩ : BufTy).Contents (Elt F)),
    binary main_v12 main_v44 main_v45 (cmpi .slt : (⟨S2048, .i32⟩ : BufTy).Contents (Elt F) → (⟨S2048, .i32⟩ : BufTy).Contents (Elt F) → (⟨S2048, .i1⟩ : BufTy).Contents (Elt F)),
    nullary main_c_13 (constantI S_ 32 2048#32),
    unary main_c_13 main_v46 (broadcastInDim S2048 ![] bcast_S_S2048 : (⟨S_, .i32⟩ : BufTy).Contents (Elt F) → (⟨S2048, .i32⟩ : BufTy).Contents (Elt F)),
    binary main_v12 main_v46 main_v47 (addi : (⟨S2048, .i32⟩ : BufTy).Contents (Elt F) → (⟨S2048, .i32⟩ : BufTy).Contents (Elt F) → (⟨S2048, .i32⟩ : BufTy).Contents (Elt F)),
    ternary main_v45 main_v47 main_v12 main_v48 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) ]

/-- Operations 79 to 87 of @main. -/
abbrev ops15 : List (HloOp τ sig (Elt F)) :=
  [ nullary main_c_14 (constantI S_ 32 0#32),
    unary main_c_14 main_v49 (broadcastInDim S2048 ![] bcast_S_S2048 : (⟨S_, .i32⟩ : BufTy).Contents (Elt F) → (⟨S2048, .i32⟩ : BufTy).Contents (Elt F)),
    binary main_arg1 main_v49 main_v50 (cmpi .slt : (⟨S2048, .i32⟩ : BufTy).Contents (Elt F) → (⟨S2048, .i32⟩ : BufTy).Contents (Elt F) → (⟨S2048, .i1⟩ : BufTy).Contents (Elt F)),
    nullary main_c_15 (constantI S_ 32 50000#32),
    unary main_c_15 main_v51 (broadcastInDim S2048 ![] bcast_S_S2048 : (⟨S_, .i32⟩ : BufTy).Contents (Elt F) → (⟨S2048, .i32⟩ : BufTy).Contents (Elt F)),
    binary main_arg1 main_v51 main_v52 (addi : (⟨S2048, .i32⟩ : BufTy).Contents (Elt F) → (⟨S2048, .i32⟩ : BufTy).Contents (Elt F) → (⟨S2048, .i32⟩ : BufTy).Contents (Elt F)),
    ternary main_v50 main_v52 main_arg1 main_v53 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v48 main_v54 (broadcastInDim S2048x1 ![0] bcast_S2048_S2048x1_0 : (⟨S2048, .i32⟩ : BufTy).Contents (Elt F) → (⟨S2048x1, .i32⟩ : BufTy).Contents (Elt F)),
    unary main_v53 main_v55 (broadcastInDim S2048x1 ![0] bcast_S2048_S2048x1_0 : (⟨S2048, .i32⟩ : BufTy).Contents (Elt F) → (⟨S2048x1, .i32⟩ : BufTy).Contents (Elt F)) ]

/-- Operations 88 to 89 of @main. -/
abbrev ops16 : List (HloOp τ sig (Elt F)) :=
  [ binary main_v54 main_v55 main_v56 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    ternary main_v11 main_v56 main_v43 main_v57 ((fun x i u => Host.scatter scatter_S2048x50000_S2048x2_S2048_n_01_01_1 (fun _ b => b) x i u) : (⟨S2048x50000, .f32⟩ : BufTy).Contents (Elt F) → (⟨S2048x2, .i32⟩ : BufTy).Contents (Elt F) → (⟨S2048, .f32⟩ : BufTy).Contents (Elt F) → (⟨S2048x50000, .f32⟩ : BufTy).Contents (Elt F)) ]

/-- Operations 90 to 92 of @main. -/
abbrev ops17 : List (HloOp τ sig (Elt F)) :=
  [ nullary main_cst_16 (constant S_ .f32 0x41700000#32),
    unary main_cst_16 main_v58 (broadcastInDim S2048x50000 ![] bcast_S_S2048x50000 : (⟨S_, .f32⟩ : BufTy).Contents (Elt F) → (⟨S2048x50000, .f32⟩ : BufTy).Contents (Elt F)),
    binary main_v58 main_v57 main_v59 (mulf : (⟨S2048x50000, .f32⟩ : BufTy).Contents (Elt F) → (⟨S2048x50000, .f32⟩ : BufTy).Contents (Elt F) → (⟨S2048x50000, .f32⟩ : BufTy).Contents (Elt F)) ]

/-- Operations 93 to 94 of @main. -/
abbrev ops18 : List (HloOp τ sig (Elt F)) :=
  [ TRef.nullary (TRef.of (T := ⟨S_, .f32⟩) main_call4_cst) (constant S_ .f32 0xFF800000#32),
    TRef.binary (TRef.of (T := ⟨S2048x50000, .f32⟩) main_v59) (TRef.of (T := ⟨S_, .f32⟩) main_call4_cst) (TRef.of (T := ⟨S2048, .f32⟩) main_call4_v0) (fun x v => Host.reduce FloatOps.maximumf x v reducesTo_S2048x50000_S2048_d1 h_S_) ]

/-- Operations 95 to 97 of @main. -/
abbrev ops19 : List (HloOp τ sig (Elt F)) :=
  [ TRef.nullary (TRef.of (T := ⟨S_, .f32⟩) main_call4_cst_0) (constant S_ .f32 0xFF800000#32),
    TRef.unary (TRef.of (T := ⟨S_, .f32⟩) main_call4_cst_0) (TRef.of (T := ⟨S2048, .f32⟩) main_call4_v1) (broadcastInDim S2048 ![] bcast_S_S2048),
    TRef.binary (TRef.of (T := ⟨S2048, .f32⟩) main_call4_v1) (TRef.of (T := ⟨S2048, .f32⟩) main_call4_v0) (TRef.of (T := ⟨S2048, .f32⟩) main_call4_v2) maximumf ]

/-- Operations 98 to 99 of @main. -/
abbrev ops20 : List (HloOp τ sig (Elt F)) :=
  [ TRef.unary (TRef.of (T := ⟨S2048, .f32⟩) main_call4_v2) (TRef.of (T := ⟨S2048x1, .f32⟩) main_call4_v3) (broadcastInDim S2048x1 ![0] bcast_S2048_S2048x1_0),
    TRef.unary (TRef.of (T := ⟨S2048x1, .f32⟩) main_call4_v3) (TRef.of (T := ⟨S2048x50000, .f32⟩) main_call4_v4) (broadcastInDim S2048x50000 ![0, 1] bcast_S2048x1_S2048x50000_0_1) ]

/-- Operations 100 to 101 of @main. -/
abbrev ops21 : List (HloOp τ sig (Elt F)) :=
  [ TRef.binary (TRef.of (T := ⟨S2048x50000, .f32⟩) main_v59) (TRef.of (T := ⟨S2048x50000, .f32⟩) main_call4_v4) (TRef.of (T := ⟨S2048x50000, .f32⟩) main_call4_v5) subf,
    TRef.unary (TRef.of (T := ⟨S2048x50000, .f32⟩) main_call4_v5) (TRef.of (T := ⟨S2048x50000, .f32⟩) main_call4_v6) Host.exp ]

/-- Operations 102 to 103 of @main. -/
abbrev ops22 : List (HloOp τ sig (Elt F)) :=
  [ TRef.nullary (TRef.of (T := ⟨S_, .f32⟩) main_call4_cst_1) (constant S_ .f32 0x00000000#32),
    TRef.binary (TRef.of (T := ⟨S2048x50000, .f32⟩) main_call4_v6) (TRef.of (T := ⟨S_, .f32⟩) main_call4_cst_1) (TRef.of (T := ⟨S2048, .f32⟩) main_call4_v7) (fun x v => Host.reduceAdd x v reducesTo_S2048x50000_S2048_d1 h_S_) ]

/-- Operations 104 to 105 of @main. -/
abbrev ops23 : List (HloOp τ sig (Elt F)) :=
  [ TRef.unary (TRef.of (T := ⟨S2048, .f32⟩) main_call4_v7) (TRef.of (T := ⟨S2048x1, .f32⟩) main_call4_v8) (broadcastInDim S2048x1 ![0] bcast_S2048_S2048x1_0),
    TRef.unary (TRef.of (T := ⟨S2048x1, .f32⟩) main_call4_v8) (TRef.of (T := ⟨S2048x1, .f32⟩) main_call4_v9) Host.log ]

/-- Operations 106 to 107 of @main. -/
abbrev ops24 : List (HloOp τ sig (Elt F)) :=
  [ TRef.unary (TRef.of (T := ⟨S2048x1, .f32⟩) main_call4_v9) (TRef.of (T := ⟨S2048x50000, .f32⟩) main_call4_v10) (broadcastInDim S2048x50000 ![0, 1] bcast_S2048x1_S2048x50000_0_1),
    TRef.binary (TRef.of (T := ⟨S2048x50000, .f32⟩) main_call4_v5) (TRef.of (T := ⟨S2048x50000, .f32⟩) main_call4_v10) (TRef.of (T := ⟨S2048x50000, .f32⟩) main_v60) subf ]

/-- Operations 108 to 114 of @main. -/
abbrev ops25 : List (HloOp τ sig (Elt F)) :=
  [ nullary main_c_17 (constantI S_ 32 0#32),
    unary main_c_17 main_v61 (broadcastInDim S2048 ![] bcast_S_S2048 : (⟨S_, .i32⟩ : BufTy).Contents (Elt F) → (⟨S2048, .i32⟩ : BufTy).Contents (Elt F)),
    binary main_v12 main_v61 main_v62 (cmpi .slt : (⟨S2048, .i32⟩ : BufTy).Contents (Elt F) → (⟨S2048, .i32⟩ : BufTy).Contents (Elt F) → (⟨S2048, .i1⟩ : BufTy).Contents (Elt F)),
    nullary main_c_18 (constantI S_ 32 2048#32),
    unary main_c_18 main_v63 (broadcastInDim S2048 ![] bcast_S_S2048 : (⟨S_, .i32⟩ : BufTy).Contents (Elt F) → (⟨S2048, .i32⟩ : BufTy).Contents (Elt F)),
    binary main_v12 main_v63 main_v64 (addi : (⟨S2048, .i32⟩ : BufTy).Contents (Elt F) → (⟨S2048, .i32⟩ : BufTy).Contents (Elt F) → (⟨S2048, .i32⟩ : BufTy).Contents (Elt F)),
    ternary main_v62 main_v64 main_v12 main_v65 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)) ]

/-- Operations 115 to 123 of @main. -/
abbrev ops26 : List (HloOp τ sig (Elt F)) :=
  [ nullary main_c_19 (constantI S_ 32 0#32),
    unary main_c_19 main_v66 (broadcastInDim S2048 ![] bcast_S_S2048 : (⟨S_, .i32⟩ : BufTy).Contents (Elt F) → (⟨S2048, .i32⟩ : BufTy).Contents (Elt F)),
    binary main_arg1 main_v66 main_v67 (cmpi .slt : (⟨S2048, .i32⟩ : BufTy).Contents (Elt F) → (⟨S2048, .i32⟩ : BufTy).Contents (Elt F) → (⟨S2048, .i1⟩ : BufTy).Contents (Elt F)),
    nullary main_c_20 (constantI S_ 32 50000#32),
    unary main_c_20 main_v68 (broadcastInDim S2048 ![] bcast_S_S2048 : (⟨S_, .i32⟩ : BufTy).Contents (Elt F) → (⟨S2048, .i32⟩ : BufTy).Contents (Elt F)),
    binary main_arg1 main_v68 main_v69 (addi : (⟨S2048, .i32⟩ : BufTy).Contents (Elt F) → (⟨S2048, .i32⟩ : BufTy).Contents (Elt F) → (⟨S2048, .i32⟩ : BufTy).Contents (Elt F)),
    ternary main_v67 main_v69 main_arg1 main_v70 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v65 main_v71 (broadcastInDim S2048x1 ![0] bcast_S2048_S2048x1_0 : (⟨S2048, .i32⟩ : BufTy).Contents (Elt F) → (⟨S2048x1, .i32⟩ : BufTy).Contents (Elt F)),
    unary main_v70 main_v72 (broadcastInDim S2048x1 ![0] bcast_S2048_S2048x1_0 : (⟨S2048, .i32⟩ : BufTy).Contents (Elt F) → (⟨S2048x1, .i32⟩ : BufTy).Contents (Elt F)) ]

/-- Operations 124 to 125 of @main. -/
abbrev ops27 : List (HloOp τ sig (Elt F)) :=
  [ binary main_v71 main_v72 main_v73 ((fun a b => concatenate S2048x2 1 [⟨S2048x1, a⟩, ⟨S2048x1, b⟩] concatenates_S2048x1_S2048x1_S2048x2_d1) : (⟨S2048x1, .i32⟩ : BufTy).Contents (Elt F) → (⟨S2048x1, .i32⟩ : BufTy).Contents (Elt F) → (⟨S2048x2, .i32⟩ : BufTy).Contents (Elt F)),
    binary main_v60 main_v73 main_v74 ((fun x i => Host.gather gather_S2048x50000_S2048x2_S2048_n_01_n_n_01_1_11 x i) : (⟨S2048x50000, .f32⟩ : BufTy).Contents (Elt F) → (⟨S2048x2, .i32⟩ : BufTy).Contents (Elt F) → (⟨S2048, .f32⟩ : BufTy).Contents (Elt F)) ]

/-- Operations 126 to 130 of @main. -/
abbrev ops28 : List (HloOp τ sig (Elt F)) :=
  [ nullary main_cst_21 (constant S_ .f32 0x00000000#32),
    binary main_v74 main_cst_21 main_v75 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_22 (constant S_ .f32 0x45000000#32),
    binary main_v75 main_cst_22 main_v76 (Host.divf : (⟨S_, .f32⟩ : BufTy).Contents (Elt F) → (⟨S_, .f32⟩ : BufTy).Contents (Elt F) → (⟨S_, .f32⟩ : BufTy).Contents (Elt F)),
    unary main_v76 main_v77 (Host.negf : (⟨S_, .f32⟩ : BufTy).Contents (Elt F) → (⟨S_, .f32⟩ : BufTy).Contents (Elt F)) ]

/-- The operations of @main are the stretches in order. -/
theorem ops_split : (ops : List (HloOp τ sig (Elt F))) = ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ (ops26 ++ (ops27 ++ (ops28))))))))))))))))))))))))))) := rfl

attribute [local irreducible] Host.reduce in
/-- Stretch 1: from the stages its operations read, the stages they write; the other buffers still needed keep theirs. -/
theorem step1 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2) :
    StableHlo.after ops1 V (Proc.devRef .tc main_arg0) = x0
      ∧ StableHlo.after ops1 V (Proc.devRef .tc main_arg1) = x1
      ∧ StableHlo.after ops1 V (Proc.devRef .tc main_arg2) = x2
      ∧ StableHlo.after ops1 V (Proc.devRef .tc main_v0) = val_main_v0 (F := F) x0 := by
  refine ⟨?_, ?_, ?_, ?_⟩
  · after_results; exact h_arg0
  · after_results; exact h_arg1
  · after_results; exact h_arg2
  · after_results; rw [h_arg0]; rfl

attribute [local irreducible] val_main_v0 Host.reduce in
/-- Stretch 2: from the stages its operations read, the stages they write; the other buffers still needed keep theirs. -/
theorem step2 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v0 : V (Proc.devRef .tc main_v0) = val_main_v0 (F := F) x0) :
    StableHlo.after ops2 V (Proc.devRef .tc main_arg0) = x0
      ∧ StableHlo.after ops2 V (Proc.devRef .tc main_arg1) = x1
      ∧ StableHlo.after ops2 V (Proc.devRef .tc main_arg2) = x2
      ∧ StableHlo.after ops2 V (Proc.devRef .tc main_v4) = val_main_v4 (F := F) x0 := by
  refine ⟨?_, ?_, ?_, ?_⟩
  · after_results; exact h_arg0
  · after_results; exact h_arg1
  · after_results; exact h_arg2
  · after_results; rw [h_arg0, h_v0]; rfl

attribute [local irreducible] val_main_v4 Host.reduce in
/-- Stretch 3: from the stages its operations read, the stages they write; the other buffers still needed keep theirs. -/
theorem step3 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v4 : V (Proc.devRef .tc main_v4) = val_main_v4 (F := F) x0) :
    StableHlo.after ops3 V (Proc.devRef .tc main_arg0) = x0
      ∧ StableHlo.after ops3 V (Proc.devRef .tc main_arg1) = x1
      ∧ StableHlo.after ops3 V (Proc.devRef .tc main_arg2) = x2
      ∧ StableHlo.after ops3 V (Proc.devRef .tc main_v4) = val_main_v4 (F := F) x0
      ∧ StableHlo.after ops3 V (Proc.devRef .tc main_v5) = val_main_v5 (F := F) x2 := by
  refine ⟨?_, ?_, ?_, ?_, ?_⟩
  · after_results; exact h_arg0
  · after_results; exact h_arg1
  · after_results; exact h_arg2
  · after_results; exact h_v4
  · after_results; rw [h_arg2]; rfl

attribute [local irreducible] val_main_v4 val_main_v5 Host.reduce in
/-- Stretch 4: from the stages its operations read, the stages they write; the other buffers still needed keep theirs. -/
theorem step4 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v4 : V (Proc.devRef .tc main_v4) = val_main_v4 (F := F) x0)
    (h_v5 : V (Proc.devRef .tc main_v5) = val_main_v5 (F := F) x2) :
    StableHlo.after ops4 V (Proc.devRef .tc main_arg0) = x0
      ∧ StableHlo.after ops4 V (Proc.devRef .tc main_arg1) = x1
      ∧ StableHlo.after ops4 V (Proc.devRef .tc main_arg2) = x2
      ∧ StableHlo.after ops4 V (Proc.devRef .tc main_v4) = val_main_v4 (F := F) x0
      ∧ StableHlo.after ops4 V (Proc.devRef .tc main_v10) = val_main_v10 (F := F) x2 := by
  refine ⟨?_, ?_, ?_, ?_, ?_⟩
  · after_results; exact h_arg0
  · after_results; exact h_arg1
  · after_results; exact h_arg2
  · after_results; exact h_v4
  · after_results; rw [h_arg2, h_v5]; rfl

attribute [local irreducible] val_main_v4 val_main_v10 Host.reduce in
/-- Stretch 5: from the stages its operations read, the stages they write; the other buffers still needed keep theirs. -/
theorem step5 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v4 : V (Proc.devRef .tc main_v4) = val_main_v4 (F := F) x0)
    (h_v10 : V (Proc.devRef .tc main_v10) = val_main_v10 (F := F) x2) :
    StableHlo.after ops5 V (Proc.devRef .tc main_arg0) = x0
      ∧ StableHlo.after ops5 V (Proc.devRef .tc main_arg1) = x1
      ∧ StableHlo.after ops5 V (Proc.devRef .tc main_arg2) = x2
      ∧ StableHlo.after ops5 V (Proc.devRef .tc main_v11) = val_main_v11 (F := F) x0 x2 := by
  refine ⟨?_, ?_, ?_, ?_⟩
  · after_results; exact h_arg0
  · after_results; exact h_arg1
  · after_results; exact h_arg2
  · after_results; rw [h_v4, h_v10]; rfl

attribute [local irreducible] val_main_v11 Host.reduce in
/-- Stretch 6: from the stages its operations read, the stages they write; the other buffers still needed keep theirs. -/
theorem step6 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2) :
    StableHlo.after ops6 V (Proc.devRef .tc main_arg0) = x0
      ∧ StableHlo.after ops6 V (Proc.devRef .tc main_arg1) = x1
      ∧ StableHlo.after ops6 V (Proc.devRef .tc main_arg2) = x2
      ∧ StableHlo.after ops6 V (Proc.devRef .tc main_v11) = val_main_v11 (F := F) x0 x2
      ∧ StableHlo.after ops6 V (Proc.devRef .tc main_v12) = val_main_v12 (F := F)
      ∧ StableHlo.after ops6 V (Proc.devRef .tc main_v17) = val_main_v17 (F := F) := by
  refine ⟨?_, ?_, ?_, ?_, ?_, ?_⟩
  · after_results; exact h_arg0
  · after_results; exact h_arg1
  · after_results; exact h_arg2
  · after_results; exact h_v11
  · after_results; rfl
  · after_results; rfl

attribute [local irreducible] val_main_v11 val_main_v12 val_main_v17 Host.reduce in
/-- Stretch 7: from the stages its operations read, the stages they write; the other buffers still needed keep theirs. -/
theorem step7 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2)
    (h_v12 : V (Proc.devRef .tc main_v12) = val_main_v12 (F := F))
    (h_v17 : V (Proc.devRef .tc main_v17) = val_main_v17 (F := F)) :
    StableHlo.after ops7 V (Proc.devRef .tc main_arg0) = x0
      ∧ StableHlo.after ops7 V (Proc.devRef .tc main_arg1) = x1
      ∧ StableHlo.after ops7 V (Proc.devRef .tc main_arg2) = x2
      ∧ StableHlo.after ops7 V (Proc.devRef .tc main_v11) = val_main_v11 (F := F) x0 x2
      ∧ StableHlo.after ops7 V (Proc.devRef .tc main_v12) = val_main_v12 (F := F)
      ∧ StableHlo.after ops7 V (Proc.devRef .tc main_v23) = val_main_v23 (F := F)
      ∧ StableHlo.after ops7 V (Proc.devRef .tc main_v24) = val_main_v24 (F := F) x1 := by
  refine ⟨?_, ?_, ?_, ?_, ?_, ?_, ?_⟩
  · after_results; exact h_arg0
  · after_results; exact h_arg1
  · after_results; exact h_arg2
  · after_results; exact h_v11
  · after_results; exact h_v12
  · after_results; rw [h_v17]; rfl
  · after_results; rw [h_arg1]; rfl

attribute [local irreducible] val_main_v11 val_main_v12 val_main_v23 val_main_v24 Host.reduce in
/-- Stretch 8: from the stages its operations read, the stages they write; the other buffers still needed keep theirs. -/
theorem step8 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2)
    (h_v12 : V (Proc.devRef .tc main_v12) = val_main_v12 (F := F))
    (h_v23 : V (Proc.devRef .tc main_v23) = val_main_v23 (F := F))
    (h_v24 : V (Proc.devRef .tc main_v24) = val_main_v24 (F := F) x1) :
    StableHlo.after ops8 V (Proc.devRef .tc main_arg0) = x0
      ∧ StableHlo.after ops8 V (Proc.devRef .tc main_arg1) = x1
      ∧ StableHlo.after ops8 V (Proc.devRef .tc main_arg2) = x2
      ∧ StableHlo.after ops8 V (Proc.devRef .tc main_v11) = val_main_v11 (F := F) x0 x2
      ∧ StableHlo.after ops8 V (Proc.devRef .tc main_v12) = val_main_v12 (F := F)
      ∧ StableHlo.after ops8 V (Proc.devRef .tc main_v26) = val_main_v26 (F := F) x0 x1 x2 := by
  refine ⟨?_, ?_, ?_, ?_, ?_, ?_⟩
  · after_results; exact h_arg0
  · after_results; exact h_arg1
  · after_results; exact h_arg2
  · after_results; exact h_v11
  · after_results; exact h_v12
  · after_results; rw [h_v11, h_v23, h_v24]; rfl

attribute [local irreducible] val_main_v11 val_main_v12 val_main_v26 Host.reduce in
/-- Stretch 9: from the stages its operations read, the stages they write; the other buffers still needed keep theirs. -/
theorem step9 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2)
    (h_v12 : V (Proc.devRef .tc main_v12) = val_main_v12 (F := F))
    (h_v26 : V (Proc.devRef .tc main_v26) = val_main_v26 (F := F) x0 x1 x2) :
    StableHlo.after ops9 V (Proc.devRef .tc main_arg0) = x0
      ∧ StableHlo.after ops9 V (Proc.devRef .tc main_arg1) = x1
      ∧ StableHlo.after ops9 V (Proc.devRef .tc main_arg2) = x2
      ∧ StableHlo.after ops9 V (Proc.devRef .tc main_v11) = val_main_v11 (F := F) x0 x2
      ∧ StableHlo.after ops9 V (Proc.devRef .tc main_v12) = val_main_v12 (F := F)
      ∧ StableHlo.after ops9 V (Proc.devRef .tc main_v26) = val_main_v26 (F := F) x0 x1 x2
      ∧ StableHlo.after ops9 V (Proc.devRef .tc main_v29) = val_main_v29 (F := F) x0 x1 x2 := by
  refine ⟨?_, ?_, ?_, ?_, ?_, ?_, ?_⟩
  · after_results; exact h_arg0
  · after_results; exact h_arg1
  · after_results; exact h_arg2
  · after_results; exact h_v11
  · after_results; exact h_v12
  · after_results; exact h_v26
  · after_results; rw [h_v26]; rfl

attribute [local irreducible] val_main_v11 val_main_v12 val_main_v26 val_main_v29 Host.reduce in
/-- Stretch 10: from the stages its operations read, the stages they write; the other buffers still needed keep theirs. -/
theorem step10 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2)
    (h_v12 : V (Proc.devRef .tc main_v12) = val_main_v12 (F := F))
    (h_v26 : V (Proc.devRef .tc main_v26) = val_main_v26 (F := F) x0 x1 x2)
    (h_v29 : V (Proc.devRef .tc main_v29) = val_main_v29 (F := F) x0 x1 x2) :
    StableHlo.after ops10 V (Proc.devRef .tc main_arg0) = x0
      ∧ StableHlo.after ops10 V (Proc.devRef .tc main_arg1) = x1
      ∧ StableHlo.after ops10 V (Proc.devRef .tc main_arg2) = x2
      ∧ StableHlo.after ops10 V (Proc.devRef .tc main_v11) = val_main_v11 (F := F) x0 x2
      ∧ StableHlo.after ops10 V (Proc.devRef .tc main_v12) = val_main_v12 (F := F)
      ∧ StableHlo.after ops10 V (Proc.devRef .tc main_v26) = val_main_v26 (F := F) x0 x1 x2
      ∧ StableHlo.after ops10 V (Proc.devRef .tc main_v30) = val_main_v30 (F := F) x0 x1 x2 := by
  refine ⟨?_, ?_, ?_, ?_, ?_, ?_, ?_⟩
  · after_results; exact h_arg0
  · after_results; exact h_arg1
  · after_results; exact h_arg2
  · after_results; exact h_v11
  · after_results; exact h_v12
  · after_results; exact h_v26
  · after_results; rw [h_v29]; rfl

attribute [local irreducible] val_main_v11 val_main_v12 val_main_v26 val_main_v30 Host.reduce in
/-- Stretch 11: from the stages its operations read, the stages they write; the other buffers still needed keep theirs. -/
theorem step11 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2)
    (h_v12 : V (Proc.devRef .tc main_v12) = val_main_v12 (F := F))
    (h_v26 : V (Proc.devRef .tc main_v26) = val_main_v26 (F := F) x0 x1 x2)
    (h_v30 : V (Proc.devRef .tc main_v30) = val_main_v30 (F := F) x0 x1 x2) :
    StableHlo.after ops11 V (Proc.devRef .tc main_arg0) = x0
      ∧ StableHlo.after ops11 V (Proc.devRef .tc main_arg1) = x1
      ∧ StableHlo.after ops11 V (Proc.devRef .tc main_arg2) = x2
      ∧ StableHlo.after ops11 V (Proc.devRef .tc main_v11) = val_main_v11 (F := F) x0 x2
      ∧ StableHlo.after ops11 V (Proc.devRef .tc main_v12) = val_main_v12 (F := F)
      ∧ StableHlo.after ops11 V (Proc.devRef .tc main_v26) = val_main_v26 (F := F) x0 x1 x2
      ∧ StableHlo.after ops11 V (Proc.devRef .tc main_v36) = val_main_v36 (F := F) x0 x1 x2 := by
  refine ⟨?_, ?_, ?_, ?_, ?_, ?_, ?_⟩
  · after_results; exact h_arg0
  · after_results; exact h_arg1
  · after_results; exact h_arg2
  · after_results; exact h_v11
  · after_results; exact h_v12
  · after_results; exact h_v26
  · after_results; rw [h_v26, h_v30]; rfl

attribute [local irreducible] val_main_v11 val_main_v12 val_main_v26 val_main_v36 Host.reduce in
/-- Stretch 12: from the stages its operations read, the stages they write; the other buffers still needed keep theirs. -/
theorem step12 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2)
    (h_v12 : V (Proc.devRef .tc main_v12) = val_main_v12 (F := F))
    (h_v26 : V (Proc.devRef .tc main_v26) = val_main_v26 (F := F) x0 x1 x2)
    (h_v36 : V (Proc.devRef .tc main_v36) = val_main_v36 (F := F) x0 x1 x2) :
    StableHlo.after ops12 V (Proc.devRef .tc main_arg0) = x0
      ∧ StableHlo.after ops12 V (Proc.devRef .tc main_arg1) = x1
      ∧ StableHlo.after ops12 V (Proc.devRef .tc main_arg2) = x2
      ∧ StableHlo.after ops12 V (Proc.devRef .tc main_v11) = val_main_v11 (F := F) x0 x2
      ∧ StableHlo.after ops12 V (Proc.devRef .tc main_v12) = val_main_v12 (F := F)
      ∧ StableHlo.after ops12 V (Proc.devRef .tc main_v26) = val_main_v26 (F := F) x0 x1 x2
      ∧ StableHlo.after ops12 V (Proc.devRef .tc main_v36) = val_main_v36 (F := F) x0 x1 x2
      ∧ StableHlo.after ops12 V (Proc.devRef .tc main_v40) = val_main_v40 (F := F) x0 x1 x2 := by
  refine ⟨?_, ?_, ?_, ?_, ?_, ?_, ?_, ?_⟩
  · after_results; exact h_arg0
  · after_results; exact h_arg1
  · after_results; exact h_arg2
  · after_results; exact h_v11
  · after_results; exact h_v12
  · after_results; exact h_v26
  · after_results; exact h_v36
  · after_results; rw [h_v26]; rfl

attribute [local irreducible] val_main_v11 val_main_v12 val_main_v26 val_main_v36 val_main_v40 Host.reduce in
/-- Stretch 13: from the stages its operations read, the stages they write; the other buffers still needed keep theirs. -/
theorem step13 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2)
    (h_v12 : V (Proc.devRef .tc main_v12) = val_main_v12 (F := F))
    (h_v26 : V (Proc.devRef .tc main_v26) = val_main_v26 (F := F) x0 x1 x2)
    (h_v36 : V (Proc.devRef .tc main_v36) = val_main_v36 (F := F) x0 x1 x2)
    (h_v40 : V (Proc.devRef .tc main_v40) = val_main_v40 (F := F) x0 x1 x2) :
    StableHlo.after ops13 V (Proc.devRef .tc main_arg0) = x0
      ∧ StableHlo.after ops13 V (Proc.devRef .tc main_arg1) = x1
      ∧ StableHlo.after ops13 V (Proc.devRef .tc main_arg2) = x2
      ∧ StableHlo.after ops13 V (Proc.devRef .tc main_v11) = val_main_v11 (F := F) x0 x2
      ∧ StableHlo.after ops13 V (Proc.devRef .tc main_v12) = val_main_v12 (F := F)
      ∧ StableHlo.after ops13 V (Proc.devRef .tc main_v43) = val_main_v43 (F := F) x0 x1 x2 := by
  refine ⟨?_, ?_, ?_, ?_, ?_, ?_⟩
  · after_results; exact h_arg0
  · after_results; exact h_arg1
  · after_results; exact h_arg2
  · after_results; exact h_v11
  · after_results; exact h_v12
  · after_results; rw [h_v40, h_v36, h_v26]; rfl

attribute [local irreducible] val_main_v11 val_main_v12 val_main_v43 Host.reduce in
/-- Stretch 14: from the stages its operations read, the stages they write; the other buffers still needed keep theirs. -/
theorem step14 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2)
    (h_v12 : V (Proc.devRef .tc main_v12) = val_main_v12 (F := F))
    (h_v43 : V (Proc.devRef .tc main_v43) = val_main_v43 (F := F) x0 x1 x2) :
    StableHlo.after ops14 V (Proc.devRef .tc main_arg0) = x0
      ∧ StableHlo.after ops14 V (Proc.devRef .tc main_arg1) = x1
      ∧ StableHlo.after ops14 V (Proc.devRef .tc main_arg2) = x2
      ∧ StableHlo.after ops14 V (Proc.devRef .tc main_v11) = val_main_v11 (F := F) x0 x2
      ∧ StableHlo.after ops14 V (Proc.devRef .tc main_v12) = val_main_v12 (F := F)
      ∧ StableHlo.after ops14 V (Proc.devRef .tc main_v43) = val_main_v43 (F := F) x0 x1 x2
      ∧ StableHlo.after ops14 V (Proc.devRef .tc main_v48) = val_main_v48 (F := F) := by
  refine ⟨?_, ?_, ?_, ?_, ?_, ?_, ?_⟩
  · after_results; exact h_arg0
  · after_results; exact h_arg1
  · after_results; exact h_arg2
  · after_results; exact h_v11
  · after_results; exact h_v12
  · after_results; exact h_v43
  · after_results; rw [h_v12]; rfl

attribute [local irreducible] val_main_v11 val_main_v12 val_main_v43 val_main_v48 Host.reduce in
/-- Stretch 15: from the stages its operations read, the stages they write; the other buffers still needed keep theirs. -/
theorem step15 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2)
    (h_v12 : V (Proc.devRef .tc main_v12) = val_main_v12 (F := F))
    (h_v43 : V (Proc.devRef .tc main_v43) = val_main_v43 (F := F) x0 x1 x2)
    (h_v48 : V (Proc.devRef .tc main_v48) = val_main_v48 (F := F)) :
    StableHlo.after ops15 V (Proc.devRef .tc main_arg0) = x0
      ∧ StableHlo.after ops15 V (Proc.devRef .tc main_arg1) = x1
      ∧ StableHlo.after ops15 V (Proc.devRef .tc main_arg2) = x2
      ∧ StableHlo.after ops15 V (Proc.devRef .tc main_v11) = val_main_v11 (F := F) x0 x2
      ∧ StableHlo.after ops15 V (Proc.devRef .tc main_v12) = val_main_v12 (F := F)
      ∧ StableHlo.after ops15 V (Proc.devRef .tc main_v43) = val_main_v43 (F := F) x0 x1 x2
      ∧ StableHlo.after ops15 V (Proc.devRef .tc main_v54) = val_main_v54 (F := F)
      ∧ StableHlo.after ops15 V (Proc.devRef .tc main_v55) = val_main_v55 (F := F) x1 := by
  refine ⟨?_, ?_, ?_, ?_, ?_, ?_, ?_, ?_⟩
  · after_results; exact h_arg0
  · after_results; exact h_arg1
  · after_results; exact h_arg2
  · after_results; exact h_v11
  · after_results; exact h_v12
  · after_results; exact h_v43
  · after_results; rw [h_v48]; rfl
  · after_results; rw [h_arg1]; rfl

attribute [local irreducible] val_main_v11 val_main_v12 val_main_v43 val_main_v54 val_main_v55 Host.reduce in
/-- Stretch 16: from the stages its operations read, the stages they write; the other buffers still needed keep theirs. -/
theorem step16 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v11 : V (Proc.devRef .tc main_v11) = val_main_v11 (F := F) x0 x2)
    (h_v12 : V (Proc.devRef .tc main_v12) = val_main_v12 (F := F))
    (h_v43 : V (Proc.devRef .tc main_v43) = val_main_v43 (F := F) x0 x1 x2)
    (h_v54 : V (Proc.devRef .tc main_v54) = val_main_v54 (F := F))
    (h_v55 : V (Proc.devRef .tc main_v55) = val_main_v55 (F := F) x1) :
    StableHlo.after ops16 V (Proc.devRef .tc main_arg0) = x0
      ∧ StableHlo.after ops16 V (Proc.devRef .tc main_arg1) = x1
      ∧ StableHlo.after ops16 V (Proc.devRef .tc main_arg2) = x2
      ∧ StableHlo.after ops16 V (Proc.devRef .tc main_v12) = val_main_v12 (F := F)
      ∧ StableHlo.after ops16 V (Proc.devRef .tc main_v57) = val_main_v57 (F := F) x0 x1 x2 := by
  refine ⟨?_, ?_, ?_, ?_, ?_⟩
  · after_results; exact h_arg0
  · after_results; exact h_arg1
  · after_results; exact h_arg2
  · after_results; exact h_v12
  · after_results; rw [h_v11, h_v54, h_v55, h_v43]; rfl

attribute [local irreducible] val_main_v12 val_main_v57 Host.reduce in
/-- Stretch 17: from the stages its operations read, the stages they write; the other buffers still needed keep theirs. -/
theorem step17 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v12 : V (Proc.devRef .tc main_v12) = val_main_v12 (F := F))
    (h_v57 : V (Proc.devRef .tc main_v57) = val_main_v57 (F := F) x0 x1 x2) :
    StableHlo.after ops17 V (Proc.devRef .tc main_arg0) = x0
      ∧ StableHlo.after ops17 V (Proc.devRef .tc main_arg1) = x1
      ∧ StableHlo.after ops17 V (Proc.devRef .tc main_arg2) = x2
      ∧ StableHlo.after ops17 V (Proc.devRef .tc main_v12) = val_main_v12 (F := F)
      ∧ StableHlo.after ops17 V (Proc.devRef .tc main_v59) = val_main_v59 (F := F) x0 x1 x2 := by
  refine ⟨?_, ?_, ?_, ?_, ?_⟩
  · after_results; exact h_arg0
  · after_results; exact h_arg1
  · after_results; exact h_arg2
  · after_results; exact h_v12
  · after_results; rw [h_v57]; rfl

attribute [local irreducible] val_main_v12 val_main_v59 Host.reduce in
/-- Stretch 18: from the stages its operations read, the stages they write; the other buffers still needed keep theirs. -/
theorem step18 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v12 : V (Proc.devRef .tc main_v12) = val_main_v12 (F := F))
    (h_v59 : V (Proc.devRef .tc main_v59) = val_main_v59 (F := F) x0 x1 x2) :
    StableHlo.after ops18 V (Proc.devRef .tc main_arg0) = x0
      ∧ StableHlo.after ops18 V (Proc.devRef .tc main_arg1) = x1
      ∧ StableHlo.after ops18 V (Proc.devRef .tc main_arg2) = x2
      ∧ StableHlo.after ops18 V (Proc.devRef .tc main_v12) = val_main_v12 (F := F)
      ∧ StableHlo.after ops18 V (Proc.devRef .tc main_v59) = val_main_v59 (F := F) x0 x1 x2
      ∧ StableHlo.after ops18 V (Proc.devRef .tc main_call4_v0) = val_main_call4_v0 (F := F) x0 x1 x2 := by
  refine ⟨?_, ?_, ?_, ?_, ?_, ?_⟩
  · after_results; exact h_arg0
  · after_results; exact h_arg1
  · after_results; exact h_arg2
  · after_results; exact h_v12
  · after_results; exact h_v59
  · after_results; rw [h_v59]; rfl

/-- The same operations, each at its buffers' own types (no transport along a type equation). -/
abbrev ops19' : List (HloOp τ sig (Elt F)) :=
  [ nullary main_call4_cst_0 ((constant S_ .f32 0xFF800000#32) : (⟨S_, .f32⟩ : BufTy).Contents (Elt F)),
    unary main_call4_cst_0 main_call4_v1 ((broadcastInDim S2048 ![] bcast_S_S2048) : (⟨S_, .f32⟩ : BufTy).Contents (Elt F) → (⟨S2048, .f32⟩ : BufTy).Contents (Elt F)),
    binary main_call4_v1 main_call4_v0 main_call4_v2 (maximumf : (⟨S2048, .f32⟩ : BufTy).Contents (Elt F) → (⟨S2048, .f32⟩ : BufTy).Contents (Elt F) → (⟨S2048, .f32⟩ : BufTy).Contents (Elt F)) ]

theorem ops19_eq : (ops19 : List (HloOp τ sig (Elt F))) = ops19' := rfl

attribute [local irreducible] val_main_v12 val_main_v59 val_main_call4_v0 Host.reduce in
/-- Stretch 19: from the stages its operations read, the stages they write; the other buffers still needed keep theirs. -/
theorem step19 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v12 : V (Proc.devRef .tc main_v12) = val_main_v12 (F := F))
    (h_v59 : V (Proc.devRef .tc main_v59) = val_main_v59 (F := F) x0 x1 x2)
    (h_call4_v0 : V (Proc.devRef .tc main_call4_v0) = val_main_call4_v0 (F := F) x0 x1 x2) :
    StableHlo.after ops19 V (Proc.devRef .tc main_arg0) = x0
      ∧ StableHlo.after ops19 V (Proc.devRef .tc main_arg1) = x1
      ∧ StableHlo.after ops19 V (Proc.devRef .tc main_arg2) = x2
      ∧ StableHlo.after ops19 V (Proc.devRef .tc main_v12) = val_main_v12 (F := F)
      ∧ StableHlo.after ops19 V (Proc.devRef .tc main_v59) = val_main_v59 (F := F) x0 x1 x2
      ∧ StableHlo.after ops19 V (Proc.devRef .tc main_call4_v2) = val_main_call4_v2 (F := F) x0 x1 x2 := by
  refine ⟨?_, ?_, ?_, ?_, ?_, ?_⟩
  · rw [ops19_eq]; after_results; exact h_arg0
  · rw [ops19_eq]; after_results; exact h_arg1
  · rw [ops19_eq]; after_results; exact h_arg2
  · rw [ops19_eq]; after_results; exact h_v12
  · rw [ops19_eq]; after_results; exact h_v59
  · rw [ops19_eq]; after_results; rw [h_call4_v0]; rfl

/-- The same operations, each at its buffers' own types (no transport along a type equation). -/
abbrev ops20' : List (HloOp τ sig (Elt F)) :=
  [ unary main_call4_v2 main_call4_v3 ((broadcastInDim S2048x1 ![0] bcast_S2048_S2048x1_0) : (⟨S2048, .f32⟩ : BufTy).Contents (Elt F) → (⟨S2048x1, .f32⟩ : BufTy).Contents (Elt F)),
    unary main_call4_v3 main_call4_v4 ((broadcastInDim S2048x50000 ![0, 1] bcast_S2048x1_S2048x50000_0_1) : (⟨S2048x1, .f32⟩ : BufTy).Contents (Elt F) → (⟨S2048x50000, .f32⟩ : BufTy).Contents (Elt F)) ]

theorem ops20_eq : (ops20 : List (HloOp τ sig (Elt F))) = ops20' := rfl

attribute [local irreducible] val_main_v12 val_main_v59 val_main_call4_v2 Host.reduce in
/-- Stretch 20: from the stages its operations read, the stages they write; the other buffers still needed keep theirs. -/
theorem step20 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v12 : V (Proc.devRef .tc main_v12) = val_main_v12 (F := F))
    (h_v59 : V (Proc.devRef .tc main_v59) = val_main_v59 (F := F) x0 x1 x2)
    (h_call4_v2 : V (Proc.devRef .tc main_call4_v2) = val_main_call4_v2 (F := F) x0 x1 x2) :
    StableHlo.after ops20 V (Proc.devRef .tc main_arg0) = x0
      ∧ StableHlo.after ops20 V (Proc.devRef .tc main_arg1) = x1
      ∧ StableHlo.after ops20 V (Proc.devRef .tc main_arg2) = x2
      ∧ StableHlo.after ops20 V (Proc.devRef .tc main_v12) = val_main_v12 (F := F)
      ∧ StableHlo.after ops20 V (Proc.devRef .tc main_v59) = val_main_v59 (F := F) x0 x1 x2
      ∧ StableHlo.after ops20 V (Proc.devRef .tc main_call4_v4) = val_main_call4_v4 (F := F) x0 x1 x2 := by
  refine ⟨?_, ?_, ?_, ?_, ?_, ?_⟩
  · rw [ops20_eq]; after_results; exact h_arg0
  · rw [ops20_eq]; after_results; exact h_arg1
  · rw [ops20_eq]; after_results; exact h_arg2
  · rw [ops20_eq]; after_results; exact h_v12
  · rw [ops20_eq]; after_results; exact h_v59
  · rw [ops20_eq]; after_results; rw [h_call4_v2]; rfl

/-- The same operations, each at its buffers' own types (no transport along a type equation). -/
abbrev ops21' : List (HloOp τ sig (Elt F)) :=
  [ binary main_v59 main_call4_v4 main_call4_v5 (subf : (⟨S2048x50000, .f32⟩ : BufTy).Contents (Elt F) → (⟨S2048x50000, .f32⟩ : BufTy).Contents (Elt F) → (⟨S2048x50000, .f32⟩ : BufTy).Contents (Elt F)),
    unary main_call4_v5 main_call4_v6 (Host.exp : (⟨S2048x50000, .f32⟩ : BufTy).Contents (Elt F) → (⟨S2048x50000, .f32⟩ : BufTy).Contents (Elt F)) ]

theorem ops21_eq : (ops21 : List (HloOp τ sig (Elt F))) = ops21' := rfl

attribute [local irreducible] val_main_v12 val_main_v59 val_main_call4_v4 Host.reduce in
/-- Stretch 21: from the stages its operations read, the stages they write; the other buffers still needed keep theirs. -/
theorem step21 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v12 : V (Proc.devRef .tc main_v12) = val_main_v12 (F := F))
    (h_v59 : V (Proc.devRef .tc main_v59) = val_main_v59 (F := F) x0 x1 x2)
    (h_call4_v4 : V (Proc.devRef .tc main_call4_v4) = val_main_call4_v4 (F := F) x0 x1 x2) :
    StableHlo.after ops21 V (Proc.devRef .tc main_arg0) = x0
      ∧ StableHlo.after ops21 V (Proc.devRef .tc main_arg1) = x1
      ∧ StableHlo.after ops21 V (Proc.devRef .tc main_arg2) = x2
      ∧ StableHlo.after ops21 V (Proc.devRef .tc main_v12) = val_main_v12 (F := F)
      ∧ StableHlo.after ops21 V (Proc.devRef .tc main_v59) = val_main_v59 (F := F) x0 x1 x2
      ∧ StableHlo.after ops21 V (Proc.devRef .tc main_call4_v5) = val_main_call4_v5 (F := F) x0 x1 x2
      ∧ StableHlo.after ops21 V (Proc.devRef .tc main_call4_v6) = val_main_call4_v6 (F := F) x0 x1 x2 := by
  refine ⟨?_, ?_, ?_, ?_, ?_, ?_, ?_⟩
  · rw [ops21_eq]; after_results; exact h_arg0
  · rw [ops21_eq]; after_results; exact h_arg1
  · rw [ops21_eq]; after_results; exact h_arg2
  · rw [ops21_eq]; after_results; exact h_v12
  · rw [ops21_eq]; after_results; exact h_v59
  · rw [ops21_eq]; after_results; rw [h_v59, h_call4_v4]; rfl
  · rw [ops21_eq]; after_results; rw [h_v59, h_call4_v4]; rfl

/-- The same operations, each at its buffers' own types (no transport along a type equation). -/
abbrev ops22' : List (HloOp τ sig (Elt F)) :=
  [ nullary main_call4_cst_1 ((constant S_ .f32 0x00000000#32) : (⟨S_, .f32⟩ : BufTy).Contents (Elt F)),
    binary main_call4_v6 main_call4_cst_1 main_call4_v7 ((fun x v => Host.reduceAdd x v reducesTo_S2048x50000_S2048_d1 h_S_) : (⟨S2048x50000, .f32⟩ : BufTy).Contents (Elt F) → (⟨S_, .f32⟩ : BufTy).Contents (Elt F) → (⟨S2048, .f32⟩ : BufTy).Contents (Elt F)) ]

theorem ops22_eq : (ops22 : List (HloOp τ sig (Elt F))) = ops22' := rfl

attribute [local irreducible] val_main_v12 val_main_v59 val_main_call4_v5 val_main_call4_v6 Host.reduce in
/-- Stretch 22: from the stages its operations read, the stages they write; the other buffers still needed keep theirs. -/
theorem step22 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v12 : V (Proc.devRef .tc main_v12) = val_main_v12 (F := F))
    (h_v59 : V (Proc.devRef .tc main_v59) = val_main_v59 (F := F) x0 x1 x2)
    (h_call4_v5 : V (Proc.devRef .tc main_call4_v5) = val_main_call4_v5 (F := F) x0 x1 x2)
    (h_call4_v6 : V (Proc.devRef .tc main_call4_v6) = val_main_call4_v6 (F := F) x0 x1 x2) :
    StableHlo.after ops22 V (Proc.devRef .tc main_arg0) = x0
      ∧ StableHlo.after ops22 V (Proc.devRef .tc main_arg1) = x1
      ∧ StableHlo.after ops22 V (Proc.devRef .tc main_arg2) = x2
      ∧ StableHlo.after ops22 V (Proc.devRef .tc main_v12) = val_main_v12 (F := F)
      ∧ StableHlo.after ops22 V (Proc.devRef .tc main_v59) = val_main_v59 (F := F) x0 x1 x2
      ∧ StableHlo.after ops22 V (Proc.devRef .tc main_call4_v5) = val_main_call4_v5 (F := F) x0 x1 x2
      ∧ StableHlo.after ops22 V (Proc.devRef .tc main_call4_v7) = val_main_call4_v7 (F := F) x0 x1 x2 := by
  refine ⟨?_, ?_, ?_, ?_, ?_, ?_, ?_⟩
  · rw [ops22_eq]; after_results; exact h_arg0
  · rw [ops22_eq]; after_results; exact h_arg1
  · rw [ops22_eq]; after_results; exact h_arg2
  · rw [ops22_eq]; after_results; exact h_v12
  · rw [ops22_eq]; after_results; exact h_v59
  · rw [ops22_eq]; after_results; exact h_call4_v5
  · rw [ops22_eq]; after_results; rw [h_call4_v6]; rfl

/-- The same operations, each at its buffers' own types (no transport along a type equation). -/
abbrev ops23' : List (HloOp τ sig (Elt F)) :=
  [ unary main_call4_v7 main_call4_v8 ((broadcastInDim S2048x1 ![0] bcast_S2048_S2048x1_0) : (⟨S2048, .f32⟩ : BufTy).Contents (Elt F) → (⟨S2048x1, .f32⟩ : BufTy).Contents (Elt F)),
    unary main_call4_v8 main_call4_v9 (Host.log : (⟨S2048x1, .f32⟩ : BufTy).Contents (Elt F) → (⟨S2048x1, .f32⟩ : BufTy).Contents (Elt F)) ]

theorem ops23_eq : (ops23 : List (HloOp τ sig (Elt F))) = ops23' := rfl

attribute [local irreducible] val_main_v12 val_main_v59 val_main_call4_v5 val_main_call4_v7 Host.reduce in
/-- Stretch 23: from the stages its operations read, the stages they write; the other buffers still needed keep theirs. -/
theorem step23 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v12 : V (Proc.devRef .tc main_v12) = val_main_v12 (F := F))
    (h_v59 : V (Proc.devRef .tc main_v59) = val_main_v59 (F := F) x0 x1 x2)
    (h_call4_v5 : V (Proc.devRef .tc main_call4_v5) = val_main_call4_v5 (F := F) x0 x1 x2)
    (h_call4_v7 : V (Proc.devRef .tc main_call4_v7) = val_main_call4_v7 (F := F) x0 x1 x2) :
    StableHlo.after ops23 V (Proc.devRef .tc main_arg0) = x0
      ∧ StableHlo.after ops23 V (Proc.devRef .tc main_arg1) = x1
      ∧ StableHlo.after ops23 V (Proc.devRef .tc main_arg2) = x2
      ∧ StableHlo.after ops23 V (Proc.devRef .tc main_v12) = val_main_v12 (F := F)
      ∧ StableHlo.after ops23 V (Proc.devRef .tc main_v59) = val_main_v59 (F := F) x0 x1 x2
      ∧ StableHlo.after ops23 V (Proc.devRef .tc main_call4_v5) = val_main_call4_v5 (F := F) x0 x1 x2
      ∧ StableHlo.after ops23 V (Proc.devRef .tc main_call4_v9) = val_main_call4_v9 (F := F) x0 x1 x2 := by
  refine ⟨?_, ?_, ?_, ?_, ?_, ?_, ?_⟩
  · rw [ops23_eq]; after_results; exact h_arg0
  · rw [ops23_eq]; after_results; exact h_arg1
  · rw [ops23_eq]; after_results; exact h_arg2
  · rw [ops23_eq]; after_results; exact h_v12
  · rw [ops23_eq]; after_results; exact h_v59
  · rw [ops23_eq]; after_results; exact h_call4_v5
  · rw [ops23_eq]; after_results; rw [h_call4_v7]; rfl

/-- The same operations, each at its buffers' own types (no transport along a type equation). -/
abbrev ops24' : List (HloOp τ sig (Elt F)) :=
  [ unary main_call4_v9 main_call4_v10 ((broadcastInDim S2048x50000 ![0, 1] bcast_S2048x1_S2048x50000_0_1) : (⟨S2048x1, .f32⟩ : BufTy).Contents (Elt F) → (⟨S2048x50000, .f32⟩ : BufTy).Contents (Elt F)),
    binary main_call4_v5 main_call4_v10 main_v60 (subf : (⟨S2048x50000, .f32⟩ : BufTy).Contents (Elt F) → (⟨S2048x50000, .f32⟩ : BufTy).Contents (Elt F) → (⟨S2048x50000, .f32⟩ : BufTy).Contents (Elt F)) ]

theorem ops24_eq : (ops24 : List (HloOp τ sig (Elt F))) = ops24' := rfl

attribute [local irreducible] val_main_v12 val_main_v59 val_main_call4_v5 val_main_call4_v9 Host.reduce in
/-- Stretch 24: from the stages its operations read, the stages they write; the other buffers still needed keep theirs. -/
theorem step24 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v12 : V (Proc.devRef .tc main_v12) = val_main_v12 (F := F))
    (h_v59 : V (Proc.devRef .tc main_v59) = val_main_v59 (F := F) x0 x1 x2)
    (h_call4_v5 : V (Proc.devRef .tc main_call4_v5) = val_main_call4_v5 (F := F) x0 x1 x2)
    (h_call4_v9 : V (Proc.devRef .tc main_call4_v9) = val_main_call4_v9 (F := F) x0 x1 x2) :
    StableHlo.after ops24 V (Proc.devRef .tc main_arg0) = x0
      ∧ StableHlo.after ops24 V (Proc.devRef .tc main_arg1) = x1
      ∧ StableHlo.after ops24 V (Proc.devRef .tc main_arg2) = x2
      ∧ StableHlo.after ops24 V (Proc.devRef .tc main_v12) = val_main_v12 (F := F)
      ∧ StableHlo.after ops24 V (Proc.devRef .tc main_v59) = val_main_v59 (F := F) x0 x1 x2
      ∧ StableHlo.after ops24 V (Proc.devRef .tc main_v60) = val_main_v60 (F := F) x0 x1 x2 := by
  refine ⟨?_, ?_, ?_, ?_, ?_, ?_⟩
  · rw [ops24_eq]; after_results; exact h_arg0
  · rw [ops24_eq]; after_results; exact h_arg1
  · rw [ops24_eq]; after_results; exact h_arg2
  · rw [ops24_eq]; after_results; exact h_v12
  · rw [ops24_eq]; after_results; exact h_v59
  · rw [ops24_eq]; after_results; rw [h_call4_v5, h_call4_v9]; rfl

attribute [local irreducible] val_main_v12 val_main_v59 val_main_v60 Host.reduce in
/-- Stretch 25: from the stages its operations read, the stages they write; the other buffers still needed keep theirs. -/
theorem step25 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v12 : V (Proc.devRef .tc main_v12) = val_main_v12 (F := F))
    (h_v59 : V (Proc.devRef .tc main_v59) = val_main_v59 (F := F) x0 x1 x2)
    (h_v60 : V (Proc.devRef .tc main_v60) = val_main_v60 (F := F) x0 x1 x2) :
    StableHlo.after ops25 V (Proc.devRef .tc main_arg0) = x0
      ∧ StableHlo.after ops25 V (Proc.devRef .tc main_arg1) = x1
      ∧ StableHlo.after ops25 V (Proc.devRef .tc main_arg2) = x2
      ∧ StableHlo.after ops25 V (Proc.devRef .tc main_v59) = val_main_v59 (F := F) x0 x1 x2
      ∧ StableHlo.after ops25 V (Proc.devRef .tc main_v60) = val_main_v60 (F := F) x0 x1 x2
      ∧ StableHlo.after ops25 V (Proc.devRef .tc main_v65) = val_main_v65 (F := F) := by
  refine ⟨?_, ?_, ?_, ?_, ?_, ?_⟩
  · after_results; exact h_arg0
  · after_results; exact h_arg1
  · after_results; exact h_arg2
  · after_results; exact h_v59
  · after_results; exact h_v60
  · after_results; rw [h_v12]; rfl

attribute [local irreducible] val_main_v59 val_main_v60 val_main_v65 Host.reduce in
/-- Stretch 26: from the stages its operations read, the stages they write; the other buffers still needed keep theirs. -/
theorem step26 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v59 : V (Proc.devRef .tc main_v59) = val_main_v59 (F := F) x0 x1 x2)
    (h_v60 : V (Proc.devRef .tc main_v60) = val_main_v60 (F := F) x0 x1 x2)
    (h_v65 : V (Proc.devRef .tc main_v65) = val_main_v65 (F := F)) :
    StableHlo.after ops26 V (Proc.devRef .tc main_arg0) = x0
      ∧ StableHlo.after ops26 V (Proc.devRef .tc main_arg1) = x1
      ∧ StableHlo.after ops26 V (Proc.devRef .tc main_arg2) = x2
      ∧ StableHlo.after ops26 V (Proc.devRef .tc main_v59) = val_main_v59 (F := F) x0 x1 x2
      ∧ StableHlo.after ops26 V (Proc.devRef .tc main_v60) = val_main_v60 (F := F) x0 x1 x2
      ∧ StableHlo.after ops26 V (Proc.devRef .tc main_v71) = val_main_v71 (F := F)
      ∧ StableHlo.after ops26 V (Proc.devRef .tc main_v72) = val_main_v72 (F := F) x1 := by
  refine ⟨?_, ?_, ?_, ?_, ?_, ?_, ?_⟩
  · after_results; exact h_arg0
  · after_results; exact h_arg1
  · after_results; exact h_arg2
  · after_results; exact h_v59
  · after_results; exact h_v60
  · after_results; rw [h_v65]; rfl
  · after_results; rw [h_arg1]; rfl

attribute [local irreducible] val_main_v59 val_main_v60 val_main_v71 val_main_v72 Host.reduce in
/-- Stretch 27: from the stages its operations read, the stages they write; the other buffers still needed keep theirs. -/
theorem step27 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v59 : V (Proc.devRef .tc main_v59) = val_main_v59 (F := F) x0 x1 x2)
    (h_v60 : V (Proc.devRef .tc main_v60) = val_main_v60 (F := F) x0 x1 x2)
    (h_v71 : V (Proc.devRef .tc main_v71) = val_main_v71 (F := F))
    (h_v72 : V (Proc.devRef .tc main_v72) = val_main_v72 (F := F) x1) :
    StableHlo.after ops27 V (Proc.devRef .tc main_arg0) = x0
      ∧ StableHlo.after ops27 V (Proc.devRef .tc main_arg1) = x1
      ∧ StableHlo.after ops27 V (Proc.devRef .tc main_arg2) = x2
      ∧ StableHlo.after ops27 V (Proc.devRef .tc main_v59) = val_main_v59 (F := F) x0 x1 x2
      ∧ StableHlo.after ops27 V (Proc.devRef .tc main_v74) = val_main_v74 (F := F) x0 x1 x2 := by
  refine ⟨?_, ?_, ?_, ?_, ?_⟩
  · after_results; exact h_arg0
  · after_results; exact h_arg1
  · after_results; exact h_arg2
  · after_results; exact h_v59
  · after_results; rw [h_v60, h_v71, h_v72]; rfl

attribute [local irreducible] val_main_v59 val_main_v74 Host.reduce in
/-- Stretch 28: from the stages its operations read, the stages they write; the other buffers still needed keep theirs. -/
theorem step28 (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0)
    (h_arg1 : V (Proc.devRef .tc main_arg1) = x1)
    (h_arg2 : V (Proc.devRef .tc main_arg2) = x2)
    (h_v59 : V (Proc.devRef .tc main_v59) = val_main_v59 (F := F) x0 x1 x2)
    (h_v74 : V (Proc.devRef .tc main_v74) = val_main_v74 (F := F) x0 x1 x2) :
    StableHlo.after ops28 V (Proc.devRef .tc main_arg0) = x0
      ∧ StableHlo.after ops28 V (Proc.devRef .tc main_arg1) = x1
      ∧ StableHlo.after ops28 V (Proc.devRef .tc main_arg2) = x2
      ∧ StableHlo.after ops28 V (Proc.devRef .tc main_v59) = val_main_v59 (F := F) x0 x1 x2
      ∧ StableHlo.after ops28 V (Proc.devRef .tc main_v77) = val_main_v77 (F := F) x0 x1 x2 := by
  refine ⟨?_, ?_, ?_, ?_, ?_⟩
  · after_results; exact h_arg0
  · after_results; exact h_arg1
  · after_results; exact h_arg2
  · after_results; exact h_v59
  · after_results; rw [h_v74]; rfl

/-- All the operations: the two results at their stages, the arguments kept. -/
theorem after_ops (V : Valuation τ sig (Elt F)) (x0 : (⟨S2048x512, .f32⟩ : BufTy).Contents (Elt F)) (x1 : (⟨S2048, .i32⟩ : BufTy).Contents (Elt F)) (x2 : (⟨S50000x512, .f32⟩ : BufTy).Contents (Elt F))
    (h_arg0 : V (Proc.devRef .tc main_arg0) = x0) (h_arg1 : V (Proc.devRef .tc main_arg1) = x1) (h_arg2 : V (Proc.devRef .tc main_arg2) = x2) :
    StableHlo.after ops V (Proc.devRef .tc main_v59) = val_main_v59 (F := F) x0 x1 x2
      ∧ StableHlo.after ops V (Proc.devRef .tc main_v77) = val_main_v77 (F := F) x0 x1 x2
      ∧ StableHlo.after ops V (Proc.devRef .tc main_arg0) = x0
      ∧ StableHlo.after ops V (Proc.devRef .tc main_arg1) = x1
      ∧ StableHlo.after ops V (Proc.devRef .tc main_arg2) = x2 := by
  rw [ops_split]
  simp only [StableHlo.after_append]
  obtain ⟨s1_arg0, s1_arg1, s1_arg2, s1_v0⟩ := step1 _ x0 x1 x2 h_arg0 h_arg1 h_arg2
  obtain ⟨s2_arg0, s2_arg1, s2_arg2, s2_v4⟩ := step2 _ x0 x1 x2 s1_arg0 s1_arg1 s1_arg2 s1_v0
  obtain ⟨s3_arg0, s3_arg1, s3_arg2, s3_v4, s3_v5⟩ := step3 _ x0 x1 x2 s2_arg0 s2_arg1 s2_arg2 s2_v4
  obtain ⟨s4_arg0, s4_arg1, s4_arg2, s4_v4, s4_v10⟩ := step4 _ x0 x1 x2 s3_arg0 s3_arg1 s3_arg2 s3_v4 s3_v5
  obtain ⟨s5_arg0, s5_arg1, s5_arg2, s5_v11⟩ := step5 _ x0 x1 x2 s4_arg0 s4_arg1 s4_arg2 s4_v4 s4_v10
  obtain ⟨s6_arg0, s6_arg1, s6_arg2, s6_v11, s6_v12, s6_v17⟩ := step6 _ x0 x1 x2 s5_arg0 s5_arg1 s5_arg2 s5_v11
  obtain ⟨s7_arg0, s7_arg1, s7_arg2, s7_v11, s7_v12, s7_v23, s7_v24⟩ := step7 _ x0 x1 x2 s6_arg0 s6_arg1 s6_arg2 s6_v11 s6_v12 s6_v17
  obtain ⟨s8_arg0, s8_arg1, s8_arg2, s8_v11, s8_v12, s8_v26⟩ := step8 _ x0 x1 x2 s7_arg0 s7_arg1 s7_arg2 s7_v11 s7_v12 s7_v23 s7_v24
  obtain ⟨s9_arg0, s9_arg1, s9_arg2, s9_v11, s9_v12, s9_v26, s9_v29⟩ := step9 _ x0 x1 x2 s8_arg0 s8_arg1 s8_arg2 s8_v11 s8_v12 s8_v26
  obtain ⟨s10_arg0, s10_arg1, s10_arg2, s10_v11, s10_v12, s10_v26, s10_v30⟩ := step10 _ x0 x1 x2 s9_arg0 s9_arg1 s9_arg2 s9_v11 s9_v12 s9_v26 s9_v29
  obtain ⟨s11_arg0, s11_arg1, s11_arg2, s11_v11, s11_v12, s11_v26, s11_v36⟩ := step11 _ x0 x1 x2 s10_arg0 s10_arg1 s10_arg2 s10_v11 s10_v12 s10_v26 s10_v30
  obtain ⟨s12_arg0, s12_arg1, s12_arg2, s12_v11, s12_v12, s12_v26, s12_v36, s12_v40⟩ := step12 _ x0 x1 x2 s11_arg0 s11_arg1 s11_arg2 s11_v11 s11_v12 s11_v26 s11_v36
  obtain ⟨s13_arg0, s13_arg1, s13_arg2, s13_v11, s13_v12, s13_v43⟩ := step13 _ x0 x1 x2 s12_arg0 s12_arg1 s12_arg2 s12_v11 s12_v12 s12_v26 s12_v36 s12_v40
  obtain ⟨s14_arg0, s14_arg1, s14_arg2, s14_v11, s14_v12, s14_v43, s14_v48⟩ := step14 _ x0 x1 x2 s13_arg0 s13_arg1 s13_arg2 s13_v11 s13_v12 s13_v43
  obtain ⟨s15_arg0, s15_arg1, s15_arg2, s15_v11, s15_v12, s15_v43, s15_v54, s15_v55⟩ := step15 _ x0 x1 x2 s14_arg0 s14_arg1 s14_arg2 s14_v11 s14_v12 s14_v43 s14_v48
  obtain ⟨s16_arg0, s16_arg1, s16_arg2, s16_v12, s16_v57⟩ := step16 _ x0 x1 x2 s15_arg0 s15_arg1 s15_arg2 s15_v11 s15_v12 s15_v43 s15_v54 s15_v55
  obtain ⟨s17_arg0, s17_arg1, s17_arg2, s17_v12, s17_v59⟩ := step17 _ x0 x1 x2 s16_arg0 s16_arg1 s16_arg2 s16_v12 s16_v57
  obtain ⟨s18_arg0, s18_arg1, s18_arg2, s18_v12, s18_v59, s18_call4_v0⟩ := step18 _ x0 x1 x2 s17_arg0 s17_arg1 s17_arg2 s17_v12 s17_v59
  obtain ⟨s19_arg0, s19_arg1, s19_arg2, s19_v12, s19_v59, s19_call4_v2⟩ := step19 _ x0 x1 x2 s18_arg0 s18_arg1 s18_arg2 s18_v12 s18_v59 s18_call4_v0
  obtain ⟨s20_arg0, s20_arg1, s20_arg2, s20_v12, s20_v59, s20_call4_v4⟩ := step20 _ x0 x1 x2 s19_arg0 s19_arg1 s19_arg2 s19_v12 s19_v59 s19_call4_v2
  obtain ⟨s21_arg0, s21_arg1, s21_arg2, s21_v12, s21_v59, s21_call4_v5, s21_call4_v6⟩ := step21 _ x0 x1 x2 s20_arg0 s20_arg1 s20_arg2 s20_v12 s20_v59 s20_call4_v4
  obtain ⟨s22_arg0, s22_arg1, s22_arg2, s22_v12, s22_v59, s22_call4_v5, s22_call4_v7⟩ := step22 _ x0 x1 x2 s21_arg0 s21_arg1 s21_arg2 s21_v12 s21_v59 s21_call4_v5 s21_call4_v6
  obtain ⟨s23_arg0, s23_arg1, s23_arg2, s23_v12, s23_v59, s23_call4_v5, s23_call4_v9⟩ := step23 _ x0 x1 x2 s22_arg0 s22_arg1 s22_arg2 s22_v12 s22_v59 s22_call4_v5 s22_call4_v7
  obtain ⟨s24_arg0, s24_arg1, s24_arg2, s24_v12, s24_v59, s24_v60⟩ := step24 _ x0 x1 x2 s23_arg0 s23_arg1 s23_arg2 s23_v12 s23_v59 s23_call4_v5 s23_call4_v9
  obtain ⟨s25_arg0, s25_arg1, s25_arg2, s25_v59, s25_v60, s25_v65⟩ := step25 _ x0 x1 x2 s24_arg0 s24_arg1 s24_arg2 s24_v12 s24_v59 s24_v60
  obtain ⟨s26_arg0, s26_arg1, s26_arg2, s26_v59, s26_v60, s26_v71, s26_v72⟩ := step26 _ x0 x1 x2 s25_arg0 s25_arg1 s25_arg2 s25_v59 s25_v60 s25_v65
  obtain ⟨s27_arg0, s27_arg1, s27_arg2, s27_v59, s27_v74⟩ := step27 _ x0 x1 x2 s26_arg0 s26_arg1 s26_arg2 s26_v59 s26_v60 s26_v71 s26_v72
  obtain ⟨s28_arg0, s28_arg1, s28_arg2, s28_v59, s28_v77⟩ := step28 _ x0 x1 x2 s27_arg0 s27_arg1 s27_arg2 s27_v59 s27_v74
  exact ⟨s28_v59, s28_v77, s28_arg0, s28_arg1, s28_arg2⟩

/-- The run, its results at the stages' values. -/
theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v59) = val_main_v59 (F := F) (m ((c.tc : Thread nD τ).loc main_arg0)) (m ((c.tc : Thread nD τ).loc main_arg1)) (m ((c.tc : Thread nD τ).loc main_arg2))
      ∧ r.2.mem ((c.tc : Thread nD τ).loc main_v77) = val_main_v77 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
      obtain ⟨h59, h77, ha0, ha1, ha2⟩ := after_ops (F := F) (launchContents m c)
        (m ((c.tc : Thread nD τ).loc main_arg0)) (m ((c.tc : Thread nD τ).loc main_arg1)) (m ((c.tc : Thread nD τ).loc main_arg2)) rfl rfl rfl
      exact ⟨(h c main_v59).trans h59, (h c main_v77).trans h77, (h c main_arg0).trans ha0, (h c main_arg1).trans ha1,
        (h c main_arg2).trans ha2⟩)
    (run_seq scopedRefs_eq scopedSems_eq defs main (fun _ => ops) main_eq (fun _ => ops_sub) m ρ)

end Cert.RefSide

end
-- ==== Proof.RefCos.lean ====
/-
  The reference's matrix of cosines: rows divided by their clamped lengths, then the product of the two matrices,
  is the specification's `cosv`: for a real row, dividing by max (√s) e is multiplying by the reciprocal root of max s e².
-/
import proofs.«416711_j88845693485822_2_alg».proof.Proof.RefRead
import proofs.«416711_j88845693485822_2_alg».proof.Proof.Spec

noncomputable section

namespace Cert.RefSide

open Cert.ReferenceIdeal Cert.ReferenceIdeal.Read Idealize.ShloMosaic

namespace CosAux

/-! ## The arithmetic of one row -/

/-- The clamp's word is the binary fraction 2305843 · 2⁻⁶¹. -/
theorem eps_word : Ideal.ofBits .f32 0x2B8CBCCC#32 = ((2305843 / 2305843009213693952 : ℝ) : EReal) := by
  simp [Ideal.ofBits, Ideal.ieee, -EReal.coe_mul]
  norm_num

/-- The inclusion of the reals keeps the larger of two. -/
theorem coe_max (a b : ℝ) : ((max a b : ℝ) : EReal) = max (a : EReal) (b : EReal) :=
  EReal.coe_strictMono.monotone.map_max

/-- The inclusion of the reals keeps finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The root of a real clamped below by a square: √(max s e²) = max (√s) e for e ≥ 0. -/
theorem sqrt_max_sq (s e : ℝ) (he : 0 ≤ e) : Real.sqrt (max s (e * e)) = max (Real.sqrt s) e := by
  have hm : Monotone Real.sqrt := fun _ _ h => Real.sqrt_le_sqrt h
  rw [hm.map_max, Real.sqrt_mul_self he]

/-- Dividing by the clamped length is multiplying by the reciprocal root of the clamped squared length. -/
theorem div_clamp (x : EReal) (s e : ℝ) (hs : 0 ≤ s) (he : 0 < e) :
    Ideal.div x (max (Ideal.sqrt (s : EReal)) (e : EReal)) = x * Ideal.rsqrt (max (s : EReal) ((e * e : ℝ) : EReal)) := by
  have h1 : Ideal.sqrt (s : EReal) = ((Real.sqrt s : ℝ) : EReal) := by rw [Ideal.sqrt_coe, if_neg (not_lt.mpr hs)]
  have hpos : 0 < max (Real.sqrt s) e := lt_of_lt_of_le he (le_max_right _ _)
  have hpos2 : 0 < max s (e * e) := lt_of_lt_of_le (mul_pos he he) (le_max_right _ _)
  rw [h1, ← coe_max, ← coe_max, Ideal.div_coe hpos.ne', Ideal.rsqrt_coe, if_neg (not_lt.mpr hpos2.le), if_neg hpos2.ne',
    sqrt_max_sq s e he.le, one_div]

/-- The squared length of a row of reals is a nonnegative real. -/
theorem sumsq_real (v : Fin 512 → EReal) (hv : ∀ k, ∃ r : ℝ, v k = (r : EReal)) :
    ∃ s : ℝ, 0 ≤ s ∧ ∑ k : Fin 512, v k * v k = (s : EReal) := by
  choose f hf using hv
  refine ⟨∑ k : Fin 512, f k * f k, Finset.sum_nonneg fun k _ => mul_self_nonneg (f k), ?_⟩
  rw [coe_sum]
  exact Finset.sum_congr rfl fun k _ => by rw [hf k, EReal.coe_mul]

/-- The clamp of the specification is the square of the clamp's word. -/
theorem epsSq_eq : Cert.Spec.epsSq = (((2305843 / 2305843009213693952 : ℝ) * (2305843 / 2305843009213693952 : ℝ) : ℝ) : EReal) := by
  unfold Cert.Spec.epsSq
  norm_num

/-- A real row divided by its clamped length is the row scaled to unit length. -/
theorem row_unit (v : Fin 512 → EReal) (hv : ∀ k, ∃ r : ℝ, v k = (r : EReal)) (k : Fin 512) :
    Ideal.div (v k) (max (Ideal.sqrt (Ideal.ofBits .f32 0x00000000#32 + ∑ k' : Fin 512, v k' * v k')) (Ideal.ofBits .f32 0x2B8CBCCC#32))
      = v k * Ideal.rsqrt (max (∑ k' : Fin 512, v k' * v k') Cert.Spec.epsSq) := by
  obtain ⟨s, hs, hss⟩ := sumsq_real v hv
  rw [Ideal.ofBits_zero_f32, zero_add, hss, eps_word, epsSq_eq]
  exact div_clamp (v k) s _ hs (by norm_num)

/-! ## The stages read at an index -/

/-- The row of `x` the length of row `i` sums over. -/
theorem idx_x_row (i : Fin 2048) (k k' : Fin 512) :
    idx_main_call0_v1 (idx_main_call0_v2 (idx_main_v3 (ValueIdx.ix2 i k))) k' = ValueIdx.ix2 i k' :=
  funext fun a => Fin.ext (by match a with | ⟨0, _⟩ => rfl | ⟨1, _⟩ => rfl)

/-- The row of `w` the length of row `j` sums over. -/
theorem idx_w_row (j : Fin 50000) (k k' : Fin 512) :
    idx_main_call1_v1 (idx_main_call1_v2 (idx_main_v8 (ValueIdx.ix2 j k))) k' = ValueIdx.ix2 j k' :=
  funext fun a => Fin.ext (by match a with | ⟨0, _⟩ => rfl | ⟨1, _⟩ => rfl)

/-- The transposed entry (k, j) is the entry (j, k). -/
theorem idx_w_tr (j : Fin 50000) (k : Fin 512) : idx_main_v10 (ValueIdx.ix2 k j) = ValueIdx.ix2 j k :=
  funext fun a => Fin.ext (by match a with | ⟨0, _⟩ => rfl | ⟨1, _⟩ => rfl)

/-- The reference's scaled `x` at (i, k) is the unit row. -/
theorem x_unit (x0 : (⟨S2048x512, .f32⟩ : BufTy).Contents (Elt Ideal)) (hx : Cert.Spec.IsReal (Cert.Spec.xOf x0))
    (i : Fin 2048) (k : Fin 512) :
    val_main_v4 (F := Ideal) x0 (ValueIdx.ix2 i k) = Cert.Spec.unitRow (Cert.Spec.xOf x0) i k := by
  rw [val_main_v4_apply, val_main_v3_apply, val_main_v2_apply, val_main_v0_apply, val_main_v1_apply, val_main_cst_apply,
    val_main_call0_v2_apply, val_main_call0_v1_apply, val_main_call0_cst_apply]
  simp only [val_main_call0_v0_apply, idx_x_row, Ideal.hostDivf_def, Ideal.maximumf_def, Ideal.hostUnary_sqrt_def,
    Ideal.mulf_def, Ideal.ofBits_def]
  exact row_unit (fun k' => x0 (ValueIdx.ix2 i k')) (fun k' => hx i k') k

/-- The reference's scaled and transposed `w` at (k, j) is the unit row. -/
theorem w_unit (x2 : (⟨S50000x512, .f32⟩ : BufTy).Contents (Elt Ideal)) (hw : Cert.Spec.IsReal (Cert.Spec.wOf x2))
    (j : Fin 50000) (k : Fin 512) :
    val_main_v10 (F := Ideal) x2 (ValueIdx.ix2 k j) = Cert.Spec.unitRow (Cert.Spec.wOf x2) j k := by
  rw [val_main_v10_apply, idx_w_tr, val_main_v9_apply, val_main_v8_apply, val_main_v7_apply, val_main_v5_apply, val_main_v6_apply,
    val_main_cst_0_apply, val_main_call1_v2_apply, val_main_call1_v1_apply, val_main_call1_cst_apply]
  simp only [val_main_call1_v0_apply, idx_w_row, Ideal.hostDivf_def, Ideal.maximumf_def, Ideal.hostUnary_sqrt_def,
    Ideal.mulf_def, Ideal.ofBits_def]
  exact row_unit (fun k' => x2 (ValueIdx.ix2 j k')) (fun k' => hw j k') k

end CosAux

open CosAux

/-- The reference's cosine stage read at (i, j). -/
theorem cos_ref (x0 : (⟨S2048x512, .f32⟩ : BufTy).Contents (Elt Ideal)) (x2 : (⟨S50000x512, .f32⟩ : BufTy).Contents (Elt Ideal))
    (hx : Cert.Spec.IsReal (Cert.Spec.xOf x0)) (hw : Cert.Spec.IsReal (Cert.Spec.wOf x2)) (i : Fin 2048) (j : Fin 50000) :
    val_main_v11 (F := Ideal) x0 x2 (ValueIdx.ix2 i j) = Cert.Spec.cosv (Cert.Spec.xOf x0) (Cert.Spec.wOf x2) i j := by
  rw [val_main_v11_apply]
  unfold Cert.Spec.cosv
  refine Finset.sum_congr rfl fun k _ => ?_
  have el : lidx_main_v11 (ValueIdx.ix2 i j) k = ValueIdx.ix2 i k :=
    funext fun a => Fin.ext (by match a with | ⟨0, _⟩ => rfl | ⟨1, _⟩ => rfl)
  have er : ridx_main_v11 (ValueIdx.ix2 i j) k = ValueIdx.ix2 k j :=
    funext fun a => Fin.ext (by match a with | ⟨0, _⟩ => rfl | ⟨1, _⟩ => rfl)
  rw [el, er, x_unit x0 hx i k, w_unit x2 hw j k]

end Cert.RefSide

end
-- ==== Proof.LibScatter.lean ====
/-
  A scatter read at ONE element of its result.

  The host's scatter is a fold over the updates in row-major order: an update whose target index lies inside the
  operand replaces the element there by the body applied to it and the update; an update whose target lies outside is
  dropped. The element of the result at an index i is therefore decided by the updates that land at i alone:
  when none does the operand's element stays (scatter_apply_of_miss); when exactly one does, the element is the body
  applied to the operand's element and that update (scatter_apply_of_unique) — in particular the update itself when the
  body returns its second argument. Neither depends on the order of the fold.

  The point form (pointDims): an operand [n, m], k index pairs [k, 2] read as (row, column) and k scalar updates.
  A pair whose two words read signed lie inside the operand lands at that (row, column) (pointDims_resultIdx).
-/
import Idealize.ShloMosaic.Lib.ValueIdx

noncomputable section

namespace Cert.LibScatter

open Idealize.ShloMosaic Idealize.ShloMosaic.ValueIdx

/-! ## A fold of steps read at one point -/

section Fold
variable {κ ι α : Type}

/-- A fold of steps none of which changes the value at i' leaves it as it was. -/
theorem foldl_apply_of_miss (step : (ι → α) → κ → (ι → α)) (i' : ι) :
    ∀ (l : List κ), (∀ r, ∀ n ∈ l, step r n i' = r i') → ∀ x, (l.foldl step x) i' = x i'
  | [], _, _ => rfl
  | a :: l, h, x => by
    rw [List.foldl_cons, foldl_apply_of_miss step i' l (fun r n hn => h r n (List.mem_cons_of_mem _ hn)),
      h x a List.mem_cons_self]

/-- A fold over a list without repeats in which one step n0 changes the value at i' by g, and no other step
    changes it, changes it by g. -/
theorem foldl_apply_of_unique (step : (ι → α) → κ → (ι → α)) (i' : ι) (g : α → α) (n0 : κ)
    (h0 : ∀ r, step r n0 i' = g (r i')) :
    ∀ (l : List κ), l.Nodup → n0 ∈ l → (∀ r, ∀ n ∈ l, n ≠ n0 → step r n i' = r i') →
      ∀ x, (l.foldl step x) i' = g (x i')
  | [], _, hm, _, _ => absurd hm List.not_mem_nil
  | a :: l, hnd, hm, h, x => by
    rw [List.foldl_cons]
    have hnd' := List.nodup_cons.1 hnd
    by_cases ha : a = n0
    · subst ha
      rw [foldl_apply_of_miss step i' l (fun r n hn => h r n (List.mem_cons_of_mem _ hn)
        (fun e => hnd'.1 (e ▸ hn))), h0]
    · have hm' : n0 ∈ l := by
        rcases List.mem_cons.1 hm with e | e
        · exact absurd e.symm ha
        · exact e
      rw [foldl_apply_of_unique step i' g n0 h0 l hnd'.2 hm' (fun r n hn => h r n (List.mem_cons_of_mem _ hn)),
        h x a List.mem_cons_self ha]

end Fold

/-! ## The scatter at one element -/

section Scatter
variable {s si u : Shape} {α : Type} {w : Nat}

/-- No update lands at i': the operand's element stays. -/
theorem scatter_apply_of_miss (d : ScatterDims s si u) (f : α → α → α) (x : s.Idx → α) (idx : IVec si w) (upd : u.Idx → α)
    (i' : s.Idx) (h : ∀ j : u.Idx, d.resultIdx? j idx ≠ some i') :
    Host.scatter d f x idx upd i' = x i' := by
  unfold Host.scatter
  refine foldl_apply_of_miss _ i' _ (fun r n _ => ?_) x
  have hn := h (u.rowMajor.symm n)
  beta_reduce
  generalize d.resultIdx? (u.rowMajor.symm n) idx = q at hn
  cases q with
  | none => rfl
  | some i =>
    show (if i' = i then f (r i) (upd (u.rowMajor.symm n)) else r i') = r i'
    rw [if_neg (fun e => hn (by rw [e]))]

/-- Exactly one update, j0, lands at i': the element is the body applied to the operand's element and that update. -/
theorem scatter_apply_of_unique (d : ScatterDims s si u) (f : α → α → α) (x : s.Idx → α) (idx : IVec si w) (upd : u.Idx → α)
    (i' : s.Idx) (j0 : u.Idx) (h0 : d.resultIdx? j0 idx = some i')
    (huniq : ∀ j : u.Idx, d.resultIdx? j idx = some i' → j = j0) :
    Host.scatter d f x idx upd i' = f (x i') (upd j0) := by
  unfold Host.scatter
  refine foldl_apply_of_unique _ i' (fun v => f v (upd j0)) (u.rowMajor j0) (fun r => ?_) _ (List.nodup_finRange _)
    (List.mem_finRange _) (fun r n _ hne => ?_) x
  · beta_reduce
    rw [Equiv.symm_apply_apply, h0]
    show (if i' = i' then f (r i') (upd j0) else r i') = f (r i') (upd j0)
    rw [if_pos rfl]
  · beta_reduce
    generalize hq : d.resultIdx? (u.rowMajor.symm n) idx = q
    cases q with
    | none => rfl
    | some i =>
      show (if i' = i then f (r i) (upd (u.rowMajor.symm n)) else r i') = r i'
      rw [if_neg]
      intro e
      subst e
      exact hne (by rw [← huniq _ hq, Equiv.apply_symm_apply])

end Scatter

/-! ## The point form: index pairs (row, column) into a matrix, scalar updates -/

section Point

/-- The dimension numbers of a point scatter into an operand [n, m] at k index pairs [k, 2]: both operand axes
    inserted, the pair's two words the row and the column. Their conditions wf are decided on literal shapes. -/
abbrev pointDims (n m k : Nat) (wf : ScatterDims.WF ⟨2, ![n, m]⟩ ⟨2, ![k, 2]⟩ ⟨1, ![k]⟩ [] [0, 1] [0, 1] 1) :
    ScatterDims ⟨2, ![n, m]⟩ ⟨2, ![k, 2]⟩ ⟨1, ![k]⟩ where
  updateWindowDims := []
  insertedWindowDims := [0, 1]
  scatterDimsToOperandDims := [0, 1]
  indexVectorDim := 1
  wf := wf

/-- Pair r, its words read signed the row a and the column b inside the operand, lands at (a, b). -/
theorem pointDims_resultIdx {n m k w : Nat} (wf : ScatterDims.WF ⟨2, ![n, m]⟩ ⟨2, ![k, 2]⟩ ⟨1, ![k]⟩ [] [0, 1] [0, 1] 1)
    (idx : IVec ⟨2, ![k, 2]⟩ w) (r : Fin k) (a : Fin n) (b : Fin m)
    (ha : (idx (ix2 r 0)).toInt = (a.val : Int)) (hb : (idx (ix2 r 1)).toInt = (b.val : Int)) :
    (pointDims n m k wf).resultIdx? (ix1 r) idx = some (ix2 a b) := by
  have hk : (pointDims n m k wf).sKept = [] := rfl
  have hm0 : (0 : Fin 2) ∈ (pointDims n m k wf).scatterDimsToOperandDims := by
    show (0 : Fin 2) ∈ ([0, 1] : List (Fin 2)); decide
  have hm1 : (1 : Fin 2) ∈ (pointDims n m k wf).scatterDimsToOperandDims := by
    show (1 : Fin 2) ∈ ([0, 1] : List (Fin 2)); decide
  have hw : ∀ c, (pointDims n m k wf).window (ix1 r) c = 0 := fun c => by
    unfold ScatterDims.window
    rw [dif_neg (by rw [hk]; exact List.not_mem_nil)]
  have hs0 : (pointDims n m k wf).start (ix1 r) idx 0 = (a.val : Int) := by
    unfold ScatterDims.start
    rw [dif_pos hm0]
    have hsi : (pointDims n m k wf).siIdx (ix1 r) ⟨List.idxOf (0 : Fin 2) (pointDims n m k wf).scatterDimsToOperandDims,
        List.idxOf_lt_length_iff.2 hm0⟩ = ix2 r 0 := by
      funext c; refine Fin.ext ?_
      match c with
      | ⟨0, _⟩ => rfl
      | ⟨1, _⟩ => rfl
    rw [hsi]; exact ha
  have hs1 : (pointDims n m k wf).start (ix1 r) idx 1 = (b.val : Int) := by
    unfold ScatterDims.start
    rw [dif_pos hm1]
    have hsi : (pointDims n m k wf).siIdx (ix1 r) ⟨List.idxOf (1 : Fin 2) (pointDims n m k wf).scatterDimsToOperandDims,
        List.idxOf_lt_length_iff.2 hm1⟩ = ix2 r 1 := by
      funext c; refine Fin.ext ?_
      match c with
      | ⟨0, _⟩ => rfl
      | ⟨1, _⟩ => rfl
    rw [hsi]; exact hb
  have hin : ∀ c, 0 ≤ (pointDims n m k wf).start (ix1 r) idx c + (pointDims n m k wf).window (ix1 r) c
      ∧ (pointDims n m k wf).start (ix1 r) idx c + (pointDims n m k wf).window (ix1 r) c < ((⟨2, ![n, m]⟩ : Shape).size c : Int) := fun c => by
    match c with
    | ⟨0, _⟩ =>
      rw [show (⟨0, _⟩ : Fin 2) = 0 from rfl, hs0, hw]
      have := a.isLt
      exact ⟨by omega, by show ((a.val : Int) + ((0 : Nat) : Int)) < ((n : Nat) : Int); omega⟩
    | ⟨1, _⟩ =>
      rw [show (⟨1, _⟩ : Fin 2) = 1 from rfl, hs1, hw]
      have := b.isLt
      exact ⟨by omega, by show ((b.val : Int) + ((0 : Nat) : Int)) < ((m : Nat) : Int); omega⟩
  unfold ScatterDims.resultIdx?
  rw [dif_pos hin]
  congr 1
  funext c
  refine Fin.ext ?_
  match c with
  | ⟨0, _⟩ =>
    show ((pointDims n m k wf).start (ix1 r) idx 0 + (pointDims n m k wf).window (ix1 r) 0).toNat = a.val
    rw [hs0, hw]; omega
  | ⟨1, _⟩ =>
    show ((pointDims n m k wf).start (ix1 r) idx 1 + (pointDims n m k wf).window (ix1 r) 1).toNat = b.val
    rw [hs1, hw]; omega

end Point

end Cert.LibScatter

end
-- ==== Proof.LibPoint.lean ====
/-
  A point gather. An array of n rows and m columns is read at k (row, column) pairs, the pairs the rows of a
  [k, 2] array of integers: entry p of the result is the array's entry at pair p's row and column, each read as a
  signed integer and clamped into its range. For a pair in range that is the entry at (row, column).
-/
import Idealize.ShloMosaic.Lib.ValueIdx

noncomputable section

namespace Cert.LibPoint

open Idealize.ShloMosaic Idealize.ShloMosaic.ValueIdx

/-- Entry `p` of the point gather: the array at pair `p`'s two components, read signed and clamped. -/
theorem gather_point {α : Type} {n m k w : Nat} (d : GatherDims ⟨2, ![n, m]⟩ ⟨2, ![k, 2]⟩ ⟨1, ![k]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![k, 2]⟩ w) (p : Fin k) (hn : 0 < n) (hm : 0 < m) :
    Host.gather d x idx (ix1 p)
      = x (ix2 (⟨min (idx (ix2 p (0 : Fin 2))).toInt.toNat (n - 1), by omega⟩ : Fin n)
               (⟨min (idx (ix2 p (1 : Fin 2))).toInt.toNat (m - 1), by omega⟩ : Fin m)) := by
  unfold Host.gather
  congr 1
  have hb : ∀ a : Fin 2, a ∉ d.operandBatchingDims := fun a => by rw [hob]; exact List.not_mem_nil
  have hk : ∀ a : Fin 2, a ∉ d.sKept := fun a => by
    rw [GatherDims.mem_sKept, hcoll]
    match a with
    | ⟨0, _⟩ => simp
    | ⟨1, _⟩ => simp
  have hmem : ∀ a : Fin 2, a ∈ d.startIndexMap := fun a => by
    rw [hsim]
    match a with
    | ⟨0, _⟩ => simp
    | ⟨1, _⟩ => simp
  have hsl : ∀ a : Fin 2, d.sliceSizes a = 1 := fun a => d.slice_collapsed a (by
    rw [hcoll]
    match a with
    | ⟨0, _⟩ => simp
    | ⟨1, _⟩ => simp)
  -- the start-indices index a component is read at: pair p, component c
  have hsi : ∀ a : Fin 2, d.siIdx (ix1 p) ⟨d.startIndexMap.idxOf a, List.idxOf_lt_length_iff.2 (hmem a)⟩ = ix2 p a := fun a => by
    funext b
    match b with
    | ⟨0, _⟩ =>
      unfold GatherDims.siIdx
      rw [dif_neg (by rw [hivd]; exact Nat.zero_ne_one)]
      unfold GatherDims.siCoord
      apply Fin.ext
      simp only [Fin.val_cast]
      have e : ∀ X : Fin 1, ((ix1 p : (⟨1, ![k]⟩ : Shape).Idx) X).val = p.val := fun X => by
        have hX : X = 0 := Subsingleton.elim _ _
        subst hX; rfl
      exact e _
    | ⟨1, _⟩ =>
      unfold GatherDims.siIdx
      rw [dif_pos (by rw [hivd])]
      apply Fin.ext
      show List.idxOf a d.startIndexMap = a.val
      rw [hsim]
      match a with
      | ⟨0, _⟩ => simp
      | ⟨1, _⟩ => simp
  funext a
  apply Fin.ext
  show d.start (ix1 p) idx a + d.batchCoord (ix1 p) a + d.offCoord (ix1 p) a = _
  rw [GatherDims.batchCoord_eq_zero _ _ _ (hb a), GatherDims.offCoord_eq_zero _ _ _ (hk a)]
  simp only [Nat.add_zero]
  unfold GatherDims.start
  rw [dif_pos (hmem a), hsi a, hsl a]
  match a with
  | ⟨0, _⟩ => rfl
  | ⟨1, _⟩ => rfl

/-- A pair in range reads the entry at its row and column. -/
theorem gather_point_of_lt {α : Type} {n m k w : Nat} (d : GatherDims ⟨2, ![n, m]⟩ ⟨2, ![k, 2]⟩ ⟨1, ![k]⟩)
    (hcoll : d.collapsedSliceDims = [0, 1]) (hob : d.operandBatchingDims = [])
    (hsim : d.startIndexMap = [0, 1]) (hivd : d.indexVectorDim = 1)
    (x : (⟨2, ![n, m]⟩ : Shape).Idx → α) (idx : IVec ⟨2, ![k, 2]⟩ w) (p : Fin k) (r : Fin n) (c : Fin m)
    (hr : (idx (ix2 p (0 : Fin 2))).toInt = (r.val : Int)) (hc : (idx (ix2 p (1 : Fin 2))).toInt = (c.val : Int)) :
    Host.gather d x idx (ix1 p) = x (ix2 r c) := by
  rw [gather_point d hcoll hob hsim hivd x idx p (Nat.lt_of_le_of_lt (Nat.zero_le _) r.isLt) (Nat.lt_of_le_of_lt (Nat.zero_le _) c.isLt)]
  congr 1
  have h0 : min (idx (ix2 p (0 : Fin 2))).toInt.toNat (n - 1) = r.val := by
    rw [hr, Int.toNat_natCast]; have := r.isLt; omega
  have h1 : min (idx (ix2 p (1 : Fin 2))).toInt.toNat (m - 1) = c.val := by
    rw [hc, Int.toNat_natCast]; have := c.isLt; omega
  funext a
  match a with
  | ⟨0, _⟩ => exact Fin.ext h0
  | ⟨1, _⟩ => exact Fin.ext h1

end Cert.LibPoint

end
-- ==== Proof.RefOut.lean ====
/-
  The reference's first result: the cosines with the margin value scattered in at (row, label), times 15.

  Both index columns pass through the wrap of negative indices, the identity on a row number and on a label inside
  its range; joined they are the pairs (r, label r). The gather at those pairs reads the label's cosine of each row,
  the margin is the specification's phi of it operation for operation, and the scatter of the margin values at the
  same pairs changes entry (r, j) exactly when j is the label of row r: the pairs of distinct rows are distinct.
-/
import proofs.«416711_j88845693485822_2_alg».proof.Proof.RefRead
import proofs.«416711_j88845693485822_2_alg».proof.Proof.Spec
import proofs.«416711_j88845693485822_2_alg».proof.Proof.RefCos
import proofs.«416711_j88845693485822_2_alg».proof.Proof.LibScatter
import proofs.«416711_j88845693485822_2_alg».proof.Proof.LibPoint
import Idealize.ShloMosaic.Lib.StableHlo.Predicate

noncomputable section

namespace Cert.RefSide

open Cert.ReferenceIdeal Cert.ReferenceIdeal.Read Idealize.ShloMosaic Idealize.ShloMosaic.ValueIdx
open Idealize.ShloMosaic.StableHlo.Predicate

/-! ## The index columns -/

/-- A signed "less than zero" of a word below 2³¹ is false. -/
theorem slt_zero_of_small (a : BitVec 32) (ha : a.toNat < 2 ^ 31) : IntOp.cmpi .slt a 0#32 = 0#1 :=
  eq_zero_of_ne_one fun h => by
    have := (slt_iff_toNat ha (by decide)).1 h
    simp at this

/-- The wrap of a negative index leaves a word below 2³¹ as it is. -/
theorem wrap_small (a b : BitVec 32) (ha : a.toNat < 2 ^ 31) :
    Scalar.select (IntOp.cmpi .slt a 0#32) b a = a := by
  rw [slt_zero_of_small a ha, select_zero]

theorem ofNat_row_small (r : Fin 2048) : (BitVec.ofNat 32 r.val).toNat < 2 ^ 31 := by
  have := r.isLt
  simp only [BitVec.toNat_ofNat]; omega

/-- The row column of the gather's pairs: the row number. -/
theorem v17_at (r : Fin 2048) : val_main_v17 (F := Ideal) (ix1 r) = BitVec.ofNat 32 r.val := by
  rw [val_main_v17_apply, val_main_v14_apply, val_main_v13_apply, val_main_c_apply, val_main_v12_apply]
  exact wrap_small _ _ (ofNat_row_small r)

/-- The row column of the scatter's pairs: the row number. -/
theorem v48_at (r : Fin 2048) : val_main_v48 (F := Ideal) (ix1 r) = BitVec.ofNat 32 r.val := by
  rw [val_main_v48_apply, val_main_v45_apply, val_main_v44_apply, val_main_c_12_apply, val_main_v12_apply]
  exact wrap_small _ _ (ofNat_row_small r)

/-- The label column of the gather's pairs: a label below 2³¹ as it is. -/
theorem v22_at (x1 : (⟨S2048, .i32⟩ : BufTy).Contents (Elt Ideal)) (r : Fin 2048) (h : (x1 (ix1 r)).toNat < 2 ^ 31) :
    val_main_v22 (F := Ideal) x1 (ix1 r) = x1 (ix1 r) := by
  rw [val_main_v22_apply, val_main_v19_apply, val_main_v18_apply, val_main_c_2_apply]
  exact wrap_small _ _ h

/-- The label column of the scatter's pairs: a label below 2³¹ as it is. -/
theorem v53_at (x1 : (⟨S2048, .i32⟩ : BufTy).Contents (Elt Ideal)) (r : Fin 2048) (h : (x1 (ix1 r)).toNat < 2 ^ 31) :
    val_main_v53 (F := Ideal) x1 (ix1 r) = x1 (ix1 r) := by
  rw [val_main_v53_apply, val_main_v50_apply, val_main_v49_apply, val_main_c_14_apply]
  exact wrap_small _ _ h

/-- Row r of a [2048, 1] column read through a broadcast's index map is entry r of the vector. -/
theorem idx_v23_at (r : Fin 2048) : idx_main_v23 (ix2 r (0 : Fin 1)) = ix1 r := by
  funext a; match a with | ⟨0, _⟩ => rfl
theorem idx_v24_at (r : Fin 2048) : idx_main_v24 (ix2 r (0 : Fin 1)) = ix1 r := by
  funext a; match a with | ⟨0, _⟩ => rfl
theorem idx_v54_at (r : Fin 2048) : idx_main_v54 (ix2 r (0 : Fin 1)) = ix1 r := by
  funext a; match a with | ⟨0, _⟩ => rfl
theorem idx_v55_at (r : Fin 2048) : idx_main_v55 (ix2 r (0 : Fin 1)) = ix1 r := by
  funext a; match a with | ⟨0, _⟩ => rfl

/-- Two [2048, 1] columns joined along the second axis: column 0 is the first … -/
theorem concat_left (a b : S2048x1.Idx → BitVec 32) (r : Fin 2048) :
    concatenate S2048x2 1 [⟨S2048x1, a⟩, ⟨S2048x1, b⟩] Facts₀.concatenates_S2048x1_S2048x1_S2048x2_d1 (ix2 r (0 : Fin 2))
      = a (ix2 r (0 : Fin 1)) :=
  concatenate_pair_apply_left (1 : Fin 2) a b Facts₀.concatenates_S2048x1_S2048x1_S2048x2_d1 (ix2 r (0 : Fin 2)) rfl
    (ix2 r (0 : Fin 1)) (fun c => match c with | ⟨0, _⟩ => rfl | ⟨1, _⟩ => rfl)

/-- … and column 1 the second. -/
theorem concat_right (a b : S2048x1.Idx → BitVec 32) (r : Fin 2048) :
    concatenate S2048x2 1 [⟨S2048x1, a⟩, ⟨S2048x1, b⟩] Facts₀.concatenates_S2048x1_S2048x1_S2048x2_d1 (ix2 r (1 : Fin 2))
      = b (ix2 r (0 : Fin 1)) :=
  concatenate_pair_apply_right (1 : Fin 2) a b Facts₀.concatenates_S2048x1_S2048x1_S2048x2_d1 (ix2 r (1 : Fin 2)) rfl rfl
    (ix2 r (0 : Fin 1)) (fun c hc => match c, hc with | ⟨0, _⟩, _ => rfl | ⟨1, _⟩, hc => absurd rfl hc) rfl

/-- The gather's pairs: (r, label r). -/
theorem v25_at0 (x1 : (⟨S2048, .i32⟩ : BufTy).Contents (Elt Ideal)) (r : Fin 2048) :
    val_main_v25 (F := Ideal) x1 (ix2 r (0 : Fin 2)) = BitVec.ofNat 32 r.val := by
  unfold val_main_v25
  rw [concat_left, val_main_v23_apply, idx_v23_at, v17_at]
theorem v25_at1 (x1 : (⟨S2048, .i32⟩ : BufTy).Contents (Elt Ideal)) (r : Fin 2048) (h : (x1 (ix1 r)).toNat < 2 ^ 31) :
    val_main_v25 (F := Ideal) x1 (ix2 r (1 : Fin 2)) = x1 (ix1 r) := by
  unfold val_main_v25
  rw [concat_right, val_main_v24_apply, idx_v24_at, v22_at x1 r h]

/-- The scatter's pairs: (r, label r). -/
theorem v56_at0 (x1 : (⟨S2048, .i32⟩ : BufTy).Contents (Elt Ideal)) (r : Fin 2048) :
    val_main_v56 (F := Ideal) x1 (ix2 r (0 : Fin 2)) = BitVec.ofNat 32 r.val := by
  unfold val_main_v56
  rw [concat_left, val_main_v54_apply, idx_v54_at, v48_at]
theorem v56_at1 (x1 : (⟨S2048, .i32⟩ : BufTy).Contents (Elt Ideal)) (r : Fin 2048) (h : (x1 (ix1 r)).toNat < 2 ^ 31) :
    val_main_v56 (F := Ideal) x1 (ix2 r (1 : Fin 2)) = x1 (ix1 r) := by
  unfold val_main_v56
  rw [concat_right, val_main_v55_apply, idx_v55_at, v53_at x1 r h]

/-! ## The margin -/

/-- The margin stage is the specification's phi of the gathered cosine, operation for operation. -/
theorem v43_at (x0 : (⟨S2048x512, .f32⟩ : BufTy).Contents (Elt Ideal)) (x1 : (⟨S2048, .i32⟩ : BufTy).Contents (Elt Ideal)) (x2 : (⟨S50000x512, .f32⟩ : BufTy).Contents (Elt Ideal))
    (i : S2048.Idx) :
    val_main_v43 (F := Ideal) x0 x1 x2 i = Cert.Spec.phi (val_main_v26 (F := Ideal) x0 x1 x2 i) := by
  rw [val_main_v43_apply, val_main_v40_apply, val_main_v38_apply, val_main_v37_apply, val_main_cst_9_apply, val_main_v39_apply,
    val_main_cst_10_apply, val_main_v36_apply, val_main_v33_apply, val_main_v32_apply, val_main_cst_7_apply, val_main_v35_apply,
    val_main_v34_apply, val_main_cst_8_apply, val_main_v31_apply, val_main_v30_apply, val_main_call2_v4_apply, val_main_call2_v3_apply,
    val_main_cst_6_apply, val_main_call2_v2_apply, val_main_call2_v1_apply, val_main_call2_v0_apply, val_main_cst_5_apply,
    val_main_v29_apply, val_main_v28_apply, val_main_cst_4_apply, val_main_v27_apply, val_main_v42_apply, val_main_v41_apply,
    val_main_cst_11_apply]
  generalize val_main_v26 (F := Ideal) x0 x1 x2 i = ct
  rfl

/-! ## The gather and the scatter at the pairs -/

/-- The gathered cosine: the label's cosine of row r. -/
theorem v26_at (x0 : (⟨S2048x512, .f32⟩ : BufTy).Contents (Elt Ideal)) (x1 : (⟨S2048, .i32⟩ : BufTy).Contents (Elt Ideal)) (x2 : (⟨S50000x512, .f32⟩ : BufTy).Contents (Elt Ideal))
    (r : Fin 2048) (hl : (x1 (ix1 r)).toNat < 50000) :
    val_main_v26 (F := Ideal) x0 x1 x2 (ix1 r) = val_main_v11 (F := Ideal) x0 x2 (ix2 r ⟨(x1 (ix1 r)).toNat, hl⟩) := by
  unfold val_main_v26
  generalize val_main_v11 (F := Ideal) x0 x2 = X
  exact Cert.LibPoint.gather_point_of_lt gather_S2048x50000_S2048x2_S2048_n_01_n_n_01_1_11 rfl rfl rfl rfl X
    (val_main_v25 (F := Ideal) x1) r r ⟨(x1 (ix1 r)).toNat, hl⟩
    (by rw [v25_at0]; exact toInt_ofNat_small r.val (by have := r.isLt; omega))
    (by rw [v25_at1 x1 r (by omega)]; exact toInt_eq_toNat_of_lt (by omega))

/-- The scattered matrix: the margin value at (r, label r), the cosine elsewhere. -/
theorem v57_at (x0 : (⟨S2048x512, .f32⟩ : BufTy).Contents (Elt Ideal)) (x1 : (⟨S2048, .i32⟩ : BufTy).Contents (Elt Ideal)) (x2 : (⟨S50000x512, .f32⟩ : BufTy).Contents (Elt Ideal))
    (hl : ∀ r : Fin 2048, (x1 (ix1 r)).toNat < 50000) (i : Fin 2048) (j : Fin 50000) :
    val_main_v57 (F := Ideal) x0 x1 x2 (ix2 i j)
      = if j.val = (x1 (ix1 i)).toNat then val_main_v43 (F := Ideal) x0 x1 x2 (ix1 i) else val_main_v11 (F := Ideal) x0 x2 (ix2 i j) := by
  unfold val_main_v57
  generalize val_main_v11 (F := Ideal) x0 x2 = X
  generalize val_main_v43 (F := Ideal) x0 x1 x2 = P
  have hres : ∀ r : Fin 2048, (Cert.LibScatter.pointDims 2048 50000 2048 Facts₀.scatter_S2048x50000_S2048x2_S2048_n_01_01_1_wf).resultIdx? (ix1 r) (val_main_v56 (F := Ideal) x1)
      = some (ix2 r ⟨(x1 (ix1 r)).toNat, hl r⟩) := fun r =>
    Cert.LibScatter.pointDims_resultIdx _ _ r r ⟨_, hl r⟩
      (by rw [v56_at0]; exact toInt_ofNat_small r.val (by have := r.isLt; omega))
      (by rw [v56_at1 x1 r (by have := hl r; omega)]; exact toInt_eq_toNat_of_lt (by have := hl r; omega))
  show Host.scatter (Cert.LibScatter.pointDims 2048 50000 2048 Facts₀.scatter_S2048x50000_S2048x2_S2048_n_01_01_1_wf) (fun _ b => b) X
    (val_main_v56 (F := Ideal) x1) P (ix2 i j) = _
  by_cases h : j.val = (x1 (ix1 i)).toNat
  · rw [if_pos h]
    have hj : j = ⟨(x1 (ix1 i)).toNat, hl i⟩ := Fin.ext h
    refine Cert.LibScatter.scatter_apply_of_unique _ _ X _ P (ix2 i j) (ix1 i) (by rw [hres i, hj]) (fun j' hj' => ?_)
    obtain ⟨r, rfl⟩ : ∃ r : Fin 2048, j' = ix1 r := ⟨j' 0, eq_ix1 j'⟩
    rw [hres] at hj'
    have e := Option.some.inj hj'
    have e0 : r = i := congrFun e 0
    rw [e0]
  · rw [if_neg h]
    refine Cert.LibScatter.scatter_apply_of_miss _ _ X _ P (ix2 i j) (fun j' hj' => ?_)
    obtain ⟨r, rfl⟩ : ∃ r : Fin 2048, j' = ix1 r := ⟨j' 0, eq_ix1 j'⟩
    rw [hres] at hj'
    have e := Option.some.inj hj'
    have e0 : r = i := congrFun e 0
    have e1 : (⟨(x1 (ix1 r)).toNat, hl r⟩ : Fin 50000) = j := congrFun e 1
    apply h; rw [← e1, e0]

/-- The reference's first result is the specification's. -/
theorem out_ref (x0 : (⟨S2048x512, .f32⟩ : BufTy).Contents (Elt Ideal)) (x1 : (⟨S2048, .i32⟩ : BufTy).Contents (Elt Ideal)) (x2 : (⟨S50000x512, .f32⟩ : BufTy).Contents (Elt Ideal))
    (hx : Cert.Spec.IsReal (Cert.Spec.xOf x0)) (hw : Cert.Spec.IsReal (Cert.Spec.wOf x2)) (hl : ∀ i, Cert.Spec.labOf x1 i < 50000) :
    val_main_v59 (F := Ideal) x0 x1 x2 = Cert.Spec.outArr (Cert.Spec.xOf x0) (Cert.Spec.wOf x2) (Cert.Spec.labOf x1) := by
  have hl' : ∀ r : Fin 2048, (x1 (ix1 r)).toNat < 50000 := hl
  funext idx
  obtain ⟨i, j, rfl⟩ : ∃ (i : Fin 2048) (j : Fin 50000), idx = ix2 i j := ⟨idx 0, idx 1, eq_ix2 idx⟩
  rw [val_main_v59_apply, val_main_v58_apply, val_main_cst_16_apply, v57_at x0 x1 x2 hl' i j, v43_at,
    v26_at x0 x1 x2 i (hl' i), cos_ref x0 x2 hx hw i j, cos_ref x0 x2 hx hw i ⟨(x1 (ix1 i)).toNat, hl' i⟩]
  show Ideal.ofBits .f32 0x41700000#32 * _ = Ideal.ofBits .f32 0x41700000#32 * (if (j : ℕ) = (x1 (ix1 i)).toNat then _ else _)
  by_cases h : j.val = (x1 (ix1 i)).toNat
  · have hj : (⟨(x1 (ix1 i)).toNat, hl' i⟩ : Fin 50000) = j := Fin.ext h.symm
    rw [if_pos h, if_pos h, hj]
  · rw [if_neg h, if_neg h]

end Cert.RefSide

end
-- ==== Proof.RefLoss.lean ====
/-
  The reference's second result: minus the mean of the rows' log-softmax read at the labels.

  The log-softmax of the first result is read stage by stage at a row and a column: the row's maximum (a fold of
  max from −∞, the row's supremum), the shifted row, the sum of its exponentials, the logarithm, the difference.
  The pairs (row, label) then pick one entry per row (labels in range are read as they are), the entries are summed
  from zero, divided by 2048 and negated.
-/
import proofs.«416711_j88845693485822_2_alg».proof.Proof.RefRead
import proofs.«416711_j88845693485822_2_alg».proof.Proof.Spec
import proofs.«416711_j88845693485822_2_alg».proof.Proof.RefOut
import proofs.«416711_j88845693485822_2_alg».proof.Proof.LibPoint
import Idealize.ShloMosaic.Lib.ValueIdxRank1
import Idealize.ShloMosaic.Lib.StableHlo.Predicate

noncomputable section

namespace Cert.RefSide

open Cert.ReferenceIdeal Cert.ReferenceIdeal.Gen Cert.ReferenceIdeal.Read Idealize.ShloMosaic Idealize.ShloMosaic.ValueIdx
open Idealize.ShloMosaic.StableHlo.Predicate

namespace Loss

/-- The single-precision pattern of −∞ is the bottom of the extended reals. -/
theorem neg_inf_f32 : Ideal.ofBits .f32 0xFF800000#32 = (⊥ : EReal) := by simp [Ideal.ofBits, Ideal.ieee]

/-- A fold of `max` from `⊥` over a finite set is the set's supremum. -/
theorem fold_max_bot {ι : Type} (s : Finset ι) (f : ι → EReal) : s.fold max ⊥ f = s.sup f := by
  classical
  induction s using Finset.induction_on with
  | empty => simp
  | insert a s ha ih => rw [Finset.fold_insert ha, Finset.sup_insert, ih]

section Stages

variable (x0 : (⟨S2048x512, .f32⟩ : BufTy).Contents (Elt Ideal)) (x1 : (⟨S2048, .i32⟩ : BufTy).Contents (Elt Ideal))
  (x2 : (⟨S50000x512, .f32⟩ : BufTy).Contents (Elt Ideal))
  (o : FVec Ideal S2048x50000 .f32) (ho : val_main_v59 (F := Ideal) x0 x1 x2 = o)

include ho

/-- The row maximum: the reduction by `max` from −∞ along a row is the row's supremum. -/
theorem rowMax_apply (i : Fin 2048) :
    val_main_call4_v0 (F := Ideal) x0 x1 x2 (ix1 i) = Finset.univ.sup (fun j : Fin 50000 => o (ix2 i j)) := by
  unfold val_main_call4_v0
  rw [ho, Host.reduce_eq_fold_single (a := (1 : Fin 2)) FloatOps.maximumf o _ reducesTo_S2048x50000_S2048_d1 (by decide) h_S_ (ix1 i),
    val_main_call4_cst_apply]
  show (Finset.univ : Finset (Fin 50000)).fold max (Ideal.ofBits .f32 0xFF800000#32) _ = _
  rw [neg_inf_f32, ← fold_max_bot]
  refine congrArg (fun f => Finset.fold max ⊥ f Finset.univ) (funext fun k => ?_)
  exact congrArg o (funext fun a => Fin.ext (by match a with | ⟨0, _⟩ => rfl | ⟨1, _⟩ => rfl))

/-- The shift broadcast over the row: the row's supremum at every column. -/
theorem shift_apply (i : Fin 2048) (j : Fin 50000) :
    val_main_call4_v4 (F := Ideal) x0 x1 x2 (ix2 i j) = Finset.univ.sup (fun j' : Fin 50000 => o (ix2 i j')) := by
  rw [val_main_call4_v4_apply, val_main_call4_v3_apply, val_main_call4_v2_apply, val_main_call4_v1_apply, val_main_call4_cst_0_apply]
  have e : idx_main_call4_v3 (idx_main_call4_v4 (ix2 i j)) = ix1 i := by
    funext a; match a with | ⟨0, _⟩ => rfl
  rw [e, rowMax_apply x0 x1 x2 o ho i]
  show max (Ideal.ofBits .f32 0xFF800000#32) _ = _
  rw [neg_inf_f32]
  exact max_bot_left _

/-- The shifted row. -/
theorem shifted_apply (i : Fin 2048) (j : Fin 50000) :
    val_main_call4_v5 (F := Ideal) x0 x1 x2 (ix2 i j) = o (ix2 i j) - Finset.univ.sup (fun j' : Fin 50000 => o (ix2 i j')) := by
  rw [val_main_call4_v5_apply, shift_apply x0 x1 x2 o ho i j, ho, Ideal.subf_def]

/-- The sum of the shifted row's exponentials. -/
theorem expSum_apply (i : Fin 2048) :
    val_main_call4_v7 (F := Ideal) x0 x1 x2 (ix1 i)
      = ∑ j' : Fin 50000, Ideal.exp (o (ix2 i j') - Finset.univ.sup (fun j'' : Fin 50000 => o (ix2 i j''))) := by
  rw [val_main_call4_v7_apply, val_main_call4_cst_1_apply]
  show Ideal.ofBits .f32 0x00000000#32 + _ = _
  rw [Ideal.ofBits_zero_f32, zero_add]
  refine Finset.sum_congr rfl fun k _ => ?_
  rw [val_main_call4_v6_apply]
  have e : idx_main_call4_v7 (ix1 i) k = ix2 i k := by
    funext a; match a with | ⟨0, _⟩ => rfl | ⟨1, _⟩ => rfl
  rw [e, shifted_apply x0 x1 x2 o ho i k, Ideal.hostUnary_exp_def]

/-- The log-softmax call's result at row `i`, column `j`. -/
theorem logSoftmax_apply (i : Fin 2048) (j : Fin 50000) :
    val_main_v60 (F := Ideal) x0 x1 x2 (ix2 i j) = Cert.Spec.logSoftmax (fun j' : Fin 50000 => o (ix2 i j')) j := by
  rw [val_main_v60_apply, shifted_apply x0 x1 x2 o ho i j, val_main_call4_v10_apply, val_main_call4_v9_apply, val_main_call4_v8_apply]
  have e : idx_main_call4_v8 (idx_main_call4_v10 (ix2 i j)) = ix1 i := by
    funext a; match a with | ⟨0, _⟩ => rfl
  rw [e, expSum_apply x0 x1 x2 o ho i]
  unfold Cert.Spec.logSoftmax
  rw [Ideal.subf_def, Ideal.hostUnary_log_def]

end Stages

/-! The index pairs: row `i` pairs the row's number with the row's label. -/

/-- A small word is not negative. -/
theorem slt_zero_of_small (a : BitVec 32) (h : a.toNat < 2 ^ 31) : IntOp.cmpi .slt a 0#32 = 0#1 :=
  eq_zero_of_ne_one fun h1 => by
    have := (slt_iff_toNat h (by decide)).1 h1
    simp at this

/-- The first component of pair `i` is the word `i`. -/
theorem pair_fst (x1 : (⟨S2048, .i32⟩ : BufTy).Contents (Elt Ideal)) (i : Fin 2048) :
    val_main_v73 (F := Ideal) x1 (ix2 i (0 : Fin 2)) = BitVec.ofNat 32 i.val := by
  unfold val_main_v73
  rw [concatenate_pair_apply_left (t := S2048x2) (s₁ := S2048x1) (s₂ := S2048x1) (1 : Fin 2) _ _ concatenates_S2048x1_S2048x1_S2048x2_d1 (ix2 i (0 : Fin 2)) rfl (ix2 i (0 : Fin 1))
    (fun b => by match b with | ⟨0, _⟩ => rfl | ⟨1, _⟩ => rfl)]
  rw [val_main_v71_apply, val_main_v65_apply, val_main_v62_apply, val_main_v12_apply, val_main_v61_apply, val_main_c_17_apply]
  show Scalar.select (IntOp.cmpi .slt (BitVec.ofNat 32 i.val) 0#32) _ (BitVec.ofNat 32 i.val) = _
  rw [slt_zero_of_small _ (by rw [BitVec.toNat_ofNat]; have := i.isLt; omega), select_zero]

/-- The second component of pair `i` is row `i`'s label, when the label is not negative. -/
theorem pair_snd (x1 : (⟨S2048, .i32⟩ : BufTy).Contents (Elt Ideal)) (i : Fin 2048) (h : (x1 (ix1 i)).toNat < 2 ^ 31) :
    val_main_v73 (F := Ideal) x1 (ix2 i (1 : Fin 2)) = x1 (ix1 i) := by
  unfold val_main_v73
  rw [concatenate_pair_apply_right (t := S2048x2) (s₁ := S2048x1) (s₂ := S2048x1) (1 : Fin 2) _ _ concatenates_S2048x1_S2048x1_S2048x2_d1 (ix2 i (1 : Fin 2)) rfl rfl (ix2 i (0 : Fin 1))
    (fun b hb => by match b with | ⟨0, _⟩ => rfl | ⟨1, _⟩ => exact absurd rfl hb) rfl]
  rw [val_main_v72_apply, val_main_v70_apply, val_main_v67_apply, val_main_v66_apply, val_main_c_19_apply]
  have e : idx_main_v72 (ix2 i (0 : Fin 1)) = ix1 i := by
    funext a; match a with | ⟨0, _⟩ => rfl
  rw [e, slt_zero_of_small _ h, select_zero]

/-- The gathered entry of row `i`: the log-softmax at the row's label. -/
theorem gathered_apply (x0 : (⟨S2048x512, .f32⟩ : BufTy).Contents (Elt Ideal)) (x1 : (⟨S2048, .i32⟩ : BufTy).Contents (Elt Ideal))
    (x2 : (⟨S50000x512, .f32⟩ : BufTy).Contents (Elt Ideal)) (hl : ∀ i, Cert.Spec.labOf x1 i < 50000) (i : Fin 2048) :
    val_main_v74 (F := Ideal) x0 x1 x2 (ix1 i) = val_main_v60 (F := Ideal) x0 x1 x2 (ix2 i ⟨Cert.Spec.labOf x1 i, hl i⟩) := by
  have hs : (x1 (ix1 i)).toNat < 50000 := hl i
  unfold val_main_v74
  refine Cert.LibPoint.gather_point_of_lt gather_S2048x50000_S2048x2_S2048_n_01_n_n_01_1_11 rfl rfl rfl rfl
    (val_main_v60 (F := Ideal) x0 x1 x2) (val_main_v73 (F := Ideal) x1) i i ⟨Cert.Spec.labOf x1 i, hl i⟩ ?_ ?_
  · rw [pair_fst x1 i, BitVec.toInt_eq_toNat_of_lt (by rw [BitVec.toNat_ofNat]; have := i.isLt; omega), BitVec.toNat_ofNat]
    have := i.isLt
    congr 1; omega
  · rw [pair_snd x1 i (by omega), BitVec.toInt_eq_toNat_of_lt (by omega)]
    rfl

/-- The reference's second result, given its first. -/
theorem loss_of_out (x0 : (⟨S2048x512, .f32⟩ : BufTy).Contents (Elt Ideal)) (x1 : (⟨S2048, .i32⟩ : BufTy).Contents (Elt Ideal))
    (x2 : (⟨S50000x512, .f32⟩ : BufTy).Contents (Elt Ideal)) (hl : ∀ i, Cert.Spec.labOf x1 i < 50000)
    (ho : val_main_v59 (F := Ideal) x0 x1 x2 = Cert.Spec.outArr (Cert.Spec.xOf x0) (Cert.Spec.wOf x2) (Cert.Spec.labOf x1)) :
    val_main_v77 (F := Ideal) x0 x1 x2 = Cert.Spec.lossArr (Cert.Spec.xOf x0) (Cert.Spec.wOf x2) (Cert.Spec.labOf x1) := by
  funext u
  rw [val_main_v77_apply, val_main_v76_apply, val_main_v75_apply, val_main_cst_21_apply, val_main_cst_22_apply]
  show -(Ideal.div (Ideal.ofBits .f32 0x00000000#32 + ∑ j : S2048.Idx, val_main_v74 (F := Ideal) x0 x1 x2 j) (Ideal.ofBits .f32 0x45000000#32))
    = Cert.Spec.loss (Cert.Spec.xOf x0) (Cert.Spec.wOf x2) (Cert.Spec.labOf x1)
  unfold Cert.Spec.loss
  rw [Ideal.ofBits_zero_f32, zero_add, ← Equiv.sum_comp (idxEquiv1 (n := 2048)).symm]
  refine congrArg (fun s => -(Ideal.div s (Ideal.ofBits .f32 0x45000000#32))) (Finset.sum_congr rfl fun i _ => ?_)
  show val_main_v74 (F := Ideal) x0 x1 x2 (ix1 i) = _
  rw [gathered_apply x0 x1 x2 hl i, logSoftmax_apply x0 x1 x2 _ ho i]
  unfold Cert.Spec.atLabel
  rw [dif_pos (hl i)]
  rfl

end Loss

/-- The reference's second result is the specification's loss. -/
theorem loss_ref (x0 : (⟨S2048x512, .f32⟩ : BufTy).Contents (Elt Ideal)) (x1 : (⟨S2048, .i32⟩ : BufTy).Contents (Elt Ideal)) (x2 : (⟨S50000x512, .f32⟩ : BufTy).Contents (Elt Ideal))
    (hx : Cert.Spec.IsReal (Cert.Spec.xOf x0)) (hw : Cert.Spec.IsReal (Cert.Spec.wOf x2)) (hl : ∀ i, Cert.Spec.labOf x1 i < 50000) :
    val_main_v77 (F := Ideal) x0 x1 x2 = Cert.Spec.lossArr (Cert.Spec.xOf x0) (Cert.Spec.wOf x2) (Cert.Spec.labOf x1) :=
  Loss.loss_of_out x0 x1 x2 hl (out_ref x0 x1 x2 hx hw hl)

end Cert.RefSide

end
-- ==== Proof.PreFacts.lean ====
/-
  Every entry of the two float arrays is a real, and every label names a column.

  The predicate is a conjunction of four universal statements, each an "and" over all the entries of an array of
  comparison words: |x| < +∞ at every entry of x, the same of w, 0 ≤ label and label < 50000 (both read signed) at every
  label. An extended real whose absolute value is below +∞ is neither infinity, hence a real; a word that reads
  signed in [0, 50000) reads unsigned below 50000.
-/
import proofs.«416711_j88845693485822_2_alg».proof.Pre_finite_inputs
import proofs.«416711_j88845693485822_2_alg».proof.Proof.Spec
import Idealize.ShloMosaic.Lib.ReduceAll

noncomputable section

namespace Cert.PreFacts

open Idealize.ShloMosaic

/-- The scalar shape has one index. -/
instance : Subsingleton Cert.Pre_finite_inputs.S_.Idx := ⟨fun a b => funext fun d => d.elim0⟩

/-- An extended real whose absolute value compares below the pattern of +∞ is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

/-- A word that reads signed in [0, 50000) reads unsigned below 50000. -/
theorem toNat_lt (l : BitVec 32) (h0 : IntOp.cmpi .sge l 0#32 = 1#1) (h1 : IntOp.cmpi .slt l 50000#32 = 1#1) :
    l.toNat < 50000 := by
  rw [IntOp.cmpi_sge, show (0#32 : BitVec 32).toInt = 0 from by decide] at h0
  rw [IntOp.cmpi_slt, show (50000#32 : BitVec 32).toInt = 50000 from by decide] at h1
  have hm : 2 * l.toNat < 2 ^ 32 := BitVec.toInt_pos_iff.1 h0
  rw [BitVec.toInt_eq_toNat_of_lt hm] at h1
  omega

/-- Where the predicate holds, the entries of both float arrays are reals and every label is below 50000. -/
theorem of_pre [Cert.Pre_finite_inputs.Facts]
    (X : FVec Ideal Cert.Pre_finite_inputs.S2048x512 .f32) (L : IVec Cert.Pre_finite_inputs.S2048 32) (W : FVec Ideal Cert.Pre_finite_inputs.S50000x512 .f32)
    (h : Cert.Pre_finite_inputs.fn (F := Ideal) X L W = fun _ => 1#1) :
    Cert.Spec.IsReal (Cert.Spec.xOf X) ∧ Cert.Spec.IsReal (Cert.Spec.wOf W) ∧ ∀ i, Cert.Spec.labOf L i < 50000 := by
  have e := congrFun h ValueIdx.ix0
  dsimp only [Cert.Pre_finite_inputs.fn, Cert.Pre_finite_inputs.fn_part1] at e
  change IntOp.andi (IntOp.andi (IntOp.andi _ _) _) _ = 1#1 at e
  rw [IntOp.andi_eq_one, IntOp.andi_eq_one, IntOp.andi_eq_one] at e
  obtain ⟨⟨⟨hx, hw⟩, hl0⟩, hl1⟩ := e
  refine ⟨fun a b => ?_, fun a b => ?_, fun i => ?_⟩
  · exact real_of_abs_lt _ (Host.reduce_andi_all _ _ _ _ _ hx (ValueIdx.ix2 a b))
  · exact real_of_abs_lt _ (Host.reduce_andi_all _ _ _ _ _ hw (ValueIdx.ix2 a b))
  · exact toNat_lt _ (Host.reduce_andi_all _ _ _ _ _ hl0 (ValueIdx.ix1 i))
      (Host.reduce_andi_all _ _ _ _ _ hl1 (ValueIdx.ix1 i))

end Cert.PreFacts

end
-- ==== Proof.Claims.lean ====
/-
  The five claims from their parts. The word-level program's frame says nothing of values. Under the precondition
  every entry of `x` and `w` is a real and every label names a class; then the idealized kernel's program ends with the
  scaled cosines carrying the margin at the labels, and with the streamed loss, which is the loss; the reference's
  program ends with its stages' values, which are the same two arrays: the cosines because dividing a real row by
  max (√s) e is multiplying it by the reciprocal root of max s e², the loss because both are minus the mean of the
  rows' log-softmax at the labels. The three named constants denote the values the table gives them.
-/
import proofs.«416711_j88845693485822_2_alg».proof.Defs
import proofs.«416711_j88845693485822_2_alg».proof.Proof.Gen.Kernel
import proofs.«416711_j88845693485822_2_alg».proof.Proof.Gen.KernelIdeal
import proofs.«416711_j88845693485822_2_alg».proof.Proof.Gen.ReferenceIdeal
import proofs.«416711_j88845693485822_2_alg».proof.Proof.Gen.Pre_finite_inputs
import proofs.«416711_j88845693485822_2_alg».proof.Proof.KFrame
import proofs.«416711_j88845693485822_2_alg».proof.Proof.KIFinal
import proofs.«416711_j88845693485822_2_alg».proof.Proof.RefStages
import proofs.«416711_j88845693485822_2_alg».proof.Proof.RefLoss
import proofs.«416711_j88845693485822_2_alg».proof.Proof.PreFacts

noncomputable section

namespace Cert.Proof.Claims

open Idealize.ShloMosaic Idealize.ShloMosaic.TcCoe Idealize.SL.Sem

attribute [local instance] Cert.Kernel.Gen.facts Cert.KernelIdeal.Gen.facts Cert.ReferenceIdeal.Gen.facts Cert.Pre_finite_inputs.Gen.facts

/-- The word-level program's frame. -/
theorem frame_k : Cert.frame_Kernel := fun m ρ _ => Cert.Kernel.Body.frame (F := Bits) m ρ

/-- The precondition's facts about the idealized kernel's arguments. -/
theorem hyp_of_pre (m : (ℓ : Loc Cert.KernelIdeal.nD Cert.KernelIdeal.τ Cert.KernelIdeal.sig) → Buf (Elt Ideal) ℓ)
    (h : Cert.Pre_KernelIdeal m) : Cert.KernelIdeal.Body.Hyp m := fun c =>
  Cert.PreFacts.of_pre _ _ _ (h c)

/-- The idealized kernel's frame: its run with the results dropped. -/
theorem frame_ki : Cert.frame_KernelIdeal := fun m ρ h =>
  (θ_run Cert.KernelIdeal.defs _ _).mono (fun _ hr c => (hr c).2.2) (Cert.KernelIdeal.Body.kernel_run m ρ (hyp_of_pre m h))

/-- The reference's frame: its run with the results dropped. -/
theorem frame_ri : Cert.frame_ReferenceIdeal := fun m ρ _ =>
  (θ_run Cert.ReferenceIdeal.defs _ _).mono (fun _ hr c => (hr c).2.2) (Cert.RefSide.run_stages (F := Ideal) m ρ)

/-- The three named constants denote the table's values: the clamp (twice) and the fill. -/
theorem preserves : Cert.preserves_Kernel_KernelIdeal :=
  ⟨IdealRules.named_const.statement Cert.KernelIdeal.κ "eps_sq" .f32 0x179ABE15#32 ((5316911940649 / 5316911983139663491615228241121378304 : ℝ) : EReal) rfl,
   IdealRules.named_const.statement Cert.KernelIdeal.κ "eps_sq" .f32 0x179ABE15#32 ((5316911940649 / 5316911983139663491615228241121378304 : ℝ) : EReal) rfl,
   IdealRules.named_const.statement Cert.KernelIdeal.κ "neg_fill" .f32 0xFF333332#32 ⊥ rfl⟩

/-- Both programs end with the specification's two arrays of arguments that agree. -/
theorem algebraic : Cert.algebraic_KernelIdeal_ReferenceIdeal := by
  intro m ρ m' ρ' hpre hagree
  have hH := hyp_of_pre m hpre
  refine ⟨fun c => Cert.Spec.outArr (Cert.KernelIdeal.Body.xRows m c) (Cert.KernelIdeal.Body.wRows m c) (Cert.KernelIdeal.Body.labs m c),
    fun c => Cert.Spec.lossArr (Cert.KernelIdeal.Body.xRows m c) (Cert.KernelIdeal.Body.wRows m c) (Cert.KernelIdeal.Body.labs m c),
    Cert.KernelIdeal.Body.kernel_run m ρ hH, ?_⟩
  refine (θ_run Cert.ReferenceIdeal.defs _ _).mono (fun _ hr c => ?_) (Cert.RefSide.run_stages (F := Ideal) m' ρ')
  obtain ⟨h59, h77, ha0, ha1, ha2⟩ := hr c
  refine ⟨?_, ?_, ha0, ha1, ha2⟩
  · rw [h59, (hagree c).1, (hagree c).2.1, (hagree c).2.2]
    exact Cert.RefSide.out_ref _ _ _ (hH c).1 (hH c).2.1 (hH c).2.2
  · rw [h77, (hagree c).1, (hagree c).2.1, (hagree c).2.2]
    exact Cert.RefSide.loss_ref _ _ _ (hH c).1 (hH c).2.1 (hH c).2.2

end Cert.Proof.Claims

end
-- ==== Proof.lean ====
/-
  The certificate's claim: the word-level kernel's frame, the idealized kernel's and the reference's frames, the
  three named constants' values, and the equality of the two idealized programs' results over the extended reals —
  each proved in Proof/Claims.lean from the modules beside it.
-/
import proofs.«416711_j88845693485822_2_alg».proof.Defs
import proofs.«416711_j88845693485822_2_alg».proof.Proof.Gen.Kernel
import proofs.«416711_j88845693485822_2_alg».proof.Proof.Gen.KernelIdeal
import proofs.«416711_j88845693485822_2_alg».proof.Proof.Gen.ReferenceIdeal
import proofs.«416711_j88845693485822_2_alg».proof.Proof.Gen.Pre_finite_inputs
import proofs.«416711_j88845693485822_2_alg».proof.Proof.Claims

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
